-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x160 : Shape := ⟨2, ![1024, 160]⟩
abbrev S640x160 : Shape := ⟨2, ![640, 160]⟩
abbrev S160 : Shape := ⟨1, ![160]⟩
abbrev S4x200 : Shape := ⟨2, ![4, 200]⟩
abbrev S_ : Shape := ⟨0, ![]⟩
abbrev S4x200x1 : Shape := ⟨3, ![4, 200, 1]⟩
abbrev S4x1x200 : Shape := ⟨3, ![4, 1, 200]⟩
abbrev S4x200x200 : Shape := ⟨3, ![4, 200, 200]⟩

class Facts : Prop where
  bcast_S_S1024x160 : S_.BroadcastsInDim S1024x160 (![] : Fin 0 → Fin S1024x160.rank)
  reducesTo_S1024x160_S_d0_1 : S1024x160.ReducesTo [0, 1] S_
  h_S_ : 0 < S_.numel
  bcast_S_S640x160 : S_.BroadcastsInDim S640x160 (![] : Fin 0 → Fin S640x160.rank)
  reducesTo_S640x160_S_d0_1 : S640x160.ReducesTo [0, 1] S_
  bcast_S_S160 : S_.BroadcastsInDim S160 (![] : Fin 0 → Fin S160.rank)
  reducesTo_S160_S_d0 : S160.ReducesTo [0] S_
  bcast_S4x200_S4x200x1_0_1 : S4x200.BroadcastsInDim S4x200x1 (![0, 1] : Fin 2 → Fin S4x200x1.rank)
  bcast_S4x200_S4x1x200_0_2 : S4x200.BroadcastsInDim S4x1x200 (![0, 2] : Fin 2 → Fin S4x1x200.rank)
  bcast_S4x200x1_S4x200x200_0_1_2 : S4x200x1.BroadcastsInDim S4x200x200 (![0, 1, 2] : Fin 3 → Fin S4x200x200.rank)
  bcast_S4x1x200_S4x200x200_0_1_2 : S4x1x200.BroadcastsInDim S4x200x200 (![0, 1, 2] : Fin 3 → Fin S4x200x200.rank)
  bcast_S_S4x200x200 : S_.BroadcastsInDim S4x200x200 (![] : Fin 0 → Fin S4x200x200.rank)
  reducesTo_S4x200x200_S_d0_1_2 : S4x200x200.ReducesTo [0, 1, 2] S_

variable [Facts]

def fn_part4 {F : FTy → Type} [FloatOps F] (main_v61 : IVec S_ 1) (main_v71 : IVec S_ 1) : IVec S_ 1 :=
  let main_v72 : IVec S_ 1 := andi main_v61 main_v71
  main_v72

def fn_part3 {F : FTy → Type} [FloatOps F] (main_arg7 : IVec S4x200 32) (main_v50 : IVec S_ 1) (main_v52 : IVec S4x1x200 32) (main_v53 : IVec S4x200x200 32) : IVec S_ 1 :=
  let main_v54 : IVec S4x200x200 32 := broadcastInDim S4x200x200 ![0, 1, 2] bcast_S4x1x200_S4x200x200_0_1_2 main_v52
  let main_v55 : IVec S4x200x200 32 := subi main_v53 main_v54
  let main_c_16 : IVec S_ 32 := constantI S_ 32 512#32
  let main_v56 : IVec S4x200x200 32 := broadcastInDim S4x200x200 ![] bcast_S_S4x200x200 main_c_16
  let main_v57 : IVec S4x200x200 32 := addi main_v55 main_v56
  let main_c_17 : IVec S_ 32 := constantI S_ 32 0#32
  let main_v58 : IVec S4x200x200 32 := broadcastInDim S4x200x200 ![] bcast_S_S4x200x200 main_c_17
  let main_v59 : IVec S4x200x200 1 := cmpi .sge main_v57 main_v58
  let main_c_18 : IVec S_ 1 := constantI S_ 1 1#1
  let main_v60 : IVec S_ 1 := (fun x v => Host.reduce IntOp.andi x v reducesTo_S4x200x200_S_d0_1_2 h_S_) main_v59 main_c_18
  let main_v61 : IVec S_ 1 := andi main_v50 main_v60
  let main_v62 : IVec S4x200x1 32 := broadcastInDim S4x200x1 ![0, 1] bcast_S4x200_S4x200x1_0_1 main_arg7
  let main_v63 : IVec S4x1x200 32 := broadcastInDim S4x1x200 ![0, 2] bcast_S4x200_S4x1x200_0_2 main_arg7
  let main_v64 : IVec S4x200x200 32 := broadcastInDim S4x200x200 ![0, 1, 2] bcast_S4x200x1_S4x200x200_0_1_2 main_v62
  let main_v65 : IVec S4x200x200 32 := broadcastInDim S4x200x200 ![0, 1, 2] bcast_S4x1x200_S4x200x200_0_1_2 main_v63
  let main_v66 : IVec S4x200x200 32 := subi main_v64 main_v65
  let main_c_19 : IVec S_ 32 := constantI S_ 32 512#32
  let main_v67 : IVec S4x200x200 32 := broadcastInDim S4x200x200 ![] bcast_S_S4x200x200 main_c_19
  let main_v68 : IVec S4x200x200 32 := addi main_v66 main_v67
  let main_c_20 : IVec S_ 32 := constantI S_ 32 0#32
  let main_v69 : IVec S4x200x200 32 := broadcastInDim S4x200x200 ![] bcast_S_S4x200x200 main_c_20
  let main_v70 : IVec S4x200x200 1 := cmpi .sge main_v68 main_v69
  let main_c_21 : IVec S_ 1 := constantI S_ 1 1#1
  let main_v71 : IVec S_ 1 := (fun x v => Host.reduce IntOp.andi x v reducesTo_S4x200x200_S_d0_1_2 h_S_) main_v70 main_c_21
  fn_part4 (F := F) main_v61 main_v71

def fn_part2 {F : FTy → Type} [FloatOps F] (main_arg6 : IVec S4x200 32) (main_arg7 : IVec S4x200 32) (main_v28 : IVec S_ 1) (main_v33 : IVec S4x200x200 32) (main_v34 : IVec S4x200x200 32) : IVec S_ 1 :=
  let main_v35 : IVec S4x200x200 32 := addi main_v33 main_v34
  let main_c_11 : IVec S_ 32 := constantI S_ 32 0#32
  let main_v36 : IVec S4x200x200 32 := broadcastInDim S4x200x200 ![] bcast_S_S4x200x200 main_c_11
  let main_v37 : IVec S4x200x200 1 := cmpi .sge main_v35 main_v36
  let main_c_12 : IVec S_ 1 := constantI S_ 1 1#1
  let main_v38 : IVec S_ 1 := (fun x v => Host.reduce IntOp.andi x v reducesTo_S4x200x200_S_d0_1_2 h_S_) main_v37 main_c_12
  let main_v39 : IVec S_ 1 := andi main_v28 main_v38
  let main_v40 : IVec S4x200x1 32 := broadcastInDim S4x200x1 ![0, 1] bcast_S4x200_S4x200x1_0_1 main_arg6
  let main_v41 : IVec S4x1x200 32 := broadcastInDim S4x1x200 ![0, 2] bcast_S4x200_S4x1x200_0_2 main_arg7
  let main_v42 : IVec S4x200x200 32 := broadcastInDim S4x200x200 ![0, 1, 2] bcast_S4x200x1_S4x200x200_0_1_2 main_v40
  let main_v43 : IVec S4x200x200 32 := broadcastInDim S4x200x200 ![0, 1, 2] bcast_S4x1x200_S4x200x200_0_1_2 main_v41
  let main_v44 : IVec S4x200x200 32 := subi main_v42 main_v43
  let main_c_13 : IVec S_ 32 := constantI S_ 32 512#32
  let main_v45 : IVec S4x200x200 32 := broadcastInDim S4x200x200 ![] bcast_S_S4x200x200 main_c_13
  let main_v46 : IVec S4x200x200 32 := addi main_v44 main_v45
  let main_c_14 : IVec S_ 32 := constantI S_ 32 0#32
  let main_v47 : IVec S4x200x200 32 := broadcastInDim S4x200x200 ![] bcast_S_S4x200x200 main_c_14
  let main_v48 : IVec S4x200x200 1 := cmpi .sge main_v46 main_v47
  let main_c_15 : IVec S_ 1 := constantI S_ 1 1#1
  let main_v49 : IVec S_ 1 := (fun x v => Host.reduce IntOp.andi x v reducesTo_S4x200x200_S_d0_1_2 h_S_) main_v48 main_c_15
  let main_v50 : IVec S_ 1 := andi main_v39 main_v49
  let main_v51 : IVec S4x200x1 32 := broadcastInDim S4x200x1 ![0, 1] bcast_S4x200_S4x200x1_0_1 main_arg7
  let main_v52 : IVec S4x1x200 32 := broadcastInDim S4x1x200 ![0, 2] bcast_S4x200_S4x1x200_0_2 main_arg6
  let main_v53 : IVec S4x200x200 32 := broadcastInDim S4x200x200 ![0, 1, 2] bcast_S4x200x1_S4x200x200_0_1_2 main_v51
  fn_part3 (F := F) main_arg7 main_v50 main_v52 main_v53

def fn_part1 {F : FTy → Type} [FloatOps F] (main_arg4 : FVec F S640x160 .f32) (main_arg5 : FVec F S160 .f32) (main_arg6 : IVec S4x200 32) (main_arg7 : IVec S4x200 32) (main_v13 : IVec S_ 1) (main_v16 : IVec S1024x160 1) : IVec S_ 1 :=
  let main_c_5 : IVec S_ 1 := constantI S_ 1 1#1
  let main_v17 : IVec S_ 1 := (fun x v => Host.reduce IntOp.andi x v reducesTo_S1024x160_S_d0_1 h_S_) main_v16 main_c_5
  let main_v18 : IVec S_ 1 := andi main_v13 main_v17
  let main_v19 : FVec F S640x160 .f32 := Host.absf main_arg4
  let main_cst_6 : FVec F S_ .f32 := constant S_ .f32 0x7F800000#32
  let main_v20 : FVec F S640x160 .f32 := broadcastInDim S640x160 ![] bcast_S_S640x160 main_cst_6
  let main_v21 : IVec S640x160 1 := cmpf .olt main_v19 main_v20
  let main_c_7 : IVec S_ 1 := constantI S_ 1 1#1
  let main_v22 : IVec S_ 1 := (fun x v => Host.reduce IntOp.andi x v reducesTo_S640x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : IVec S4x200x1 32 := broadcastInDim S4x200x1 ![0, 1] bcast_S4x200_S4x200x1_0_1 main_arg6
  let main_v30 : IVec S4x1x200 32 := broadcastInDim S4x1x200 ![0, 2] bcast_S4x200_S4x1x200_0_2 main_arg6
  let main_v31 : IVec S4x200x200 32 := broadcastInDim S4x200x200 ![0, 1, 2] bcast_S4x200x1_S4x200x200_0_1_2 main_v29
  let main_v32 : IVec S4x200x200 32 := broadcastInDim S4x200x200 ![0, 1, 2] bcast_S4x1x200_S4x200x200_0_1_2 main_v30
  let main_v33 : IVec S4x200x200 32 := subi main_v31 main_v32
  let main_c_10 : IVec S_ 32 := constantI S_ 32 512#32
  let main_v34 : IVec S4x200x200 32 := broadcastInDim S4x200x200 ![] bcast_S_S4x200x200 main_c_10
  fn_part2 (F := F) main_arg6 main_arg7 main_v28 main_v33 main_v34

def fn {F : FTy → Type} [FloatOps F] (main_arg0 : FVec F S1024x160 .f32) (main_arg1 : FVec F S1024x160 .f32) (main_arg2 : FVec F S1024x160 .f32) (main_arg3 : FVec F S1024x160 .f32) (main_arg4 : FVec F S640x160 .f32) (main_arg5 : FVec F S160 .f32) (main_arg6 : IVec S4x200 32) (main_arg7 : IVec S4x200 32) : IVec S_ 1 :=
  let main_v0 : FVec F S1024x160 .f32 := Host.absf main_arg0
  let main_cst : FVec F S_ .f32 := constant S_ .f32 0x7F800000#32
  let main_v1 : FVec F S1024x160 .f32 := broadcastInDim S1024x160 ![] bcast_S_S1024x160 main_cst
  let main_v2 : IVec S1024x160 1 := cmpf .olt main_v0 main_v1
  let main_c : IVec S_ 1 := constantI S_ 1 1#1
  let main_v3 : IVec S_ 1 := (fun x v => Host.reduce IntOp.andi x v reducesTo_S1024x160_S_d0_1 h_S_) main_v2 main_c
  let main_v4 : FVec F S1024x160 .f32 := Host.absf main_arg1
  let main_cst_0 : FVec F S_ .f32 := constant S_ .f32 0x7F800000#32
  let main_v5 : FVec F S1024x160 .f32 := broadcastInDim S1024x160 ![] bcast_S_S1024x160 main_cst_0
  let main_v6 : IVec S1024x160 1 := cmpf .olt main_v4 main_v5
  let main_c_1 : IVec S_ 1 := constantI S_ 1 1#1
  let main_v7 : IVec S_ 1 := (fun x v => Host.reduce IntOp.andi x v reducesTo_S1024x160_S_d0_1 h_S_) main_v6 main_c_1
  let main_v8 : IVec S_ 1 := andi main_v3 main_v7
  let main_v9 : FVec F S1024x160 .f32 := Host.absf main_arg2
  let main_cst_2 : FVec F S_ .f32 := constant S_ .f32 0x7F800000#32
  let main_v10 : FVec F S1024x160 .f32 := broadcastInDim S1024x160 ![] bcast_S_S1024x160 main_cst_2
  let main_v11 : IVec S1024x160 1 := cmpf .olt main_v9 main_v10
  let main_c_3 : IVec S_ 1 := constantI S_ 1 1#1
  let main_v12 : IVec S_ 1 := (fun x v => Host.reduce IntOp.andi x v reducesTo_S1024x160_S_d0_1 h_S_) main_v11 main_c_3
  let main_v13 : IVec S_ 1 := andi main_v8 main_v12
  let main_v14 : FVec F S1024x160 .f32 := Host.absf main_arg3
  let main_cst_4 : FVec F S_ .f32 := constant S_ .f32 0x7F800000#32
  let main_v15 : FVec F S1024x160 .f32 := broadcastInDim S1024x160 ![] bcast_S_S1024x160 main_cst_4
  let main_v16 : IVec S1024x160 1 := cmpf .olt main_v14 main_v15
  fn_part1 (F := F) main_arg4 main_arg5 main_arg6 main_arg7 main_v13 main_v16
-- ==== Kernel.lean ====
abbrev S1024x160 : Shape := ⟨2, ![1024, 160]⟩
abbrev S640x160 : Shape := ⟨2, ![640, 160]⟩
abbrev S160 : Shape := ⟨1, ![160]⟩
abbrev S4x200 : Shape := ⟨2, ![4, 200]⟩
abbrev S160x160 : Shape := ⟨2, ![160, 160]⟩
abbrev S4x200x1 : Shape := ⟨3, ![4, 200, 1]⟩
abbrev S4x1x200 : Shape := ⟨3, ![4, 1, 200]⟩
abbrev S4x200x200 : Shape := ⟨3, ![4, 200, 200]⟩
abbrev S_ : Shape := ⟨0, ![]⟩
abbrev S4x5x40x4x50 : Shape := ⟨5, ![4, 5, 40, 4, 50]⟩
abbrev S4x5x4 : Shape := ⟨3, ![4, 5, 4]⟩
abbrev S4x5x4x1 : Shape := ⟨4, ![4, 5, 4, 1]⟩
abbrev S4x5x4x4 : Shape := ⟨4, ![4, 5, 4, 4]⟩
abbrev S80x4 : Shape := ⟨2, ![80, 4]⟩
abbrev S4x200x200x160 : Shape := ⟨4, ![4, 200, 200, 160]⟩
abbrev S1x40x200 : Shape := ⟨3, ![1, 40, 200]⟩
abbrev S1x40x200x160 : Shape := ⟨4, ![1, 40, 200, 160]⟩
abbrev S40x200x160 : Shape := ⟨3, ![40, 200, 160]⟩
abbrev S40x50x256 : Shape := ⟨3, ![40, 50, 256]⟩
abbrev S40x200 : Shape := ⟨2, ![40, 200]⟩
abbrev S40x50 : Shape := ⟨2, ![40, 50]⟩
abbrev S1x1 : Shape := ⟨2, ![1, 1]⟩
abbrev S40x50x1 : Shape := ⟨3, ![40, 50, 1]⟩
abbrev S2000x256 : Shape := ⟨2, ![2000, 256]⟩
abbrev S256x160 : Shape := ⟨2, ![256, 160]⟩
abbrev S2000x160 : Shape := ⟨2, ![2000, 160]⟩
abbrev S40x50x160 : Shape := ⟨3, ![40, 50, 160]⟩
abbrev S1x1x160 : Shape := ⟨3, ![1, 1, 160]⟩

abbrev nBuf : Space → Nat
  | .hbm => 111
  | .vmem => 16
  | .smem => 2
  | _ => 0

abbrev bufTy : (tb : Table) → Fin (tcTables nBuf tb) → BufTy
  | .hbm, ⟨0, _⟩ => ⟨S1024x160, .f32⟩
  | .hbm, ⟨1, _⟩ => ⟨S1024x160, .f32⟩
  | .hbm, ⟨2, _⟩ => ⟨S1024x160, .f32⟩
  | .hbm, ⟨3, _⟩ => ⟨S1024x160, .f32⟩
  | .hbm, ⟨4, _⟩ => ⟨S640x160, .f32⟩
  | .hbm, ⟨5, _⟩ => ⟨S160, .f32⟩
  | .hbm, ⟨6, _⟩ => ⟨S4x200, .i32⟩
  | .hbm, ⟨7, _⟩ => ⟨S4x200, .i32⟩
  | .hbm, ⟨8, _⟩ => ⟨S160x160, .f32⟩
  | .hbm, ⟨9, _⟩ => ⟨S160x160, .f32⟩
  | .hbm, ⟨10, _⟩ => ⟨S160x160, .f32⟩
  | .hbm, ⟨11, _⟩ => ⟨S160x160, .f32⟩
  | .hbm, ⟨12, _⟩ => ⟨S1024x160, .f32⟩
  | .hbm, ⟨13, _⟩ => ⟨S1024x160, .f32⟩
  | .hbm, ⟨14, _⟩ => ⟨S1024x160, .f32⟩
  | .hbm, ⟨15, _⟩ => ⟨S1024x160, .f32⟩
  | .hbm, ⟨16, _⟩ => ⟨S4x200x1, .i32⟩
  | .hbm, ⟨17, _⟩ => ⟨S4x1x200, .i32⟩
  | .hbm, ⟨18, _⟩ => ⟨S4x200x200, .i32⟩
  | .hbm, ⟨19, _⟩ => ⟨S4x200x200, .i32⟩
  | .hbm, ⟨20, _⟩ => ⟨S4x200x200, .i32⟩
  | .hbm, ⟨21, _⟩ => ⟨S_, .i32⟩
  | .hbm, ⟨22, _⟩ => ⟨S4x200x200, .i32⟩
  | .hbm, ⟨23, _⟩ => ⟨S4x200x200, .i32⟩
  | .hbm, ⟨24, _⟩ => ⟨S4x200x1, .i32⟩
  | .hbm, ⟨25, _⟩ => ⟨S4x1x200, .i32⟩
  | .hbm, ⟨26, _⟩ => ⟨S4x200x200, .i32⟩
  | .hbm, ⟨27, _⟩ => ⟨S4x200x200, .i32⟩
  | .hbm, ⟨28, _⟩ => ⟨S4x200x200, .i32⟩
  | .hbm, ⟨29, _⟩ => ⟨S_, .i32⟩
  | .hbm, ⟨30, _⟩ => ⟨S4x200x200, .i32⟩
  | .hbm, ⟨31, _⟩ => ⟨S4x200x200, .i32⟩
  | .hbm, ⟨32, _⟩ => ⟨S4x200x1, .i32⟩
  | .hbm, ⟨33, _⟩ => ⟨S4x1x200, .i32⟩
  | .hbm, ⟨34, _⟩ => ⟨S4x200x200, .i32⟩
  | .hbm, ⟨35, _⟩ => ⟨S4x200x200, .i32⟩
  | .hbm, ⟨36, _⟩ => ⟨S4x200x200, .i32⟩
  | .hbm, ⟨37, _⟩ => ⟨S_, .i32⟩
  | .hbm, ⟨38, _⟩ => ⟨S4x200x200, .i32⟩
  | .hbm, ⟨39, _⟩ => ⟨S4x200x200, .i32⟩
  | .hbm, ⟨40, _⟩ => ⟨S4x200x1, .i32⟩
  | .hbm, ⟨41, _⟩ => ⟨S4x1x200, .i32⟩
  | .hbm, ⟨42, _⟩ => ⟨S4x200x200, .i32⟩
  | .hbm, ⟨43, _⟩ => ⟨S4x200x200, .i32⟩
  | .hbm, ⟨44, _⟩ => ⟨S4x200x200, .i32⟩
  | .hbm, ⟨45, _⟩ => ⟨S_, .i32⟩
  | .hbm, ⟨46, _⟩ => ⟨S4x200x200, .i32⟩
  | .hbm, ⟨47, _⟩ => ⟨S4x200x200, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S4x200x200, .i32⟩
  | .hbm, ⟨52, _⟩ => ⟨S4x200x200, .i32⟩
  | .hbm, ⟨53, _⟩ => ⟨S_, .i32⟩
  | .hbm, ⟨54, _⟩ => ⟨S4x200x200, .i32⟩
  | .hbm, ⟨55, _⟩ => ⟨S4x200x200, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S4x200x200, .i32⟩
  | .hbm, ⟨60, _⟩ => ⟨S4x200x200, .i32⟩
  | .hbm, ⟨61, _⟩ => ⟨S_, .i32⟩
  | .hbm, ⟨62, _⟩ => ⟨S4x200x200, .i32⟩
  | .hbm, ⟨63, _⟩ => ⟨S4x200x200, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S4x200x200, .i32⟩
  | .hbm, ⟨68, _⟩ => ⟨S4x200x200, .i32⟩
  | .hbm, ⟨69, _⟩ => ⟨S_, .i32⟩
  | .hbm, ⟨70, _⟩ => ⟨S4x200x200, .i32⟩
  | .hbm, ⟨71, _⟩ => ⟨S4x200x200, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S4x200x200, .i32⟩
  | .hbm, ⟨76, _⟩ => ⟨S4x200x200, .i32⟩
  | .hbm, ⟨77, _⟩ => ⟨S_, .i32⟩
  | .hbm, ⟨78, _⟩ => ⟨S4x200x200, .i32⟩
  | .hbm, ⟨79, _⟩ => ⟨S4x200x200, .i32⟩
  | .hbm, ⟨80, _⟩ => ⟨S4x5x40x4x50, .i32⟩
  | .hbm, ⟨81, _⟩ => ⟨S_, .i32⟩
  | .hbm, ⟨82, _⟩ => ⟨S4x5x4, .i32⟩
  | .hbm, ⟨83, _⟩ => ⟨S_, .i32⟩
  | .hbm, ⟨84, _⟩ => ⟨S4x5x4, .i32⟩
  | .hbm, ⟨85, _⟩ => ⟨S4x5x40x4x50, .i32⟩
  | .hbm, ⟨86, _⟩ => ⟨S_, .i32⟩
  | .hbm, ⟨87, _⟩ => ⟨S4x5x4, .i32⟩
  | .hbm, ⟨88, _⟩ => ⟨S_, .i32⟩
  | .hbm, ⟨89, _⟩ => ⟨S4x5x4, .i32⟩
  | .hbm, ⟨90, _⟩ => ⟨S4x5x40x4x50, .i32⟩
  | .hbm, ⟨91, _⟩ => ⟨S_, .i32⟩
  | .hbm, ⟨92, _⟩ => ⟨S4x5x4, .i32⟩
  | .hbm, ⟨93, _⟩ => ⟨S_, .i32⟩
  | .hbm, ⟨94, _⟩ => ⟨S4x5x4, .i32⟩
  | .hbm, ⟨95, _⟩ => ⟨S4x5x40x4x50, .i32⟩
  | .hbm, ⟨96, _⟩ => ⟨S_, .i32⟩
  | .hbm, ⟨97, _⟩ => ⟨S4x5x4, .i32⟩
  | .hbm, ⟨98, _⟩ => ⟨S_, .i32⟩
  | .hbm, ⟨99, _⟩ => ⟨S4x5x4, .i32⟩
  | .hbm, ⟨100, _⟩ => ⟨S4x5x4x1, .i32⟩
  | .hbm, ⟨101, _⟩ => ⟨S4x5x4x1, .i32⟩
  | .hbm, ⟨102, _⟩ => ⟨S4x5x4x1, .i32⟩
  | .hbm, ⟨103, _⟩ => ⟨S4x5x4x1, .i32⟩
  | .hbm, ⟨104, _⟩ => ⟨S4x5x4x4, .i32⟩
  | .hbm, ⟨105, _⟩ => ⟨S4x5x4x1, .i32⟩
  | .hbm, ⟨106, _⟩ => ⟨S4x5x4x1, .i32⟩
  | .hbm, ⟨107, _⟩ => ⟨S4x5x4x1, .i32⟩
  | .hbm, ⟨108, _⟩ => ⟨S4x5x4x1, .i32⟩
  | .hbm, ⟨109, _⟩ => ⟨S4x5x4x4, .i32⟩
  | .hbm, ⟨110, _⟩ => ⟨S4x200x200x160, .f32⟩
  | .local _ .vmem, ⟨0, _⟩ => ⟨S1x40x200, .i32⟩
  | .local _ .vmem, ⟨1, _⟩ => ⟨S1x40x200, .i32⟩
  | .local _ .vmem, ⟨2, _⟩ => ⟨S1x40x200, .i32⟩
  | .local _ .vmem, ⟨3, _⟩ => ⟨S1x40x200, .i32⟩
  | .local _ .vmem, ⟨4, _⟩ => ⟨S1x40x200, .i32⟩
  | .local _ .vmem, ⟨5, _⟩ => ⟨S1x40x200, .i32⟩
  | .local _ .vmem, ⟨6, _⟩ => ⟨S1x40x200, .i32⟩
  | .local _ .vmem, ⟨7, _⟩ => ⟨S1x40x200, .i32⟩
  | .local _ .vmem, ⟨8, _⟩ => ⟨S1024x160, .f32⟩
  | .local _ .vmem, ⟨9, _⟩ => ⟨S1024x160, .f32⟩
  | .local _ .vmem, ⟨10, _⟩ => ⟨S1024x160, .f32⟩
  | .local _ .vmem, ⟨11, _⟩ => ⟨S1024x160, .f32⟩
  | .local _ .vmem, ⟨12, _⟩ => ⟨S160, .f32⟩
  | .local _ .vmem, ⟨13, _⟩ => ⟨S1x40x200x160, .f32⟩
  | .local _ .vmem, ⟨14, _⟩ => ⟨S1x40x200x160, .f32⟩
  | .local _ .vmem, ⟨15, _⟩ => ⟨S40x200x160, .f32⟩
  | .local _ .smem, ⟨0, _⟩ => ⟨S80x4, .i32⟩
  | .local _ .smem, ⟨1, _⟩ => ⟨S80x4, .i32⟩
  | _, _ => ⟨S1024x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_c_3 : Ref sig .tc := ⟨.hbm, 48, rfl⟩
abbrev main_c_4 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v36 : Ref sig .tc := ⟨.hbm, 55, rfl⟩
abbrev main_c_5 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v37 : Ref sig .tc := ⟨.hbm, 63, rfl⟩
abbrev main_c_7 : Ref sig .tc := ⟨.hbm, 64, rfl⟩
abbrev main_c_8 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v38 : Ref sig .tc := ⟨.hbm, 71, rfl⟩
abbrev main_c_9 : Ref sig .tc := ⟨.hbm, 72, rfl⟩
abbrev main_c_10 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v39 : Ref sig .tc := ⟨.hbm, 79, rfl⟩
abbrev main_v40 : Ref sig .tc := ⟨.hbm, 80, rfl⟩
abbrev main_c_11 : Ref sig .tc := ⟨.hbm, 81, rfl⟩
abbrev main_v41 : Ref sig .tc := ⟨.hbm, 82, rfl⟩
abbrev main_c_12 : Ref sig .tc := ⟨.hbm, 83, rfl⟩
abbrev main_v42 : Ref sig .tc := ⟨.hbm, 84, rfl⟩
abbrev main_v43 : Ref sig .tc := ⟨.hbm, 85, rfl⟩
abbrev main_c_13 : Ref sig .tc := ⟨.hbm, 86, rfl⟩
abbrev main_v44 : Ref sig .tc := ⟨.hbm, 87, rfl⟩
abbrev main_c_14 : Ref sig .tc := ⟨.hbm, 88, rfl⟩
abbrev main_v45 : Ref sig .tc := ⟨.hbm, 89, rfl⟩
abbrev main_v46 : Ref sig .tc := ⟨.hbm, 90, rfl⟩
abbrev main_c_15 : Ref sig .tc := ⟨.hbm, 91, rfl⟩
abbrev main_v47 : Ref sig .tc := ⟨.hbm, 92, rfl⟩
abbrev main_c_16 : Ref sig .tc := ⟨.hbm, 93, rfl⟩
abbrev main_v48 : Ref sig .tc := ⟨.hbm, 94, rfl⟩
abbrev main_v49 : Ref sig .tc := ⟨.hbm, 95, rfl⟩
abbrev main_c_17 : Ref sig .tc := ⟨.hbm, 96, rfl⟩
abbrev main_v50 : Ref sig .tc := ⟨.hbm, 97, rfl⟩
abbrev main_c_18 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v64 : Ref sig .tc := ⟨.hbm, 110, rfl⟩
abbrev main_v62 : Ref sig .tc := ⟨.smem, 0, rfl⟩
abbrev main_v63 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![4, 5], ![false, false]⟩

abbrev pre0 : Pipeline.Prefetch sig := ⟨2, ![main_v62.idx, main_v63.idx], fun | 0 => main_v62.names | 1 => main_v63.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c0_i32 : BitVec 32 := 0#32
  let v11 : BitVec 32 := Scalar.addi v7 c0_i32
  let v12 : Index := Scalar.indexCast v11
  let c0_5 : Index := 0#32
  ![v12.toNat, 0]
def k0_off2 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c1_i32 : BitVec 32 := 1#32
  let v37 : BitVec 32 := Scalar.addi v7 c1_i32
  let v38 : Index := Scalar.indexCast v37
  let c0_15 : Index := 0#32
  ![v38.toNat, 0]
def k0_off3 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c2_i32 : BitVec 32 := 2#32
  let v63 : BitVec 32 := Scalar.addi v7 c2_i32
  let v64 : Index := Scalar.indexCast v63
  let c0_29 : Index := 0#32
  ![v64.toNat, 0]
def k0_off4 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c3_i32 : BitVec 32 := 3#32
  let v89 : BitVec 32 := Scalar.addi v7 c3_i32
  let v90 : Index := Scalar.indexCast v89
  let c0_43 : Index := 0#32
  ![v90.toNat, 0]
def k0_off5 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c0_i32_60 : BitVec 32 := 0#32
  let v117 : BitVec 32 := Scalar.addi v7 c0_i32_60
  let v118 : Index := Scalar.indexCast v117
  let c1 : Index := 1#32
  ![v118.toNat, 1]
def k0_off6 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c1_i32_74 : BitVec 32 := 1#32
  let v143 : BitVec 32 := Scalar.addi v7 c1_i32_74
  let v144 : Index := Scalar.indexCast v143
  let c1_75 : Index := 1#32
  ![v144.toNat, 1]
def k0_off7 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c2_i32_89 : BitVec 32 := 2#32
  let v169 : BitVec 32 := Scalar.addi v7 c2_i32_89
  let v170 : Index := Scalar.indexCast v169
  let c1_90 : Index := 1#32
  ![v170.toNat, 1]
def k0_off8 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c3_i32_104 : BitVec 32 := 3#32
  let v195 : BitVec 32 := Scalar.addi v7 c3_i32_104
  let v196 : Index := Scalar.indexCast v195
  let c1_105 : Index := 1#32
  ![v196.toNat, 1]
def k0_off9 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c0_i32_122 : BitVec 32 := 0#32
  let v223 : BitVec 32 := Scalar.addi v7 c0_i32_122
  let v224 : Index := Scalar.indexCast v223
  let c2 : Index := 2#32
  ![v224.toNat, 2]
def k0_off10 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c1_i32_136 : BitVec 32 := 1#32
  let v249 : BitVec 32 := Scalar.addi v7 c1_i32_136
  let v250 : Index := Scalar.indexCast v249
  let c2_137 : Index := 2#32
  ![v250.toNat, 2]
def k0_off11 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c2_i32_151 : BitVec 32 := 2#32
  let v275 : BitVec 32 := Scalar.addi v7 c2_i32_151
  let v276 : Index := Scalar.indexCast v275
  let c2_152 : Index := 2#32
  ![v276.toNat, 2]
def k0_off12 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c3_i32_166 : BitVec 32 := 3#32
  let v301 : BitVec 32 := Scalar.addi v7 c3_i32_166
  let v302 : Index := Scalar.indexCast v301
  let c2_167 : Index := 2#32
  ![v302.toNat, 2]
def k0_off13 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c0_i32_184 : BitVec 32 := 0#32
  let v329 : BitVec 32 := Scalar.addi v7 c0_i32_184
  let v330 : Index := Scalar.indexCast v329
  let c3 : Index := 3#32
  ![v330.toNat, 3]
def k0_off14 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c1_i32_198 : BitVec 32 := 1#32
  let v355 : BitVec 32 := Scalar.addi v7 c1_i32_198
  let v356 : Index := Scalar.indexCast v355
  let c3_199 : Index := 3#32
  ![v356.toNat, 3]
def k0_off15 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c2_i32_213 : BitVec 32 := 2#32
  let v381 : BitVec 32 := Scalar.addi v7 c2_i32_213
  let v382 : Index := Scalar.indexCast v381
  let c3_214 : Index := 3#32
  ![v382.toNat, 3]
def k0_off16 (i : grid0.Coords) : Fin 2 → Nat :=
  let arg0 : BitVec 32 := BitVec.ofNat 32 (i 0).val
  let c20_i32 : BitVec 32 := 20#32
  let v5 : BitVec 32 := Scalar.muli arg0 c20_i32
  let arg1 : BitVec 32 := BitVec.ofNat 32 (i 1).val
  let c4_i32 : BitVec 32 := 4#32
  let v6 : BitVec 32 := Scalar.muli arg1 c4_i32
  let v7 : BitVec 32 := Scalar.addi v5 v6
  let c3_i32_228 : BitVec 32 := 3#32
  let v407 : BitVec 32 := Scalar.addi v7 c3_i32_228
  let v408 : Index := Scalar.indexCast v407
  let c3_229 : Index := 3#32
  ![v408.toNat, 3]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x40x200x160 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S640x160_S160x160_0_0 : S640x160.Slices ![0, 0] S160x160
  slices_S640x160_S160x160_160_0 : S640x160.Slices ![160, 0] S160x160
  slices_S640x160_S160x160_320_0 : S640x160.Slices ![320, 0] S160x160
  slices_S640x160_S160x160_480_0 : S640x160.Slices ![480, 0] S160x160
  bcast_S4x200_S4x200x1_0_1 : S4x200.BroadcastsInDim S4x200x1 (![0, 1] : Fin 2 → Fin S4x200x1.rank)
  bcast_S4x200_S4x1x200_0_2 : S4x200.BroadcastsInDim S4x1x200 (![0, 2] : Fin 2 → Fin S4x1x200.rank)
  bcast_S4x200x1_S4x200x200_0_1_2 : S4x200x1.BroadcastsInDim S4x200x200 (![0, 1, 2] : Fin 3 → Fin S4x200x200.rank)
  bcast_S4x1x200_S4x200x200_0_1_2 : S4x1x200.BroadcastsInDim S4x200x200 (![0, 1, 2] : Fin 3 → Fin S4x200x200.rank)
  bcast_S_S4x200x200 : S_.BroadcastsInDim S4x200x200 (![] : Fin 0 → Fin S4x200x200.rank)
  shapeCasts_S4x200x200_S4x5x40x4x50 : S4x200x200.ShapeCasts S4x5x40x4x50
  reducesTo_S4x5x40x4x50_S4x5x4_d2_4 : S4x5x40x4x50.ReducesTo [2, 4] S4x5x4
  h_S_ : 0 < S_.numel
  bcast_S4x5x4_S4x5x4x1_0_1_2 : S4x5x4.BroadcastsInDim S4x5x4x1 (![0, 1, 2] : Fin 3 → Fin S4x5x4x1.rank)
  concatenates_S4x5x4x1_S4x5x4x1_S4x5x4x1_S4x5x4x1_S4x5x4x4_d3 : Shape.Concatenates [S4x5x4x1, S4x5x4x1, S4x5x4x1, S4x5x4x1] S4x5x4x4 3
  shapeCasts_S4x5x4x4_S80x4 : S4x5x4x4.ShapeCasts S80x4
  inb_S40x200x160_S40x200x160_0_0_0 : ∀ a, (![0, 0, 0] : Fin 3 → Nat) a + S40x200x160.size a ≤ S40x200x160.size a
  h_S40x200x160 : 0 < S40x200x160.numel
  shapeCasts_S40x200x160_S40x200x160 : S40x200x160.ShapeCasts S40x200x160
  iota_S40x50x256_d2_w32 : S40x50x256.Iotas .tc 32 [2]
  inb_S1x40x200_S1x40x200_0_0_0 : ∀ a, (![0, 0, 0] : Fin 3 → Nat) a + S1x40x200.size a ≤ S1x40x200.size a
  h_S1x40x200 : 0 < S1x40x200.numel
  shapeCasts_S1x40x200_S40x200 : S1x40x200.ShapeCasts S40x200
  slices_S40x200_o0_0_S40x50 : S40x200.Slices ![0, 0] S40x50
  numel1_S1x1 : S1x1.numel = 1
  shapeCasts_S40x50_S40x50x1 : S40x50.ShapeCasts S40x50x1
  broadcasts_S40x50x1_S40x50x256 : S40x50x1.Broadcasts S40x50x256
  natLt_1_32 : 1 < 32
  bitsLt_bf16_f32 : FTy.bits .bf16 < FTy.bits .f32
  shapeCasts_S40x50x256_S2000x256 : S40x50x256.ShapeCasts S2000x256
  inb_S1024x160_S256x160_0_0 : ∀ a, (![0, 0] : Fin 2 → Nat) a + S256x160.size a ≤ S1024x160.size a
  h_S256x160 : 0 < S256x160.numel
  shapeCasts_S256x160_S256x160 : S256x160.ShapeCasts S256x160
  inb_S40x200x160_S40x50x160_0_0_0 : ∀ a, (![0, 0, 0] : Fin 3 → Nat) a + S40x50x160.size a ≤ S40x200x160.size a
  h_S40x50x160 : 0 < S40x50x160.numel
  shapeCasts_S2000x160_S40x50x160 : S2000x160.ShapeCasts S40x50x160
  shapeCasts_S40x50x160_S40x50x160 : S40x50x160.ShapeCasts S40x50x160
  inb_S1024x160_S256x160_256_0 : ∀ a, (![256, 0] : Fin 2 → Nat) a + S256x160.size a ≤ S1024x160.size a
  inb_S1024x160_S256x160_512_0 : ∀ a, (![512, 0] : Fin 2 → Nat) a + S256x160.size a ≤ S1024x160.size a
  inb_S1024x160_S256x160_768_0 : ∀ a, (![768, 0] : Fin 2 → Nat) a + S256x160.size a ≤ S1024x160.size a
  slices_S40x200_o0_50_S40x50 : S40x200.Slices ![0, 50] S40x50
  inb_S40x200x160_S40x50x160_0_50_0 : ∀ a, (![0, 50, 0] : Fin 3 → Nat) a + S40x50x160.size a ≤ S40x200x160.size a
  slices_S40x200_o0_100_S40x50 : S40x200.Slices ![0, 100] S40x50
  inb_S40x200x160_S40x50x160_0_100_0 : ∀ a, (![0, 100, 0] : Fin 3 → Nat) a + S40x50x160.size a ≤ S40x200x160.size a
  slices_S40x200_o0_150_S40x50 : S40x200.Slices ![0, 150] S40x50
  inb_S40x200x160_S40x50x160_0_150_0 : ∀ a, (![0, 150, 0] : Fin 3 → Nat) a + S40x50x160.size a ≤ S40x200x160.size a
  inb_S160_S160_0 : ∀ a, (![0] : Fin 1 → Nat) a + S160.size a ≤ S160.size a
  h_S160 : 0 < S160.numel
  shapeCasts_S160_S1x1x160 : S160.ShapeCasts S1x1x160
  broadcasts_S1x1x160_S40x200x160 : S1x1x160.Broadcasts S40x200x160
  inb_S1x40x200x160_S1x40x200x160_0_0_0_0 : ∀ a, (![0, 0, 0, 0] : Fin 4 → Nat) a + S1x40x200x160.size a ≤ S1x40x200x160.size a
  h_S1x40x200x160 : 0 < S1x40x200x160.numel
  shapeCasts_S1x40x200x160_S40x200x160 : S1x40x200x160.ShapeCasts S40x200x160
  shapeCasts_S40x200x160_S1x40x200x160 : S40x200x160.ShapeCasts S1x40x200x160
  dot_S1024x160_S160x160_S1024x160_1_0_0_1_n_n_wf : DotDims.WF S1024x160 S160x160 S1024x160 [1] [0] [0] [1] [] []
  dot_S2000x256_S256x160_S2000x160_1_0_0_1_n_n_wf : DotDims.WF S2000x256 S256x160 S2000x160 [1] [0] [0] [1] [] []
  hrank0 : 0 < grid0.rank
  k0_off1_inb : ∀ i : grid0.Coords, ∀ a, (k0_off1 i) a + S1x1.size a ≤ S80x4.size a
  k0_off2_inb : ∀ i : grid0.Coords, ∀ a, (k0_off2 i) a + S1x1.size a ≤ S80x4.size a
  k0_off3_inb : ∀ i : grid0.Coords, ∀ a, (k0_off3 i) a + S1x1.size a ≤ S80x4.size a
  k0_off4_inb : ∀ i : grid0.Coords, ∀ a, (k0_off4 i) a + S1x1.size a ≤ S80x4.size a
  k0_off5_inb : ∀ i : grid0.Coords, ∀ a, (k0_off5 i) a + S1x1.size a ≤ S80x4.size a
  k0_off6_inb : ∀ i : grid0.Coords, ∀ a, (k0_off6 i) a + S1x1.size a ≤ S80x4.size a
  k0_off7_inb : ∀ i : grid0.Coords, ∀ a, (k0_off7 i) a + S1x1.size a ≤ S80x4.size a
  k0_off8_inb : ∀ i : grid0.Coords, ∀ a, (k0_off8 i) a + S1x1.size a ≤ S80x4.size a
  k0_off9_inb : ∀ i : grid0.Coords, ∀ a, (k0_off9 i) a + S1x1.size a ≤ S80x4.size a
  k0_off10_inb : ∀ i : grid0.Coords, ∀ a, (k0_off10 i) a + S1x1.size a ≤ S80x4.size a
  k0_off11_inb : ∀ i : grid0.Coords, ∀ a, (k0_off11 i) a + S1x1.size a ≤ S80x4.size a
  k0_off12_inb : ∀ i : grid0.Coords, ∀ a, (k0_off12 i) a + S1x1.size a ≤ S80x4.size a
  k0_off13_inb : ∀ i : grid0.Coords, ∀ a, (k0_off13 i) a + S1x1.size a ≤ S80x4.size a
  k0_off14_inb : ∀ i : grid0.Coords, ∀ a, (k0_off14 i) a + S1x1.size a ≤ S80x4.size a
  k0_off15_inb : ∀ i : grid0.Coords, ∀ a, (k0_off15 i) a + S1x1.size a ≤ S80x4.size a
  k0_off16_inb : ∀ i : grid0.Coords, ∀ a, (k0_off16 i) a + S1x1.size a ≤ S80x4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x200.size a ≤ S4x200x200.size a
  hwx0_0 : ∀ i : grid0.Coords, EltTy.bits .i32 = 32 ∨ (Rect.block (s := S4x200x200) S1x40x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x200.size a ≤ S4x200x200.size a
  hwx0_1 : ∀ i : grid0.Coords, EltTy.bits .i32 = 32 ∨ (Rect.block (s := S4x200x200) S1x40x200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x40x200.size a ≤ S4x200x200.size a
  hwx0_2 : ∀ i : grid0.Coords, EltTy.bits .i32 = 32 ∨ (Rect.block (s := S4x200x200) S1x40x200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x40x200.size a ≤ S4x200x200.size a
  hwx0_3 : ∀ i : grid0.Coords, EltTy.bits .i32 = 32 ∨ (Rect.block (s := S4x200x200) S1x40x200.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x160.size a ≤ S1024x160.size a
  hwx0_4 : ∀ i : grid0.Coords, EltTy.bits .f32 = 32 ∨ (Rect.block (s := S1024x160) S1024x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x160.size a ≤ S1024x160.size a
  hwx0_5 : ∀ i : grid0.Coords, EltTy.bits .f32 = 32 ∨ (Rect.block (s := S1024x160) S1024x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x160.size a ≤ S1024x160.size a
  hwx0_6 : ∀ i : grid0.Coords, EltTy.bits .f32 = 32 ∨ (Rect.block (s := S1024x160) S1024x160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x160.size a ≤ S1024x160.size a
  hwx0_7 : ∀ i : grid0.Coords, EltTy.bits .f32 = 32 ∨ (Rect.block (s := S1024x160) S1024x160.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S160.size a ≤ S160.size a
  hwx0_8 : ∀ i : grid0.Coords, EltTy.bits .f32 = 32 ∨ (Rect.block (s := S160) S160.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x40x200x160.size a ≤ S4x200x200x160.size a
  hwx0_9 : ∀ i : grid0.Coords, EltTy.bits .f32 = 32 ∨ (Rect.block (s := S4x200x200x160) S1x40x200x160.size (cc0_transform_9 i) (hinb0_9 i)).WholeWords (EltTy.packing .f32)

variable [Facts₀]

def dot_S1024x160_S160x160_S1024x160_1_0_0_1_n_n : DotDims S1024x160 S160x160 S1024x160 where
  lhsContracting := [1]
  rhsContracting := [0]
  lhsNonContracting := [0]
  rhsNonContracting := [1]
  lhsBatch := []
  rhsBatch := []
  wf := dot_S1024x160_S160x160_S1024x160_1_0_0_1_n_n_wf
def dot_S2000x256_S256x160_S2000x160_1_0_0_1_n_n : DotDims S2000x256 S256x160 S2000x160 where
  lhsContracting := [1]
  rhsContracting := [0]
  lhsNonContracting := [0]
  rhsNonContracting := [1]
  lhsBatch := []
  rhsBatch := []
  wf := dot_S2000x256_S256x160_S2000x160_1_0_0_1_n_n_wf

abbrev spec0_0 : Pipeline.WinSpec sig grid0.rank :=
  Pipeline.WinSpec.ofSpec (Memref.whole main_v36) S1x40x200.size reads0_0 false false 2 stage0_0 sem0_0 nbuf0_0 hstage0_0

abbrev spec0_1 : Pipeline.WinSpec sig grid0.rank :=
  Pipeline.WinSpec.ofSpec (Memref.whole main_v37) S1x40x200.size reads0_1 false false 2 stage0_1 sem0_1 nbuf0_1 hstage0_1

abbrev spec0_2 : Pipeline.WinSpec sig grid0.rank :=
  Pipeline.WinSpec.ofSpec (Memref.whole main_v38) S1x40x200.size reads0_2 false false 2 stage0_2 sem0_2 nbuf0_2 hstage0_2

abbrev spec0_3 : Pipeline.WinSpec sig grid0.rank :=
  Pipeline.WinSpec.ofSpec (Memref.whole main_v39) S1x40x200.size reads0_3 false false 2 stage0_3 sem0_3 nbuf0_3 hstage0_3

abbrev spec0_4 : Pipeline.WinSpec sig grid0.rank :=
  Pipeline.WinSpec.ofSpec (Memref.whole main_v4) S1024x160.size reads0_4 false true 1 stage0_4 sem0_4 nbuf0_4 hstage0_4

abbrev spec0_5 : Pipeline.WinSpec sig grid0.rank :=
  Pipeline.WinSpec.ofSpec (Memref.whole main_v5) S1024x160.size reads0_5 false true 1 stage0_5 sem0_5 nbuf0_5 hstage0_5

abbrev spec0_6 : Pipeline.WinSpec sig grid0.rank :=
  Pipeline.WinSpec.ofSpec (Memref.whole main_v6) S1024x160.size reads0_6 false true 1 stage0_6 sem0_6 nbuf0_6 hstage0_6

abbrev spec0_7 : Pipeline.WinSpec sig grid0.rank :=
  Pipeline.WinSpec.ofSpec (Memref.whole main_v7) S1024x160.size reads0_7 false true 1 stage0_7 sem0_7 nbuf0_7 hstage0_7

abbrev spec0_8 : Pipeline.WinSpec sig grid0.rank :=
  Pipeline.WinSpec.ofSpec (Memref.whole main_arg5) S160.size reads0_8 false true 1 stage0_8 sem0_8 nbuf0_8 hstage0_8

abbrev spec0_9 : Pipeline.WinSpec sig grid0.rank :=
  Pipeline.WinSpec.ofSpec (Memref.whole main_v64) S1x40x200x160.size reads0_9 true false 2 stage0_9 sem0_9 nbuf0_9 hstage0_9

abbrev spec0 : Fin 10 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | ⟨_ + 10, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | ⟨_ + 10, h⟩ => absurd h (Nat.not_lt.2 (Nat.le_add_left _ _))
abbrev ix0 (pf : pre0.Contents (Elt F)) : (w : Fin 10) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | 8 => cc0_transform_8 | 9 => cc0_transform_9 | ⟨_ + 10, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | 8 => hreads0_8 | 9 => hreads0_9 | ⟨_ + 10, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | 8 => hinb0_8 | 9 => hinb0_9 | ⟨_ + 10, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | 8 => hwx0_8 | 9 => hwx0_9 | ⟨_ + 10, h⟩ => absurd h (Nat.not_lt.2 (Nat.le_add_left _ _))

class Facts : Prop extends Facts₀ where
  harr0 : ∀ w, (spec0 w).arr.IsWhole

variable [Facts]
-- ==== ReferenceIdeal.lean ====
abbrev S1024x160 : Shape := ⟨2, ![1024, 160]⟩
abbrev S640x160 : Shape := ⟨2, ![640, 160]⟩
abbrev S160 : Shape := ⟨1, ![160]⟩
abbrev S4x200 : Shape := ⟨2, ![4, 200]⟩
abbrev S4x200x1 : Shape := ⟨3, ![4, 200, 1]⟩
abbrev S4x1x200 : Shape := ⟨3, ![4, 1, 200]⟩
abbrev S4x200x200 : Shape := ⟨3, ![4, 200, 200]⟩
abbrev S_ : Shape := ⟨0, ![]⟩
abbrev S4x200x200x1 : Shape := ⟨4, ![4, 200, 200, 1]⟩
abbrev S4x200x200x160 : Shape := ⟨4, ![4, 200, 200, 160]⟩
abbrev S4x200x200x640 : Shape := ⟨4, ![4, 200, 200, 640]⟩
abbrev S1x1x1x160 : Shape := ⟨4, ![1, 1, 1, 160]⟩

abbrev nBuf : Space → Nat
  | .hbm => 84
  | .vmem => 0
  | .smem => 0
  | _ => 0

abbrev bufTy : (tb : Table) → Fin (tcTables nBuf tb) → BufTy
  | .hbm, ⟨0, _⟩ => ⟨S1024x160, .f32⟩
  | .hbm, ⟨1, _⟩ => ⟨S1024x160, .f32⟩
  | .hbm, ⟨2, _⟩ => ⟨S1024x160, .f32⟩
  | .hbm, ⟨3, _⟩ => ⟨S1024x160, .f32⟩
  | .hbm, ⟨4, _⟩ => ⟨S640x160, .f32⟩
  | .hbm, ⟨5, _⟩ => ⟨S160, .f32⟩
  | .hbm, ⟨6, _⟩ => ⟨S4x200, .i32⟩
  | .hbm, ⟨7, _⟩ => ⟨S4x200, .i32⟩
  | .hbm, ⟨8, _⟩ => ⟨S4x200x1, .i32⟩
  | .hbm, ⟨9, _⟩ => ⟨S4x1x200, .i32⟩
  | .hbm, ⟨10, _⟩ => ⟨S4x200x200, .i32⟩
  | .hbm, ⟨11, _⟩ => ⟨S4x200x200, .i32⟩
  | .hbm, ⟨12, _⟩ => ⟨S4x200x200, .i32⟩
  | .hbm, ⟨13, _⟩ => ⟨S_, .i32⟩
  | .hbm, ⟨14, _⟩ => ⟨S4x200x200, .i32⟩
  | .hbm, ⟨15, _⟩ => ⟨S4x200x200, .i32⟩
  | .hbm, ⟨16, _⟩ => ⟨S4x200x1, .i32⟩
  | .hbm, ⟨17, _⟩ => ⟨S4x1x200, .i32⟩
  | .hbm, ⟨18, _⟩ => ⟨S4x200x200, .i32⟩
  | .hbm, ⟨19, _⟩ => ⟨S4x200x200, .i32⟩
  | .hbm, ⟨20, _⟩ => ⟨S4x200x200, .i32⟩
  | .hbm, ⟨21, _⟩ => ⟨S_, .i32⟩
  | .hbm, ⟨22, _⟩ => ⟨S4x200x200, .i32⟩
  | .hbm, ⟨23, _⟩ => ⟨S4x200x200, .i32⟩
  | .hbm, ⟨24, _⟩ => ⟨S4x200x1, .i32⟩
  | .hbm, ⟨25, _⟩ => ⟨S4x1x200, .i32⟩
  | .hbm, ⟨26, _⟩ => ⟨S4x200x200, .i32⟩
  | .hbm, ⟨27, _⟩ => ⟨S4x200x200, .i32⟩
  | .hbm, ⟨28, _⟩ => ⟨S4x200x200, .i32⟩
  | .hbm, ⟨29, _⟩ => ⟨S_, .i32⟩
  | .hbm, ⟨30, _⟩ => ⟨S4x200x200, .i32⟩
  | .hbm, ⟨31, _⟩ => ⟨S4x200x200, .i32⟩
  | .hbm, ⟨32, _⟩ => ⟨S4x200x1, .i32⟩
  | .hbm, ⟨33, _⟩ => ⟨S4x1x200, .i32⟩
  | .hbm, ⟨34, _⟩ => ⟨S4x200x200, .i32⟩
  | .hbm, ⟨35, _⟩ => ⟨S4x200x200, .i32⟩
  | .hbm, ⟨36, _⟩ => ⟨S4x200x200, .i32⟩
  | .hbm, ⟨37, _⟩ => ⟨S_, .i32⟩
  | .hbm, ⟨38, _⟩ => ⟨S4x200x200, .i32⟩
  | .hbm, ⟨39, _⟩ => ⟨S4x200x200, .i32⟩
  | .hbm, ⟨40, _⟩ => ⟨S_, .i32⟩
  | .hbm, ⟨41, _⟩ => ⟨S4x200x200, .i32⟩
  | .hbm, ⟨42, _⟩ => ⟨S4x200x200, .i1⟩
  | .hbm, ⟨43, _⟩ => ⟨S_, .i32⟩
  | .hbm, ⟨44, _⟩ => ⟨S4x200x200, .i32⟩
  | .hbm, ⟨45, _⟩ => ⟨S4x200x200, .i32⟩
  | .hbm, ⟨46, _⟩ => ⟨S4x200x200, .i32⟩
  | .hbm, ⟨47, _⟩ => ⟨S4x200x200x1, .i32⟩
  | .hbm, ⟨48, _⟩ => ⟨S4x200x200x160, .f32⟩
  | .hbm, ⟨49, _⟩ => ⟨S_, .i32⟩
  | .hbm, ⟨50, _⟩ => ⟨S4x200x200, .i32⟩
  | .hbm, ⟨51, _⟩ => ⟨S4x200x200, .i1⟩
  | .hbm, ⟨52, _⟩ => ⟨S_, .i32⟩
  | .hbm, ⟨53, _⟩ => ⟨S4x200x200, .i32⟩
  | .hbm, ⟨54, _⟩ => ⟨S4x200x200, .i32⟩
  | .hbm, ⟨55, _⟩ => ⟨S4x200x200, .i32⟩
  | .hbm, ⟨56, _⟩ => ⟨S4x200x200x1, .i32⟩
  | .hbm, ⟨57, _⟩ => ⟨S4x200x200x160, .f32⟩
  | .hbm, ⟨58, _⟩ => ⟨S_, .i32⟩
  | .hbm, ⟨59, _⟩ => ⟨S4x200x200, .i32⟩
  | .hbm, ⟨60, _⟩ => ⟨S4x200x200, .i1⟩
  | .hbm, ⟨61, _⟩ => ⟨S_, .i32⟩
  | .hbm, ⟨62, _⟩ => ⟨S4x200x200, .i32⟩
  | .hbm, ⟨63, _⟩ => ⟨S4x200x200, .i32⟩
  | .hbm, ⟨64, _⟩ => ⟨S4x200x200, .i32⟩
  | .hbm, ⟨65, _⟩ => ⟨S4x200x200x1, .i32⟩
  | .hbm, ⟨66, _⟩ => ⟨S4x200x200x160, .f32⟩
  | .hbm, ⟨67, _⟩ => ⟨S_, .i32⟩
  | .hbm, ⟨68, _⟩ => ⟨S4x200x200, .i32⟩
  | .hbm, ⟨69, _⟩ => ⟨S4x200x200, .i1⟩
  | .hbm, ⟨70, _⟩ => ⟨S_, .i32⟩
  | .hbm, ⟨71, _⟩ => ⟨S4x200x200, .i32⟩
  | .hbm, ⟨72, _⟩ => ⟨S4x200x200, .i32⟩
  | .hbm, ⟨73, _⟩ => ⟨S4x200x200, .i32⟩
  | .hbm, ⟨74, _⟩ => ⟨S4x200x200x1, .i32⟩
  | .hbm, ⟨75, _⟩ => ⟨S4x200x200x160, .f32⟩
  | .hbm, ⟨76, _⟩ => ⟨S4x200x200x640, .f32⟩
  | .hbm, ⟨77, _⟩ => ⟨S4x200x200x160, .f32⟩
  | .hbm, ⟨78, _⟩ => ⟨S1x1x1x160, .f32⟩
  | .hbm, ⟨79, _⟩ => ⟨S4x200x200x160, .f32⟩
  | .hbm, ⟨80, _⟩ => ⟨S4x200x200x160, .f32⟩
  | .hbm, ⟨81, _⟩ => ⟨S_, .f32⟩
  | .hbm, ⟨82, _⟩ => ⟨S4x200x200x160, .f32⟩
  | .hbm, ⟨83, _⟩ => ⟨S4x200x200x160, .f32⟩
  | _, _ => ⟨S1024x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_c_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call0_cst : Ref sig .tc := ⟨.hbm, 81, rfl⟩
abbrev main_call0_v0 : Ref sig .tc := ⟨.hbm, 82, rfl⟩
abbrev main_v61 : Ref sig .tc := ⟨.hbm, 83, rfl⟩

abbrev nD : Nat := 1
abbrev τ : Topo := Topo.v7x

variable {F : FTy → Type} [FloatOps F]

class Facts₀ : Prop where
  bcast_S4x200_S4x200x1_0_1 : S4x200.BroadcastsInDim S4x200x1 (![0, 1] : Fin 2 → Fin S4x200x1.rank)
  bcast_S4x200_S4x1x200_0_2 : S4x200.BroadcastsInDim S4x1x200 (![0, 2] : Fin 2 → Fin S4x1x200.rank)
  bcast_S4x200x1_S4x200x200_0_1_2 : S4x200x1.BroadcastsInDim S4x200x200 (![0, 1, 2] : Fin 3 → Fin S4x200x200.rank)
  bcast_S4x1x200_S4x200x200_0_1_2 : S4x1x200.BroadcastsInDim S4x200x200 (![0, 1, 2] : Fin 3 → Fin S4x200x200.rank)
  bcast_S_S4x200x200 : S_.BroadcastsInDim S4x200x200 (![] : Fin 0 → Fin S4x200x200.rank)
  bcast_S4x200x200_S4x200x200x1_0_1_2 : S4x200x200.BroadcastsInDim S4x200x200x1 (![0, 1, 2] : Fin 3 → Fin S4x200x200x1.rank)
  concatenates_S4x200x200x160_S4x200x200x160_S4x200x200x160_S4x200x200x160_S4x200x200x640_d3 : Shape.Concatenates [S4x200x200x160, S4x200x200x160, S4x200x200x160, S4x200x200x160] S4x200x200x640 3
  bcast_S160_S1x1x1x160_3 : S160.BroadcastsInDim S1x1x1x160 (![3] : Fin 1 → Fin S1x1x1x160.rank)
  bcast_S1x1x1x160_S4x200x200x160_0_1_2_3 : S1x1x1x160.BroadcastsInDim S4x200x200x160 (![0, 1, 2, 3] : Fin 4 → Fin S4x200x200x160.rank)
  bcast_S_S4x200x200x160 : S_.BroadcastsInDim S4x200x200x160 (![] : Fin 0 → Fin S4x200x200x160.rank)
  gather_S1024x160_S4x200x200x1_S4x200x200x160_3_0_n_n_0_3_1160_wf : GatherDims.WF S1024x160 S4x200x200x1 S4x200x200x160 [3] [0] [] [0] [] 3 ![1, 160]
  dot_S4x200x200x640_S640x160_S4x200x200x160_3_0_012_1_n_n_wf : DotDims.WF S4x200x200x640 S640x160 S4x200x200x160 [3] [0] [0, 1, 2] [1] [] []

variable [Facts₀]

def gather_S1024x160_S4x200x200x1_S4x200x200x160_3_0_n_n_0_3_1160 : GatherDims S1024x160 S4x200x200x1 S4x200x200x160 where
  offsetDims := [3]
  collapsedSliceDims := [0]
  operandBatchingDims := []
  startIndicesBatchingDims := []
  startIndexMap := [0]
  indexVectorDim := 3
  sliceSizes := ![1, 160]
  wf := gather_S1024x160_S4x200x200x1_S4x200x200x160_3_0_n_n_0_3_1160_wf
def dot_S4x200x200x640_S640x160_S4x200x200x160_3_0_012_1_n_n : DotDims S4x200x200x640 S640x160 S4x200x200x160 where
  lhsContracting := [3]
  rhsContracting := [0]
  lhsNonContracting := [0, 1, 2]
  rhsNonContracting := [1]
  lhsBatch := []
  rhsBatch := []
  wf := dot_S4x200x200x640_S640x160_S4x200x200x160_3_0_012_1_n_n_wf

class Facts : Prop extends Facts₀ where

variable [Facts]
-- ==== Proof.Spec.lean ====
/-
  The common specification both programs are proved against.

  Both programs compute, for a batch `b`, a query position `l`, a key position `m` and an output feature `h`,

      out[b, l, m, h] = max ( Σ_t Σ_k pe_t[row_t, k] · W[160·t + k, h]  +  bias[h] ,  0 )

  where `t` ranges over the four position tables (start-start, start-end, end-start, end-end), `k` over the 160
  features of a table row, and `row_t` is the table row selected by the shifted position difference
  `pos_x[b, l] − pos_y[b, m] + 512` (32-bit arithmetic), read as a signed integer and capped into `[0, 1023]`.
  The reference reaches it as one contraction over the 640 concatenated features; the kernel as a sum of four
  rows of the pre-multiplied tables `pe_t · W_t`. Only commutativity and associativity of the sum are needed.

  `Nonneg` says every shifted difference is non-negative as a signed word: the domain on which the reference's
  own index normalisation (a negative index counted from the end of the table) is the identity.
-/
import Idealize.ShloMosaic.Lib.ValueIdx
import Idealize.ShloMosaic.PureOps.Ideal

noncomputable section

open scoped BigOperators

namespace Cert.Spec

open Idealize.ShloMosaic Idealize.ShloMosaic.ValueIdx

/-- The table row an index word selects: the word read signed, a negative value taken to row 0, capped at row 1023. -/
def rowOf (i : BitVec 32) : Fin 1024 := ⟨min i.toInt.toNat 1023, by omega⟩

/-- The shifted position difference as the programs compute it: `(p − q) + 512` on 32-bit words. -/
def gidx (p q : BitVec 32) : BitVec 32 := (p - q) + 512#32

/-- Row `r` of table `t` against column `h` of that table's 160-row slice of the weight matrix. -/
def tblTerm (pe : FVec Ideal ⟨2, ![1024, 160]⟩ .f32) (W : FVec Ideal ⟨2, ![640, 160]⟩ .f32) (t : Fin 4) (r : Fin 1024)
    (h : Fin 160) : Ideal .f32 :=
  ∑ k : Fin 160, pe (ix2 r k) * W (ix2 (⟨160 * t.val + k.val, by omega⟩ : Fin 640) h)

/-- The result array as one function of the argument arrays. -/
def G (pe0 pe1 pe2 pe3 : FVec Ideal ⟨2, ![1024, 160]⟩ .f32) (W : FVec Ideal ⟨2, ![640, 160]⟩ .f32)
    (bias : FVec Ideal ⟨1, ![160]⟩ .f32) (ps pe : IVec ⟨2, ![4, 200]⟩ 32) : FVec Ideal ⟨4, ![4, 200, 200, 160]⟩ .f32 :=
  fun j =>
    max (tblTerm pe0 W 0 (rowOf (gidx (ps (ix2 (j 0) (j 1))) (ps (ix2 (j 0) (j 2))))) (j 3)
        + tblTerm pe1 W 1 (rowOf (gidx (ps (ix2 (j 0) (j 1))) (pe (ix2 (j 0) (j 2))))) (j 3)
        + tblTerm pe2 W 2 (rowOf (gidx (pe (ix2 (j 0) (j 1))) (ps (ix2 (j 0) (j 2))))) (j 3)
        + tblTerm pe3 W 3 (rowOf (gidx (pe (ix2 (j 0) (j 1))) (pe (ix2 (j 0) (j 2))))) (j 3)
        + bias (ix1 (j 3))) 0

/-- Every shifted position difference is non-negative as a signed 32-bit word. -/
def Nonneg (ps pe : IVec ⟨2, ![4, 200]⟩ 32) : Prop :=
  ∀ (b : Fin 4) (l m : Fin 200),
    0 ≤ (gidx (ps (ix2 b l)) (ps (ix2 b m))).toInt ∧ 0 ≤ (gidx (ps (ix2 b l)) (pe (ix2 b m))).toInt
      ∧ 0 ≤ (gidx (pe (ix2 b l)) (ps (ix2 b m))).toInt ∧ 0 ≤ (gidx (pe (ix2 b l)) (pe (ix2 b m))).toInt

end Cert.Spec

end
-- ==== Proof.PreFacts.lean ====
/-
  The precondition decoded, and the word-level facts about the index words.

  The precondition's last four conjuncts say that each of the four arrays of shifted position differences
  `pos_x[b, l] − pos_y[b, m] + 512` (32-bit arithmetic) is non-negative at every entry when read as a signed word.
  Read at one entry, each says `0 ≤ (gidx (pos_x (b, l)) (pos_y (b, m))).toInt`.
-/
import proofs.«408597_j16320875725026_3_alg».proof.Pre_finite_inputs
import proofs.«408597_j16320875725026_3_alg».proof.Proof.Gen.Pre_finite_inputs
import proofs.«408597_j16320875725026_3_alg».proof.Proof.Spec
import Idealize.ShloMosaic.Lib.ReduceAll
import Idealize.ShloMosaic.Lib.Affine

namespace Cert.PreFacts

open Idealize.ShloMosaic Idealize.ShloMosaic.ValueIdx
open Cert.Pre_finite_inputs

/-- The scalar shape has one index. -/
instance subsingleton_scalar_idx : Subsingleton S_.Idx := ⟨fun _ _ => funext fun d => d.elim0⟩

section Decode
variable [Facts]

/-- The array of shifted differences, as the predicate builds it from two position arrays: the first laid along the
    second axis of a [4, 200, 200] box, the second along the third, subtracted, 512 added. -/
def diffArr (p q : IVec S4x200 32) : IVec S4x200x200 32 :=
  addi
    (subi
      (broadcastInDim S4x200x200 ![0, 1, 2] Facts.bcast_S4x200x1_S4x200x200_0_1_2
        (broadcastInDim S4x200x1 ![0, 1] Facts.bcast_S4x200_S4x200x1_0_1 p))
      (broadcastInDim S4x200x200 ![0, 1, 2] Facts.bcast_S4x1x200_S4x200x200_0_1_2
        (broadcastInDim S4x1x200 ![0, 2] Facts.bcast_S4x200_S4x1x200_0_2 q)))
    (broadcastInDim S4x200x200 ![] Facts.bcast_S_S4x200x200 (constantI S_ 32 512#32))

/-- Entry (b, l, m) of the array of shifted differences is `gidx` of the two positions it names. -/
theorem diffArr_apply (p q : IVec S4x200 32) (b : Fin 4) (l m : Fin 200) :
    diffArr p q (ix3 b l m) = Cert.Spec.gidx (p (ix2 b l)) (q (ix2 b m)) := by
  show p _ - q _ + 512#32 = p _ - q _ + 512#32
  congr 2
  · congr 1; funext a; match a with | ⟨0, _⟩ => rfl | ⟨1, _⟩ => rfl
  · congr 1; funext a; match a with | ⟨0, _⟩ => rfl | ⟨1, _⟩ => rfl

/-- One `jnp.all(pos_x[:, :, None] − pos_y[:, None, :] + 512 ≥ 0)` that holds says every shifted difference is
    non-negative as a signed word. -/
theorem nonneg_of_all (p q : IVec S4x200 32) (init : IVec S_ 1)
    (e : Host.reduce IntOp.andi
        (cmpi .sge (diffArr p q) (broadcastInDim S4x200x200 ![] Facts.bcast_S_S4x200x200 (constantI S_ 32 0#32)))
        init Facts.reducesTo_S4x200x200_S_d0_1_2 Facts.h_S_ ix0 = 1#1)
    (b : Fin 4) (l m : Fin 200) : 0 ≤ (Cert.Spec.gidx (p (ix2 b l)) (q (ix2 b m))).toInt := by
  have h1 := Host.reduce_andi_all _ init Facts.reducesTo_S4x200x200_S_d0_1_2 Facts.h_S_ ix0 e (ix3 b l m)
  have h2 : IntOp.cmpi .sge (diffArr p q (ix3 b l m)) 0#32 = 1#1 := h1
  rw [IntOp.cmpi_sge, diffArr_apply] at h2
  exact h2

/-- The precondition gives the non-negativity of all four families of shifted differences. -/
theorem nonneg_of_pre {F : FTy → Type} [FloatOps F] (a0 a1 a2 a3 : FVec F S1024x160 .f32) (a4 : FVec F S640x160 .f32)
    (a5 : FVec F S160 .f32) (ps pe : IVec S4x200 32)
    (h : Cert.Pre_finite_inputs.fn (F := F) a0 a1 a2 a3 a4 a5 ps pe = fun _ => 1#1) : Cert.Spec.Nonneg ps pe := by
  have h0 := congrFun h ix0
  dsimp only [fn, fn_part1, fn_part2, fn_part3, fn_part4, andi] at h0
  obtain ⟨h0, h4⟩ := IntOp.andi_eq_one.1 h0
  obtain ⟨h0, h3⟩ := IntOp.andi_eq_one.1 h0
  obtain ⟨h0, h2⟩ := IntOp.andi_eq_one.1 h0
  obtain ⟨-, h1⟩ := IntOp.andi_eq_one.1 h0
  intro b l m
  exact ⟨nonneg_of_all ps ps _ h1 b l m, nonneg_of_all ps pe _ h2 b l m, nonneg_of_all pe ps _ h3 b l m,
    nonneg_of_all pe pe _ h4 b l m⟩

end Decode

/-! ## Word-level facts about an index word

Pure facts about 32-bit words: nothing here names a program. -/

section Words

open Cert.Spec

/-- A word whose signed value lies in `[0, 1023]` reads the same unsigned. -/
theorem toNat_of_bounds {w : BitVec 32} (h0 : 0 ≤ w.toInt) (h1 : w.toInt ≤ 1023) : w.toNat ≤ 1023 ∧ w.toInt = w.toNat := by
  rw [BitVec.toInt_eq_toNat_cond] at h0 h1 ⊢
  split at h0 <;> omega

/-! ### The reference's index normalisation is the identity on non-negative words -/

/-- `select(i < 0, i + 1024, i)` is `i` when `i` is non-negative as a signed word. -/
theorem select_wrap_of_nonneg {i : BitVec 32} (hi : 0 ≤ i.toInt) :
    Scalar.select (IntOp.cmpi .slt i 0#32) (IntOp.addi i 1024#32) i = i := by
  have hn : ¬ IntOp.cmpi .slt i 0#32 = 1#1 := by
    rw [IntOp.cmpi_slt, show (0#32 : BitVec 32).toInt = 0 from by decide]; omega
  exact if_neg hn

/-- The same at one index of the arrays the reference builds: `z` and `k` are any arrays that read `0` and `1024` at `j`
    (the broadcast constants). -/
theorem select_wrap_apply {s : Shape} (x z k : IVec s 32) (j : s.Idx) (hz : z j = 0#32) (hk : k j = 1024#32)
    (hx : 0 ≤ (x j).toInt) : select (cmpi .slt x z) (addi x k) x j = x j := by
  show Scalar.select (IntOp.cmpi .slt (x j) (z j)) (IntOp.addi (x j) (k j)) (x j) = x j
  rw [hz, hk]
  exact select_wrap_of_nonneg hx

/-- The same for the whole array, with the constants broadcast from scalars as the reference prints them. -/
theorem select_wrap_bcast {t : Shape} (h : (⟨0, ![]⟩ : Shape).BroadcastsInDim t ![]) (x : IVec t 32)
    (hx : ∀ j, 0 ≤ (x j).toInt) :
    select (cmpi .slt x (broadcastInDim t ![] h (constantI ⟨0, ![]⟩ 32 0#32)))
      (addi x (broadcastInDim t ![] h (constantI ⟨0, ![]⟩ 32 1024#32))) x = x :=
  funext fun j => select_wrap_apply x _ _ j rfl rfl (hx j)

/-! ### The kernel's clip -/

/-- The kernel's clip of an index word into `[0, 1023]`: `minimum(1023, maximum(0, i))`, signed. -/
def clip (i : BitVec 32) : BitVec 32 := IntOp.minsi 1023#32 (IntOp.maxsi 0#32 i)

/-- The three cases of the clip. -/
theorem clip_cases (i : BitVec 32) :
    (i.toInt < 0 ∧ clip i = 0#32) ∨ (0 ≤ i.toInt ∧ i.toInt ≤ 1023 ∧ clip i = i) ∨ (1023 < i.toInt ∧ clip i = 1023#32) := by
  have e0 : (0#32 : BitVec 32).toInt = 0 := by decide
  have e1 : (1023#32 : BitVec 32).toInt = 1023 := by decide
  unfold clip IntOp.maxsi IntOp.minsi
  by_cases h0 : i.slt 0#32 = true
  · left
    rw [if_pos h0]
    rw [BitVec.slt_iff_toInt_lt, e0] at h0
    exact ⟨h0, by decide⟩
  · rw [if_neg h0]
    rw [BitVec.slt_iff_toInt_lt, e0] at h0
    by_cases h1 : (1023#32 : BitVec 32).slt i = true
    · right; right
      rw [if_pos h1]
      rw [BitVec.slt_iff_toInt_lt, e1] at h1
      exact ⟨h1, rfl⟩
    · right; left
      rw [if_neg h1]
      rw [BitVec.slt_iff_toInt_lt, e1] at h1
      exact ⟨by omega, by omega, rfl⟩

/-- The clipped word lies in `[0, 1023]`, whatever the word. -/
theorem clip_bounds (i : BitVec 32) : 0 ≤ (clip i).toInt ∧ (clip i).toInt ≤ 1023 := by
  have e0 : (0#32 : BitVec 32).toInt = 0 := by decide
  have e1 : (1023#32 : BitVec 32).toInt = 1023 := by decide
  rcases clip_cases i with ⟨_, h⟩ | ⟨h0, h1, h⟩ | ⟨_, h⟩ <;> rw [h]
  · rw [e0]; omega
  · exact ⟨h0, h1⟩
  · rw [e1]; omega

/-- The clipped word selects the same table row as the word. -/
theorem rowOf_clip (i : BitVec 32) : rowOf (clip i) = rowOf i := by
  have e0 : (0#32 : BitVec 32).toInt = 0 := by decide
  have e1 : (1023#32 : BitVec 32).toInt = 1023 := by decide
  apply Fin.ext
  show min (clip i).toInt.toNat 1023 = min i.toInt.toNat 1023
  rcases clip_cases i with ⟨h0, h⟩ | ⟨_, _, h⟩ | ⟨h1, h⟩ <;> rw [h]
  · rw [e0]; omega
  · rw [e1]; omega

/-- The row a word in `[0, 1023]` selects is its unsigned value. -/
theorem rowOf_val_of_bounds {w : BitVec 32} (h0 : 0 ≤ w.toInt) (h1 : w.toInt ≤ 1023) : (rowOf w).val = w.toNat := by
  obtain ⟨hN, hI⟩ := toNat_of_bounds h0 h1
  show min w.toInt.toNat 1023 = w.toNat
  omega

/-- The unsigned value of the clipped word is the row the word selects. -/
theorem toNat_clip (i : BitVec 32) : (clip i).toNat = (rowOf i).val := by
  rw [← rowOf_clip, rowOf_val_of_bounds (clip_bounds i).1 (clip_bounds i).2]

/-! ### The one-hot comparison

Over a chunk of 256 rows starting at `lo = 256 · c`, the kernel compares `w − lo` (32-bit subtraction) with the lane number
`j < 256`. Subtraction of a fixed word is a bijection of the 32-bit words, so the comparison holds exactly when
`w = lo + j`; no sign or overflow condition is involved beyond `w`, `lo` and `j` being small. -/

/-- The comparison `w − lo = j` on small words is `w = lo + j` on their values. -/
theorem sub_eq_iff_toNat {w lo jw : BitVec 32} (hw : w.toNat ≤ 1023) (hlo : lo.toNat ≤ 768) (hj : jw.toNat < 256) :
    w - lo = jw ↔ w.toNat = lo.toNat + jw.toNat := by
  rw [← BitVec.toNat_inj, BitVec.toNat_sub]
  omega

/-- ONE-HOT: for a word in `[0, 1023]`, chunk `c` (whose first row `lo` is `256 · c`) and lane `j`:
    `w − lo = j` exactly when `w` is row `256 · c + j`. -/
theorem onehot_iff {w : BitVec 32} (h0 : 0 ≤ w.toInt) (h1 : w.toInt ≤ 1023) (c : Fin 4) (j : Fin 256) (lo : BitVec 32)
    (hlo : lo.toNat = 256 * c.val) : w - lo = BitVec.ofNat 32 j.val ↔ w.toNat = 256 * c.val + j.val := by
  have hj : (BitVec.ofNat 32 j.val).toNat = j.val := by rw [BitVec.toNat_ofNat]; omega
  rw [sub_eq_iff_toNat (toNat_of_bounds h0 h1).1 (by omega) (by omega), hlo, hj]

/-- Exactly one chunk and lane match: the quotient and remainder of the row by 256. -/
theorem onehot_iff_divmod {w : BitVec 32} (h0 : 0 ≤ w.toInt) (h1 : w.toInt ≤ 1023) (c : Fin 4) (j : Fin 256) (lo : BitVec 32)
    (hlo : lo.toNat = 256 * c.val) :
    w - lo = BitVec.ofNat 32 j.val ↔ c.val = w.toNat / 256 ∧ j.val = w.toNat % 256 := by
  rw [onehot_iff h0 h1 c j lo hlo]
  omega

/-- The one-hot comparison on the clipped word, in terms of the row the unclipped word selects. -/
theorem onehot_clip_iff (i : BitVec 32) (c : Fin 4) (j : Fin 256) (lo : BitVec 32) (hlo : lo.toNat = 256 * c.val) :
    clip i - lo = BitVec.ofNat 32 j.val ↔ (rowOf i).val = 256 * c.val + j.val := by
  rw [onehot_iff (clip_bounds i).1 (clip_bounds i).2 c j lo hlo, toNat_clip]

/-- The four chunk starts as the kernel writes them. -/
theorem lo_literals : (0#32 : BitVec 32).toNat = 256 * (0 : Fin 4).val ∧ (256#32 : BitVec 32).toNat = 256 * (1 : Fin 4).val
    ∧ (512#32 : BitVec 32).toNat = 256 * (2 : Fin 4).val ∧ (768#32 : BitVec 32).toNat = 256 * (3 : Fin 4).val := by decide

/-! ### The guard

A chunk's one-hot product is computed only when the chunk's row range `[lo, hi)` meets the range `[vmin, vmax]` of the
index words of the tile: `vmax ≥ lo ∧ vmin < hi`, the bit widened to 32 bits and compared with 0. -/

/-- The guard as the kernel computes it from the tile's least and greatest index word. -/
def guard (vmin vmax lo hi : BitVec 32) : BitVec 1 :=
  Scalar.cmpi .ne (Scalar.extui (Scalar.andi (Scalar.cmpi .sge vmax lo) (Scalar.cmpi .slt vmin hi))) 0#32

/-- The guard holds exactly when `lo ≤ vmax` and `vmin < hi`, signed. -/
theorem guard_iff (vmin vmax lo hi : BitVec 32) : guard vmin vmax lo hi = 1#1 ↔ lo.toInt ≤ vmax.toInt ∧ vmin.toInt < hi.toInt := by
  unfold guard
  rw [Scalar.guard_iff]
  show IntOp.andi (IntOp.cmpi .sge vmax lo) (IntOp.cmpi .slt vmin hi) = 1#1 ↔ _
  rw [IntOp.andi_eq_one, IntOp.cmpi_sge, IntOp.cmpi_slt]

/-- If a word of the tile (so between `vmin` and `vmax`, signed) in `[0, 1023]` lies in chunk `c`, the chunk's guard holds. -/
theorem guard_of_mem {vmin vmax w : BitVec 32} (hmin : vmin.toInt ≤ w.toInt) (hmax : w.toInt ≤ vmax.toInt)
    (h0 : 0 ≤ w.toInt) (h1 : w.toInt ≤ 1023) (c : Fin 4) (hc : w.toNat / 256 = c.val) (lo hi : BitVec 32)
    (hlo : lo.toInt = 256 * c.val) (hhi : hi.toInt = 256 * (c.val + 1)) : guard vmin vmax lo hi = 1#1 := by
  obtain ⟨_, hI⟩ := toNat_of_bounds h0 h1
  rw [guard_iff]
  omega

/-- Contrapositive: when a chunk's guard fails, no word of the tile lies in that chunk. -/
theorem not_mem_of_guard_ne {vmin vmax w : BitVec 32} (hmin : vmin.toInt ≤ w.toInt) (hmax : w.toInt ≤ vmax.toInt)
    (h0 : 0 ≤ w.toInt) (h1 : w.toInt ≤ 1023) (c : Fin 4) (lo hi : BitVec 32)
    (hlo : lo.toInt = 256 * c.val) (hhi : hi.toInt = 256 * (c.val + 1)) (hg : ¬ guard vmin vmax lo hi = 1#1) :
    w.toNat / 256 ≠ c.val :=
  fun hc => hg (guard_of_mem hmin hmax h0 h1 c hc lo hi hlo hhi)

/-- The chunk bounds as the kernel writes them, read signed. -/
theorem lohi_literals :
    ((0#32 : BitVec 32).toInt = 256 * (0 : Fin 4).val ∧ (256#32 : BitVec 32).toInt = 256 * ((0 : Fin 4).val + 1))
    ∧ ((256#32 : BitVec 32).toInt = 256 * (1 : Fin 4).val ∧ (512#32 : BitVec 32).toInt = 256 * ((1 : Fin 4).val + 1))
    ∧ ((512#32 : BitVec 32).toInt = 256 * (2 : Fin 4).val ∧ (768#32 : BitVec 32).toInt = 256 * ((2 : Fin 4).val + 1))
    ∧ ((768#32 : BitVec 32).toInt = 256 * (3 : Fin 4).val ∧ (1024#32 : BitVec 32).toInt = 256 * ((3 : Fin 4).val + 1)) := by decide

end Words

end Cert.PreFacts
-- ==== Proof.LibGatherConcat.lean ====
/-
  Reading three shape operations at an index, and splitting a sum over 640 terms into four sums over 160
  (general lemmas: nothing here depends on a program).

  * A row gather. For an operand [N, D] and an array of start indices [B, L, M, 1] with the dimension numbers
    "offset axis 3, collapsed operand axis 0, start index map [0], index vector axis 3, slices 1 × D", the result
    [B, L, M, D] at (b, l, m, k) is the operand's row r at column k, where r is the start index at (b, l, m, 0) read as
    a signed integer, a negative value taken to 0, capped at N − 1.
  * A concatenation of four pieces [4, 200, 200, 160] along the last axis into [4, 200, 200, 640]: at column
    160·t + k it is piece t at column k. Likewise four pieces [4, 5, 4, 1] into [4, 5, 4, 4]: at column t it is piece
    t at column 0.
  * A sum over 640 terms is the sum over t < 4 of the sums over k < 160 of the term at 160·t + k (the map
    (t, k) ↦ 160·t + k is a bijection onto the 640 indices), also written out as four sums.
-/
import Idealize.ShloMosaic.Lib.ValueIdx
import Idealize.ShloMosaic.Lib.Pipeline.Value
import Idealize.ShloMosaic.PureOps.Ideal
import Mathlib.Algebra.BigOperators.Fin
import Mathlib.Data.Fintype.BigOperators
import Mathlib.Logic.Equiv.Fin.Basic

noncomputable section

open scoped BigOperators

namespace Cert.Lib.GatherConcat

open Idealize.ShloMosaic Idealize.ShloMosaic.ValueIdx

/-! ## A row gather read at an index -/

section Rows
variable {α : Type}

/-- The dimension numbers of a row gather: operand `[N, D]`, start indices `[B, L, M, 1]`, result `[B, L, M, D]`;
    offset axis 3, operand axis 0 collapsed and named by the start index map, the index vector on axis 3, slices
    `1 × D`. Their conditions `wf` are decided on literal shapes; a record with these fields is this one by `rfl`. -/
abbrev rowDims (N D B L M : Nat)
    (wf : GatherDims.WF ⟨2, ![N, D]⟩ ⟨4, ![B, L, M, 1]⟩ ⟨4, ![B, L, M, D]⟩ [3] [0] [] [0] [] 3 ![1, D]) :
    GatherDims ⟨2, ![N, D]⟩ ⟨4, ![B, L, M, 1]⟩ ⟨4, ![B, L, M, D]⟩ where
  offsetDims := [3]
  collapsedSliceDims := [0]
  operandBatchingDims := []
  startIndicesBatchingDims := []
  startIndexMap := [0]
  indexVectorDim := 3
  sliceSizes := ![1, D]
  wf := wf

/-- The operand's row coordinate read by result index `(b, l, m, k)`: the start index at `(b, l, m, 0)`, signed,
    capped into `[0, N − 1]` (no batching axis, and a collapsed axis has no offset). -/
theorem rowDims_coord0 {N D B L M w : Nat}
    (wf : GatherDims.WF ⟨2, ![N, D]⟩ ⟨4, ![B, L, M, 1]⟩ ⟨4, ![B, L, M, D]⟩ [3] [0] [] [0] [] 3 ![1, D])
    (idx : IVec ⟨4, ![B, L, M, 1]⟩ w) (b : Fin B) (l : Fin L) (m : Fin M) (k : Fin D) :
    (rowDims N D B L M wf).start (ix4 b l m k) idx 0 + (rowDims N D B L M wf).batchCoord (ix4 b l m k) 0
      + (rowDims N D B L M wf).offCoord (ix4 b l m k) 0 = min (idx (ix4 b l m 0)).toInt.toNat (N - 1) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowDims N D B L M wf).startIndexMap from List.mem_singleton.mpr rfl)]
  have hsi : (rowDims N D B L M wf).siIdx (ix4 b l m k) ⟨List.idxOf (0 : Fin 2) (rowDims N D B L M wf).startIndexMap,
      List.idxOf_lt_length_iff.2 (List.mem_singleton.mpr rfl)⟩ = ix4 b l m 0 := by
    funext c; refine Fin.ext ?_
    match c with
    | ⟨0, _⟩ => rfl
    | ⟨1, _⟩ => rfl
    | ⟨2, _⟩ => rfl
    | ⟨3, _⟩ => rfl
  rw [hsi]
  rfl

/-- The operand's column coordinate read by result index `(b, l, m, k)`: the offset `k` (the start index map does not
    name axis 1, so its slice starts at 0). -/
theorem rowDims_coord1 {N D B L M w : Nat}
    (wf : GatherDims.WF ⟨2, ![N, D]⟩ ⟨4, ![B, L, M, 1]⟩ ⟨4, ![B, L, M, D]⟩ [3] [0] [] [0] [] 3 ![1, D])
    (idx : IVec ⟨4, ![B, L, M, 1]⟩ w) (b : Fin B) (l : Fin L) (m : Fin M) (k : Fin D) :
    (rowDims N D B L M wf).start (ix4 b l m k) idx 1 + (rowDims N D B L M wf).batchCoord (ix4 b l m k) 1
      + (rowDims N D B L M wf).offCoord (ix4 b l m k) 1 = k.val := by
  rw [GatherDims.batchCoord_eq_zero _ _ _ List.not_mem_nil, Nat.add_zero]
  unfold GatherDims.start
  rw [dif_neg (show ¬ (1 : Fin 2) ∈ (rowDims N D B L M wf).startIndexMap from
    (by decide : ¬ (1 : Fin 2) ∈ ([0] : List (Fin 2)))), Nat.zero_add]
  unfold GatherDims.offCoord
  rw [dif_pos (show (1 : Fin 2) ∈ (rowDims N D B L M wf).sKept from (GatherDims.mem_sKept _ _).mpr
    ⟨(by decide : ¬ (1 : Fin 2) ∈ ([0] : List (Fin 2))), List.not_mem_nil⟩)]
  rfl

/-- THE ROW GATHER READ AT `(b, l, m, k)`, any sizes: the operand at row `min (idx[b, l, m, 0] signed) (N − 1)`, column
    `k`. -/
theorem gather_rows_apply {N D B L M w : Nat} (hN : 0 < N)
    (wf : GatherDims.WF ⟨2, ![N, D]⟩ ⟨4, ![B, L, M, 1]⟩ ⟨4, ![B, L, M, D]⟩ [3] [0] [] [0] [] 3 ![1, D])
    (x : (⟨2, ![N, D]⟩ : Shape).Idx → α) (idx : IVec ⟨4, ![B, L, M, 1]⟩ w)
    (b : Fin B) (l : Fin L) (m : Fin M) (k : Fin D) :
    Host.gather (rowDims N D B L M wf) x idx (ix4 b l m k)
      = x (ix2 (⟨min (idx (ix4 b l m 0)).toInt.toNat (N - 1), by omega⟩ : Fin N) k) := by
  unfold Host.gather
  congr 1
  funext a
  refine Fin.ext ?_
  match a with
  | ⟨0, _⟩ => exact rowDims_coord0 wf idx b l m k
  | ⟨1, _⟩ => exact rowDims_coord1 wf idx b l m k

/-- The row gather of a `[1024, 160]` table at a `[4, 200, 200, 1]` array of start indices, read at `(b, l, m, k)`:
    the table at row `min (idx[b, l, m, 0] signed) 1023`, column `k`. -/
theorem gather_rows_1024_apply {w : Nat}
    (wf : GatherDims.WF ⟨2, ![1024, 160]⟩ ⟨4, ![4, 200, 200, 1]⟩ ⟨4, ![4, 200, 200, 160]⟩ [3] [0] [] [0] [] 3 ![1, 160])
    (x : (⟨2, ![1024, 160]⟩ : Shape).Idx → α) (idx : IVec ⟨4, ![4, 200, 200, 1]⟩ w)
    (b : Fin 4) (l m : Fin 200) (k : Fin 160) :
    Host.gather (rowDims 1024 160 4 200 200 wf) x idx (ix4 b l m k)
      = x (ix2 (⟨min (idx (ix4 b l m 0)).toInt.toNat 1023, by omega⟩ : Fin 1024) k) :=
  gather_rows_apply (by decide) wf x idx b l m k

/-- The same for ANY record `d` of those dimension numbers (`hd` is `rfl` for a record written field by field). -/
theorem gather_rows_1024_apply_of_eq {w : Nat}
    (d : GatherDims ⟨2, ![1024, 160]⟩ ⟨4, ![4, 200, 200, 1]⟩ ⟨4, ![4, 200, 200, 160]⟩)
    (wf : GatherDims.WF ⟨2, ![1024, 160]⟩ ⟨4, ![4, 200, 200, 1]⟩ ⟨4, ![4, 200, 200, 160]⟩ [3] [0] [] [0] [] 3 ![1, 160])
    (hd : d = rowDims 1024 160 4 200 200 wf)
    (x : (⟨2, ![1024, 160]⟩ : Shape).Idx → α) (idx : IVec ⟨4, ![4, 200, 200, 1]⟩ w)
    (b : Fin 4) (l m : Fin 200) (k : Fin 160) :
    Host.gather d x idx (ix4 b l m k)
      = x (ix2 (⟨min (idx (ix4 b l m 0)).toInt.toNat 1023, by omega⟩ : Fin 1024) k) := by
  subst hd
  exact gather_rows_1024_apply wf x idx b l m k

end Rows

/-! ## Four pieces laid end to end along the last axis, read at an index -/

section Concat
variable {α : Type}

/-- Four `[4, 200, 200, 160]` pieces concatenated along axis 3, read at `(b, l, m, 160·t + k)`: piece `t` at
    `(b, l, m, k)` (the column over 160 names the piece, the column modulo 160 the place in it). -/
theorem concat4_apply
    (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (t : Fin 4) (k : Fin 160) (hk : 160 * t.val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * t.val + k.val, hk⟩ : Fin 640))
      = (![x0, x1, x2, x3] t) (ix4 b l m k) := by
  refine concatenate_ofFn_apply (t := ⟨4, ![4, 200, 200, 640]⟩) (s₁ := ⟨4, ![4, 200, 200, 160]⟩) 3 ![x0, x1, x2, x3] h rfl
    160 rfl (ix4 b l m (⟨160 * t.val + k.val, hk⟩ : Fin 640)) t ?_ (ix4 b l m k) ?_ ?_
  · show (160 * t.val + k.val) / 160 = t.val
    have := k.isLt
    omega
  · show k.val = (160 * t.val + k.val) % 160
    have := k.isLt
    omega
  · intro c hc
    match c with
    | ⟨0, _⟩ => rfl
    | ⟨1, _⟩ => rfl
    | ⟨2, _⟩ => rfl
    | ⟨3, _⟩ => exact absurd rfl hc

/-- Columns `160·0 + k` of that concatenation: the first piece at column `k`. -/
theorem concat4_apply_0 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (0 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (0 : Fin 4).val + k.val, hk⟩ : Fin 640))
      = x0 (ix4 b l m k) :=
  concat4_apply x0 x1 x2 x3 h b l m 0 k hk

/-- Columns `160·1 + k` of that concatenation: the second piece at column `k`. -/
theorem concat4_apply_1 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (1 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (1 : Fin 4).val + k.val, hk⟩ : Fin 640))
      = x1 (ix4 b l m k) :=
  concat4_apply x0 x1 x2 x3 h b l m 1 k hk

/-- Columns `160·2 + k` of that concatenation: the third piece at column `k`. -/
theorem concat4_apply_2 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (2 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (2 : Fin 4).val + k.val, hk⟩ : Fin 640))
      = x2 (ix4 b l m k) :=
  concat4_apply x0 x1 x2 x3 h b l m 2 k hk

/-- Columns `160·3 + k` of that concatenation: the fourth piece at column `k`. -/
theorem concat4_apply_3 (x0 x1 x2 x3 : (⟨4, ![4, 200, 200, 160]⟩ : Shape).Idx → α)
    (h : Shape.Concatenates [⟨4, ![4, 200, 200, 160]⟩, ⟨4, ![4, 200, 200, 160]⟩, ⟨4, ![4, 200, 200, 160]⟩,
      ⟨4, ![4, 200, 200, 160]⟩] ⟨4, ![4, 200, 200, 640]⟩ 3)
    (b : Fin 4) (l m : Fin 200) (k : Fin 160) (hk : 160 * (3 : Fin 4).val + k.val < 640) :
    concatenate ⟨4, ![4, 200, 200, 640]⟩ 3
        [⟨⟨4, ![4, 200, 200, 160]⟩, x0⟩, ⟨⟨4, ![4, 200, 200, 160]⟩, x1⟩, ⟨⟨4, ![4, 200, 200, 160]⟩, x2⟩,
          ⟨⟨4, ![4, 200, 200, 160]⟩, x3⟩] h (ix4 b l m (⟨160 * (3 : Fin 4).val + k.val, hk⟩ : Fin 640))
      = x3 (ix4 b l m k) :=
  concat4_apply x0 x1 x2 x3 h b l m 3 k hk

/-- Four `[4, 5, 4, 1]` pieces concatenated along axis 3 into `[4, 5, 4, 4]`, read at `(b, i, c, t)`: piece `t` at
    `(b, i, c, 0)` (every piece has one column, so the column names the piece). -/
theorem concat4_unit_apply
    (x0 x1 x2 x3 : (⟨4, ![4, 5, 4, 1]⟩ : Shape).Idx → α)
    (h : Shape.Concatenates [⟨4, ![4, 5, 4, 1]⟩, ⟨4, ![4, 5, 4, 1]⟩, ⟨4, ![4, 5, 4, 1]⟩, ⟨4, ![4, 5, 4, 1]⟩]
      ⟨4, ![4, 5, 4, 4]⟩ 3)
    (b : Fin 4) (i : Fin 5) (c : Fin 4) (t : Fin 4) :
    concatenate ⟨4, ![4, 5, 4, 4]⟩ 3
        [⟨⟨4, ![4, 5, 4, 1]⟩, x0⟩, ⟨⟨4, ![4, 5, 4, 1]⟩, x1⟩, ⟨⟨4, ![4, 5, 4, 1]⟩, x2⟩, ⟨⟨4, ![4, 5, 4, 1]⟩, x3⟩] h
        (ix4 b i c t)
      = (![x0, x1, x2, x3] t) (ix4 b i c 0) := by
  refine concatenate_ofFn_apply (t := ⟨4, ![4, 5, 4, 4]⟩) (s₁ := ⟨4, ![4, 5, 4, 1]⟩) 3 ![x0, x1, x2, x3] h rfl
    1 rfl (ix4 b i c t) t ?_ (ix4 b i c 0) ?_ ?_
  · show t.val / 1 = t.val
    exact Nat.div_one _
  · show (0 : Nat) = t.val % 1
    exact (Nat.mod_one _).symm
  · intro a ha
    match a with
    | ⟨0, _⟩ => rfl
    | ⟨1, _⟩ => rfl
    | ⟨2, _⟩ => rfl
    | ⟨3, _⟩ => exact absurd rfl ha

end Concat

/-! ## A sum over 640 terms as four sums over 160 -/

section Sums
variable {M : Type} [AddCommMonoid M]

/-- A sum over `640 = 4 · 160` terms, grouped: the sum over `t < 4` of the sums over `k < 160` of the term at
    `160·t + k` (a re-indexing along the bijection `(t, k) ↦ 160·t + k`). -/
theorem sum_640_split (f : Fin 640 → M) :
    ∑ x, f x = ∑ t : Fin 4, ∑ k : Fin 160, f (⟨160 * t.val + k.val, by omega⟩ : Fin 640) := by
  rw [← Equiv.sum_comp (finProdFinEquiv : Fin 4 × Fin 160 ≃ Fin 640) f, Fintype.sum_prod_type]
  refine Finset.sum_congr rfl fun t _ => Finset.sum_congr rfl fun k _ => congrArg f (Fin.ext ?_)
  show k.val + 160 * t.val = 160 * t.val + k.val
  omega

/-- The same with the four groups written out, in the order `t = 0, 1, 2, 3`, associated to the left. -/
theorem sum_640_split4 (f : Fin 640 → M) :
    ∑ x, f x
      = ∑ k : Fin 160, f (⟨160 * (0 : Fin 4).val + k.val, by omega⟩ : Fin 640)
        + ∑ k : Fin 160, f (⟨160 * (1 : Fin 4).val + k.val, by omega⟩ : Fin 640)
        + ∑ k : Fin 160, f (⟨160 * (2 : Fin 4).val + k.val, by omega⟩ : Fin 640)
        + ∑ k : Fin 160, f (⟨160 * (3 : Fin 4).val + k.val, by omega⟩ : Fin 640) := by
  rw [sum_640_split, Fin.sum_univ_four]

end Sums

end Cert.Lib.GatherConcat

end
-- ==== Proof.RefValue.lean ====
/-
  The reference program's result is the common specification's array.

  The reference forms, for each of the four position tables, the array of shifted position differences
  pos_x[b, l] − pos_y[b, m] + 512, replaces a negative entry i by i + 1024, gathers the table's rows at those
  entries, lays the four gathered rows end to end (640 features), contracts them against the weight matrix, adds the
  bias and takes the maximum with zero. Where every shifted difference is non-negative as a signed word the replacement
  is the identity, so the row gathered is rowOf of the shifted difference; and the contraction over the 640 laid-out
  features is the sum over the four tables of the contractions over each table's 160 features against that table's
  slice of the weight matrix: the specification's four tblTerm sums. Only the grouping of a finite sum is used.
-/
import proofs.«408597_j16320875725026_3_alg».proof.Proof.Gen.ReferenceIdeal.Run
import proofs.«408597_j16320875725026_3_alg».proof.Proof.Gen.ReferenceIdeal.Read
import proofs.«408597_j16320875725026_3_alg».proof.Proof.Spec
import proofs.«408597_j16320875725026_3_alg».proof.Proof.LibGatherConcat
import proofs.«408597_j16320875725026_3_alg».proof.Proof.PreFacts
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.Lib.GatherConcat

section Words
variable {F : FTy → Type} [FloatOps F]

/-! ## The four arrays of index words, read at an entry

Each is the shifted difference of two position arrays: the first laid along the second axis of a [4, 200, 200] box, the
second along the third, subtracted, 512 added. Its entry (b, l, m) is gidx of the two positions. -/

/-- Table 0's index word at (b, l, m): start position against start position. -/
theorem word0 (x6 : (⟨S4x200, .i32⟩ : BufTy).Contents (Elt F)) (b : Fin 4) (l m : Fin 200) :
    val_main_v6 (F := F) x6 (ix3 b l m) = gidx (x6 (ix2 b l)) (x6 (ix2 b m)) :=
  Cert.PreFacts.diffArr_apply x6 x6 b l m

/-- Table 1's index word at (b, l, m): start position against end position. -/
theorem word1 (x6 x7 : (⟨S4x200, .i32⟩ : BufTy).Contents (Elt F)) (b : Fin 4) (l m : Fin 200) :
    val_main_v13 (F := F) x6 x7 (ix3 b l m) = gidx (x6 (ix2 b l)) (x7 (ix2 b m)) :=
  Cert.PreFacts.diffArr_apply x6 x7 b l m

/-- Table 2's index word at (b, l, m): end position against start position. -/
theorem word2 (x6 x7 : (⟨S4x200, .i32⟩ : BufTy).Contents (Elt F)) (b : Fin 4) (l m : Fin 200) :
    val_main_v20 (F := F) x6 x7 (ix3 b l m) = gidx (x7 (ix2 b l)) (x6 (ix2 b m)) :=
  Cert.PreFacts.diffArr_apply x7 x6 b l m

/-- Table 3's index word at (b, l, m): end position against end position. -/
theorem word3 (x7 : (⟨S4x200, .i32⟩ : BufTy).Contents (Elt F)) (b : Fin 4) (l m : Fin 200) :
    val_main_v27 (F := F) x7 (ix3 b l m) = gidx (x7 (ix2 b l)) (x7 (ix2 b m)) :=
  Cert.PreFacts.diffArr_apply x7 x7 b l m

/-! ## The normalised index words

The reference replaces a negative index word i by i + 1024 (an index counted from the table's end). On a non-negative
word that is the identity. -/

/-- Table 0's normalised index word is the index word where that is non-negative. -/
theorem norm0 (x6 : (⟨S4x200, .i32⟩ : BufTy).Contents (Elt F)) (b : Fin 4) (l m : Fin 200)
    (h : 0 ≤ (gidx (x6 (ix2 b l)) (x6 (ix2 b m))).toInt) :
    val_main_v32 (F := F) x6 (ix3 b l m) = gidx (x6 (ix2 b l)) (x6 (ix2 b m)) := by
  rw [val_main_v32_apply, val_main_v29_apply, val_main_v31_apply, val_main_v28_apply, val_main_c_3_apply,
    val_main_v30_apply, val_main_c_4_apply, word0]
  exact Cert.PreFacts.select_wrap_of_nonneg h

/-- Table 1's normalised index word is the index word where that is non-negative. -/
theorem norm1 (x6 x7 : (⟨S4x200, .i32⟩ : BufTy).Contents (Elt F)) (b : Fin 4) (l m : Fin 200)
    (h : 0 ≤ (gidx (x6 (ix2 b l)) (x7 (ix2 b m))).toInt) :
    val_main_v39 (F := F) x6 x7 (ix3 b l m) = gidx (x6 (ix2 b l)) (x7 (ix2 b m)) := by
  rw [val_main_v39_apply, val_main_v36_apply, val_main_v38_apply, val_main_v35_apply, val_main_c_5_apply,
    val_main_v37_apply, val_main_c_6_apply, word1]
  exact Cert.PreFacts.select_wrap_of_nonneg h

/-- Table 2's normalised index word is the index word where that is non-negative. -/
theorem norm2 (x6 x7 : (⟨S4x200, .i32⟩ : BufTy).Contents (Elt F)) (b : Fin 4) (l m : Fin 200)
    (h : 0 ≤ (gidx (x7 (ix2 b l)) (x6 (ix2 b m))).toInt) :
    val_main_v46 (F := F) x6 x7 (ix3 b l m) = gidx (x7 (ix2 b l)) (x6 (ix2 b m)) := by
  rw [val_main_v46_apply, val_main_v43_apply, val_main_v45_apply, val_main_v42_apply, val_main_c_7_apply,
    val_main_v44_apply, val_main_c_8_apply, word2]
  exact Cert.PreFacts.select_wrap_of_nonneg h

/-- Table 3's normalised index word is the index word where that is non-negative. -/
theorem norm3 (x7 : (⟨S4x200, .i32⟩ : BufTy).Contents (Elt F)) (b : Fin 4) (l m : Fin 200)
    (h : 0 ≤ (gidx (x7 (ix2 b l)) (x7 (ix2 b m))).toInt) :
    val_main_v53 (F := F) x7 (ix3 b l m) = gidx (x7 (ix2 b l)) (x7 (ix2 b m)) := by
  rw [val_main_v53_apply, val_main_v50_apply, val_main_v52_apply, val_main_v49_apply, val_main_c_9_apply,
    val_main_v51_apply, val_main_c_10_apply, word3]
  exact Cert.PreFacts.select_wrap_of_nonneg h

/-! ## The four gathered pieces, read at an index

A row gather reads, at (b, l, m, k), the table at the row its start index at (b, l, m, 0) selects (signed, capped
into the table) and column k; the start index there is the normalised index word at (b, l, m). -/

/-- The first gathered piece at (b, l, m, k): the row of table 0 the shifted difference selects, at column k. -/
theorem piece0 (x0 : (⟨S1024x160, .f32⟩ : BufTy).Contents (Elt F)) (x6 : (⟨S4x200, .i32⟩ : BufTy).Contents (Elt F))
    (b : Fin 4) (l m : Fin 200) (k : Fin 160) (h : 0 ≤ (gidx (x6 (ix2 b l)) (x6 (ix2 b m))).toInt) :
    val_main_v34 (F := F) x0 x6 (ix4 b l m k) = x0 (ix2 (rowOf (gidx (x6 (ix2 b l)) (x6 (ix2 b m)))) k) := by
  have e : idx_main_v33 (ix4 b l m (0 : Fin 1)) = ix3 b l m :=
    funext fun a => Fin.ext (by match a with | ⟨0, _⟩ => rfl | ⟨1, _⟩ => rfl | ⟨2, _⟩ => rfl)
  have hw : val_main_v33 (F := F) x6 (ix4 b l m (0 : Fin 1)) = gidx (x6 (ix2 b l)) (x6 (ix2 b m)) := by
    rw [val_main_v33_apply, e]
    exact norm0 x6 b l m h
  unfold val_main_v34
  rw [gather_rows_1024_apply_of_eq gather_S1024x160_S4x200x200x1_S4x200x200x160_3_0_n_n_0_3_1160 _ rfl]
  exact congrArg (fun w => x0 (ix2 (rowOf w) k)) hw

/-- The second gathered piece at (b, l, m, k): the row of table 1 the shifted difference selects, at column k. -/
theorem piece1 (x1 : (⟨S1024x160, .f32⟩ : BufTy).Contents (Elt F)) (x6 x7 : (⟨S4x200, .i32⟩ : BufTy).Contents (Elt F))
    (b : Fin 4) (l m : Fin 200) (k : Fin 160) (h : 0 ≤ (gidx (x6 (ix2 b l)) (x7 (ix2 b m))).toInt) :
    val_main_v41 (F := F) x1 x6 x7 (ix4 b l m k) = x1 (ix2 (rowOf (gidx (x6 (ix2 b l)) (x7 (ix2 b m)))) k) := by
  have e : idx_main_v40 (ix4 b l m (0 : Fin 1)) = ix3 b l m :=
    funext fun a => Fin.ext (by match a with | ⟨0, _⟩ => rfl | ⟨1, _⟩ => rfl | ⟨2, _⟩ => rfl)
  have hw : val_main_v40 (F := F) x6 x7 (ix4 b l m (0 : Fin 1)) = gidx (x6 (ix2 b l)) (x7 (ix2 b m)) := by
    rw [val_main_v40_apply, e]
    exact norm1 x6 x7 b l m h
  unfold val_main_v41
  rw [gather_rows_1024_apply_of_eq gather_S1024x160_S4x200x200x1_S4x200x200x160_3_0_n_n_0_3_1160 _ rfl]
  exact congrArg (fun w => x1 (ix2 (rowOf w) k)) hw

/-- The third gathered piece at (b, l, m, k): the row of table 2 the shifted difference selects, at column k. -/
theorem piece2 (x2 : (⟨S1024x160, .f32⟩ : BufTy).Contents (Elt F)) (x6 x7 : (⟨S4x200, .i32⟩ : BufTy).Contents (Elt F))
    (b : Fin 4) (l m : Fin 200) (k : Fin 160) (h : 0 ≤ (gidx (x7 (ix2 b l)) (x6 (ix2 b m))).toInt) :
    val_main_v48 (F := F) x2 x6 x7 (ix4 b l m k) = x2 (ix2 (rowOf (gidx (x7 (ix2 b l)) (x6 (ix2 b m)))) k) := by
  have e : idx_main_v47 (ix4 b l m (0 : Fin 1)) = ix3 b l m :=
    funext fun a => Fin.ext (by match a with | ⟨0, _⟩ => rfl | ⟨1, _⟩ => rfl | ⟨2, _⟩ => rfl)
  have hw : val_main_v47 (F := F) x6 x7 (ix4 b l m (0 : Fin 1)) = gidx (x7 (ix2 b l)) (x6 (ix2 b m)) := by
    rw [val_main_v47_apply, e]
    exact norm2 x6 x7 b l m h
  unfold val_main_v48
  rw [gather_rows_1024_apply_of_eq gather_S1024x160_S4x200x200x1_S4x200x200x160_3_0_n_n_0_3_1160 _ rfl]
  exact congrArg (fun w => x2 (ix2 (rowOf w) k)) hw

/-- The fourth gathered piece at (b, l, m, k): the row of table 3 the shifted difference selects, at column k. -/
theorem piece3 (x3 : (⟨S1024x160, .f32⟩ : BufTy).Contents (Elt F)) (x7 : (⟨S4x200, .i32⟩ : BufTy).Contents (Elt F))
    (b : Fin 4) (l m : Fin 200) (k : Fin 160) (h : 0 ≤ (gidx (x7 (ix2 b l)) (x7 (ix2 b m))).toInt) :
    val_main_v55 (F := F) x3 x7 (ix4 b l m k) = x3 (ix2 (rowOf (gidx (x7 (ix2 b l)) (x7 (ix2 b m)))) k) := by
  have e : idx_main_v54 (ix4 b l m (0 : Fin 1)) = ix3 b l m :=
    funext fun a => Fin.ext (by match a with | ⟨0, _⟩ => rfl | ⟨1, _⟩ => rfl | ⟨2, _⟩ => rfl)
  have hw : val_main_v54 (F := F) x7 (ix4 b l m (0 : Fin 1)) = gidx (x7 (ix2 b l)) (x7 (ix2 b m)) := by
    rw [val_main_v54_apply, e]
    exact norm3 x7 b l m h
  unfold val_main_v55
  rw [gather_rows_1024_apply_of_eq gather_S1024x160_S4x200x200x1_S4x200x200x160_3_0_n_n_0_3_1160 _ rfl]
  exact congrArg (fun w => x3 (ix2 (rowOf w) k)) hw

end Words

/-! ## The result array is the specification's

At (b, l, m, c) the contraction runs over the 640 columns of the laid-out rows; grouped by table, column 160·t + k of the
laid-out rows is column k of piece t, and the weight read against it is row 160·t + k, column c: table t's tblTerm. -/

/-- Where every shifted position difference is non-negative, the reference's last stage is G of the arguments. -/
theorem val_eq_G (x0 x1 x2 x3 : (⟨S1024x160, .f32⟩ : BufTy).Contents (Elt Ideal))
    (x4 : (⟨S640x160, .f32⟩ : BufTy).Contents (Elt Ideal)) (x5 : (⟨S160, .f32⟩ : BufTy).Contents (Elt Ideal))
    (x6 x7 : (⟨S4x200, .i32⟩ : BufTy).Contents (Elt Ideal)) (hnn : Nonneg x6 x7) :
    val_main_v61 (F := Ideal) x0 x1 x2 x3 x4 x5 x6 x7 = G x0 x1 x2 x3 x4 x5 x6 x7 := by
  funext j
  obtain ⟨b, l, m, c, rfl⟩ : ∃ (b : Fin 4) (l m : Fin 200) (c : Fin 160), j = ix4 b l m c :=
    ⟨j 0, j 1, j 2, j 3, eq_ix4 j⟩
  obtain ⟨h0, h1, h2, h3⟩ := hnn b l m
  have el : ∀ k : Fin 640, lidx_main_v57 (ix4 b l m c) k = ix4 b l m k := fun k =>
    funext fun a => Fin.ext (by match a with | ⟨0, _⟩ => rfl | ⟨1, _⟩ => rfl | ⟨2, _⟩ => rfl | ⟨3, _⟩ => rfl)
  have er : ∀ k : Fin 640, ridx_main_v57 (ix4 b l m c) k = ix2 k c := fun k =>
    funext fun a => Fin.ext (by match a with | ⟨0, _⟩ => rfl | ⟨1, _⟩ => rfl)
  have eb : idx_main_v58 (idx_main_v59 (ix4 b l m c)) = ix1 c :=
    funext fun a => Fin.ext (by match a with | ⟨0, _⟩ => rfl)
  rw [val_main_v61_apply, val_main_v60_apply, val_main_v57_apply, val_main_v59_apply, val_main_v58_apply,
    val_main_call0_v0_apply, val_main_call0_cst_apply, eb]
  simp only [el, er]
  rw [sum_640_split4]
  unfold val_main_v56
  simp only [concat4_apply_0, concat4_apply_1, concat4_apply_2, concat4_apply_3]
  simp only [fun k => piece0 x0 x6 b l m k h0, fun k => piece1 x1 x6 x7 b l m k h1,
    fun k => piece2 x2 x6 x7 b l m k h2, fun k => piece3 x3 x7 b l m k h3]
  rw [Ideal.maximumf_def, Ideal.addf_def, Ideal.ofBits_def, Ideal.ofBits_zero_f32]
  rfl

/-! ## The run -/

/-- From a memory whose position arrays have every shifted difference non-negative, every weakly fair execution of the
    reference terminates with its result the specification's array of the arguments, and the arguments unchanged. -/
theorem run_G (m : (ℓ : Loc Cert.ReferenceIdeal.nD Cert.ReferenceIdeal.τ Cert.ReferenceIdeal.sig) → Buf (Elt Ideal) ℓ)
    (ρ : Dev Cert.ReferenceIdeal.nD → PrngReg)
    (hnn : ∀ c : Dev Cert.ReferenceIdeal.nD, Cert.Spec.Nonneg (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v61) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run _ _ _).mono
    (fun _ h c => ⟨((h c).1.trans (val_main_v61_eq m c)).trans (val_eq_G _ _ _ _ _ _ _ _ (hnn c)), (h c).2⟩)
    (Cert.ReferenceIdeal.Value.run (F := Ideal) m ρ)

end Cert.ReferenceIdeal.RefValue

end
-- ==== Proof.HostVKernel.lean ====
/-
  The buffers' contents when the kernel region is entered: the launch memory after the host operations that
  precede the region (the four weight slices and table products, the four index tensors and their clipping, the
  per-tile minima and maxima stacked into the two bound tables), as one fold over their nine stretches.
-/
import proofs.«408597_j16320875725026_3_alg».proof.Proof.LaunchPKernel
import Idealize.ShloMosaic.Lib.StableHlo.Run

noncomputable section

namespace Cert.Kernel.Frm

open Cert.Kernel Cert.Kernel.Gen Cert.Kernel.GenP

open Idealize.ShloMosaic Idealize.ShloMosaic.TcCoe
open Idealize.SL.Sem

variable {F : FTy → Type} [FloatOps F]

variable (m : (ℓ : Loc nD τ sig) → Buf (Elt F) ℓ)

/-- The nine stretches of host operations before the region, in order. -/
abbrev opss : List (List (HloOp τ sig (Elt F))) :=
  [hostOps0, hostOps0_1, hostOps0_2, hostOps0_3, hostOps0_4, hostOps0_5, hostOps0_6, hostOps0_7, hostOps0_8]

/-- Core `c`'s TensorCore buffers when the region is entered. -/
abbrev V (c : Dev nD) (b : Ref sig .tc) : Buf (Elt F) ((c : Thread nD τ).loc b) :=
  StableHlo.after (List.flatten (opss (F := F))) (fun b => m (c, b)) b

end Cert.Kernel.Frm

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.HostValsAKernel.lean ====
/-
  The kernel's host side read at an index: what the buffers hold when the kernel region is entered.

  Before the region the host program slices the weight matrix into its four 160-row blocks, multiplies each position
  table by its block, builds the four arrays of shifted position differences and clips each into [0, 1023].
  Read at an index: an argument array is as launched; a clipped index array holds `clip (gidx p q)` of the two positions
  its index names; a pre-multiplied table holds, at row r and column h, the sum over the 160 features of
  table[r, k] · W[160·t + k, h].
-/
import proofs.«408597_j16320875725026_3_alg».proof.Proof.HostVKernel
import proofs.«408597_j16320875725026_3_alg».proof.Proof.PreFacts
import proofs.«408597_j16320875725026_3_alg».proof.Proof.Spec
import proofs.«408597_j16320875725026_3_alg».proof.Proof.LibMatmul

set_option maxRecDepth 1028

noncomputable section

namespace Cert.Kernel.Frm

open Cert.Kernel Cert.Kernel.Gen Cert.Kernel.GenP

open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The argument arrays are as launched -/

/-- Closes "no host operation before the region writes this reference": the operations' result references are listed
    and each is told apart from the reference by comparing references. -/
local macro "not_written" : tactic =>
  `(tactic| (
    refine List.forall_iff_forall_mem.mp ?_
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.nullary_writes, StableHlo.unary_writes, StableHlo.binary_writes, StableHlo.reshape_writes,
      StableHlo.nary_writes, Finset.mem_singleton]
    repeat' apply And.intro
    all_goals exact StableHlo.devRef_ne_of_ne (by decide)))

theorem V_arg0 (c : Dev nD) : V m c main_arg0 = m ((c : Thread nD τ).loc main_arg0) :=
  StableHlo.after_of_forall_not_mem (b := Proc.devRef .tc main_arg0) _ _ (by not_written)

theorem V_arg1 (c : Dev nD) : V m c main_arg1 = m ((c : Thread nD τ).loc main_arg1) :=
  StableHlo.after_of_forall_not_mem (b := Proc.devRef .tc main_arg1) _ _ (by not_written)

theorem V_arg2 (c : Dev nD) : V m c main_arg2 = m ((c : Thread nD τ).loc main_arg2) :=
  StableHlo.after_of_forall_not_mem (b := Proc.devRef .tc main_arg2) _ _ (by not_written)

theorem V_arg3 (c : Dev nD) : V m c main_arg3 = m ((c : Thread nD τ).loc main_arg3) :=
  StableHlo.after_of_forall_not_mem (b := Proc.devRef .tc main_arg3) _ _ (by not_written)

theorem V_arg4 (c : Dev nD) : V m c main_arg4 = m ((c : Thread nD τ).loc main_arg4) :=
  StableHlo.after_of_forall_not_mem (b := Proc.devRef .tc main_arg4) _ _ (by not_written)

theorem V_arg5 (c : Dev nD) : V m c main_arg5 = m ((c : Thread nD τ).loc main_arg5) :=
  StableHlo.after_of_forall_not_mem (b := Proc.devRef .tc main_arg5) _ _ (by not_written)

theorem V_arg6 (c : Dev nD) : V m c main_arg6 = m ((c : Thread nD τ).loc main_arg6) :=
  StableHlo.after_of_forall_not_mem (b := Proc.devRef .tc main_arg6) _ _ (by not_written)

theorem V_arg7 (c : Dev nD) : V m c main_arg7 = m ((c : Thread nD τ).loc main_arg7) :=
  StableHlo.after_of_forall_not_mem (b := Proc.devRef .tc main_arg7) _ _ (by not_written)

/-! ## The clipped index arrays -/

/-- The array of shifted differences as the host builds it: the first position array laid along the second axis of a
    [4, 200, 200] box, the second along the third, subtracted, 512 added. -/
def diffArr (p q : IVec S4x200 32) : IVec S4x200x200 32 :=
  addi
    (subi
      (broadcastInDim S4x200x200 ![0, 1, 2] bcast_S4x200x1_S4x200x200_0_1_2 (broadcastInDim S4x200x1 ![0, 1] bcast_S4x200_S4x200x1_0_1 p))
      (broadcastInDim S4x200x200 ![0, 1, 2] bcast_S4x1x200_S4x200x200_0_1_2 (broadcastInDim S4x1x200 ![0, 2] bcast_S4x200_S4x1x200_0_2 q)))
    (broadcastInDim S4x200x200 ![] bcast_S_S4x200x200 (constantI S_ 32 512#32))

/-- The clipped array: the maximum with 0, then the minimum with 1023, entry by entry. -/
def clipArr (p q : IVec S4x200 32) : IVec S4x200x200 32 :=
  minsi (broadcastInDim S4x200x200 ![] bcast_S_S4x200x200 (constantI S_ 32 1023#32))
    (maxsi (broadcastInDim S4x200x200 ![] bcast_S_S4x200x200 (constantI S_ 32 0#32)) (diffArr p q))

/-- An entry of the array of shifted differences. -/
theorem diffArr_apply (p q : IVec S4x200 32) (j : S4x200x200.Idx) :
    diffArr p q j = Cert.Spec.gidx (p (ix2 (j 0) (j 1))) (q (ix2 (j 0) (j 2))) := by
  show p _ - q _ + 512#32 = p _ - q _ + 512#32
  congr 2
  · congr 1; funext a; match a with | ⟨0, _⟩ => rfl | ⟨1, _⟩ => rfl
  · congr 1; funext a; match a with | ⟨0, _⟩ => rfl | ⟨1, _⟩ => rfl

/-- An entry of the clipped array. -/
theorem clipArr_apply (p q : IVec S4x200 32) (j : S4x200x200.Idx) :
    clipArr p q j = Cert.PreFacts.clip (Cert.Spec.gidx (p (ix2 (j 0) (j 1))) (q (ix2 (j 0) (j 2)))) := by
  show IntOp.minsi 1023#32 (IntOp.maxsi 0#32 (diffArr p q j)) = _
  rw [diffArr_apply]
  rfl

/-- The positions of the starts and of the ends, as launched. -/
abbrev posS (c : Dev nD) : IVec S4x200 32 := m ((c : Thread nD τ).loc main_arg6)
abbrev posE (c : Dev nD) : IVec S4x200 32 := m ((c : Thread nD τ).loc main_arg7)

/-- Lists the host operations before the region one after the other. -/
local macro "list_host_ops" : tactic =>
  `(tactic| (
    dsimp only [V, opss]
    simp only [hostOps0, hostOps0_1, hostOps0_2, hostOps0_3, hostOps0_4, hostOps0_5, hostOps0_6, hostOps0_7, hostOps0_8,
      List.flatten_cons, List.flatten_nil, List.append_nil, List.cons_append, List.nil_append]))

/-- Reads one buffer after the listed operations: each operation's result at its own reference is its function's value,
    at any other reference what was there. -/
local macro "read_host_ops" : tactic =>
  `(tactic| (
    list_host_ops
    after_results_simp
    try simp only [StableHlo.TRef.ofBuf, StableHlo.TRef.toBuf, cast_eq]))

theorem V_v36_ops (c : Dev nD) : (V m c main_v36 : IVec S4x200x200 32) = clipArr (posS m c) (posS m c) := by
  read_host_ops; rfl
theorem V_v37_ops (c : Dev nD) : (V m c main_v37 : IVec S4x200x200 32) = clipArr (posS m c) (posE m c) := by
  read_host_ops; rfl
theorem V_v38_ops (c : Dev nD) : (V m c main_v38 : IVec S4x200x200 32) = clipArr (posE m c) (posS m c) := by
  read_host_ops; rfl
theorem V_v39_ops (c : Dev nD) : (V m c main_v39 : IVec S4x200x200 32) = clipArr (posE m c) (posE m c) := by
  read_host_ops; rfl

/-- The clipped start-start index array when the region is entered. -/
theorem V_v36 (c : Dev nD) : (V m c main_v36 : IVec S4x200x200 32)
    = fun j => Cert.PreFacts.clip (Cert.Spec.gidx (posS m c (ix2 (j 0) (j 1))) (posS m c (ix2 (j 0) (j 2)))) := by
  rw [V_v36_ops]; exact funext fun j => clipArr_apply _ _ j
/-- The clipped start-end index array. -/
theorem V_v37 (c : Dev nD) : (V m c main_v37 : IVec S4x200x200 32)
    = fun j => Cert.PreFacts.clip (Cert.Spec.gidx (posS m c (ix2 (j 0) (j 1))) (posE m c (ix2 (j 0) (j 2)))) := by
  rw [V_v37_ops]; exact funext fun j => clipArr_apply _ _ j
/-- The clipped end-start index array. -/
theorem V_v38 (c : Dev nD) : (V m c main_v38 : IVec S4x200x200 32)
    = fun j => Cert.PreFacts.clip (Cert.Spec.gidx (posE m c (ix2 (j 0) (j 1))) (posS m c (ix2 (j 0) (j 2)))) := by
  rw [V_v38_ops]; exact funext fun j => clipArr_apply _ _ j
/-- The clipped end-end index array. -/
theorem V_v39 (c : Dev nD) : (V m c main_v39 : IVec S4x200x200 32)
    = fun j => Cert.PreFacts.clip (Cert.Spec.gidx (posE m c (ix2 (j 0) (j 1))) (posE m c (ix2 (j 0) (j 2)))) := by
  rw [V_v39_ops]; exact funext fun j => clipArr_apply _ _ j

/-! ## The pre-multiplied tables -/

/-- Row k, column h of the 160-row block of the weight matrix that starts at row `o`. -/
theorem slice_apply (W : FVec F S640x160 .f32) (o : Nat) (ho : o + 160 ≤ 640) (hs : S640x160.Slices ![o, 0] S160x160)
    (k h : Fin 160) :
    extractStridedSlice S160x160 ![o, 0] W hs (ix2 k h) = W (ix2 (⟨o + k.val, by omega⟩ : Fin 640) h) := by
  show W _ = W _
  congr 1
  funext a
  match a with
  | ⟨0, _⟩ => rfl
  | ⟨1, _⟩ => exact Fin.ext (Nat.zero_add _)

section Tables

variable (mI : (ℓ : Loc nD τ sig) → Buf (Elt Ideal) ℓ)

/-- A position table times the block of the weight matrix that starts at row `o`. -/
def projArr (pe : FVec Ideal S1024x160 .f32) (W : FVec Ideal S640x160 .f32) (o : Nat)
    (hs : S640x160.Slices ![o, 0] S160x160) : FVec Ideal S1024x160 .f32 :=
  Host.dotGeneral dot_S1024x160_S160x160_S1024x160_1_0_0_1_n_n (some .fp32) pe (extractStridedSlice S160x160 ![o, 0] W hs)

/-- Its entry at row r and column h: the sum over the 160 features of table[r, k] · W[o + k, h]. -/
theorem projArr_apply (pe : FVec Ideal S1024x160 .f32) (W : FVec Ideal S640x160 .f32) (o : Nat) (ho : o + 160 ≤ 640)
    (hs : S640x160.Slices ![o, 0] S160x160) (r : Fin 1024) (h : Fin 160) :
    projArr pe W o hs (ix2 r h) = ∑ k : Fin 160, pe (ix2 r k) * W (ix2 (⟨o + k.val, by omega⟩ : Fin 640) h) := by
  show FloatOps.dotGeneral (DotDims.plain 1024 160 160) (some .fp32) .single pe _ (ix2 r h) = _
  rw [Cert.Lib.Matmul.dotGeneral_apply]
  exact Finset.sum_congr rfl fun k _ => congrArg (pe (ix2 r k) * ·) (slice_apply W o ho hs k h)

/-- The four position tables and the weight matrix, as launched. -/
abbrev tbl0 (c : Dev nD) : FVec Ideal S1024x160 .f32 := mI ((c : Thread nD τ).loc main_arg0)
abbrev tbl1 (c : Dev nD) : FVec Ideal S1024x160 .f32 := mI ((c : Thread nD τ).loc main_arg1)
abbrev tbl2 (c : Dev nD) : FVec Ideal S1024x160 .f32 := mI ((c : Thread nD τ).loc main_arg2)
abbrev tbl3 (c : Dev nD) : FVec Ideal S1024x160 .f32 := mI ((c : Thread nD τ).loc main_arg3)
abbrev wMat (c : Dev nD) : FVec Ideal S640x160 .f32 := mI ((c : Thread nD τ).loc main_arg4)

theorem V_v4_ops (c : Dev nD) : (V mI c main_v4 : FVec Ideal S1024x160 .f32)
    = projArr (tbl0 mI c) (wMat mI c) 0 slices_S640x160_S160x160_0_0 := by
  read_host_ops; rfl

/-- Table 0 times its block of the weight matrix when the region is entered, at row r and column h. -/
theorem V_v4 (c : Dev nD) (r : Fin 1024) (h : Fin 160) :
    (V mI c main_v4 : FVec Ideal S1024x160 .f32) (ix2 r h) = Cert.Spec.tblTerm (tbl0 mI c) (wMat mI c) 0 r h := by
  rw [V_v4_ops]
  exact projArr_apply _ _ 0 (by omega) _ r h

theorem V_v5_ops (c : Dev nD) : (V mI c main_v5 : FVec Ideal S1024x160 .f32)
    = projArr (tbl1 mI c) (wMat mI c) 160 slices_S640x160_S160x160_160_0 := by
  read_host_ops; rfl

/-- Table 1 times its block of the weight matrix when the region is entered, at row r and column h. -/
theorem V_v5 (c : Dev nD) (r : Fin 1024) (h : Fin 160) :
    (V mI c main_v5 : FVec Ideal S1024x160 .f32) (ix2 r h) = Cert.Spec.tblTerm (tbl1 mI c) (wMat mI c) 1 r h := by
  rw [V_v5_ops]
  exact projArr_apply _ _ 160 (by omega) _ r h

theorem V_v6_ops (c : Dev nD) : (V mI c main_v6 : FVec Ideal S1024x160 .f32)
    = projArr (tbl2 mI c) (wMat mI c) 320 slices_S640x160_S160x160_320_0 := by
  read_host_ops; rfl

/-- Table 2 times its block of the weight matrix when the region is entered, at row r and column h. -/
theorem V_v6 (c : Dev nD) (r : Fin 1024) (h : Fin 160) :
    (V mI c main_v6 : FVec Ideal S1024x160 .f32) (ix2 r h) = Cert.Spec.tblTerm (tbl2 mI c) (wMat mI c) 2 r h := by
  rw [V_v6_ops]
  exact projArr_apply _ _ 320 (by omega) _ r h

theorem V_v7_ops (c : Dev nD) : (V mI c main_v7 : FVec Ideal S1024x160 .f32)
    = projArr (tbl3 mI c) (wMat mI c) 480 slices_S640x160_S160x160_480_0 := by
  read_host_ops; rfl

/-- Table 3 times its block of the weight matrix when the region is entered, at row r and column h. -/
theorem V_v7 (c : Dev nD) (r : Fin 1024) (h : Fin 160) :
    (V mI c main_v7 : FVec Ideal S1024x160 .f32) (ix2 r h) = Cert.Spec.tblTerm (tbl3 mI c) (wMat mI c) 3 r h := by
  rw [V_v7_ops]
  exact projArr_apply _ _ 480 (by omega) _ r h

end Tables

end Cert.Kernel.Frm

end
-- ==== Proof.AdmKernel.lean ====
/-
  The bound tables' contents the pipeline runs at: what the two tables hold when the region is entered (the
  pipeline's side condition on them is vacuous: no window's index map reads a table).
-/
import proofs.«408597_j16320875725026_3_alg».proof.Proof.HostVKernel

noncomputable section

namespace Cert.Kernel.Frm

open Cert.Kernel Cert.Kernel.Gen Cert.Kernel.GenP

open Idealize.ShloMosaic Idealize.ShloMosaic.TcCoe
open Idealize.SL.Sem

variable {F : FTy → Type} [FloatOps F]

variable (m : (ℓ : Loc nD τ sig) → Buf (Elt F) ℓ)

/-- The tables at the region's entry, admissible. -/
def adm : (p : Fin 1) → (pcfgs (F := F) p).Adm := fun _ => ⟨fun k => V m 0 (pre0.ref k), (trivial : ok0 (F := F) _)⟩

/-- They are the entry contents on every core (there is one). -/
theorem hpf (c : Dev nD) (k : Fin 2) : V m c ((pcfgs (F := F) 0).pre.ref k) = (adm m 0).1 k := by
  obtain rfl : c = 0 := Subsingleton.elim _ _
  rfl

/-- The pipeline at those contents. -/
abbrev cfgA : Pipeline.Cfg sig Λ₀ := Pipeline.pin (pcfgs (F := F)) (adm m) 0

/-- Window `w`'s block of its array, as the region finds the array, at point `t`. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef (cfgA m).spec w))

end Cert.Kernel.Frm

end
-- ==== Proof.FrameMainKernel.lean ====
/-
  The kernel program up to its region, and the frame claim's post from a frame run.

  Before the region the host program runs nine stretches of operations on the TensorCore's unscoped buffers, none of
  which allocates; so the program reduces to the region entered with those buffers at the contents the stretches
  leave. After a frame run every window's array holds what the pipeline's proof data compute and every other unscoped
  buffer what it held when the region was entered; read at the argument arrays (the bias is an input window's array,
  the others are staged by no window) these are the launch contents, and the result array is the output window's.
-/
import proofs.«408597_j16320875725026_3_alg».proof.Proof.HostValsAKernel
import proofs.«408597_j16320875725026_3_alg».proof.Proof.AdmKernel
import Idealize.ShloMosaic.Lib.Pipeline.Frame

set_option maxRecDepth 1028

noncomputable section

namespace Cert.Kernel.Frm

open Cert.Kernel Cert.Kernel.Gen Cert.Kernel.GenP

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-! ## The program up to the region -/

/-- No operation of the first stretch allocates. -/
theorem hostOps0_fresh : (hostOps0 : List (HloOp τ sig (Elt F))).Forall fun op => op.fresh = ∅ := by
  simp only [List.Forall]; repeat' constructor
/-- Nor of the second. -/
theorem hostOps0_1_fresh : (hostOps0_1 : List (HloOp τ sig (Elt F))).Forall fun op => op.fresh = ∅ := by
  simp only [List.Forall]; repeat' constructor
/-- Nor of the third. -/
theorem hostOps0_2_fresh : (hostOps0_2 : List (HloOp τ sig (Elt F))).Forall fun op => op.fresh = ∅ := by
  simp only [List.Forall]; repeat' constructor
/-- Nor of the fourth. -/
theorem hostOps0_3_fresh : (hostOps0_3 : List (HloOp τ sig (Elt F))).Forall fun op => op.fresh = ∅ := by
  simp only [List.Forall]; repeat' constructor
/-- Nor of the fifth. -/
theorem hostOps0_4_fresh : (hostOps0_4 : List (HloOp τ sig (Elt F))).Forall fun op => op.fresh = ∅ := by
  simp only [List.Forall]; repeat' constructor
/-- Nor of the sixth. -/
theorem hostOps0_5_fresh : (hostOps0_5 : List (HloOp τ sig (Elt F))).Forall fun op => op.fresh = ∅ := by
  simp only [List.Forall]; repeat' constructor
/-- Nor of the seventh. -/
theorem hostOps0_6_fresh : (hostOps0_6 : List (HloOp τ sig (Elt F))).Forall fun op => op.fresh = ∅ := by
  simp only [List.Forall]; repeat' constructor
/-- Nor of the eighth. -/
theorem hostOps0_7_fresh : (hostOps0_7 : List (HloOp τ sig (Elt F))).Forall fun op => op.fresh = ∅ := by
  simp only [List.Forall]; repeat' constructor
/-- Nor of the ninth. -/
theorem hostOps0_8_fresh : (hostOps0_8 : List (HloOp τ sig (Elt F))).Forall fun op => op.fresh = ∅ := by
  simp only [List.Forall]; repeat' constructor

/-- The program is its nine stretches, then the region. -/
theorem main_eq (c : Dev nD) : main (F := F) c
    = Pipeline.chain ((opss (F := F)).map StableHlo.seq ++ [Prog.lift (.customCall (Pipeline.entry 0) ())]) :=
  main_chain c

/-- The program up to the region: holding the unscoped buffers at the launch contents it reduces to the region entered
    holding them at the contents the nine stretches leave. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefixes pcfgs 0 defs₀ 𝒱₀ m main opss
    (by simp only [List.Forall]; exact ⟨hostOps0_sub, hostOps0_1_sub, hostOps0_2_sub, hostOps0_3_sub, hostOps0_4_sub,
      hostOps0_5_sub, hostOps0_6_sub, hostOps0_7_sub, hostOps0_8_sub⟩)
    (by simp only [List.Forall]; exact ⟨hostOps0_fresh, hostOps0_1_fresh, hostOps0_2_fresh, hostOps0_3_fresh,
      hostOps0_4_fresh, hostOps0_5_fresh, hostOps0_6_fresh, hostOps0_7_fresh, hostOps0_8_fresh⟩)
    main_eq

/-! ## The arguments no window stages

Which arrays the windows stage does not depend on the tables' contents. -/

/-- No window's array is the first position table. -/
theorem arg0_not_staged : ∀ w : Fin 10, (spec0 w).arr.view.ref ≠ main_arg0 := by decide
/-- Nor the second. -/
theorem arg1_not_staged : ∀ w : Fin 10, (spec0 w).arr.view.ref ≠ main_arg1 := by decide
/-- Nor the third. -/
theorem arg2_not_staged : ∀ w : Fin 10, (spec0 w).arr.view.ref ≠ main_arg2 := by decide
/-- Nor the fourth. -/
theorem arg3_not_staged : ∀ w : Fin 10, (spec0 w).arr.view.ref ≠ main_arg3 := by decide
/-- Nor the weight matrix. -/
theorem arg4_not_staged : ∀ w : Fin 10, (spec0 w).arr.view.ref ≠ main_arg4 := by decide
/-- Nor the start positions. -/
theorem arg6_not_staged : ∀ w : Fin 10, (spec0 w).arr.view.ref ≠ main_arg6 := by decide
/-- Nor the end positions. -/
theorem arg7_not_staged : ∀ w : Fin 10, (spec0 w).arr.view.ref ≠ main_arg7 := by decide

/-! ## The frame claim's post from a frame run -/

/-- From a frame run of any proof data whose entry arrays are the region-entry contents: the result array is the output
    window's array after the last write-back, and every argument array is as launched: the bias, an input window's
    array, holds its entry contents, which no stretch wrote; the other seven are staged by no window, so they end as the
    region found them, and no stretch wrote them either. -/
theorem frame_of
    (dats : (p : Fin 1) → (c : Dev nD) → Pipeline.Dat τ (Elt F) Unit ℕ (UR sig nD τ) ℕ (Pipeline.pin pcfgs (adm m) p) c)
    (hA : ∀ c w, (dats 0 c).A w = V m c (Pipeline.arrRef (Pipeline.pin pcfgs (adm m) 0).spec w))
    (h : θ_run defs (onTc (τ := τ) (main (F := F))) (s₀ m ρ)
      (Pipeline.FramePost (Pipeline.pin pcfgs (adm m)) dats 0 (V m))) :
    θ_run defs (onTc (τ := τ) (main (F := F))) ⟨m, fun _ => 0, ρ⟩ (fun r => ∀ c : Dev Cert.Kernel.nD,
      r.2.mem ((c.tc : Thread Cert.Kernel.nD Cert.Kernel.τ).loc Cert.Kernel.main_v64) = (dats 0 c).arrAt 9 (Pipeline.pin pcfgs (adm m) 0).N
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)) :=
  (θ_run defs _ _).mono (fun _ h c =>
    ⟨(h c).1 9,
      ((h c).2 main_arg0 (Pipeline.mem_restRefs_of main_arg0 (by decide) arg0_not_staged)).trans (V_arg0 m c),
      ((h c).2 main_arg1 (Pipeline.mem_restRefs_of main_arg1 (by decide) arg1_not_staged)).trans (V_arg1 m c),
      ((h c).2 main_arg2 (Pipeline.mem_restRefs_of main_arg2 (by decide) arg2_not_staged)).trans (V_arg2 m c),
      ((h c).2 main_arg3 (Pipeline.mem_restRefs_of main_arg3 (by decide) arg3_not_staged)).trans (V_arg3 m c),
      ((h c).2 main_arg4 (Pipeline.mem_restRefs_of main_arg4 (by decide) arg4_not_staged)).trans (V_arg4 m c),
      ((h c).1 8).trans (((dats 0 c).arrAt_in 8 rfl _).trans ((hA c 8).trans (V_arg5 m c))),
      ((h c).2 main_arg6 (Pipeline.mem_restRefs_of main_arg6 (by decide) arg6_not_staged)).trans (V_arg6 m c),
      ((h c).2 main_arg7 (Pipeline.mem_restRefs_of main_arg7 (by decide) arg7_not_staged)).trans (V_arg7 m c)⟩) h

end Cert.Kernel.Frm

end
-- ==== Proof.BodyCtxKernel.lean ====
/-
  The buffers the kernel body only reads, held together: the two bound tables at the half share the body is lent,
  the four index blocks, the four table blocks and the bias whole, each at its contents.
-/
import proofs.«408597_j16320875725026_3_alg».proof.Proof.Gen.Kernel
import proofs.«408597_j16320875725026_3_alg».proof.Proof.Gen.Kernel.Skeleton
import Idealize.ShloMosaic.Lib.Pipeline.Frame
import Idealize.ShloMosaic.Lib.Tactic

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eleven input buffers owned at their contents. -/
abbrev ctxI (c : Dev nD) (M2 : Memref sig .tc .smem S80x4 .i32) (M3 : Memref sig .tc .smem S80x4 .i32) (M4 : Memref sig .tc .vmem S1x40x200 .i32) (M5 : Memref sig .tc .vmem S1x40x200 .i32) (M6 : Memref sig .tc .vmem S1x40x200 .i32) (M7 : Memref sig .tc .vmem S1x40x200 .i32) (M8 : Memref sig .tc .vmem S1024x160 .f32) (M9 : Memref sig .tc .vmem S1024x160 .f32) (M10 : Memref sig .tc .vmem S1024x160 .f32) (M11 : Memref sig .tc .vmem S1024x160 .f32) (M12 : Memref sig .tc .vmem S160 .f32) (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) : sProp 𝕄 :=
  iprop(owns (c : Thread nD τ) M2 fullShare.right x2 ∗ owns (c : Thread nD τ) M3 fullShare.right x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12)

end Cert.Kernel.Body

end
-- ==== Proof.RestKernel.lean ====
/-
  The body's top-level sequence after each of its twelve part calls, restated as definitions of their own (each is,
  by unfolding, the corresponding suffix of the printed sequence), so that the parts compose through small goals.
-/
import proofs.«408597_j16320875725026_3_alg».proof.Proof.BodyCtxKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body's top-level sequence after its part 1. -/
noncomputable def rest1 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v9 : IVec S40x200 32) (v10 : IVec S40x50 32) (v13 : Elt F .i32) (v31 : BitVec 1) :
    Prog (TpuEff nD τ sig (Elt F) Λ₀ .tc) (Σ' (v436 : FVec F S40x200x160 .f32), FVec F S40x200x160 .f32) := do
  let ⟨v62, v65⟩ : Σ' (v62 : IVec S40x50 32), Elt F .i32 ← k0_part2 i arg2 harg2 arg3 harg3 arg4 harg4 arg5 harg5 arg6 harg6 arg7 harg7 arg8 harg8 arg9 harg9 arg10 harg10 arg11 harg11 arg12 harg12 arg13 harg13 arg14 harg14 v4 v7 v9 v10 v13 v31 -- statements 61–120 of 778: their part
  let ⟨v88, v91, v93, v101⟩ : Σ' (v88 : IVec S40x50 32) (v91 : Elt F .i32) (v93 : Elt F .i32), BitVec 1 ← k0_part3 i arg2 harg2 arg3 harg3 arg4 harg4 arg5 harg5 arg6 harg6 arg7 harg7 arg8 harg8 arg9 harg9 arg10 harg10 arg11 harg11 arg12 harg12 arg13 harg13 arg14 harg14 v4 v7 v9 v62 v65 -- statements 121–180 of 778: their part
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 2. -/
noncomputable def rest2 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v9 : IVec S40x200 32) (v62 : IVec S40x50 32) (v65 : Elt F .i32) :
    Prog (TpuEff nD τ sig (Elt F) Λ₀ .tc) (Σ' (v436 : FVec F S40x200x160 .f32), FVec F S40x200x160 .f32) := do
  let ⟨v88, v91, v93, v101⟩ : Σ' (v88 : IVec S40x50 32) (v91 : Elt F .i32) (v93 : Elt F .i32), BitVec 1 ← k0_part3 i arg2 harg2 arg3 harg3 arg4 harg4 arg5 harg5 arg6 harg6 arg7 harg7 arg8 harg8 arg9 harg9 arg10 harg10 arg11 harg11 arg12 harg12 arg13 harg13 arg14 harg14 v4 v7 v9 v62 v65 -- statements 121–180 of 778: their part
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 3. -/
noncomputable def rest3 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v88 : IVec S40x50 32) (v91 : Elt F .i32) (v93 : Elt F .i32) (v101 : BitVec 1) :
    Prog (TpuEff nD τ sig (Elt F) Λ₀ .tc) (Σ' (v436 : FVec F S40x200x160 .f32), FVec F S40x200x160 .f32) := do
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 4. -/
noncomputable def rest4 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v115 : IVec S40x200 32) (v116 : IVec S40x50 32) (v119 : Elt F .i32) (v121 : Elt F .i32) (v135 : BitVec 32) :
    Prog (TpuEff nD τ sig (Elt F) Λ₀ .tc) (Σ' (v436 : FVec F S40x200x160 .f32), FVec F S40x200x160 .f32) := do
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 5. -/
noncomputable def rest5 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v115 : IVec S40x200 32) (v168 : IVec S40x50 32) (v169 : BitVec 32) :
    Prog (TpuEff nD τ sig (Elt F) Λ₀ .tc) (Σ' (v436 : FVec F S40x200x160 .f32), FVec F S40x200x160 .f32) := do
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 6. -/
noncomputable def rest6 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v194 : IVec S40x50 32) (v197 : Elt F .i32) (v199 : Elt F .i32) :
    Prog (TpuEff nD τ sig (Elt F) Λ₀ .tc) (Σ' (v436 : FVec F S40x200x160 .f32), FVec F S40x200x160 .f32) := do
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 7. -/
noncomputable def rest7 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v221 : IVec S40x200 32) (v222 : IVec S40x50 32) (v225 : Elt F .i32) (v227 : Elt F .i32) (c512_i32_130 : BitVec 32) :
    Prog (TpuEff nD τ sig (Elt F) Λ₀ .tc) (Σ' (v436 : FVec F S40x200x160 .f32), FVec F S40x200x160 .f32) := do
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 8. -/
noncomputable def rest8 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v221 : IVec S40x200 32) (v248 : IVec S40x50 32) (v272 : BitVec 32) (c0_i32_150 : BitVec 32) :
    Prog (TpuEff nD τ sig (Elt F) Λ₀ .tc) (Σ' (v436 : FVec F S40x200x160 .f32), FVec F S40x200x160 .f32) := do
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 9. -/
noncomputable def rest9 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v300 : IVec S40x50 32) (v303 : Elt F .i32) (v305 : Elt F .i32) (v306 : BitVec 1) (v307 : BitVec 1) :
    Prog (TpuEff nD τ sig (Elt F) Λ₀ .tc) (Σ' (v436 : FVec F S40x200x160 .f32), FVec F S40x200x160 .f32) := do
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 10. -/
noncomputable def rest10 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v327 : IVec S40x200 32) (v328 : IVec S40x50 32) (v331 : Elt F .i32) (v333 : Elt F .i32) (v341 : BitVec 1) :
    Prog (TpuEff nD τ sig (Elt F) Λ₀ .tc) (Σ' (v436 : FVec F S40x200x160 .f32), FVec F S40x200x160 .f32) := do
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 11. -/
noncomputable def rest11 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v327 : IVec S40x200 32) (v354 : IVec S40x50 32) (v357 : Elt F .i32) (v375 : BitVec 1) :
    Prog (TpuEff nD τ sig (Elt F) Λ₀ .tc) (Σ' (v436 : FVec F S40x200x160 .f32), FVec F S40x200x160 .f32) := do
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 12. -/
noncomputable def rest12 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v406 : IVec S40x50 32) (v409 : Elt F .i32) :
    Prog (TpuEff nD τ sig (Elt F) Λ₀ .tc) (Σ' (v436 : FVec F S40x200x160 .f32), FVec F S40x200x160 .f32) := do
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

end Cert.Kernel.Body

end
-- ==== Proof.PartsAKernel.lean ====
/-
  The kernel body's printed parts 1 to 4, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 1–60 of the body (the accumulator cleared, the first index block and bound words read, the first three
    guarded updates): what they leave in the accumulator — over the inputs' contents alone: the clearing store covers the
    scratch, whose contents on entry are restated over junk before the first guard — and the values they hand on, WITH
    the proof that from the inputs and the scratch at anything they run to their end. -/
noncomputable def partRun1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32)
     :
    { W : Vec F S40x200x160 .f32 × IVec S40x50x256 32 × BitVec 32 × IVec S40x200 32 × IVec S40x50 32 × Elt F .i32 × BitVec 1 //
      ∀ (E : Set ℕ) (K : (Σ' (v4 : IVec S40x50x256 32) (v7 : BitVec 32) (v9 : IVec S40x200 32) (v10 : IVec S40x50 32) (v13 : Elt F .i32), BitVec 1) → sProp 𝕄),
        iprop(ctxI c M2 M3 M4 M5 M6 M7 M8 M9 M10 M11 M12 x2 x3 x4 x5 x6 x7 x8 x9 x10 x11 x12 ∗ (∃ d, owns (c : Thread nD τ) M14 fullShare d)
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2.1, W.2.2.2.2.2.2⟩))
          ⊢ wp frame (wpE (defs₀ (F := F)) Variants.none c none) E
              (k0_part1 i M2 h2 M3 h3 M4 h4 M5 h5 M6 h6 M7 h7 M8 h8 M9 h9 M10 h10 M11 h11 M12 h12 M13 h13 M14 h14 ) K } := by
  refine ⟨⟨?_, ?_, ?_, ?_, ?_, ?_, ?_⟩, fun E K => ?run⟩
  case run =>
    simp only [k0_part1_eq_skeleton]; unfold k0_part1_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d14, %f14, -, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    set_option sl_exec.stopBefore "v20" in sl_exec
    rw [Memref.writes_eq_junk_of_covChk h14 f14 _ (.leaf 0) rfl]
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 61–120 of the body: what they leave in the accumulator (over its contents `a14` on entry and
    the inputs' contents) and the values they hand on, WITH the proof that from the inputs and the accumulator at `a14`
    they run to their end handing the inputs back as they were and the accumulator at the witness. -/
noncomputable def partRun2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v9 : IVec S40x200 32) (v10 : IVec S40x50 32) (v13 : Elt F .i32) (v31 : BitVec 1) :
    { W : Vec F S40x200x160 .f32 × IVec S40x50 32 × Elt F .i32 //
      ∀ (E : Set ℕ) (K : (Σ' (v62 : IVec S40x50 32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part2 i M2 h2 M3 h3 M4 h4 M5 h5 M6 h6 M7 h7 M8 h8 M9 h9 M10 h10 M11 h11 M12 h12 M13 h13 M14 h14 v4 v7 v9 v10 v13 v31) K } := by
  refine ⟨⟨?_, ?_, ?_⟩, fun E K => ?run⟩
  case run =>
    simp only [k0_part2_eq_skeleton]; unfold k0_part2_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 121–180 of the body: what they leave in the accumulator (over its contents `a14` on entry and
    the inputs' contents) and the values they hand on, WITH the proof that from the inputs and the accumulator at `a14`
    they run to their end handing the inputs back as they were and the accumulator at the witness. -/
noncomputable def partRun3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v9 : IVec S40x200 32) (v62 : IVec S40x50 32) (v65 : Elt F .i32) :
    { W : Vec F S40x200x160 .f32 × IVec S40x50 32 × Elt F .i32 × Elt F .i32 × BitVec 1 //
      ∀ (E : Set ℕ) (K : (Σ' (v88 : IVec S40x50 32) (v91 : Elt F .i32) (v93 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2⟩))
          ⊢ wp frame (wpE (defs₀ (F := F)) Variants.none c none) E
              (k0_part3 i M2 h2 M3 h3 M4 h4 M5 h5 M6 h6 M7 h7 M8 h8 M9 h9 M10 h10 M11 h11 M12 h12 M13 h13 M14 h14 v4 v7 v9 v62 v65) K } := by
  refine ⟨⟨?_, ?_, ?_, ?_, ?_⟩, fun E K => ?run⟩
  case run =>
    simp only [k0_part3_eq_skeleton]; unfold k0_part3_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 181–240 of the body: what they leave in the accumulator (over its contents `a14` on entry and
    the inputs' contents) and the values they hand on, WITH the proof that from the inputs and the accumulator at `a14`
    they run to their end handing the inputs back as they were and the accumulator at the witness. -/
noncomputable def partRun4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v88 : IVec S40x50 32) (v91 : Elt F .i32) (v93 : Elt F .i32) (v101 : BitVec 1) :
    { W : Vec F S40x200x160 .f32 × IVec S40x200 32 × IVec S40x50 32 × Elt F .i32 × Elt F .i32 × BitVec 32 //
      ∀ (E : Set ℕ) (K : (Σ' (v115 : IVec S40x200 32) (v116 : IVec S40x50 32) (v119 : Elt F .i32) (v121 : Elt F .i32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part4 i M2 h2 M3 h3 M4 h4 M5 h5 M6 h6 M7 h7 M8 h8 M9 h9 M10 h10 M11 h11 M12 h12 M13 h13 M14 h14 v4 v7 v88 v91 v93 v101) K } := by
  refine ⟨⟨?_, ?_, ?_, ?_, ?_, ?_⟩, fun E K => ?run⟩
  case run =>
    simp only [k0_part4_eq_skeleton]; unfold k0_part4_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.Kernel.Body

end
-- ==== Proof.PartsBKernel.lean ====
/-
  The kernel body's printed parts 5 to 8, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 241–300 of the body: what they leave in the accumulator (over its contents `a14` on entry and
    the inputs' contents) and the values they hand on, WITH the proof that from the inputs and the accumulator at `a14`
    they run to their end handing the inputs back as they were and the accumulator at the witness. -/
noncomputable def partRun5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v115 : IVec S40x200 32) (v116 : IVec S40x50 32) (v119 : Elt F .i32) (v121 : Elt F .i32) (v135 : BitVec 32) :
    { W : Vec F S40x200x160 .f32 × IVec S40x50 32 × BitVec 32 //
      ∀ (E : Set ℕ) (K : (Σ' (v168 : IVec S40x50 32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part5 i M2 h2 M3 h3 M4 h4 M5 h5 M6 h6 M7 h7 M8 h8 M9 h9 M10 h10 M11 h11 M12 h12 M13 h13 M14 h14 v4 v7 v115 v116 v119 v121 v135) K } := by
  refine ⟨⟨?_, ?_, ?_⟩, fun E K => ?run⟩
  case run =>
    simp only [k0_part5_eq_skeleton]; unfold k0_part5_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 301–360 of the body: what they leave in the accumulator (over its contents `a14` on entry and
    the inputs' contents) and the values they hand on, WITH the proof that from the inputs and the accumulator at `a14`
    they run to their end handing the inputs back as they were and the accumulator at the witness. -/
noncomputable def partRun6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v115 : IVec S40x200 32) (v168 : IVec S40x50 32) (v169 : BitVec 32) :
    { W : Vec F S40x200x160 .f32 × IVec S40x50 32 × Elt F .i32 × Elt F .i32 //
      ∀ (E : Set ℕ) (K : (Σ' (v194 : IVec S40x50 32) (v197 : Elt F .i32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part6 i M2 h2 M3 h3 M4 h4 M5 h5 M6 h6 M7 h7 M8 h8 M9 h9 M10 h10 M11 h11 M12 h12 M13 h13 M14 h14 v4 v7 v115 v168 v169) K } := by
  refine ⟨⟨M14.view.read (Elt F) (if Scalar.cmpi .ne (Scalar.extui (Scalar.andi (Scalar.cmpi .sge ?r3 0#32) (Scalar.cmpi .slt ?r2 256#32))) 0#32 = 1#1 then ?At else ?Ae), ?r1, ?r2, ?r3⟩, fun E K => ?run⟩
  case run =>
    simp only [k0_part6_eq_skeleton]; unfold k0_part6_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    -- the part's last guarded update is its last statement: the run stops at it (its join point is the part's return);
    -- the accumulator's witness is the guarded join of what the two ways leave — its condition the guard bit spelt over
    -- the two bound words the part hands on — and each way is run under its case
    sl_exec
    by_cases hC : partRun6.sl.v204 c i M2 h2 M3 h3 x2 x3 = 1#1
    case' pos =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : Scalar.cmpi .ne (Scalar.extui (Scalar.andi (Scalar.cmpi .sge _ 0#32) (Scalar.cmpi .slt _ 256#32))) 0#32 = 1#1 := hC
      iexists _; isplitr
      swap; · iexact H14
      ipureintro
      rw [if_pos hC']
    case' neg =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : ¬ (Scalar.cmpi .ne (Scalar.extui (Scalar.andi (Scalar.cmpi .sge _ 0#32) (Scalar.cmpi .slt _ 256#32))) 0#32 = 1#1) := hC
      iexists _; isplitr
      swap; · iexact H14
      ipureintro
      rw [if_neg hC']

set_option maxHeartbeats 8000000 in
/-- Statements 361–420 of the body: what they leave in the accumulator (over its contents `a14` on entry and
    the inputs' contents) and the values they hand on, WITH the proof that from the inputs and the accumulator at `a14`
    they run to their end handing the inputs back as they were and the accumulator at the witness. -/
noncomputable def partRun7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v194 : IVec S40x50 32) (v197 : Elt F .i32) (v199 : Elt F .i32) :
    { W : Vec F S40x200x160 .f32 × IVec S40x200 32 × IVec S40x50 32 × Elt F .i32 × Elt F .i32 × BitVec 32 //
      ∀ (E : Set ℕ) (K : (Σ' (v221 : IVec S40x200 32) (v222 : IVec S40x50 32) (v225 : Elt F .i32) (v227 : Elt F .i32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part7 i M2 h2 M3 h3 M4 h4 M5 h5 M6 h6 M7 h7 M8 h8 M9 h9 M10 h10 M11 h11 M12 h12 M13 h13 M14 h14 v4 v7 v194 v197 v199) K } := by
  refine ⟨⟨M14.view.read (Elt F) (if Scalar.cmpi .ne (Scalar.extui (Scalar.andi (Scalar.cmpi .sge ?r4 256#32) (Scalar.cmpi .slt ?r3 512#32))) 0#32 = 1#1 then ?At else ?Ae), ?r1, ?r2, ?r3, ?r4, ?r5⟩, fun E K => ?run⟩
  case run =>
    simp only [k0_part7_eq_skeleton]; unfold k0_part7_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    -- the part's last guarded update is its last statement: the run stops at it (its join point is the part's return);
    -- the accumulator's witness is the guarded join of what the two ways leave — its condition the guard bit spelt over
    -- the two bound words the part hands on — and each way is run under its case
    sl_exec
    by_cases hC : partRun7.sl.v237 c i M2 h2 M3 h3 x2 x3 = 1#1
    case' pos =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : Scalar.cmpi .ne (Scalar.extui (Scalar.andi (Scalar.cmpi .sge _ 256#32) (Scalar.cmpi .slt _ 512#32))) 0#32 = 1#1 := hC
      iexists _; isplitr
      swap; · iexact H14
      ipureintro
      rw [if_pos hC']
    case' neg =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : ¬ (Scalar.cmpi .ne (Scalar.extui (Scalar.andi (Scalar.cmpi .sge _ 256#32) (Scalar.cmpi .slt _ 512#32))) 0#32 = 1#1) := hC
      iexists _; isplitr
      swap; · iexact H14
      ipureintro
      rw [if_neg hC']

set_option maxHeartbeats 8000000 in
/-- Statements 421–480 of the body: what they leave in the accumulator (over its contents `a14` on entry and
    the inputs' contents) and the values they hand on, WITH the proof that from the inputs and the accumulator at `a14`
    they run to their end handing the inputs back as they were and the accumulator at the witness. -/
noncomputable def partRun8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v221 : IVec S40x200 32) (v222 : IVec S40x50 32) (v225 : Elt F .i32) (v227 : Elt F .i32) (c512_i32_130 : BitVec 32) :
    { W : Vec F S40x200x160 .f32 × IVec S40x50 32 × BitVec 32 × BitVec 32 //
      ∀ (E : Set ℕ) (K : (Σ' (v248 : IVec S40x50 32) (v272 : BitVec 32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part8 i M2 h2 M3 h3 M4 h4 M5 h5 M6 h6 M7 h7 M8 h8 M9 h9 M10 h10 M11 h11 M12 h12 M13 h13 M14 h14 v4 v7 v221 v222 v225 v227 c512_i32_130) K } := by
  refine ⟨⟨?_, ?_, ?_, ?_⟩, fun E K => ?run⟩
  case run =>
    simp only [k0_part8_eq_skeleton]; unfold k0_part8_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.Kernel.Body

end
-- ==== Proof.PartsCKernel.lean ====
/-
  The kernel body's printed parts 9 to 12, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 481–540 of the body: what they leave in the accumulator (over its contents `a14` on entry and
    the inputs' contents) and the values they hand on, WITH the proof that from the inputs and the accumulator at `a14`
    they run to their end handing the inputs back as they were and the accumulator at the witness. -/
noncomputable def partRun9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v221 : IVec S40x200 32) (v248 : IVec S40x50 32) (v272 : BitVec 32) (c0_i32_150 : BitVec 32) :
    { W : Vec F S40x200x160 .f32 × IVec S40x50 32 × Elt F .i32 × Elt F .i32 × BitVec 1 × BitVec 1 //
      ∀ (E : Set ℕ) (K : (Σ' (v300 : IVec S40x50 32) (v303 : Elt F .i32) (v305 : Elt F .i32) (v306 : BitVec 1), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part9 i M2 h2 M3 h3 M4 h4 M5 h5 M6 h6 M7 h7 M8 h8 M9 h9 M10 h10 M11 h11 M12 h12 M13 h13 M14 h14 v4 v7 v221 v248 v272 c0_i32_150) K } := by
  refine ⟨⟨?_, ?_, ?_, ?_, ?_, ?_⟩, fun E K => ?run⟩
  case run =>
    simp only [k0_part9_eq_skeleton]; unfold k0_part9_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 541–600 of the body: what they leave in the accumulator (over its contents `a14` on entry and
    the inputs' contents) and the values they hand on, WITH the proof that from the inputs and the accumulator at `a14`
    they run to their end handing the inputs back as they were and the accumulator at the witness. -/
noncomputable def partRun10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v300 : IVec S40x50 32) (v303 : Elt F .i32) (v305 : Elt F .i32) (v306 : BitVec 1) (v307 : BitVec 1) :
    { W : Vec F S40x200x160 .f32 × IVec S40x200 32 × IVec S40x50 32 × Elt F .i32 × Elt F .i32 × BitVec 1 //
      ∀ (E : Set ℕ) (K : (Σ' (v327 : IVec S40x200 32) (v328 : IVec S40x50 32) (v331 : Elt F .i32) (v333 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part10 i M2 h2 M3 h3 M4 h4 M5 h5 M6 h6 M7 h7 M8 h8 M9 h9 M10 h10 M11 h11 M12 h12 M13 h13 M14 h14 v4 v7 v300 v303 v305 v306 v307) K } := by
  refine ⟨⟨?_, ?_, ?_, ?_, ?_, ?_⟩, fun E K => ?run⟩
  case run =>
    simp only [k0_part10_eq_skeleton]; unfold k0_part10_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 601–660 of the body: what they leave in the accumulator (over its contents `a14` on entry and
    the inputs' contents) and the values they hand on, WITH the proof that from the inputs and the accumulator at `a14`
    they run to their end handing the inputs back as they were and the accumulator at the witness. -/
noncomputable def partRun11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v327 : IVec S40x200 32) (v328 : IVec S40x50 32) (v331 : Elt F .i32) (v333 : Elt F .i32) (v341 : BitVec 1) :
    { W : Vec F S40x200x160 .f32 × IVec S40x50 32 × Elt F .i32 × BitVec 1 //
      ∀ (E : Set ℕ) (K : (Σ' (v354 : IVec S40x50 32) (v357 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part11 i M2 h2 M3 h3 M4 h4 M5 h5 M6 h6 M7 h7 M8 h8 M9 h9 M10 h10 M11 h11 M12 h12 M13 h13 M14 h14 v4 v7 v327 v328 v331 v333 v341) K } := by
  refine ⟨⟨?_, ?_, ?_, ?_⟩, fun E K => ?run⟩
  case run =>
    simp only [k0_part11_eq_skeleton]; unfold k0_part11_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 661–720 of the body: what they leave in the accumulator (over its contents `a14` on entry and
    the inputs' contents) and the values they hand on, WITH the proof that from the inputs and the accumulator at `a14`
    they run to their end handing the inputs back as they were and the accumulator at the witness. -/
noncomputable def partRun12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v327 : IVec S40x200 32) (v354 : IVec S40x50 32) (v357 : Elt F .i32) (v375 : BitVec 1) :
    { W : Vec F S40x200x160 .f32 × IVec S40x50 32 × Elt F .i32 //
      ∀ (E : Set ℕ) (K : (Σ' (v406 : IVec S40x50 32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part12 i M2 h2 M3 h3 M4 h4 M5 h5 M6 h6 M7 h7 M8 h8 M9 h9 M10 h10 M11 h11 M12 h12 M13 h13 M14 h14 v4 v7 v327 v354 v357 v375) K } := by
  refine ⟨⟨?_, ?_, ?_⟩, fun E K => ?run⟩
  case run =>
    simp only [k0_part12_eq_skeleton]; unfold k0_part12_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.Kernel.Body

end
-- ==== Proof.StepsKernel.lean ====
/-
  One step of the body's top-level sequence at a time: the sequence after part N − 1 runs part N (its own run,
  Parts*.lean) and continues as the sequence after part N, for any accumulator on entry and any handed-on values; and
  the thirteenth part: the statements after the twelfth part call (one bound word, the last four guarded updates, the
  bias and the full accumulator read), run like the others.
-/
import proofs.«408597_j16320875725026_3_alg».proof.Proof.RestKernel
import proofs.«408597_j16320875725026_3_alg».proof.Proof.PartsAKernel
import proofs.«408597_j16320875725026_3_alg».proof.Proof.PartsBKernel
import proofs.«408597_j16320875725026_3_alg».proof.Proof.PartsCKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The sequence after part 0 runs part 1 and goes on as the sequence after part 1. -/
theorem step1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32)  (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ (∃ d, owns (c : Thread nD τ) M14 fullShare d)
        ∗ (iprop(ctxI c M2 M3 M4 M5 M6 M7 M8 M9 M10 M11 M12 x2 x3 x4 x5 x6 x7 x8 x9 x10 x11 x12 ∗ owns (c : Thread nD τ) M14 fullShare (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.1)
            -∗ wp frame (wpE (defs₀ (F := F)) Variants.none c none) E (rest1 i M2 h2 M3 h3 M4 h4 M5 h5 M6 h6 M7 h7 M8 h8 M9 h9 M10 h10 M11 h11 M12 h12 M13 h13 M14 h14 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2) K'))
      ⊢ wp frame (wpE (defs₀ (F := F)) Variants.none c none) E (k0_part13_skel i M2 h2 M3 h3 M4 h4 M5 h5 M6 h6 M7 h7 M8 h8 M9 h9 M10 h10 M11 h11 M12 h12 M13 h13 M14 h14) K' := by
  unfold k0_part13_skel
  iintro ⟨Hc, H14, Hk⟩
  rw [wp_bind]
  iapply ((partRun1 (F := F) c i M2 h2 M3 h3 M4 h4 M5 h5 M6 h6 M7 h7 M8 h8 M9 h9 M10 h10 M11 h11 M12 h12 M13 h13 M14 h14 x2 x3 x4 x5 x6 x7 x8 x9 x10 x11 x12).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 1 runs part 2 and goes on as the sequence after part 2. -/
theorem step2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v9 : IVec S40x200 32) (v10 : IVec S40x50 32) (v13 : Elt F .i32) (v31 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.1)
            -∗ wp frame (wpE (defs₀ (F := F)) Variants.none c none) E (rest2 i M2 h2 M3 h3 M4 h4 M5 h5 M6 h6 M7 h7 M8 h8 M9 h9 M10 h10 M11 h11 M12 h12 M13 h13 M14 h14 v4 v7 v9 (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.1 (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.2) K'))
      ⊢ wp frame (wpE (defs₀ (F := F)) Variants.none c none) E (rest1 i M2 h2 M3 h3 M4 h4 M5 h5 M6 h6 M7 h7 M8 h8 M9 h9 M10 h10 M11 h11 M12 h12 M13 h13 M14 h14 v4 v7 v9 v10 v13 v31) K' := by
  unfold rest1
  iintro ⟨Hc, H14, Hk⟩
  rw [wp_bind]
  iapply ((partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 2 runs part 3 and goes on as the sequence after part 3. -/
theorem step3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v9 : IVec S40x200 32) (v62 : IVec S40x50 32) (v65 : Elt F .i32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.1)
            -∗ wp frame (wpE (defs₀ (F := F)) Variants.none c none) E (rest3 i M2 h2 M3 h3 M4 h4 M5 h5 M6 h6 M7 h7 M8 h8 M9 h9 M10 h10 M11 h11 M12 h12 M13 h13 M14 h14 v4 v7 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.2) K'))
      ⊢ wp frame (wpE (defs₀ (F := F)) Variants.none c none) E (rest2 i M2 h2 M3 h3 M4 h4 M5 h5 M6 h6 M7 h7 M8 h8 M9 h9 M10 h10 M11 h11 M12 h12 M13 h13 M14 h14 v4 v7 v9 v62 v65) K' := by
  unfold rest2
  iintro ⟨Hc, H14, Hk⟩
  rw [wp_bind]
  iapply ((partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 3 runs part 4 and goes on as the sequence after part 4. -/
theorem step4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v88 : IVec S40x50 32) (v91 : Elt F .i32) (v93 : Elt F .i32) (v101 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.1)
            -∗ wp frame (wpE (defs₀ (F := F)) Variants.none c none) E (rest4 i M2 h2 M3 h3 M4 h4 M5 h5 M6 h6 M7 h7 M8 h8 M9 h9 M10 h10 M11 h11 M12 h12 M13 h13 M14 h14 v4 v7 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.2) K'))
      ⊢ wp frame (wpE (defs₀ (F := F)) Variants.none c none) E (rest3 i M2 h2 M3 h3 M4 h4 M5 h5 M6 h6 M7 h7 M8 h8 M9 h9 M10 h10 M11 h11 M12 h12 M13 h13 M14 h14 v4 v7 v88 v91 v93 v101) K' := by
  unfold rest3
  iintro ⟨Hc, H14, Hk⟩
  rw [wp_bind]
  iapply ((partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 4 runs part 5 and goes on as the sequence after part 5. -/
theorem step5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v115 : IVec S40x200 32) (v116 : IVec S40x50 32) (v119 : Elt F .i32) (v121 : Elt F .i32) (v135 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.1)
            -∗ wp frame (wpE (defs₀ (F := F)) Variants.none c none) E (rest5 i M2 h2 M3 h3 M4 h4 M5 h5 M6 h6 M7 h7 M8 h8 M9 h9 M10 h10 M11 h11 M12 h12 M13 h13 M14 h14 v4 v7 v115 (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.1 (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.2) K'))
      ⊢ wp frame (wpE (defs₀ (F := F)) Variants.none c none) E (rest4 i M2 h2 M3 h3 M4 h4 M5 h5 M6 h6 M7 h7 M8 h8 M9 h9 M10 h10 M11 h11 M12 h12 M13 h13 M14 h14 v4 v7 v115 v116 v119 v121 v135) K' := by
  unfold rest4
  iintro ⟨Hc, H14, Hk⟩
  rw [wp_bind]
  iapply ((partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 5 runs part 6 and goes on as the sequence after part 6. -/
theorem step6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v115 : IVec S40x200 32) (v168 : IVec S40x50 32) (v169 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.1)
            -∗ wp frame (wpE (defs₀ (F := F)) Variants.none c none) E (rest6 i M2 h2 M3 h3 M4 h4 M5 h5 M6 h6 M7 h7 M8 h8 M9 h9 M10 h10 M11 h11 M12 h12 M13 h13 M14 h14 v4 v7 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.1 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.1 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.2) K'))
      ⊢ wp frame (wpE (defs₀ (F := F)) Variants.none c none) E (rest5 i M2 h2 M3 h3 M4 h4 M5 h5 M6 h6 M7 h7 M8 h8 M9 h9 M10 h10 M11 h11 M12 h12 M13 h13 M14 h14 v4 v7 v115 v168 v169) K' := by
  unfold rest5
  iintro ⟨Hc, H14, Hk⟩
  rw [wp_bind]
  iapply ((partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 6 runs part 7 and goes on as the sequence after part 7. -/
theorem step7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v194 : IVec S40x50 32) (v197 : Elt F .i32) (v199 : Elt F .i32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.1)
            -∗ wp frame (wpE (defs₀ (F := F)) Variants.none c none) E (rest7 i M2 h2 M3 h3 M4 h4 M5 h5 M6 h6 M7 h7 M8 h8 M9 h9 M10 h10 M11 h11 M12 h12 M13 h13 M14 h14 v4 v7 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.2) K'))
      ⊢ wp frame (wpE (defs₀ (F := F)) Variants.none c none) E (rest6 i M2 h2 M3 h3 M4 h4 M5 h5 M6 h6 M7 h7 M8 h8 M9 h9 M10 h10 M11 h11 M12 h12 M13 h13 M14 h14 v4 v7 v194 v197 v199) K' := by
  unfold rest6
  iintro ⟨Hc, H14, Hk⟩
  rw [wp_bind]
  iapply ((partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 7 runs part 8 and goes on as the sequence after part 8. -/
theorem step8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v221 : IVec S40x200 32) (v222 : IVec S40x50 32) (v225 : Elt F .i32) (v227 : Elt F .i32) (c512_i32_130 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.1)
            -∗ wp frame (wpE (defs₀ (F := F)) Variants.none c none) E (rest8 i M2 h2 M3 h3 M4 h4 M5 h5 M6 h6 M7 h7 M8 h8 M9 h9 M10 h10 M11 h11 M12 h12 M13 h13 M14 h14 v4 v7 v221 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.1 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.1 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.2) K'))
      ⊢ wp frame (wpE (defs₀ (F := F)) Variants.none c none) E (rest7 i M2 h2 M3 h3 M4 h4 M5 h5 M6 h6 M7 h7 M8 h8 M9 h9 M10 h10 M11 h11 M12 h12 M13 h13 M14 h14 v4 v7 v221 v222 v225 v227 c512_i32_130) K' := by
  unfold rest7
  iintro ⟨Hc, H14, Hk⟩
  rw [wp_bind]
  iapply ((partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 8 runs part 9 and goes on as the sequence after part 9. -/
theorem step9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v221 : IVec S40x200 32) (v248 : IVec S40x50 32) (v272 : BitVec 32) (c0_i32_150 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.1)
            -∗ wp frame (wpE (defs₀ (F := F)) Variants.none c none) E (rest9 i M2 h2 M3 h3 M4 h4 M5 h5 M6 h6 M7 h7 M8 h8 M9 h9 M10 h10 M11 h11 M12 h12 M13 h13 M14 h14 v4 v7 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.2) K'))
      ⊢ wp frame (wpE (defs₀ (F := F)) Variants.none c none) E (rest8 i M2 h2 M3 h3 M4 h4 M5 h5 M6 h6 M7 h7 M8 h8 M9 h9 M10 h10 M11 h11 M12 h12 M13 h13 M14 h14 v4 v7 v221 v248 v272 c0_i32_150) K' := by
  unfold rest8
  iintro ⟨Hc, H14, Hk⟩
  rw [wp_bind]
  iapply ((partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 9 runs part 10 and goes on as the sequence after part 10. -/
theorem step10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v300 : IVec S40x50 32) (v303 : Elt F .i32) (v305 : Elt F .i32) (v306 : BitVec 1) (v307 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.1)
            -∗ wp frame (wpE (defs₀ (F := F)) Variants.none c none) E (rest10 i M2 h2 M3 h3 M4 h4 M5 h5 M6 h6 M7 h7 M8 h8 M9 h9 M10 h10 M11 h11 M12 h12 M13 h13 M14 h14 v4 v7 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.2) K'))
      ⊢ wp frame (wpE (defs₀ (F := F)) Variants.none c none) E (rest9 i M2 h2 M3 h3 M4 h4 M5 h5 M6 h6 M7 h7 M8 h8 M9 h9 M10 h10 M11 h11 M12 h12 M13 h13 M14 h14 v4 v7 v300 v303 v305 v306 v307) K' := by
  unfold rest9
  iintro ⟨Hc, H14, Hk⟩
  rw [wp_bind]
  iapply ((partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 10 runs part 11 and goes on as the sequence after part 11. -/
theorem step11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v327 : IVec S40x200 32) (v328 : IVec S40x50 32) (v331 : Elt F .i32) (v333 : Elt F .i32) (v341 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.1)
            -∗ wp frame (wpE (defs₀ (F := F)) Variants.none c none) E (rest11 i M2 h2 M3 h3 M4 h4 M5 h5 M6 h6 M7 h7 M8 h8 M9 h9 M10 h10 M11 h11 M12 h12 M13 h13 M14 h14 v4 v7 v327 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.1 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.1 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.2) K'))
      ⊢ wp frame (wpE (defs₀ (F := F)) Variants.none c none) E (rest10 i M2 h2 M3 h3 M4 h4 M5 h5 M6 h6 M7 h7 M8 h8 M9 h9 M10 h10 M11 h11 M12 h12 M13 h13 M14 h14 v4 v7 v327 v328 v331 v333 v341) K' := by
  unfold rest10
  iintro ⟨Hc, H14, Hk⟩
  rw [wp_bind]
  iapply ((partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 11 runs part 12 and goes on as the sequence after part 12. -/
theorem step12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v327 : IVec S40x200 32) (v354 : IVec S40x50 32) (v357 : Elt F .i32) (v375 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.1)
            -∗ wp frame (wpE (defs₀ (F := F)) Variants.none c none) E (rest12 i M2 h2 M3 h3 M4 h4 M5 h5 M6 h6 M7 h7 M8 h8 M9 h9 M10 h10 M11 h11 M12 h12 M13 h13 M14 h14 v4 (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.1 (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.2) K'))
      ⊢ wp frame (wpE (defs₀ (F := F)) Variants.none c none) E (rest11 i M2 h2 M3 h3 M4 h4 M5 h5 M6 h6 M7 h7 M8 h8 M9 h9 M10 h10 M11 h11 M12 h12 M13 h13 M14 h14 v4 v7 v327 v354 v357 v375) K' := by
  unfold rest11
  iintro ⟨Hc, H14, Hk⟩
  rw [wp_bind]
  iapply ((partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).2 E _)
  isplitl [Hc]; · iexact Hc
  isplitl [H14]; · iexact H14
  iintro ⟨Hc, H14⟩
  dsimp only
  iapply Hk
  isplitl [Hc]; · iexact Hc
  iexact H14

set_option maxHeartbeats 8000000 in
/-- The statements after the twelfth part call: what they leave in the accumulator (over its contents `a14` on entry and
    the inputs' contents) and the pair they return — the accumulator plus the bias, and the zero the maximum is taken with —,
    WITH the proof that from the inputs and the accumulator at `a14` they run to their end. -/
noncomputable def partRun13 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v406 : IVec S40x50 32) (v409 : Elt F .i32) :
    { W : Vec F S40x200x160 .f32 × FVec F S40x200x160 .f32 × FVec F S40x200x160 .f32 //
      ∀ (E : Set ℕ) (K : (Σ' (v436 : FVec F S40x200x160 .f32), FVec F S40x200x160 .f32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (rest12 i M2 h2 M3 h3 M4 h4 M5 h5 M6 h6 M7 h7 M8 h8 M9 h9 M10 h10 M11 h11 M12 h12 M13 h13 M14 h14 v4 v406 v409) K } := by
  refine ⟨⟨?_, ?_, ?_⟩, fun E K => ?run⟩
  case run =>
    unfold rest12
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.Kernel.Body

end
-- ==== Proof.FinishKernel.lean ====
/-
  The end of the body: the thirteenth part, then the result's load and store, over any accumulator on entry and any
  handed-on values.
-/
import proofs.«408597_j16320875725026_3_alg».proof.Proof.StepsKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the body does with the pair its top-level sequence returns: the result's load and its store of the maximum. -/
noncomputable def storeOf (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) :
    (Σ' (v436 : FVec F S40x200x160 .f32), FVec F S40x200x160 .f32) → Prog (TpuEff nD τ sig (Elt F) Λ₀ .tc) PUnit := fun r => match r with
  | ⟨v436, v437⟩ => do
    let v439 : Vec F S1x40x200x160 .f32 ← Prog.lift (.load arg13 (Rect.unit (s := S1x40x200x160) ![0, 0, 0, 0] S1x40x200x160.size inb_S1x40x200x160_S1x40x200x160_0_0_0_0).toLoadRect (View.loadsAt_vmem h_S1x40x200x160)) -- %439 = vector.load %arg13[%c0_248, %c0_249, %c0_250, %c0_251] : memref<1x40x200x160xf32, #tpu.memory_space<vmem>>, vector<1x40x200x160xf32>  @ kernel:123
    -- %440 = vector.shape_cast %439 : vector<1x40x200x160xf32> to vector<40x200x160xf32>  @ kernel:123  — not in the skeleton
    Prog.lift (.store arg13 (Rect.unit (s := S1x40x200x160) ![0, 0, 0, 0] S1x40x200x160.size inb_S1x40x200x160_S1x40x200x160_0_0_0_0) (k0_pay1 v436 v437) Finset.univ (View.stores_vmem_bits_univ h_S1x40x200x160 rfl) (.inl rfl)) -- tpu.vector_store %arg13[%c0_248, %c0_249, %c0_250, %c0_251], %441 {strides = array<i32>} : memref<1x40x200x160xf32, #tpu.memory_space<vmem>>, vector<1x40x200x160xf32>,  @ kernel:123
    pure ⟨⟩                                                               -- func.return

set_option maxHeartbeats 8000000 in
/-- The body is its top-level sequence, then the result's load and store. -/
theorem cc0_eq (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) :
    cc0_kernel (F := F) i arg2 harg2 arg3 harg3 arg4 harg4 arg5 harg5 arg6 harg6 arg7 harg7 arg8 harg8 arg9 harg9 arg10 harg10 arg11 harg11 arg12 harg12 arg13 harg13 arg14 harg14 = (k0_part13_skel (F := F) i arg2 harg2 arg3 harg3 arg4 harg4 arg5 harg5 arg6 harg6 arg7 harg7 arg8 harg8 arg9 harg9 arg10 harg10 arg11 harg11 arg12 harg12 arg13 harg13 arg14 harg14 >>= storeOf (F := F) i arg2 harg2 arg3 harg3 arg4 harg4 arg5 harg5 arg6 harg6 arg7 harg7 arg8 harg8 arg9 harg9 arg10 harg10 arg11 harg11 arg12 harg12 arg13 harg13 arg14 harg14) := by
  rw [cc0_kernel_eq_skeleton]; unfold cc0_kernel_skel; rw [k0_part13_eq_skeleton]; rfl

set_option maxHeartbeats 8000000 in
/-- The pieces the result's store leaves in the result's staging memref, WITH the proof that from the inputs, the
    result's buffer at anything and the accumulator at `a14` the thirteenth part and the store run to the body's return. -/
noncomputable def finishRun (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v406 : IVec S40x50 32) (v409 : Elt F .i32) :
    { L : List (View.Piece (Elt F) S1x40x200x160 .f32) //
      ∀ (E : Set ℕ) (K : PUnit → sProp 𝕄),
        iprop(ctxI c M2 M3 M4 M5 M6 M7 M8 M9 M10 M11 M12 x2 x3 x4 x5 x6 x7 x8 x9 x10 x11 x12
            ∗ (∃ d, owns (c : Thread nD τ) M13 fullShare d) ∗ owns (c : Thread nD τ) M14 fullShare a14
            ∗ (iprop(ctxI c M2 M3 M4 M5 M6 M7 M8 M9 M10 M11 M12 x2 x3 x4 x5 x6 x7 x8 x9 x10 x11 x12
                ∗ (∃ f, M13.view.loc (c : Thread nD τ) ↦[M13.view.set]{fullShare} M13.view.writes (Elt F) f L)
                ∗ (∃ d, owns (c : Thread nD τ) M14 fullShare d)) -∗ K ⟨⟩))
          ⊢ wp frame (wpE (defs₀ (F := F)) Variants.none c none) E (rest12 i M2 h2 M3 h3 M4 h4 M5 h5 M6 h6 M7 h7 M8 h8 M9 h9 M10 h10 M11 h11 M12 h12 M13 h13 M14 h14 v4 v406 v409)
              (fun r => wp frame (wpE (defs₀ (F := F)) Variants.none c none) E (storeOf i M2 h2 M3 h3 M4 h4 M5 h5 M6 h6 M7 h7 M8 h8 M9 h9 M10 h10 M11 h11 M12 h12 M13 h13 M14 h14 r) K) } := by
  refine ⟨?_, fun E K => ?run⟩
  case run =>
    iintro ⟨Hc, H13, H14, Hk⟩
    iapply ((partRun13 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).2 E _)
    isplitl [Hc]; · iexact Hc
    isplitl [H14]; · iexact H14
    iintro ⟨Hc, H14⟩
    dsimp only [storeOf]
    unfold ctxI owns
    icases Hc with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
    icases H13 with ⟨%d13, %f13, -, H13⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    isplitl [H13]
    · iexists _; iexact H13
    iexists _; iexact H14

set_option maxRecDepth 16384 in
/-- The result's store is of the whole block: the pieces cover the result's staging buffer. -/
theorem finishRun_cover (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v406 : IVec S40x50 32) (v409 : Elt F .i32)
    (y : S1x40x200x160.Idx) : ∃ pc ∈ (finishRun (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1, y ∈ pc.1.set := by
  unfold finishRun
  dsimp only
  exact View.cover_of_tiled _ S1x40x200x160.size (by rfl) y

end Cert.Kernel.Body

end
-- ==== Proof.ChainKernel.lean ====
/-
  The twelve parts in sequence: each part run from the accumulator the part before left and the values the
  earlier parts handed on.
-/
import proofs.«408597_j16320875725026_3_alg».proof.Proof.PartsAKernel
import proofs.«408597_j16320875725026_3_alg».proof.Proof.PartsBKernel
import proofs.«408597_j16320875725026_3_alg».proof.Proof.PartsCKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Part 1's run in the sequence. -/
@[reducible] noncomputable def pr1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun1 (F := F) c i M2 h2 M3 h3 M4 h4 M5 h5 M6 h6 M7 h7 M8 h8 M9 h9 M10 h10 M11 h11 M12 h12 M13 h13 M14 h14 x2 x3 x4 x5 x6 x7 x8 x9 x10 x11 x12

/-- Part 2's run in the sequence. -/
@[reducible] noncomputable def pr2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun2 (F := F) c i M2 h2 M3 h3 M4 h4 M5 h5 M6 h6 M7 h7 M8 h8 M9 h9 M10 h10 M11 h11 M12 h12 M13 h13 M14 h14 x2 x3 x4 x5 x6 x7 x8 x9 x10 x11 x12 (pr1 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2

/-- Part 3's run in the sequence. -/
@[reducible] noncomputable def pr3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun3 (F := F) c i M2 h2 M3 h3 M4 h4 M5 h5 M6 h6 M7 h7 M8 h8 M9 h9 M10 h10 M11 h11 M12 h12 M13 h13 M14 h14 x2 x3 x4 x5 x6 x7 x8 x9 x10 x11 x12 (pr2 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 4's run in the sequence. -/
@[reducible] noncomputable def pr4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun4 (F := F) c i M2 h2 M3 h3 M4 h4 M5 h5 M6 h6 M7 h7 M8 h8 M9 h9 M10 h10 M11 h11 M12 h12 M13 h13 M14 h14 x2 x3 x4 x5 x6 x7 x8 x9 x10 x11 x12 (pr3 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 5's run in the sequence. -/
@[reducible] noncomputable def pr5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun5 (F := F) c i M2 h2 M3 h3 M4 h4 M5 h5 M6 h6 M7 h7 M8 h8 M9 h9 M10 h10 M11 h11 M12 h12 M13 h13 M14 h14 x2 x3 x4 x5 x6 x7 x8 x9 x10 x11 x12 (pr4 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 6's run in the sequence. -/
@[reducible] noncomputable def pr6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun6 (F := F) c i M2 h2 M3 h3 M4 h4 M5 h5 M6 h6 M7 h7 M8 h8 M9 h9 M10 h10 M11 h11 M12 h12 M13 h13 M14 h14 x2 x3 x4 x5 x6 x7 x8 x9 x10 x11 x12 (pr5 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 7's run in the sequence. -/
@[reducible] noncomputable def pr7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun7 (F := F) c i M2 h2 M3 h3 M4 h4 M5 h5 M6 h6 M7 h7 M8 h8 M9 h9 M10 h10 M11 h11 M12 h12 M13 h13 M14 h14 x2 x3 x4 x5 x6 x7 x8 x9 x10 x11 x12 (pr6 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 8's run in the sequence. -/
@[reducible] noncomputable def pr8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun8 (F := F) c i M2 h2 M3 h3 M4 h4 M5 h5 M6 h6 M7 h7 M8 h8 M9 h9 M10 h10 M11 h11 M12 h12 M13 h13 M14 h14 x2 x3 x4 x5 x6 x7 x8 x9 x10 x11 x12 (pr7 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 9's run in the sequence. -/
@[reducible] noncomputable def pr9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun9 (F := F) c i M2 h2 M3 h3 M4 h4 M5 h5 M6 h6 M7 h7 M8 h8 M9 h9 M10 h10 M11 h11 M12 h12 M13 h13 M14 h14 x2 x3 x4 x5 x6 x7 x8 x9 x10 x11 x12 (pr8 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 10's run in the sequence. -/
@[reducible] noncomputable def pr10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun10 (F := F) c i M2 h2 M3 h3 M4 h4 M5 h5 M6 h6 M7 h7 M8 h8 M9 h9 M10 h10 M11 h11 M12 h12 M13 h13 M14 h14 x2 x3 x4 x5 x6 x7 x8 x9 x10 x11 x12 (pr9 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 11's run in the sequence. -/
@[reducible] noncomputable def pr11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun11 (F := F) c i M2 h2 M3 h3 M4 h4 M5 h5 M6 h6 M7 h7 M8 h8 M9 h9 M10 h10 M11 h11 M12 h12 M13 h13 M14 h14 x2 x3 x4 x5 x6 x7 x8 x9 x10 x11 x12 (pr10 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 12's run in the sequence. -/
@[reducible] noncomputable def pr12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun12 (F := F) c i M2 h2 M3 h3 M4 h4 M5 h5 M6 h6 M7 h7 M8 h8 M9 h9 M10 h10 M11 h11 M12 h12 M13 h13 M14 h14 x2 x3 x4 x5 x6 x7 x8 x9 x10 x11 x12 (pr11 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.2

end Cert.Kernel.Body

end
-- ==== Proof.BodyRunKernel.lean ====
/-
  The kernel body run at symbolic operands: its twelve printed parts in sequence, each by its own run over the
  accumulator the part before left, then the last four guarded updates, the bias, the maximum with zero and the
  result's store. What the store leaves in the result's staging buffer is a piece over the input buffers' contents
  alone: the witness below. The scratch ends at something.
-/
import proofs.«408597_j16320875725026_3_alg».proof.Proof.FinishKernel
import proofs.«408597_j16320875725026_3_alg».proof.Proof.ChainKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body is its top-level sequence continued by the result's load and store. -/
theorem enter (c : Dev nD) (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (E : Set ℕ) (K : PUnit → sProp 𝕄) :
    wp frame (wpE (defs₀ (F := F)) Variants.none c none) E (k0_part13_skel (F := F) i arg2 harg2 arg3 harg3 arg4 harg4 arg5 harg5 arg6 harg6 arg7 harg7 arg8 harg8 arg9 harg9 arg10 harg10 arg11 harg11 arg12 harg12 arg13 harg13 arg14 harg14)
        (fun r => wp frame (wpE (defs₀ (F := F)) Variants.none c none) E (storeOf (F := F) i arg2 harg2 arg3 harg3 arg4 harg4 arg5 harg5 arg6 harg6 arg7 harg7 arg8 harg8 arg9 harg9 arg10 harg10 arg11 harg11 arg12 harg12 arg13 harg13 arg14 harg14 r) K)
      ⊢ wp frame (wpE (defs₀ (F := F)) Variants.none c none) E (cc0_kernel (F := F) i arg2 harg2 arg3 harg3 arg4 harg4 arg5 harg5 arg6 harg6 arg7 harg7 arg8 harg8 arg9 harg9 arg10 harg10 arg11 harg11 arg12 harg12 arg13 harg13 arg14 harg14) K := by
  rw [cc0_eq, wp_bind]
  first | done | exact .rfl

set_option maxHeartbeats 0 in
/-- The twelve parts in sequence, for any continuation: from the inputs and the scratch at anything the top-level
    sequence runs to the sequence after its twelfth part, the accumulator at what the twelve parts leave. -/
theorem chainAll (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ (∃ d, owns (c : Thread nD τ) M14 fullShare d)
        ∗ (iprop(ctxI c M2 M3 M4 M5 M6 M7 M8 M9 M10 M11 M12 x2 x3 x4 x5 x6 x7 x8 x9 x10 x11 x12 ∗ owns (c : Thread nD τ) M14 fullShare (pr12 (F := F) c i M2 h2 M3 h3 M4 h4 M5 h5 M6 h6 M7 h7 M8 h8 M9 h9 M10 h10 M11 h11 M12 h12 M13 h13 M14 h14 x2 x3 x4 x5 x6 x7 x8 x9 x10 x11 x12).1.1)
            -∗ wp frame (wpE (defs₀ (F := F)) Variants.none c none) E (rest12 i M2 h2 M3 h3 M4 h4 M5 h5 M6 h6 M7 h7 M8 h8 M9 h9 M10 h10 M11 h11 M12 h12 M13 h13 M14 h14 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2) K'))
      ⊢ wp frame (wpE (defs₀ (F := F)) Variants.none c none) E (k0_part13_skel i M2 h2 M3 h3 M4 h4 M5 h5 M6 h6 M7 h7 M8 h8 M9 h9 M10 h10 M11 h11 M12 h12 M13 h13 M14 h14) K' := by
  iintro ⟨Hc, H14, Hk⟩
  iapply (step1 (F := F) c i M2 h2 M3 h3 M4 h4 M5 h5 M6 h6 M7 h7 M8 h8 M9 h9 M10 h10 M11 h11 M12 h12 M13 h13 M14 h14 x2 x3 x4 x5 x6 x7 x8 x9 x10 x11 x12 E _)
  isplitl [Hc]; · iexact Hc
  isplitl [H14]; · iexact H14
  iintro ⟨Hc, H14⟩
  iapply (step2 (F := F) c i M2 h2 M3 h3 M4 h4 M5 h5 M6 h6 M7 h7 M8 h8 M9 h9 M10 h10 M11 h11 M12 h12 M13 h13 M14 h14 x2 x3 x4 x5 x6 x7 x8 x9 x10 x11 x12 (pr1 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2 E _)
  isplitl [Hc]; · iexact Hc
  isplitl [H14]; · iexact H14
  iintro ⟨Hc, H14⟩
  iapply (step3 (F := F) c i M2 h2 M3 h3 M4 h4 M5 h5 M6 h6 M7 h7 M8 h8 M9 h9 M10 h10 M11 h11 M12 h12 M13 h13 M14 h14 x2 x3 x4 x5 x6 x7 x8 x9 x10 x11 x12 (pr2 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.2 E _)
  isplitl [Hc]; · iexact Hc
  isplitl [H14]; · iexact H14
  iintro ⟨Hc, H14⟩
  iapply (step4 (F := F) c i M2 h2 M3 h3 M4 h4 M5 h5 M6 h6 M7 h7 M8 h8 M9 h9 M10 h10 M11 h11 M12 h12 M13 h13 M14 h14 x2 x3 x4 x5 x6 x7 x8 x9 x10 x11 x12 (pr3 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.2 E _)
  isplitl [Hc]; · iexact Hc
  isplitl [H14]; · iexact H14
  iintro ⟨Hc, H14⟩
  iapply (step5 (F := F) c i M2 h2 M3 h3 M4 h4 M5 h5 M6 h6 M7 h7 M8 h8 M9 h9 M10 h10 M11 h11 M12 h12 M13 h13 M14 h14 x2 x3 x4 x5 x6 x7 x8 x9 x10 x11 x12 (pr4 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step6 (F := F) c i M2 h2 M3 h3 M4 h4 M5 h5 M6 h6 M7 h7 M8 h8 M9 h9 M10 h10 M11 h11 M12 h12 M13 h13 M14 h14 x2 x3 x4 x5 x6 x7 x8 x9 x10 x11 x12 (pr5 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.2 E _)
  isplitl [Hc]; · iexact Hc
  isplitl [H14]; · iexact H14
  iintro ⟨Hc, H14⟩
  iapply (step7 (F := F) c i M2 h2 M3 h3 M4 h4 M5 h5 M6 h6 M7 h7 M8 h8 M9 h9 M10 h10 M11 h11 M12 h12 M13 h13 M14 h14 x2 x3 x4 x5 x6 x7 x8 x9 x10 x11 x12 (pr6 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply (step8 (F := F) c i M2 h2 M3 h3 M4 h4 M5 h5 M6 h6 M7 h7 M8 h8 M9 h9 M10 h10 M11 h11 M12 h12 M13 h13 M14 h14 x2 x3 x4 x5 x6 x7 x8 x9 x10 x11 x12 (pr7 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step9 (F := F) c i M2 h2 M3 h3 M4 h4 M5 h5 M6 h6 M7 h7 M8 h8 M9 h9 M10 h10 M11 h11 M12 h12 M13 h13 M14 h14 x2 x3 x4 x5 x6 x7 x8 x9 x10 x11 x12 (pr8 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply (step10 (F := F) c i M2 h2 M3 h3 M4 h4 M5 h5 M6 h6 M7 h7 M8 h8 M9 h9 M10 h10 M11 h11 M12 h12 M13 h13 M14 h14 x2 x3 x4 x5 x6 x7 x8 x9 x10 x11 x12 (pr9 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step11 (F := F) c i M2 h2 M3 h3 M4 h4 M5 h5 M6 h6 M7 h7 M8 h8 M9 h9 M10 h10 M11 h11 M12 h12 M13 h13 M14 h14 x2 x3 x4 x5 x6 x7 x8 x9 x10 x11 x12 (pr10 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step12 (F := F) c i M2 h2 M3 h3 M4 h4 M5 h5 M6 h6 M7 h7 M8 h8 M9 h9 M10 h10 M11 h11 M12 h12 M13 h13 M14 h14 x2 x3 x4 x5 x6 x7 x8 x9 x10 x11 x12 (pr11 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply Hk
  isplitl [Hc]; · iexact Hc
  iexact H14

set_option maxHeartbeats 0 in
/-- The pieces the body's store leaves in the result's staging memref, WITH the proof that on whole memrefs — the two
    bound tables at half share and the nine input buffers at their contents, the result's buffer and the scratch at
    anything — the body runs to its return handing the inputs back as they were, the result's buffer with the pieces
    written and the scratch at something. -/
noncomputable def kernelRun (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :
    { L : List (View.Piece (Elt F) S1x40x200x160 .f32) //
      ∀ (E : Set ℕ) (K : PUnit → sProp 𝕄),
        iprop(ctxI c M2 M3 M4 M5 M6 M7 M8 M9 M10 M11 M12 x2 x3 x4 x5 x6 x7 x8 x9 x10 x11 x12
            ∗ (∃ d, owns (c : Thread nD τ) M13 fullShare d) ∗ (∃ d, owns (c : Thread nD τ) M14 fullShare d)
            ∗ (iprop(ctxI c M2 M3 M4 M5 M6 M7 M8 M9 M10 M11 M12 x2 x3 x4 x5 x6 x7 x8 x9 x10 x11 x12
                ∗ (∃ f, M13.view.loc (c : Thread nD τ) ↦[M13.view.set]{fullShare} M13.view.writes (Elt F) f L)
                ∗ (∃ d, owns (c : Thread nD τ) M14 fullShare d)) -∗ K ⟨⟩))
          ⊢ wp frame (wpE (defs₀ (F := F)) Variants.none c none) E
              (cc0_kernel i M2 h2 M3 h3 M4 h4 M5 h5 M6 h6 M7 h7 M8 h8 M9 h9 M10 h10 M11 h11 M12 h12 M13 h13 M14 h14) K } :=
  ⟨(finishRun (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2).1, fun E K => by
    iintro ⟨Hc, H13, H14, Hk⟩
    iapply (enter (F := F) c i M2 h2 M3 h3 M4 h4 M5 h5 M6 h6 M7 h7 M8 h8 M9 h9 M10 h10 M11 h11 M12 h12 M13 h13 M14 h14 E K)
    iapply (chainAll (F := F) c i M2 h2 M3 h3 M4 h4 M5 h5 M6 h6 M7 h7 M8 h8 M9 h9 M10 h10 M11 h11 M12 h12 M13 h13 M14 h14 x2 x3 x4 x5 x6 x7 x8 x9 x10 x11 x12 E _)
    isplitl [Hc]; · iexact Hc
    isplitl [H14]; · iexact H14
    iintro ⟨Hc, H14⟩
    iapply ((finishRun (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2).2 E K)
    isplitl [Hc]; · iexact Hc
    isplitl [H13]; · iexact H13
    isplitl [H14]; · iexact H14
    iexact Hk⟩

end Cert.Kernel.Body

end
-- ==== Proof.BodyCoverKernel.lean ====
/-
  The body's one store into the result's staging buffer is of the whole block: the pieces the run leaves cover it.
-/
import proofs.«408597_j16320875725026_3_alg».proof.Proof.BodyRunKernel

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's one store covers the result's staging buffer. -/
theorem kernelRun_cover (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (y : S1x40x200x160.Idx) :
    ∃ pc ∈ (kernelRun (F := F) c i M2 h2 M3 h3 M4 h4 M5 h5 M6 h6 M7 h7 M8 h8 M9 h9 M10 h10 M11 h11 M12 h12 M13 h13 M14 h14 x2 x3 x4 x5 x6 x7 x8 x9 x10 x11 x12).1, y ∈ pc.1.set :=
  finishRun_cover (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2 y

end Cert.Kernel.Body

end
-- ==== Proof.FrameRunKernel.lean ====
/-
  The kernel region's proof data and its launch.
-/
import proofs.«408597_j16320875725026_3_alg».proof.Proof.FrameMainKernel
import proofs.«408597_j16320875725026_3_alg».proof.Proof.BodyCoverKernel
import Idealize.ShloMosaic.Lib.Pipeline.Frame
import Idealize.ShloMosaic.Lib.Pipeline.FrameBody

noncomputable section

namespace Cert.Kernel.Frm

open Cert.Kernel Cert.Kernel.Gen Cert.Kernel.GenP Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, from the input staging buffers at their blocks and the two bound tables at the
    contents the pipeline runs at: its witness is the pieces it leaves in the result's staging buffer. -/
abbrev K (c : Dev nD) (t : Fin (cfgA m).N) :=
  kernelRun (F := F) c ((cfgA m).grid.coords t) (Memref.whole main_v62) (Memref.isWhole_whole _) (Memref.whole main_v63) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    (spec0_9.stage ((cfgA m).slots t 9)) (hstage0_9 (((cfgA m).slots t 9).cast nbuf0_9))
    (Memref.whole cc0_scratch0) (Memref.isWhole_whole _)
    ((adm m 0).1 0) ((adm m 0).1 1)
    (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t)

/-- The proof data on core `c`: the arrays as the region finds them; after the body each input's buffer at its
    block and the result's at the canon of the pieces the run leaves; the invariant the scratch and the generator register at anything
    with the body's halves of the bound tables; nothing owed; full shares. -/
def dats (p : Fin 1) (c : Dev nD) : Dat τ (Elt F) Unit ℕ (UR sig nD τ) ℕ (Pipeline.pin (pcfgs (F := F)) (adm m) p) c where
  A w := V m c (Pipeline.arrRef (cfgA m).spec w)
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => iblk m c (7 : Fin 10) t
    | ⟨8, _⟩ => iblk m c (8 : Fin 10) t
    | ⟨9, _⟩ => View.canon (K m c t).1
  Φ _ := iprop(Pipeline.ΦA (cfgA m).spec c ∗ Pipeline.ΦT (pcfgs (F := F) 0).pre (adm m 0).1 c)
  q _ := fullShare
  owed _ := 0

/-- The proof data's arrays are the region-entry contents. -/
theorem A_eq (c : Dev nD) (w : Fin 10) : (dats m 0 c).A w = V m c (Pipeline.arrRef (cfgA m).spec w) := by
  dsimp only [dats]

theorem after0_0 (c : Dev nD) (t : Fin (cfgA m).N) : (dats m 0 c).after (0 : Fin 10) t = iblk m c (0 : Fin 10) t := by
  show (dats m 0 c).after (⟨0, by decide⟩ : Fin 10) t = _
  dsimp only [dats]
theorem after0_1 (c : Dev nD) (t : Fin (cfgA m).N) : (dats m 0 c).after (1 : Fin 10) t = iblk m c (1 : Fin 10) t := by
  show (dats m 0 c).after (⟨1, by decide⟩ : Fin 10) t = _
  dsimp only [dats]
theorem after0_2 (c : Dev nD) (t : Fin (cfgA m).N) : (dats m 0 c).after (2 : Fin 10) t = iblk m c (2 : Fin 10) t := by
  show (dats m 0 c).after (⟨2, by decide⟩ : Fin 10) t = _
  dsimp only [dats]
theorem after0_3 (c : Dev nD) (t : Fin (cfgA m).N) : (dats m 0 c).after (3 : Fin 10) t = iblk m c (3 : Fin 10) t := by
  show (dats m 0 c).after (⟨3, by decide⟩ : Fin 10) t = _
  dsimp only [dats]
theorem after0_4 (c : Dev nD) (t : Fin (cfgA m).N) : (dats m 0 c).after (4 : Fin 10) t = iblk m c (4 : Fin 10) t := by
  show (dats m 0 c).after (⟨4, by decide⟩ : Fin 10) t = _
  dsimp only [dats]
theorem after0_5 (c : Dev nD) (t : Fin (cfgA m).N) : (dats m 0 c).after (5 : Fin 10) t = iblk m c (5 : Fin 10) t := by
  show (dats m 0 c).after (⟨5, by decide⟩ : Fin 10) t = _
  dsimp only [dats]
theorem after0_6 (c : Dev nD) (t : Fin (cfgA m).N) : (dats m 0 c).after (6 : Fin 10) t = iblk m c (6 : Fin 10) t := by
  show (dats m 0 c).after (⟨6, by decide⟩ : Fin 10) t = _
  dsimp only [dats]
theorem after0_7 (c : Dev nD) (t : Fin (cfgA m).N) : (dats m 0 c).after (7 : Fin 10) t = iblk m c (7 : Fin 10) t := by
  show (dats m 0 c).after (⟨7, by decide⟩ : Fin 10) t = _
  dsimp only [dats]
theorem after0_8 (c : Dev nD) (t : Fin (cfgA m).N) : (dats m 0 c).after (8 : Fin 10) t = iblk m c (8 : Fin 10) t := by
  show (dats m 0 c).after (⟨8, by decide⟩ : Fin 10) t = _
  dsimp only [dats]
theorem after0_9 (c : Dev nD) (t : Fin (cfgA m).N) : (dats m 0 c).after (9 : Fin 10) t = View.canon (K m c t).1 := by
  show (dats m 0 c).after (⟨9, by decide⟩ : Fin 10) t = _
  dsimp only [dats]

set_option maxHeartbeats 2000000 in
/-- Input window 0's current staging buffer holds its block at every point, fetched there or not. -/
theorem before0_0_of {c : Dev nD} (dat : Dat τ (Elt F) Unit ℕ (UR sig nD τ) ℕ (cfgA m) c) (hA : dat.A (0 : Fin 10) = V m c (Pipeline.arrRef (cfgA m).spec (0 : Fin 10)))
    (hafter : ∀ t, dat.after (0 : Fin 10) t = iblk m c (0 : Fin 10) t) (t : Fin (cfgA m).N) (d) : dat.before (0 : Fin 10) t d = iblk m c (0 : Fin 10) t :=
  (dat.before_in_eq_fetched (0 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin (cfgA m).N) (d) : (dats m 0 c).before (0 : Fin 10) t d = iblk m c (0 : Fin 10) t :=
  before0_0_of m (dats m 0 c) (A_eq m c (0 : Fin 10)) (after0_0 m c) t d
set_option maxHeartbeats 2000000 in
/-- Input window 1's current staging buffer holds its block at every point, fetched there or not. -/
theorem before0_1_of {c : Dev nD} (dat : Dat τ (Elt F) Unit ℕ (UR sig nD τ) ℕ (cfgA m) c) (hA : dat.A (1 : Fin 10) = V m c (Pipeline.arrRef (cfgA m).spec (1 : Fin 10)))
    (hafter : ∀ t, dat.after (1 : Fin 10) t = iblk m c (1 : Fin 10) t) (t : Fin (cfgA m).N) (d) : dat.before (1 : Fin 10) t d = iblk m c (1 : Fin 10) t :=
  (dat.before_in_eq_fetched (1 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin (cfgA m).N) (d) : (dats m 0 c).before (1 : Fin 10) t d = iblk m c (1 : Fin 10) t :=
  before0_1_of m (dats m 0 c) (A_eq m c (1 : Fin 10)) (after0_1 m c) t d
set_option maxHeartbeats 2000000 in
/-- Input window 2's current staging buffer holds its block at every point, fetched there or not. -/
theorem before0_2_of {c : Dev nD} (dat : Dat τ (Elt F) Unit ℕ (UR sig nD τ) ℕ (cfgA m) c) (hA : dat.A (2 : Fin 10) = V m c (Pipeline.arrRef (cfgA m).spec (2 : Fin 10)))
    (hafter : ∀ t, dat.after (2 : Fin 10) t = iblk m c (2 : Fin 10) t) (t : Fin (cfgA m).N) (d) : dat.before (2 : Fin 10) t d = iblk m c (2 : Fin 10) t :=
  (dat.before_in_eq_fetched (2 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin (cfgA m).N) (d) : (dats m 0 c).before (2 : Fin 10) t d = iblk m c (2 : Fin 10) t :=
  before0_2_of m (dats m 0 c) (A_eq m c (2 : Fin 10)) (after0_2 m c) t d
set_option maxHeartbeats 2000000 in
/-- Input window 3's current staging buffer holds its block at every point, fetched there or not. -/
theorem before0_3_of {c : Dev nD} (dat : Dat τ (Elt F) Unit ℕ (UR sig nD τ) ℕ (cfgA m) c) (hA : dat.A (3 : Fin 10) = V m c (Pipeline.arrRef (cfgA m).spec (3 : Fin 10)))
    (hafter : ∀ t, dat.after (3 : Fin 10) t = iblk m c (3 : Fin 10) t) (t : Fin (cfgA m).N) (d) : dat.before (3 : Fin 10) t d = iblk m c (3 : Fin 10) t :=
  (dat.before_in_eq_fetched (3 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin (cfgA m).N) (d) : (dats m 0 c).before (3 : Fin 10) t d = iblk m c (3 : Fin 10) t :=
  before0_3_of m (dats m 0 c) (A_eq m c (3 : Fin 10)) (after0_3 m c) t d
set_option maxHeartbeats 2000000 in
/-- Input window 4's current staging buffer holds its block at every point, fetched there or not. -/
theorem before0_4_of {c : Dev nD} (dat : Dat τ (Elt F) Unit ℕ (UR sig nD τ) ℕ (cfgA m) c) (hA : dat.A (4 : Fin 10) = V m c (Pipeline.arrRef (cfgA m).spec (4 : Fin 10)))
    (hafter : ∀ t, dat.after (4 : Fin 10) t = iblk m c (4 : Fin 10) t) (t : Fin (cfgA m).N) (d) : dat.before (4 : Fin 10) t d = iblk m c (4 : Fin 10) t :=
  (dat.before_in_eq_fetched (4 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin (cfgA m).N) (d) : (dats m 0 c).before (4 : Fin 10) t d = iblk m c (4 : Fin 10) t :=
  before0_4_of m (dats m 0 c) (A_eq m c (4 : Fin 10)) (after0_4 m c) t d
set_option maxHeartbeats 2000000 in
/-- Input window 5's current staging buffer holds its block at every point, fetched there or not. -/
theorem before0_5_of {c : Dev nD} (dat : Dat τ (Elt F) Unit ℕ (UR sig nD τ) ℕ (cfgA m) c) (hA : dat.A (5 : Fin 10) = V m c (Pipeline.arrRef (cfgA m).spec (5 : Fin 10)))
    (hafter : ∀ t, dat.after (5 : Fin 10) t = iblk m c (5 : Fin 10) t) (t : Fin (cfgA m).N) (d) : dat.before (5 : Fin 10) t d = iblk m c (5 : Fin 10) t :=
  (dat.before_in_eq_fetched (5 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin (cfgA m).N) (d) : (dats m 0 c).before (5 : Fin 10) t d = iblk m c (5 : Fin 10) t :=
  before0_5_of m (dats m 0 c) (A_eq m c (5 : Fin 10)) (after0_5 m c) t d
set_option maxHeartbeats 2000000 in
/-- Input window 6's current staging buffer holds its block at every point, fetched there or not. -/
theorem before0_6_of {c : Dev nD} (dat : Dat τ (Elt F) Unit ℕ (UR sig nD τ) ℕ (cfgA m) c) (hA : dat.A (6 : Fin 10) = V m c (Pipeline.arrRef (cfgA m).spec (6 : Fin 10)))
    (hafter : ∀ t, dat.after (6 : Fin 10) t = iblk m c (6 : Fin 10) t) (t : Fin (cfgA m).N) (d) : dat.before (6 : Fin 10) t d = iblk m c (6 : Fin 10) t :=
  (dat.before_in_eq_fetched (6 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin (cfgA m).N) (d) : (dats m 0 c).before (6 : Fin 10) t d = iblk m c (6 : Fin 10) t :=
  before0_6_of m (dats m 0 c) (A_eq m c (6 : Fin 10)) (after0_6 m c) t d
set_option maxHeartbeats 2000000 in
/-- Input window 7's current staging buffer holds its block at every point, fetched there or not. -/
theorem before0_7_of {c : Dev nD} (dat : Dat τ (Elt F) Unit ℕ (UR sig nD τ) ℕ (cfgA m) c) (hA : dat.A (7 : Fin 10) = V m c (Pipeline.arrRef (cfgA m).spec (7 : Fin 10)))
    (hafter : ∀ t, dat.after (7 : Fin 10) t = iblk m c (7 : Fin 10) t) (t : Fin (cfgA m).N) (d) : dat.before (7 : Fin 10) t d = iblk m c (7 : Fin 10) t :=
  (dat.before_in_eq_fetched (7 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin (cfgA m).N) (d) : (dats m 0 c).before (7 : Fin 10) t d = iblk m c (7 : Fin 10) t :=
  before0_7_of m (dats m 0 c) (A_eq m c (7 : Fin 10)) (after0_7 m c) t d
set_option maxHeartbeats 2000000 in
/-- Input window 8's current staging buffer holds its block at every point, fetched there or not. -/
theorem before0_8_of {c : Dev nD} (dat : Dat τ (Elt F) Unit ℕ (UR sig nD τ) ℕ (cfgA m) c) (hA : dat.A (8 : Fin 10) = V m c (Pipeline.arrRef (cfgA m).spec (8 : Fin 10)))
    (hafter : ∀ t, dat.after (8 : Fin 10) t = iblk m c (8 : Fin 10) t) (t : Fin (cfgA m).N) (d) : dat.before (8 : Fin 10) t d = iblk m c (8 : Fin 10) t :=
  (dat.before_in_eq_fetched (8 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin (cfgA m).N) (d) : (dats m 0 c).before (8 : Fin 10) t d = iblk m c (8 : Fin 10) t :=
  before0_8_of m (dats m 0 c) (A_eq m c (8 : Fin 10)) (after0_8 m c) t d

omit [FloatOps F] in
/-- A buffer held at contents `X` is its whole memref owned at `X`, and back. -/
theorem owns_whole_intro (c : Dev nD) (b : Ref sig .tc) {q : PosShare TreeShare} {X : b.ty.Contents (Elt F)} :
    (((c : Thread nD τ).loc b) ↦{q} X : sProp 𝕄) ⊢ owns (c : Thread nD τ) (Memref.whole b) q X := by
  rw [owns_whole_eq]; iintro H; iexists X; isplitr; · ipureintro; rfl
  iexact H
omit [FloatOps F] in
theorem owns_whole_elim (c : Dev nD) (b : Ref sig .tc) {q : PosShare TreeShare} {X : b.ty.Contents (Elt F)} :
    owns (c : Thread nD τ) (Memref.whole b) q X ⊢ (((c : Thread nD τ).loc b) ↦{q} X : sProp 𝕄) := by
  rw [owns_whole_eq]; iintro ⟨%f, %h, H⟩; subst h; iexact H

/-- The pieces the run leaves cover the result's staging buffer. -/
theorem K_cover (c : Dev nD) (t : Fin (cfgA m).N) (y : S1x40x200x160.Idx) : ∃ pc ∈ (K m c t).1, y ∈ pc.1.set :=
  kernelRun_cover (F := F) c _ _ _ _ _ _ _ _ _ _ _ _ _ _ _ _ _ _ _ _ _ _ _ _ _ _ _ _ _ _ _ _ _ _ _ _ _ _ y

omit [FloatOps F] in
theorem bigSep_2 (Φ : Fin 2 → sProp 𝕄) : bigSep Finset.univ Φ = iprop(Φ 0 ∗ Φ 1) := bigSep_univ_eq_bigSepL [0, 1] (by decide) (by decide) Φ

/-- What the body is called with at point `t`, the windows one by one, -/
def bodyPre (c : Dev nD) (t : Fin (cfgA m).N) : sProp 𝕄 :=
  iprop((dats m 0 c).Φ t.castSucc ∗ (dats m 0 c).owesAt () t.castSucc
    ∗ (∃ d, owns (c : Thread nD τ) (((cfgA m).win (0 : Fin 10)).stage ((cfgA m).slots t (0 : Fin 10))) fullShare ((dats m 0 c).before (0 : Fin 10) t d))
    ∗ (∃ d, owns (c : Thread nD τ) (((cfgA m).win (1 : Fin 10)).stage ((cfgA m).slots t (1 : Fin 10))) fullShare ((dats m 0 c).before (1 : Fin 10) t d))
    ∗ (∃ d, owns (c : Thread nD τ) (((cfgA m).win (2 : Fin 10)).stage ((cfgA m).slots t (2 : Fin 10))) fullShare ((dats m 0 c).before (2 : Fin 10) t d))
    ∗ (∃ d, owns (c : Thread nD τ) (((cfgA m).win (3 : Fin 10)).stage ((cfgA m).slots t (3 : Fin 10))) fullShare ((dats m 0 c).before (3 : Fin 10) t d))
    ∗ (∃ d, owns (c : Thread nD τ) (((cfgA m).win (4 : Fin 10)).stage ((cfgA m).slots t (4 : Fin 10))) fullShare ((dats m 0 c).before (4 : Fin 10) t d))
    ∗ (∃ d, owns (c : Thread nD τ) (((cfgA m).win (5 : Fin 10)).stage ((cfgA m).slots t (5 : Fin 10))) fullShare ((dats m 0 c).before (5 : Fin 10) t d))
    ∗ (∃ d, owns (c : Thread nD τ) (((cfgA m).win (6 : Fin 10)).stage ((cfgA m).slots t (6 : Fin 10))) fullShare ((dats m 0 c).before (6 : Fin 10) t d))
    ∗ (∃ d, owns (c : Thread nD τ) (((cfgA m).win (7 : Fin 10)).stage ((cfgA m).slots t (7 : Fin 10))) fullShare ((dats m 0 c).before (7 : Fin 10) t d))
    ∗ (∃ d, owns (c : Thread nD τ) (((cfgA m).win (8 : Fin 10)).stage ((cfgA m).slots t (8 : Fin 10))) fullShare ((dats m 0 c).before (8 : Fin 10) t d))
    ∗ (∃ d, owns (c : Thread nD τ) (((cfgA m).win (9 : Fin 10)).stage ((cfgA m).slots t (9 : Fin 10))) fullShare ((dats m 0 c).before (9 : Fin 10) t d)))

/-- and what it returns. -/
def bodyPost (c : Dev nD) (t : Fin (cfgA m).N) : sProp 𝕄 :=
  iprop((dats m 0 c).Φ t.succ ∗ (dats m 0 c).owesAt () t.succ
    ∗ owns (c : Thread nD τ) (((cfgA m).win (0 : Fin 10)).stage ((cfgA m).slots t (0 : Fin 10))) fullShare ((dats m 0 c).after (0 : Fin 10) t)
    ∗ owns (c : Thread nD τ) (((cfgA m).win (1 : Fin 10)).stage ((cfgA m).slots t (1 : Fin 10))) fullShare ((dats m 0 c).after (1 : Fin 10) t)
    ∗ owns (c : Thread nD τ) (((cfgA m).win (2 : Fin 10)).stage ((cfgA m).slots t (2 : Fin 10))) fullShare ((dats m 0 c).after (2 : Fin 10) t)
    ∗ owns (c : Thread nD τ) (((cfgA m).win (3 : Fin 10)).stage ((cfgA m).slots t (3 : Fin 10))) fullShare ((dats m 0 c).after (3 : Fin 10) t)
    ∗ owns (c : Thread nD τ) (((cfgA m).win (4 : Fin 10)).stage ((cfgA m).slots t (4 : Fin 10))) fullShare ((dats m 0 c).after (4 : Fin 10) t)
    ∗ owns (c : Thread nD τ) (((cfgA m).win (5 : Fin 10)).stage ((cfgA m).slots t (5 : Fin 10))) fullShare ((dats m 0 c).after (5 : Fin 10) t)
    ∗ owns (c : Thread nD τ) (((cfgA m).win (6 : Fin 10)).stage ((cfgA m).slots t (6 : Fin 10))) fullShare ((dats m 0 c).after (6 : Fin 10) t)
    ∗ owns (c : Thread nD τ) (((cfgA m).win (7 : Fin 10)).stage ((cfgA m).slots t (7 : Fin 10))) fullShare ((dats m 0 c).after (7 : Fin 10) t)
    ∗ owns (c : Thread nD τ) (((cfgA m).win (8 : Fin 10)).stage ((cfgA m).slots t (8 : Fin 10))) fullShare ((dats m 0 c).after (8 : Fin 10) t)
    ∗ owns (c : Thread nD τ) (((cfgA m).win (9 : Fin 10)).stage ((cfgA m).slots t (9 : Fin 10))) fullShare ((dats m 0 c).after (9 : Fin 10) t))

set_option maxHeartbeats 4000000 in
set_option backward.isDefEq.respectTransparency.types false in
/-- The body at any point: the inputs' buffers hold their blocks, the invariant yields the scratch and the tables'
    halves, so the run applies; the result's buffer ends at the canon of the pieces it leaves. -/
theorem sound_body (c : Dev nD) (t : Fin (cfgA m).N) :
    bodyPre m c t ⊢ wp frame (wpE (defs₀ (F := F)) Variants.none c none) Set.univ
      (defs₀ (F := F) .tc (cfgA m).body ((cfgA m).bodyArgs t ((cfgA m).slots t))) (fun _ => bodyPost m c t) := by
  unfold bodyPre bodyPost
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9,
    show (dats m 0 c).Φ t.castSucc = iprop(Pipeline.ΦA (cfgA m).spec c ∗ Pipeline.ΦT (pcfgs (F := F) 0).pre (adm m 0).1 c) from rfl]
  unfold Pipeline.ΦA Pipeline.ΦT Pipeline.prefHeld
  rw [scopedRest0_eq, bigSep_2]
  iintro ⟨⟨⟨⟨%fs, Hs⟩, Hreg⟩, Ht0, Ht1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((K m c t).2 Set.univ _)
  isplitl [Ht0 Ht1 H0 H1 H2 H3 H4 H5 H6 H7 H8]
  · isplitl [Ht0]; · iapply (owns_whole_intro (F := F) c main_v62); iexact Ht0
    isplitl [Ht1]; · iapply (owns_whole_intro (F := F) c main_v63); iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [Hs]; · iexists fs; iapply (owns_whole_intro (F := F) c cc0_scratch0); iexact Hs
  iintro ⟨⟨Ht0, Ht1, H0, H1, H2, H3, H4, H5, H6, H7, H8⟩, ⟨%f9, H9⟩, ⟨%ds, Hs⟩⟩
  isplitl [Hs Hreg Ht0 Ht1]
  · isplitl [Hs Hreg]
    · isplitl [Hs]
      · iexists ds; iapply (owns_whole_elim (F := F) c cc0_scratch0); iexact Hs
      · iexact Hreg
    · isplitl [Ht0]
      · iapply (owns_whole_elim (F := F) c main_v62); iexact Ht0
      · iapply (owns_whole_elim (F := F) c main_v63); iexact Ht1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns
  iexists _; isplitr
  swap; · iexact H9
  ipureintro
  exact View.read_writes_eq_canon _ _ _ (K_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- At the compiled mesh, for any values, from any memory with zero counters: every weakly fair execution of @main on the
    TensorCores terminates, and every final state has every array of the pipeline at what the library computes from the
    proof data and every other unscoped buffer — the two bound tables too — as the region found it. -/
theorem run_main : θ_run defs (onTc (τ := τ) (main (F := F))) (s₀ m ρ)
    (Pipeline.FramePost (Pipeline.pin (pcfgs (F := F)) (adm m)) (dats m) 0 (V m)) :=
  Pipeline.θ_run_frameP pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

end Cert.Kernel.Frm

end
-- ==== Proof.HostVKernelIdeal.lean ====
/-
  The buffers' contents when the kernel region is entered: the launch memory after the host operations that
  precede the region (the four weight slices and table products, the four index tensors and their clipping, the
  per-tile minima and maxima stacked into the two bound tables), as one fold over their nine stretches.
-/
import proofs.«408597_j16320875725026_3_alg».proof.Proof.LaunchPKernelIdeal
import Idealize.ShloMosaic.Lib.StableHlo.Run

noncomputable section

namespace Cert.KernelIdeal.Frm

open Cert.KernelIdeal Cert.KernelIdeal.Gen Cert.KernelIdeal.GenP

open Idealize.ShloMosaic Idealize.ShloMosaic.TcCoe
open Idealize.SL.Sem

variable {F : FTy → Type} [FloatOps F]

variable (m : (ℓ : Loc nD τ sig) → Buf (Elt F) ℓ)

/-- The nine stretches of host operations before the region, in order. -/
abbrev opss : List (List (HloOp τ sig (Elt F))) :=
  [hostOps0, hostOps0_1, hostOps0_2, hostOps0_3, hostOps0_4, hostOps0_5, hostOps0_6, hostOps0_7, hostOps0_8]

/-- Core `c`'s TensorCore buffers when the region is entered. -/
abbrev V (c : Dev nD) (b : Ref sig .tc) : Buf (Elt F) ((c : Thread nD τ).loc b) :=
  StableHlo.after (List.flatten (opss (F := F))) (fun b => m (c, b)) b

end Cert.KernelIdeal.Frm

end
-- ==== Proof.HostValsA.lean ====
/-
  The kernel's host side read at an index: what the buffers hold when the kernel region is entered.

  Before the region the host program slices the weight matrix into its four 160-row blocks, multiplies each position
  table by its block, builds the four arrays of shifted position differences and clips each into [0, 1023].
  Read at an index: an argument array is as launched; a clipped index array holds `clip (gidx p q)` of the two positions
  its index names; a pre-multiplied table holds, at row r and column h, the sum over the 160 features of
  table[r, k] · W[160·t + k, h].
-/
import proofs.«408597_j16320875725026_3_alg».proof.Proof.HostVKernelIdeal
import proofs.«408597_j16320875725026_3_alg».proof.Proof.PreFacts
import proofs.«408597_j16320875725026_3_alg».proof.Proof.Spec
import proofs.«408597_j16320875725026_3_alg».proof.Proof.LibMatmul

set_option maxRecDepth 1028

noncomputable section

namespace Cert.KernelIdeal.Frm

open Cert.KernelIdeal Cert.KernelIdeal.Gen Cert.KernelIdeal.GenP

open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The argument arrays are as launched -/

/-- Closes "no host operation before the region writes this reference": the operations' result references are listed
    and each is told apart from the reference by comparing references. -/
local macro "not_written" : tactic =>
  `(tactic| (
    refine List.forall_iff_forall_mem.mp ?_
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.nullary_writes, StableHlo.unary_writes, StableHlo.binary_writes, StableHlo.reshape_writes,
      StableHlo.nary_writes, Finset.mem_singleton]
    repeat' apply And.intro
    all_goals exact StableHlo.devRef_ne_of_ne (by decide)))

theorem V_arg0 (c : Dev nD) : V m c main_arg0 = m ((c : Thread nD τ).loc main_arg0) :=
  StableHlo.after_of_forall_not_mem (b := Proc.devRef .tc main_arg0) _ _ (by not_written)

theorem V_arg1 (c : Dev nD) : V m c main_arg1 = m ((c : Thread nD τ).loc main_arg1) :=
  StableHlo.after_of_forall_not_mem (b := Proc.devRef .tc main_arg1) _ _ (by not_written)

theorem V_arg2 (c : Dev nD) : V m c main_arg2 = m ((c : Thread nD τ).loc main_arg2) :=
  StableHlo.after_of_forall_not_mem (b := Proc.devRef .tc main_arg2) _ _ (by not_written)

theorem V_arg3 (c : Dev nD) : V m c main_arg3 = m ((c : Thread nD τ).loc main_arg3) :=
  StableHlo.after_of_forall_not_mem (b := Proc.devRef .tc main_arg3) _ _ (by not_written)

theorem V_arg4 (c : Dev nD) : V m c main_arg4 = m ((c : Thread nD τ).loc main_arg4) :=
  StableHlo.after_of_forall_not_mem (b := Proc.devRef .tc main_arg4) _ _ (by not_written)

theorem V_arg5 (c : Dev nD) : V m c main_arg5 = m ((c : Thread nD τ).loc main_arg5) :=
  StableHlo.after_of_forall_not_mem (b := Proc.devRef .tc main_arg5) _ _ (by not_written)

theorem V_arg6 (c : Dev nD) : V m c main_arg6 = m ((c : Thread nD τ).loc main_arg6) :=
  StableHlo.after_of_forall_not_mem (b := Proc.devRef .tc main_arg6) _ _ (by not_written)

theorem V_arg7 (c : Dev nD) : V m c main_arg7 = m ((c : Thread nD τ).loc main_arg7) :=
  StableHlo.after_of_forall_not_mem (b := Proc.devRef .tc main_arg7) _ _ (by not_written)

/-! ## The clipped index arrays -/

/-- The array of shifted differences as the host builds it: the first position array laid along the second axis of a
    [4, 200, 200] box, the second along the third, subtracted, 512 added. -/
def diffArr (p q : IVec S4x200 32) : IVec S4x200x200 32 :=
  addi
    (subi
      (broadcastInDim S4x200x200 ![0, 1, 2] bcast_S4x200x1_S4x200x200_0_1_2 (broadcastInDim S4x200x1 ![0, 1] bcast_S4x200_S4x200x1_0_1 p))
      (broadcastInDim S4x200x200 ![0, 1, 2] bcast_S4x1x200_S4x200x200_0_1_2 (broadcastInDim S4x1x200 ![0, 2] bcast_S4x200_S4x1x200_0_2 q)))
    (broadcastInDim S4x200x200 ![] bcast_S_S4x200x200 (constantI S_ 32 512#32))

/-- The clipped array: the maximum with 0, then the minimum with 1023, entry by entry. -/
def clipArr (p q : IVec S4x200 32) : IVec S4x200x200 32 :=
  minsi (broadcastInDim S4x200x200 ![] bcast_S_S4x200x200 (constantI S_ 32 1023#32))
    (maxsi (broadcastInDim S4x200x200 ![] bcast_S_S4x200x200 (constantI S_ 32 0#32)) (diffArr p q))

/-- An entry of the array of shifted differences. -/
theorem diffArr_apply (p q : IVec S4x200 32) (j : S4x200x200.Idx) :
    diffArr p q j = Cert.Spec.gidx (p (ix2 (j 0) (j 1))) (q (ix2 (j 0) (j 2))) := by
  show p _ - q _ + 512#32 = p _ - q _ + 512#32
  congr 2
  · congr 1; funext a; match a with | ⟨0, _⟩ => rfl | ⟨1, _⟩ => rfl
  · congr 1; funext a; match a with | ⟨0, _⟩ => rfl | ⟨1, _⟩ => rfl

/-- An entry of the clipped array. -/
theorem clipArr_apply (p q : IVec S4x200 32) (j : S4x200x200.Idx) :
    clipArr p q j = Cert.PreFacts.clip (Cert.Spec.gidx (p (ix2 (j 0) (j 1))) (q (ix2 (j 0) (j 2)))) := by
  show IntOp.minsi 1023#32 (IntOp.maxsi 0#32 (diffArr p q j)) = _
  rw [diffArr_apply]
  rfl

/-- The positions of the starts and of the ends, as launched. -/
abbrev posS (c : Dev nD) : IVec S4x200 32 := m ((c : Thread nD τ).loc main_arg6)
abbrev posE (c : Dev nD) : IVec S4x200 32 := m ((c : Thread nD τ).loc main_arg7)

/-- Lists the host operations before the region one after the other. -/
local macro "list_host_ops" : tactic =>
  `(tactic| (
    dsimp only [V, opss]
    simp only [hostOps0, hostOps0_1, hostOps0_2, hostOps0_3, hostOps0_4, hostOps0_5, hostOps0_6, hostOps0_7, hostOps0_8,
      List.flatten_cons, List.flatten_nil, List.append_nil, List.cons_append, List.nil_append]))

/-- Reads one buffer after the listed operations: each operation's result at its own reference is its function's value,
    at any other reference what was there. -/
local macro "read_host_ops" : tactic =>
  `(tactic| (
    list_host_ops
    after_results_simp
    try simp only [StableHlo.TRef.ofBuf, StableHlo.TRef.toBuf, cast_eq]))

theorem V_v36_ops (c : Dev nD) : (V m c main_v36 : IVec S4x200x200 32) = clipArr (posS m c) (posS m c) := by
  read_host_ops; rfl
theorem V_v37_ops (c : Dev nD) : (V m c main_v37 : IVec S4x200x200 32) = clipArr (posS m c) (posE m c) := by
  read_host_ops; rfl
theorem V_v38_ops (c : Dev nD) : (V m c main_v38 : IVec S4x200x200 32) = clipArr (posE m c) (posS m c) := by
  read_host_ops; rfl
theorem V_v39_ops (c : Dev nD) : (V m c main_v39 : IVec S4x200x200 32) = clipArr (posE m c) (posE m c) := by
  read_host_ops; rfl

/-- The clipped start-start index array when the region is entered. -/
theorem V_v36 (c : Dev nD) : (V m c main_v36 : IVec S4x200x200 32)
    = fun j => Cert.PreFacts.clip (Cert.Spec.gidx (posS m c (ix2 (j 0) (j 1))) (posS m c (ix2 (j 0) (j 2)))) := by
  rw [V_v36_ops]; exact funext fun j => clipArr_apply _ _ j
/-- The clipped start-end index array. -/
theorem V_v37 (c : Dev nD) : (V m c main_v37 : IVec S4x200x200 32)
    = fun j => Cert.PreFacts.clip (Cert.Spec.gidx (posS m c (ix2 (j 0) (j 1))) (posE m c (ix2 (j 0) (j 2)))) := by
  rw [V_v37_ops]; exact funext fun j => clipArr_apply _ _ j
/-- The clipped end-start index array. -/
theorem V_v38 (c : Dev nD) : (V m c main_v38 : IVec S4x200x200 32)
    = fun j => Cert.PreFacts.clip (Cert.Spec.gidx (posE m c (ix2 (j 0) (j 1))) (posS m c (ix2 (j 0) (j 2)))) := by
  rw [V_v38_ops]; exact funext fun j => clipArr_apply _ _ j
/-- The clipped end-end index array. -/
theorem V_v39 (c : Dev nD) : (V m c main_v39 : IVec S4x200x200 32)
    = fun j => Cert.PreFacts.clip (Cert.Spec.gidx (posE m c (ix2 (j 0) (j 1))) (posE m c (ix2 (j 0) (j 2)))) := by
  rw [V_v39_ops]; exact funext fun j => clipArr_apply _ _ j

/-! ## The pre-multiplied tables -/

/-- Row k, column h of the 160-row block of the weight matrix that starts at row `o`. -/
theorem slice_apply (W : FVec F S640x160 .f32) (o : Nat) (ho : o + 160 ≤ 640) (hs : S640x160.Slices ![o, 0] S160x160)
    (k h : Fin 160) :
    extractStridedSlice S160x160 ![o, 0] W hs (ix2 k h) = W (ix2 (⟨o + k.val, by omega⟩ : Fin 640) h) := by
  show W _ = W _
  congr 1
  funext a
  match a with
  | ⟨0, _⟩ => rfl
  | ⟨1, _⟩ => exact Fin.ext (Nat.zero_add _)

section Tables

variable (mI : (ℓ : Loc nD τ sig) → Buf (Elt Ideal) ℓ)

/-- A position table times the block of the weight matrix that starts at row `o`. -/
def projArr (pe : FVec Ideal S1024x160 .f32) (W : FVec Ideal S640x160 .f32) (o : Nat)
    (hs : S640x160.Slices ![o, 0] S160x160) : FVec Ideal S1024x160 .f32 :=
  Host.dotGeneral dot_S1024x160_S160x160_S1024x160_1_0_0_1_n_n (some .fp32) pe (extractStridedSlice S160x160 ![o, 0] W hs)

/-- Its entry at row r and column h: the sum over the 160 features of table[r, k] · W[o + k, h]. -/
theorem projArr_apply (pe : FVec Ideal S1024x160 .f32) (W : FVec Ideal S640x160 .f32) (o : Nat) (ho : o + 160 ≤ 640)
    (hs : S640x160.Slices ![o, 0] S160x160) (r : Fin 1024) (h : Fin 160) :
    projArr pe W o hs (ix2 r h) = ∑ k : Fin 160, pe (ix2 r k) * W (ix2 (⟨o + k.val, by omega⟩ : Fin 640) h) := by
  show FloatOps.dotGeneral (DotDims.plain 1024 160 160) (some .fp32) .single pe _ (ix2 r h) = _
  rw [Cert.Lib.Matmul.dotGeneral_apply]
  exact Finset.sum_congr rfl fun k _ => congrArg (pe (ix2 r k) * ·) (slice_apply W o ho hs k h)

/-- The four position tables and the weight matrix, as launched. -/
abbrev tbl0 (c : Dev nD) : FVec Ideal S1024x160 .f32 := mI ((c : Thread nD τ).loc main_arg0)
abbrev tbl1 (c : Dev nD) : FVec Ideal S1024x160 .f32 := mI ((c : Thread nD τ).loc main_arg1)
abbrev tbl2 (c : Dev nD) : FVec Ideal S1024x160 .f32 := mI ((c : Thread nD τ).loc main_arg2)
abbrev tbl3 (c : Dev nD) : FVec Ideal S1024x160 .f32 := mI ((c : Thread nD τ).loc main_arg3)
abbrev wMat (c : Dev nD) : FVec Ideal S640x160 .f32 := mI ((c : Thread nD τ).loc main_arg4)

theorem V_v4_ops (c : Dev nD) : (V mI c main_v4 : FVec Ideal S1024x160 .f32)
    = projArr (tbl0 mI c) (wMat mI c) 0 slices_S640x160_S160x160_0_0 := by
  read_host_ops; rfl

/-- Table 0 times its block of the weight matrix when the region is entered, at row r and column h. -/
theorem V_v4 (c : Dev nD) (r : Fin 1024) (h : Fin 160) :
    (V mI c main_v4 : FVec Ideal S1024x160 .f32) (ix2 r h) = Cert.Spec.tblTerm (tbl0 mI c) (wMat mI c) 0 r h := by
  rw [V_v4_ops]
  exact projArr_apply _ _ 0 (by omega) _ r h

theorem V_v5_ops (c : Dev nD) : (V mI c main_v5 : FVec Ideal S1024x160 .f32)
    = projArr (tbl1 mI c) (wMat mI c) 160 slices_S640x160_S160x160_160_0 := by
  read_host_ops; rfl

/-- Table 1 times its block of the weight matrix when the region is entered, at row r and column h. -/
theorem V_v5 (c : Dev nD) (r : Fin 1024) (h : Fin 160) :
    (V mI c main_v5 : FVec Ideal S1024x160 .f32) (ix2 r h) = Cert.Spec.tblTerm (tbl1 mI c) (wMat mI c) 1 r h := by
  rw [V_v5_ops]
  exact projArr_apply _ _ 160 (by omega) _ r h

theorem V_v6_ops (c : Dev nD) : (V mI c main_v6 : FVec Ideal S1024x160 .f32)
    = projArr (tbl2 mI c) (wMat mI c) 320 slices_S640x160_S160x160_320_0 := by
  read_host_ops; rfl

/-- Table 2 times its block of the weight matrix when the region is entered, at row r and column h. -/
theorem V_v6 (c : Dev nD) (r : Fin 1024) (h : Fin 160) :
    (V mI c main_v6 : FVec Ideal S1024x160 .f32) (ix2 r h) = Cert.Spec.tblTerm (tbl2 mI c) (wMat mI c) 2 r h := by
  rw [V_v6_ops]
  exact projArr_apply _ _ 320 (by omega) _ r h

theorem V_v7_ops (c : Dev nD) : (V mI c main_v7 : FVec Ideal S1024x160 .f32)
    = projArr (tbl3 mI c) (wMat mI c) 480 slices_S640x160_S160x160_480_0 := by
  read_host_ops; rfl

/-- Table 3 times its block of the weight matrix when the region is entered, at row r and column h. -/
theorem V_v7 (c : Dev nD) (r : Fin 1024) (h : Fin 160) :
    (V mI c main_v7 : FVec Ideal S1024x160 .f32) (ix2 r h) = Cert.Spec.tblTerm (tbl3 mI c) (wMat mI c) 3 r h := by
  rw [V_v7_ops]
  exact projArr_apply _ _ 480 (by omega) _ r h

end Tables

end Cert.KernelIdeal.Frm

end
-- ==== Proof.AdmKernelIdeal.lean ====
/-
  The bound tables' contents the pipeline runs at: what the two tables hold when the region is entered (the
  pipeline's side condition on them is vacuous: no window's index map reads a table).
-/
import proofs.«408597_j16320875725026_3_alg».proof.Proof.HostVKernelIdeal

noncomputable section

namespace Cert.KernelIdeal.Frm

open Cert.KernelIdeal Cert.KernelIdeal.Gen Cert.KernelIdeal.GenP

open Idealize.ShloMosaic Idealize.ShloMosaic.TcCoe
open Idealize.SL.Sem

variable {F : FTy → Type} [FloatOps F]

variable (m : (ℓ : Loc nD τ sig) → Buf (Elt F) ℓ)

/-- The tables at the region's entry, admissible. -/
def adm : (p : Fin 1) → (pcfgs (F := F) p).Adm := fun _ => ⟨fun k => V m 0 (pre0.ref k), (trivial : ok0 (F := F) _)⟩

/-- They are the entry contents on every core (there is one). -/
theorem hpf (c : Dev nD) (k : Fin 2) : V m c ((pcfgs (F := F) 0).pre.ref k) = (adm m 0).1 k := by
  obtain rfl : c = 0 := Subsingleton.elim _ _
  rfl

/-- The pipeline at those contents. -/
abbrev cfgA : Pipeline.Cfg sig Λ₀ := Pipeline.pin (pcfgs (F := F)) (adm m) 0

/-- Window `w`'s block of its array, as the region finds the array, at point `t`. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef (cfgA m).spec w))

end Cert.KernelIdeal.Frm

end
-- ==== Proof.FrameMainKernelIdeal.lean ====
/-
  The kernel program up to its region, and the frame claim's post from a frame run.

  Before the region the host program runs nine stretches of operations on the TensorCore's unscoped buffers, none of
  which allocates; so the program reduces to the region entered with those buffers at the contents the stretches
  leave. After a frame run every window's array holds what the pipeline's proof data compute and every other unscoped
  buffer what it held when the region was entered; read at the argument arrays (the bias is an input window's array,
  the others are staged by no window) these are the launch contents, and the result array is the output window's.
-/
import proofs.«408597_j16320875725026_3_alg».proof.Proof.HostValsA
import proofs.«408597_j16320875725026_3_alg».proof.Proof.AdmKernelIdeal
import Idealize.ShloMosaic.Lib.Pipeline.Frame

set_option maxRecDepth 1028

noncomputable section

namespace Cert.KernelIdeal.Frm

open Cert.KernelIdeal Cert.KernelIdeal.Gen Cert.KernelIdeal.GenP

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-! ## The program up to the region -/

/-- No operation of the first stretch allocates. -/
theorem hostOps0_fresh : (hostOps0 : List (HloOp τ sig (Elt F))).Forall fun op => op.fresh = ∅ := by
  simp only [List.Forall]; repeat' constructor
/-- Nor of the second. -/
theorem hostOps0_1_fresh : (hostOps0_1 : List (HloOp τ sig (Elt F))).Forall fun op => op.fresh = ∅ := by
  simp only [List.Forall]; repeat' constructor
/-- Nor of the third. -/
theorem hostOps0_2_fresh : (hostOps0_2 : List (HloOp τ sig (Elt F))).Forall fun op => op.fresh = ∅ := by
  simp only [List.Forall]; repeat' constructor
/-- Nor of the fourth. -/
theorem hostOps0_3_fresh : (hostOps0_3 : List (HloOp τ sig (Elt F))).Forall fun op => op.fresh = ∅ := by
  simp only [List.Forall]; repeat' constructor
/-- Nor of the fifth. -/
theorem hostOps0_4_fresh : (hostOps0_4 : List (HloOp τ sig (Elt F))).Forall fun op => op.fresh = ∅ := by
  simp only [List.Forall]; repeat' constructor
/-- Nor of the sixth. -/
theorem hostOps0_5_fresh : (hostOps0_5 : List (HloOp τ sig (Elt F))).Forall fun op => op.fresh = ∅ := by
  simp only [List.Forall]; repeat' constructor
/-- Nor of the seventh. -/
theorem hostOps0_6_fresh : (hostOps0_6 : List (HloOp τ sig (Elt F))).Forall fun op => op.fresh = ∅ := by
  simp only [List.Forall]; repeat' constructor
/-- Nor of the eighth. -/
theorem hostOps0_7_fresh : (hostOps0_7 : List (HloOp τ sig (Elt F))).Forall fun op => op.fresh = ∅ := by
  simp only [List.Forall]; repeat' constructor
/-- Nor of the ninth. -/
theorem hostOps0_8_fresh : (hostOps0_8 : List (HloOp τ sig (Elt F))).Forall fun op => op.fresh = ∅ := by
  simp only [List.Forall]; repeat' constructor

/-- The program is its nine stretches, then the region. -/
theorem main_eq (c : Dev nD) : main (F := F) c
    = Pipeline.chain ((opss (F := F)).map StableHlo.seq ++ [Prog.lift (.customCall (Pipeline.entry 0) ())]) :=
  main_chain c

/-- The program up to the region: holding the unscoped buffers at the launch contents it reduces to the region entered
    holding them at the contents the nine stretches leave. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefixes pcfgs 0 defs₀ 𝒱₀ m main opss
    (by simp only [List.Forall]; exact ⟨hostOps0_sub, hostOps0_1_sub, hostOps0_2_sub, hostOps0_3_sub, hostOps0_4_sub,
      hostOps0_5_sub, hostOps0_6_sub, hostOps0_7_sub, hostOps0_8_sub⟩)
    (by simp only [List.Forall]; exact ⟨hostOps0_fresh, hostOps0_1_fresh, hostOps0_2_fresh, hostOps0_3_fresh,
      hostOps0_4_fresh, hostOps0_5_fresh, hostOps0_6_fresh, hostOps0_7_fresh, hostOps0_8_fresh⟩)
    main_eq

/-! ## The arguments no window stages

Which arrays the windows stage does not depend on the tables' contents. -/

/-- No window's array is the first position table. -/
theorem arg0_not_staged : ∀ w : Fin 10, (spec0 w).arr.view.ref ≠ main_arg0 := by decide
/-- Nor the second. -/
theorem arg1_not_staged : ∀ w : Fin 10, (spec0 w).arr.view.ref ≠ main_arg1 := by decide
/-- Nor the third. -/
theorem arg2_not_staged : ∀ w : Fin 10, (spec0 w).arr.view.ref ≠ main_arg2 := by decide
/-- Nor the fourth. -/
theorem arg3_not_staged : ∀ w : Fin 10, (spec0 w).arr.view.ref ≠ main_arg3 := by decide
/-- Nor the weight matrix. -/
theorem arg4_not_staged : ∀ w : Fin 10, (spec0 w).arr.view.ref ≠ main_arg4 := by decide
/-- Nor the start positions. -/
theorem arg6_not_staged : ∀ w : Fin 10, (spec0 w).arr.view.ref ≠ main_arg6 := by decide
/-- Nor the end positions. -/
theorem arg7_not_staged : ∀ w : Fin 10, (spec0 w).arr.view.ref ≠ main_arg7 := by decide

/-! ## The frame claim's post from a frame run -/

/-- From a frame run of any proof data whose entry arrays are the region-entry contents: the result array is the output
    window's array after the last write-back, and every argument array is as launched: the bias, an input window's
    array, holds its entry contents, which no stretch wrote; the other seven are staged by no window, so they end as the
    region found them, and no stretch wrote them either. -/
theorem frame_of
    (dats : (p : Fin 1) → (c : Dev nD) → Pipeline.Dat τ (Elt F) Unit ℕ (UR sig nD τ) ℕ (Pipeline.pin pcfgs (adm m) p) c)
    (hA : ∀ c w, (dats 0 c).A w = V m c (Pipeline.arrRef (Pipeline.pin pcfgs (adm m) 0).spec w))
    (h : θ_run defs (onTc (τ := τ) (main (F := F))) (s₀ m ρ)
      (Pipeline.FramePost (Pipeline.pin pcfgs (adm m)) dats 0 (V m))) :
    θ_run defs (onTc (τ := τ) (main (F := F))) ⟨m, fun _ => 0, ρ⟩ (fun r => ∀ c : Dev Cert.KernelIdeal.nD,
      r.2.mem ((c.tc : Thread Cert.KernelIdeal.nD Cert.KernelIdeal.τ).loc Cert.KernelIdeal.main_v64) = (dats 0 c).arrAt 9 (Pipeline.pin pcfgs (adm m) 0).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run defs _ _).mono (fun _ h c =>
    ⟨(h c).1 9,
      ((h c).2 main_arg0 (Pipeline.mem_restRefs_of main_arg0 (by decide) arg0_not_staged)).trans (V_arg0 m c),
      ((h c).2 main_arg1 (Pipeline.mem_restRefs_of main_arg1 (by decide) arg1_not_staged)).trans (V_arg1 m c),
      ((h c).2 main_arg2 (Pipeline.mem_restRefs_of main_arg2 (by decide) arg2_not_staged)).trans (V_arg2 m c),
      ((h c).2 main_arg3 (Pipeline.mem_restRefs_of main_arg3 (by decide) arg3_not_staged)).trans (V_arg3 m c),
      ((h c).2 main_arg4 (Pipeline.mem_restRefs_of main_arg4 (by decide) arg4_not_staged)).trans (V_arg4 m c),
      ((h c).1 8).trans (((dats 0 c).arrAt_in 8 rfl _).trans ((hA c 8).trans (V_arg5 m c))),
      ((h c).2 main_arg6 (Pipeline.mem_restRefs_of main_arg6 (by decide) arg6_not_staged)).trans (V_arg6 m c),
      ((h c).2 main_arg7 (Pipeline.mem_restRefs_of main_arg7 (by decide) arg7_not_staged)).trans (V_arg7 m c)⟩) h

end Cert.KernelIdeal.Frm

end
-- ==== Proof.BodyCtxKernelIdeal.lean ====
/-
  The buffers the kernel body only reads, held together: the two bound tables at the half share the body is lent,
  the four index blocks, the four table blocks and the bias whole, each at its contents.
-/
import proofs.«408597_j16320875725026_3_alg».proof.Proof.Gen.KernelIdeal
import proofs.«408597_j16320875725026_3_alg».proof.Proof.Gen.KernelIdeal.Skeleton
import Idealize.ShloMosaic.Lib.Pipeline.Frame
import Idealize.ShloMosaic.Lib.Tactic

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eleven input buffers owned at their contents. -/
abbrev ctxI (c : Dev nD) (M2 : Memref sig .tc .smem S80x4 .i32) (M3 : Memref sig .tc .smem S80x4 .i32) (M4 : Memref sig .tc .vmem S1x40x200 .i32) (M5 : Memref sig .tc .vmem S1x40x200 .i32) (M6 : Memref sig .tc .vmem S1x40x200 .i32) (M7 : Memref sig .tc .vmem S1x40x200 .i32) (M8 : Memref sig .tc .vmem S1024x160 .f32) (M9 : Memref sig .tc .vmem S1024x160 .f32) (M10 : Memref sig .tc .vmem S1024x160 .f32) (M11 : Memref sig .tc .vmem S1024x160 .f32) (M12 : Memref sig .tc .vmem S160 .f32) (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) : sProp 𝕄 :=
  iprop(owns (c : Thread nD τ) M2 fullShare.right x2 ∗ owns (c : Thread nD τ) M3 fullShare.right x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12)

end Cert.KernelIdeal.Body

end
-- ==== Proof.RestKernelIdeal.lean ====
/-
  The body's top-level sequence after each of its twelve part calls, restated as definitions of their own (each is,
  by unfolding, the corresponding suffix of the printed sequence), so that the parts compose through small goals.
-/
import proofs.«408597_j16320875725026_3_alg».proof.Proof.BodyCtxKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body's top-level sequence after its part 1. -/
noncomputable def rest1 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v9 : IVec S40x200 32) (v10 : IVec S40x50 32) (v13 : Elt F .i32) (v31 : BitVec 1) :
    Prog (TpuEff nD τ sig (Elt F) Λ₀ .tc) (Σ' (v436 : FVec F S40x200x160 .f32), FVec F S40x200x160 .f32) := do
  let ⟨v62, v65⟩ : Σ' (v62 : IVec S40x50 32), Elt F .i32 ← k0_part2 i arg2 harg2 arg3 harg3 arg4 harg4 arg5 harg5 arg6 harg6 arg7 harg7 arg8 harg8 arg9 harg9 arg10 harg10 arg11 harg11 arg12 harg12 arg13 harg13 arg14 harg14 v4 v7 v9 v10 v13 v31 -- statements 61–120 of 778: their part
  let ⟨v88, v91, v93, v101⟩ : Σ' (v88 : IVec S40x50 32) (v91 : Elt F .i32) (v93 : Elt F .i32), BitVec 1 ← k0_part3 i arg2 harg2 arg3 harg3 arg4 harg4 arg5 harg5 arg6 harg6 arg7 harg7 arg8 harg8 arg9 harg9 arg10 harg10 arg11 harg11 arg12 harg12 arg13 harg13 arg14 harg14 v4 v7 v9 v62 v65 -- statements 121–180 of 778: their part
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 2. -/
noncomputable def rest2 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v9 : IVec S40x200 32) (v62 : IVec S40x50 32) (v65 : Elt F .i32) :
    Prog (TpuEff nD τ sig (Elt F) Λ₀ .tc) (Σ' (v436 : FVec F S40x200x160 .f32), FVec F S40x200x160 .f32) := do
  let ⟨v88, v91, v93, v101⟩ : Σ' (v88 : IVec S40x50 32) (v91 : Elt F .i32) (v93 : Elt F .i32), BitVec 1 ← k0_part3 i arg2 harg2 arg3 harg3 arg4 harg4 arg5 harg5 arg6 harg6 arg7 harg7 arg8 harg8 arg9 harg9 arg10 harg10 arg11 harg11 arg12 harg12 arg13 harg13 arg14 harg14 v4 v7 v9 v62 v65 -- statements 121–180 of 778: their part
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 3. -/
noncomputable def rest3 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v88 : IVec S40x50 32) (v91 : Elt F .i32) (v93 : Elt F .i32) (v101 : BitVec 1) :
    Prog (TpuEff nD τ sig (Elt F) Λ₀ .tc) (Σ' (v436 : FVec F S40x200x160 .f32), FVec F S40x200x160 .f32) := do
  let ⟨v115, v116, v119, v121, v135⟩ : Σ' (v115 : IVec S40x200 32) (v116 : IVec S40x50 32) (v119 : Elt F .i32) (v121 : Elt F .i32), BitVec 32 ← k0_part4 i arg2 harg2 arg3 harg3 arg4 harg4 arg5 harg5 arg6 harg6 arg7 harg7 arg8 harg8 arg9 harg9 arg10 harg10 arg11 harg11 arg12 harg12 arg13 harg13 arg14 harg14 v4 v7 v88 v91 v93 v101 -- statements 181–240 of 778: their part
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 4. -/
noncomputable def rest4 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v115 : IVec S40x200 32) (v116 : IVec S40x50 32) (v119 : Elt F .i32) (v121 : Elt F .i32) (v135 : BitVec 32) :
    Prog (TpuEff nD τ sig (Elt F) Λ₀ .tc) (Σ' (v436 : FVec F S40x200x160 .f32), FVec F S40x200x160 .f32) := do
  let ⟨v168, v169⟩ : Σ' (v168 : IVec S40x50 32), BitVec 32 ← k0_part5 i arg2 harg2 arg3 harg3 arg4 harg4 arg5 harg5 arg6 harg6 arg7 harg7 arg8 harg8 arg9 harg9 arg10 harg10 arg11 harg11 arg12 harg12 arg13 harg13 arg14 harg14 v4 v7 v115 v116 v119 v121 v135 -- statements 241–300 of 778: their part
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 5. -/
noncomputable def rest5 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v115 : IVec S40x200 32) (v168 : IVec S40x50 32) (v169 : BitVec 32) :
    Prog (TpuEff nD τ sig (Elt F) Λ₀ .tc) (Σ' (v436 : FVec F S40x200x160 .f32), FVec F S40x200x160 .f32) := do
  let ⟨v194, v197, v199⟩ : Σ' (v194 : IVec S40x50 32) (v197 : Elt F .i32), Elt F .i32 ← k0_part6 i arg2 harg2 arg3 harg3 arg4 harg4 arg5 harg5 arg6 harg6 arg7 harg7 arg8 harg8 arg9 harg9 arg10 harg10 arg11 harg11 arg12 harg12 arg13 harg13 arg14 harg14 v4 v7 v115 v168 v169 -- statements 301–360 of 778: their part
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 6. -/
noncomputable def rest6 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v194 : IVec S40x50 32) (v197 : Elt F .i32) (v199 : Elt F .i32) :
    Prog (TpuEff nD τ sig (Elt F) Λ₀ .tc) (Σ' (v436 : FVec F S40x200x160 .f32), FVec F S40x200x160 .f32) := do
  let ⟨v221, v222, v225, v227, c512_i32_130⟩ : Σ' (v221 : IVec S40x200 32) (v222 : IVec S40x50 32) (v225 : Elt F .i32) (v227 : Elt F .i32), BitVec 32 ← k0_part7 i arg2 harg2 arg3 harg3 arg4 harg4 arg5 harg5 arg6 harg6 arg7 harg7 arg8 harg8 arg9 harg9 arg10 harg10 arg11 harg11 arg12 harg12 arg13 harg13 arg14 harg14 v4 v7 v194 v197 v199 -- statements 361–420 of 778: their part
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 7. -/
noncomputable def rest7 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v221 : IVec S40x200 32) (v222 : IVec S40x50 32) (v225 : Elt F .i32) (v227 : Elt F .i32) (c512_i32_130 : BitVec 32) :
    Prog (TpuEff nD τ sig (Elt F) Λ₀ .tc) (Σ' (v436 : FVec F S40x200x160 .f32), FVec F S40x200x160 .f32) := do
  let ⟨v248, v272, c0_i32_150⟩ : Σ' (v248 : IVec S40x50 32) (v272 : BitVec 32), BitVec 32 ← k0_part8 i arg2 harg2 arg3 harg3 arg4 harg4 arg5 harg5 arg6 harg6 arg7 harg7 arg8 harg8 arg9 harg9 arg10 harg10 arg11 harg11 arg12 harg12 arg13 harg13 arg14 harg14 v4 v7 v221 v222 v225 v227 c512_i32_130 -- statements 421–480 of 778: their part
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 8. -/
noncomputable def rest8 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v221 : IVec S40x200 32) (v248 : IVec S40x50 32) (v272 : BitVec 32) (c0_i32_150 : BitVec 32) :
    Prog (TpuEff nD τ sig (Elt F) Λ₀ .tc) (Σ' (v436 : FVec F S40x200x160 .f32), FVec F S40x200x160 .f32) := do
  let ⟨v300, v303, v305, v306, v307⟩ : Σ' (v300 : IVec S40x50 32) (v303 : Elt F .i32) (v305 : Elt F .i32) (v306 : BitVec 1), BitVec 1 ← k0_part9 i arg2 harg2 arg3 harg3 arg4 harg4 arg5 harg5 arg6 harg6 arg7 harg7 arg8 harg8 arg9 harg9 arg10 harg10 arg11 harg11 arg12 harg12 arg13 harg13 arg14 harg14 v4 v7 v221 v248 v272 c0_i32_150 -- statements 481–540 of 778: their part
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 9. -/
noncomputable def rest9 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v300 : IVec S40x50 32) (v303 : Elt F .i32) (v305 : Elt F .i32) (v306 : BitVec 1) (v307 : BitVec 1) :
    Prog (TpuEff nD τ sig (Elt F) Λ₀ .tc) (Σ' (v436 : FVec F S40x200x160 .f32), FVec F S40x200x160 .f32) := do
  let ⟨v327, v328, v331, v333, v341⟩ : Σ' (v327 : IVec S40x200 32) (v328 : IVec S40x50 32) (v331 : Elt F .i32) (v333 : Elt F .i32), BitVec 1 ← k0_part10 i arg2 harg2 arg3 harg3 arg4 harg4 arg5 harg5 arg6 harg6 arg7 harg7 arg8 harg8 arg9 harg9 arg10 harg10 arg11 harg11 arg12 harg12 arg13 harg13 arg14 harg14 v4 v7 v300 v303 v305 v306 v307 -- statements 541–600 of 778: their part
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 10. -/
noncomputable def rest10 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v327 : IVec S40x200 32) (v328 : IVec S40x50 32) (v331 : Elt F .i32) (v333 : Elt F .i32) (v341 : BitVec 1) :
    Prog (TpuEff nD τ sig (Elt F) Λ₀ .tc) (Σ' (v436 : FVec F S40x200x160 .f32), FVec F S40x200x160 .f32) := do
  let ⟨v354, v357, v375⟩ : Σ' (v354 : IVec S40x50 32) (v357 : Elt F .i32), BitVec 1 ← k0_part11 i arg2 harg2 arg3 harg3 arg4 harg4 arg5 harg5 arg6 harg6 arg7 harg7 arg8 harg8 arg9 harg9 arg10 harg10 arg11 harg11 arg12 harg12 arg13 harg13 arg14 harg14 v4 v7 v327 v328 v331 v333 v341 -- statements 601–660 of 778: their part
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 11. -/
noncomputable def rest11 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v7 : BitVec 32) (v327 : IVec S40x200 32) (v354 : IVec S40x50 32) (v357 : Elt F .i32) (v375 : BitVec 1) :
    Prog (TpuEff nD τ sig (Elt F) Λ₀ .tc) (Σ' (v436 : FVec F S40x200x160 .f32), FVec F S40x200x160 .f32) := do
  let ⟨v406, v409⟩ : Σ' (v406 : IVec S40x50 32), Elt F .i32 ← k0_part12 i arg2 harg2 arg3 harg3 arg4 harg4 arg5 harg5 arg6 harg6 arg7 harg7 arg8 harg8 arg9 harg9 arg10 harg10 arg11 harg11 arg12 harg12 arg13 harg13 arg14 harg14 v4 v7 v327 v354 v357 v375 -- statements 661–720 of 778: their part
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

set_option maxHeartbeats 40000000 in
/-- The body's top-level sequence after its part 12. -/
noncomputable def rest12 (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (v4 : IVec S40x50x256 32) (v406 : IVec S40x50 32) (v409 : Elt F .i32) :
    Prog (TpuEff nD τ sig (Elt F) Λ₀ .tc) (Σ' (v436 : FVec F S40x200x160 .f32), FVec F S40x200x160 .f32) := do
  let v411 : Elt F .i32 ← smemLoad arg3 (Rect.unit (s := S80x4) (k0_off16 i) S1x1.size (k0_off16_inb i)) numel1_S1x1 rfl -- %411 = memref.load %arg3[%410, %c3_230] : memref<80x4xi32, #tpu.memory_space<smem>>  @ kernel:100
  let v412 : BitVec 1 := Scalar.cmpi .sge v411 0#32                     -- %412 = arith.cmpi sge, %411, %c0_i32_231 : i32  @ kernel:105
  let v413 : BitVec 1 := Scalar.cmpi .slt v409 256#32                   -- %413 = arith.cmpi slt, %409, %c256_i32_232 : i32  @ kernel:105
  let v414 : BitVec 1 := Scalar.andi v412 v413                          -- %414 = arith.andi %412, %413 : i1  @ kernel:105
  let v415 : BitVec 32 := Scalar.extui v414                             -- %415 = arith.extui %414 : i1 to i32  @ kernel:107
  let v416 : BitVec 1 := Scalar.cmpi .ne v415 0#32                      -- %416 = arith.cmpi ne, %415, %c0_i32_233 : i32  @ kernel:107
  if v416 = 1#1 then do                                                 -- scf.if %416 {  @ kernel:107
    let v451 : Vec F S256x160 .f32 ← Prog.lift (.load arg11 (Rect.unit (s := S1024x160) ![0, 0] S256x160.size inb_S1024x160_S256x160_0_0).toLoadRect (View.loadsAt_vmem h_S256x160)) -- %451 = vector.load %arg11[%c0_253, %c0_254] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_256, %c150, %c0_257] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_258, %c150_259, %c0_260] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay83 v4 v406 v451 v455) Finset.univ (View.stores_vmem_bits_univ h_S40x50x160 rfl) (.inl rfl)) -- tpu.vector_store %arg14[%c0_258, %c150_259, %c0_260], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v417 : BitVec 1 := Scalar.cmpi .sge v411 256#32                   -- %417 = arith.cmpi sge, %411, %c256_i32_234 : i32  @ kernel:105
  let v418 : BitVec 1 := Scalar.cmpi .slt v409 512#32                   -- %418 = arith.cmpi slt, %409, %c512_i32_235 : i32  @ kernel:105
  let v419 : BitVec 1 := Scalar.andi v417 v418                          -- %419 = arith.andi %417, %418 : i1  @ kernel:105
  let v420 : BitVec 32 := Scalar.extui v419                             -- %420 = arith.extui %419 : i1 to i32  @ kernel:107
  let v421 : BitVec 1 := Scalar.cmpi .ne v420 0#32                      -- %421 = arith.cmpi ne, %420, %c0_i32_236 : i32  @ kernel:107
  if v421 = 1#1 then do                                                 -- scf.if %421 {  @ kernel:107
    let v451 : Vec F S256x160 .f32 ← Prog.lift (.load arg11 (Rect.unit (s := S1024x160) ![256, 0] S256x160.size inb_S1024x160_S256x160_256_0).toLoadRect (View.loadsAt_vmem h_S256x160)) -- %451 = vector.load %arg11[%c256, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay84 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v422 : BitVec 1 := Scalar.cmpi .sge v411 512#32                   -- %422 = arith.cmpi sge, %411, %c512_i32_237 : i32  @ kernel:105
  let v423 : BitVec 1 := Scalar.cmpi .slt v409 768#32                   -- %423 = arith.cmpi slt, %409, %c768_i32_238 : i32  @ kernel:105
  let v424 : BitVec 1 := Scalar.andi v422 v423                          -- %424 = arith.andi %422, %423 : i1  @ kernel:105
  let v425 : BitVec 32 := Scalar.extui v424                             -- %425 = arith.extui %424 : i1 to i32  @ kernel:107
  let v426 : BitVec 1 := Scalar.cmpi .ne v425 0#32                      -- %426 = arith.cmpi ne, %425, %c0_i32_239 : i32  @ kernel:107
  if v426 = 1#1 then do                                                 -- scf.if %426 {  @ kernel:107
    let v451 : Vec F S256x160 .f32 ← Prog.lift (.load arg11 (Rect.unit (s := S1024x160) ![512, 0] S256x160.size inb_S1024x160_S256x160_512_0).toLoadRect (View.loadsAt_vmem h_S256x160)) -- %451 = vector.load %arg11[%c512, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay85 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v427 : BitVec 1 := Scalar.cmpi .sge v411 768#32                   -- %427 = arith.cmpi sge, %411, %c768_i32_240 : i32  @ kernel:105
  let v428 : BitVec 1 := Scalar.cmpi .slt v409 1024#32                  -- %428 = arith.cmpi slt, %409, %c1024_i32_241 : i32  @ kernel:105
  let v429 : BitVec 1 := Scalar.andi v427 v428                          -- %429 = arith.andi %427, %428 : i1  @ kernel:105
  let v430 : BitVec 32 := Scalar.extui v429                             -- %430 = arith.extui %429 : i1 to i32  @ kernel:107
  let v431 : BitVec 1 := Scalar.cmpi .ne v430 0#32                      -- %431 = arith.cmpi ne, %430, %c0_i32_242 : i32  @ kernel:107
  if v431 = 1#1 then do                                                 -- scf.if %431 {  @ kernel:107
    let v451 : Vec F S256x160 .f32 ← Prog.lift (.load arg11 (Rect.unit (s := S1024x160) ![768, 0] S256x160.size inb_S1024x160_S256x160_768_0).toLoadRect (View.loadsAt_vmem h_S256x160)) -- %451 = vector.load %arg11[%c768, %c0_253] : memref<1024x160xf32, #tpu.memory_space<vmem>>, vector<256x160xf32>  @ kernel:116
    let v455 : Vec F S40x50x160 .f32 ← Prog.lift (.load arg14 (Rect.unit (s := S40x200x160) ![0, 150, 0] S40x50x160.size inb_S40x200x160_S40x50x160_0_150_0).toLoadRect (View.loadsAt_vmem h_S40x50x160)) -- %455 = vector.load %arg14[%c0_255, %c150, %c0_256] : memref<40x200x160xf32, #tpu.memory_space<vmem>>, vector<40x50x160xf32>  @ kernel:119
    let v458 : Vec F S40x50x160 .f32 ← Prog.lift (.load arg14 (Rect.unit (s := S40x200x160) ![0, 150, 0] S40x50x160.size inb_S40x200x160_S40x50x160_0_150_0).toLoadRect (View.loadsAt_vmem h_S40x50x160)) -- %458 = vector.load %arg14[%c0_257, %c150_258, %c0_259] : memref<40x200x160xf32, #tpu.memory_space<vmem>>, vector<40x50x160xf32>  @ kernel:119
    -- %459 = vector.shape_cast %458 : vector<40x50x160xf32> to vector<40x50x160xf32>  @ kernel:119  — not in the skeleton
    Prog.lift (.store arg14 (Rect.unit (s := S40x200x160) ![0, 150, 0] S40x50x160.size inb_S40x200x160_S40x50x160_0_150_0) (k0_pay86 v4 v406 v451 v455) Finset.univ (View.stores_vmem_bits_univ h_S40x50x160 rfl) (.inl rfl)) -- tpu.vector_store %arg14[%c0_257, %c150_258, %c0_259], %460 {strides = array<i32>} : memref<40x200x160xf32, #tpu.memory_space<vmem>>, vector<40x50x160xf32>,  @ kernel:119
    pure ⟨⟩                                                             -- scf.yield / }
  else do                                                               -- } else {
    pure ⟨⟩                                                             -- scf.yield / }
  let v432 : Vec F S160 .f32 ← Prog.lift (.load arg12 (Rect.unit (s := S160) ![0] S160.size inb_S160_S160_0).toLoadRect (View.loadsAt_vmem h_S160)) -- %432 = vector.load %arg12[%c0_243] : memref<160xf32, #tpu.memory_space<vmem>>, vector<160xf32>  @ kernel:121
  let v433 : Vec F S40x200x160 .f32 ← Prog.lift (.load arg14 (Rect.unit (s := S40x200x160) ![0, 0, 0] S40x200x160.size inb_S40x200x160_S40x200x160_0_0_0).toLoadRect (View.loadsAt_vmem h_S40x200x160)) -- %433 = vector.load %arg14[%c0_244, %c0_245, %c0_246] : memref<40x200x160xf32, #tpu.memory_space<vmem>>, vector<40x200x160xf32>  @ kernel:122
  pure ⟨k0_pay87 v432 v433, k0_pay88 (F := F)⟩

end Cert.KernelIdeal.Body

end
-- ==== Proof.PartsAKernelIdeal.lean ====
/-
  The kernel body's printed parts 1 to 4, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 1–60 of the body (the accumulator cleared, the first index block and bound words read, the first three
    guarded updates): what they leave in the accumulator — over the inputs' contents alone: the clearing store covers the
    scratch, whose contents on entry are restated over junk before the first guard — and the values they hand on, WITH
    the proof that from the inputs and the scratch at anything they run to their end. -/
noncomputable def partRun1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32)
     :
    { W : Vec F S40x200x160 .f32 × IVec S40x50x256 32 × BitVec 32 × IVec S40x200 32 × IVec S40x50 32 × Elt F .i32 × BitVec 1 //
      ∀ (E : Set ℕ) (K : (Σ' (v4 : IVec S40x50x256 32) (v7 : BitVec 32) (v9 : IVec S40x200 32) (v10 : IVec S40x50 32) (v13 : Elt F .i32), BitVec 1) → sProp 𝕄),
        iprop(ctxI c M2 M3 M4 M5 M6 M7 M8 M9 M10 M11 M12 x2 x3 x4 x5 x6 x7 x8 x9 x10 x11 x12 ∗ (∃ d, owns (c : Thread nD τ) M14 fullShare d)
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2.1, W.2.2.2.2.2.2⟩))
          ⊢ wp frame (wpE (defs₀ (F := F)) Variants.none c none) E
              (k0_part1 i M2 h2 M3 h3 M4 h4 M5 h5 M6 h6 M7 h7 M8 h8 M9 h9 M10 h10 M11 h11 M12 h12 M13 h13 M14 h14 ) K } := by
  refine ⟨⟨?_, ?_, ?_, ?_, ?_, ?_, ?_⟩, fun E K => ?run⟩
  case run =>
    simp only [k0_part1_eq_skeleton]; unfold k0_part1_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d14, %f14, -, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    set_option sl_exec.stopBefore "v20" in sl_exec
    rw [Memref.writes_eq_junk_of_covChk h14 f14 _ (.leaf 0) rfl]
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 61–120 of the body: what they leave in the accumulator (over its contents `a14` on entry and
    the inputs' contents) and the values they hand on, WITH the proof that from the inputs and the accumulator at `a14`
    they run to their end handing the inputs back as they were and the accumulator at the witness. -/
noncomputable def partRun2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v9 : IVec S40x200 32) (v10 : IVec S40x50 32) (v13 : Elt F .i32) (v31 : BitVec 1) :
    { W : Vec F S40x200x160 .f32 × IVec S40x50 32 × Elt F .i32 //
      ∀ (E : Set ℕ) (K : (Σ' (v62 : IVec S40x50 32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part2 i M2 h2 M3 h3 M4 h4 M5 h5 M6 h6 M7 h7 M8 h8 M9 h9 M10 h10 M11 h11 M12 h12 M13 h13 M14 h14 v4 v7 v9 v10 v13 v31) K } := by
  refine ⟨⟨?_, ?_, ?_⟩, fun E K => ?run⟩
  case run =>
    simp only [k0_part2_eq_skeleton]; unfold k0_part2_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 121–180 of the body: what they leave in the accumulator (over its contents `a14` on entry and
    the inputs' contents) and the values they hand on, WITH the proof that from the inputs and the accumulator at `a14`
    they run to their end handing the inputs back as they were and the accumulator at the witness. -/
noncomputable def partRun3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v9 : IVec S40x200 32) (v62 : IVec S40x50 32) (v65 : Elt F .i32) :
    { W : Vec F S40x200x160 .f32 × IVec S40x50 32 × Elt F .i32 × Elt F .i32 × BitVec 1 //
      ∀ (E : Set ℕ) (K : (Σ' (v88 : IVec S40x50 32) (v91 : Elt F .i32) (v93 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2⟩))
          ⊢ wp frame (wpE (defs₀ (F := F)) Variants.none c none) E
              (k0_part3 i M2 h2 M3 h3 M4 h4 M5 h5 M6 h6 M7 h7 M8 h8 M9 h9 M10 h10 M11 h11 M12 h12 M13 h13 M14 h14 v4 v7 v9 v62 v65) K } := by
  refine ⟨⟨?_, ?_, ?_, ?_, ?_⟩, fun E K => ?run⟩
  case run =>
    simp only [k0_part3_eq_skeleton]; unfold k0_part3_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 181–240 of the body: what they leave in the accumulator (over its contents `a14` on entry and
    the inputs' contents) and the values they hand on, WITH the proof that from the inputs and the accumulator at `a14`
    they run to their end handing the inputs back as they were and the accumulator at the witness. -/
noncomputable def partRun4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v88 : IVec S40x50 32) (v91 : Elt F .i32) (v93 : Elt F .i32) (v101 : BitVec 1) :
    { W : Vec F S40x200x160 .f32 × IVec S40x200 32 × IVec S40x50 32 × Elt F .i32 × Elt F .i32 × BitVec 32 //
      ∀ (E : Set ℕ) (K : (Σ' (v115 : IVec S40x200 32) (v116 : IVec S40x50 32) (v119 : Elt F .i32) (v121 : Elt F .i32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part4 i M2 h2 M3 h3 M4 h4 M5 h5 M6 h6 M7 h7 M8 h8 M9 h9 M10 h10 M11 h11 M12 h12 M13 h13 M14 h14 v4 v7 v88 v91 v93 v101) K } := by
  refine ⟨⟨?_, ?_, ?_, ?_, ?_, ?_⟩, fun E K => ?run⟩
  case run =>
    simp only [k0_part4_eq_skeleton]; unfold k0_part4_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.KernelIdeal.Body

end
-- ==== Proof.PartsBKernelIdeal.lean ====
/-
  The kernel body's printed parts 5 to 8, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 241–300 of the body: what they leave in the accumulator (over its contents `a14` on entry and
    the inputs' contents) and the values they hand on, WITH the proof that from the inputs and the accumulator at `a14`
    they run to their end handing the inputs back as they were and the accumulator at the witness. -/
noncomputable def partRun5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v115 : IVec S40x200 32) (v116 : IVec S40x50 32) (v119 : Elt F .i32) (v121 : Elt F .i32) (v135 : BitVec 32) :
    { W : Vec F S40x200x160 .f32 × IVec S40x50 32 × BitVec 32 //
      ∀ (E : Set ℕ) (K : (Σ' (v168 : IVec S40x50 32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part5 i M2 h2 M3 h3 M4 h4 M5 h5 M6 h6 M7 h7 M8 h8 M9 h9 M10 h10 M11 h11 M12 h12 M13 h13 M14 h14 v4 v7 v115 v116 v119 v121 v135) K } := by
  refine ⟨⟨?_, ?_, ?_⟩, fun E K => ?run⟩
  case run =>
    simp only [k0_part5_eq_skeleton]; unfold k0_part5_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 301–360 of the body: what they leave in the accumulator (over its contents `a14` on entry and
    the inputs' contents) and the values they hand on, WITH the proof that from the inputs and the accumulator at `a14`
    they run to their end handing the inputs back as they were and the accumulator at the witness. -/
noncomputable def partRun6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v115 : IVec S40x200 32) (v168 : IVec S40x50 32) (v169 : BitVec 32) :
    { W : Vec F S40x200x160 .f32 × IVec S40x50 32 × Elt F .i32 × Elt F .i32 //
      ∀ (E : Set ℕ) (K : (Σ' (v194 : IVec S40x50 32) (v197 : Elt F .i32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part6 i M2 h2 M3 h3 M4 h4 M5 h5 M6 h6 M7 h7 M8 h8 M9 h9 M10 h10 M11 h11 M12 h12 M13 h13 M14 h14 v4 v7 v115 v168 v169) K } := by
  refine ⟨⟨M14.view.read (Elt F) (if Scalar.cmpi .ne (Scalar.extui (Scalar.andi (Scalar.cmpi .sge ?r3 0#32) (Scalar.cmpi .slt ?r2 256#32))) 0#32 = 1#1 then ?At else ?Ae), ?r1, ?r2, ?r3⟩, fun E K => ?run⟩
  case run =>
    simp only [k0_part6_eq_skeleton]; unfold k0_part6_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    -- the part's last guarded update is its last statement: the run stops at it (its join point is the part's return);
    -- the accumulator's witness is the guarded join of what the two ways leave — its condition the guard bit spelt over
    -- the two bound words the part hands on — and each way is run under its case
    sl_exec
    by_cases hC : partRun6.sl.v204 c i M2 h2 M3 h3 x2 x3 = 1#1
    case' pos =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : Scalar.cmpi .ne (Scalar.extui (Scalar.andi (Scalar.cmpi .sge _ 0#32) (Scalar.cmpi .slt _ 256#32))) 0#32 = 1#1 := hC
      iexists _; isplitr
      swap; · iexact H14
      ipureintro
      rw [if_pos hC']
    case' neg =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : ¬ (Scalar.cmpi .ne (Scalar.extui (Scalar.andi (Scalar.cmpi .sge _ 0#32) (Scalar.cmpi .slt _ 256#32))) 0#32 = 1#1) := hC
      iexists _; isplitr
      swap; · iexact H14
      ipureintro
      rw [if_neg hC']

set_option maxHeartbeats 8000000 in
/-- Statements 361–420 of the body: what they leave in the accumulator (over its contents `a14` on entry and
    the inputs' contents) and the values they hand on, WITH the proof that from the inputs and the accumulator at `a14`
    they run to their end handing the inputs back as they were and the accumulator at the witness. -/
noncomputable def partRun7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v194 : IVec S40x50 32) (v197 : Elt F .i32) (v199 : Elt F .i32) :
    { W : Vec F S40x200x160 .f32 × IVec S40x200 32 × IVec S40x50 32 × Elt F .i32 × Elt F .i32 × BitVec 32 //
      ∀ (E : Set ℕ) (K : (Σ' (v221 : IVec S40x200 32) (v222 : IVec S40x50 32) (v225 : Elt F .i32) (v227 : Elt F .i32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part7 i M2 h2 M3 h3 M4 h4 M5 h5 M6 h6 M7 h7 M8 h8 M9 h9 M10 h10 M11 h11 M12 h12 M13 h13 M14 h14 v4 v7 v194 v197 v199) K } := by
  refine ⟨⟨M14.view.read (Elt F) (if Scalar.cmpi .ne (Scalar.extui (Scalar.andi (Scalar.cmpi .sge ?r4 256#32) (Scalar.cmpi .slt ?r3 512#32))) 0#32 = 1#1 then ?At else ?Ae), ?r1, ?r2, ?r3, ?r4, ?r5⟩, fun E K => ?run⟩
  case run =>
    simp only [k0_part7_eq_skeleton]; unfold k0_part7_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    -- the part's last guarded update is its last statement: the run stops at it (its join point is the part's return);
    -- the accumulator's witness is the guarded join of what the two ways leave — its condition the guard bit spelt over
    -- the two bound words the part hands on — and each way is run under its case
    sl_exec
    by_cases hC : partRun7.sl.v237 c i M2 h2 M3 h3 x2 x3 = 1#1
    case' pos =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : Scalar.cmpi .ne (Scalar.extui (Scalar.andi (Scalar.cmpi .sge _ 256#32) (Scalar.cmpi .slt _ 512#32))) 0#32 = 1#1 := hC
      iexists _; isplitr
      swap; · iexact H14
      ipureintro
      rw [if_pos hC']
    case' neg =>
      sl_exec
      sl_step
      iapply Hk
      isplitl [H2 H3 H4 H5 H6 H7 H8 H9 H10 H11 H12]
      · isplitl [H2]
        · iexists _; isplitr; · ipureintro; exact h2.read_unread _
          iexact H2
        isplitl [H3]
        · iexists _; isplitr; · ipureintro; exact h3.read_unread _
          iexact H3
        isplitl [H4]
        · iexists _; isplitr; · ipureintro; exact h4.read_unread _
          iexact H4
        isplitl [H5]
        · iexists _; isplitr; · ipureintro; exact h5.read_unread _
          iexact H5
        isplitl [H6]
        · iexists _; isplitr; · ipureintro; exact h6.read_unread _
          iexact H6
        isplitl [H7]
        · iexists _; isplitr; · ipureintro; exact h7.read_unread _
          iexact H7
        isplitl [H8]
        · iexists _; isplitr; · ipureintro; exact h8.read_unread _
          iexact H8
        isplitl [H9]
        · iexists _; isplitr; · ipureintro; exact h9.read_unread _
          iexact H9
        isplitl [H10]
        · iexists _; isplitr; · ipureintro; exact h10.read_unread _
          iexact H10
        isplitl [H11]
        · iexists _; isplitr; · ipureintro; exact h11.read_unread _
          iexact H11
        iexists _; isplitr; · ipureintro; exact h12.read_unread _
        iexact H12
      have hC' : ¬ (Scalar.cmpi .ne (Scalar.extui (Scalar.andi (Scalar.cmpi .sge _ 256#32) (Scalar.cmpi .slt _ 512#32))) 0#32 = 1#1) := hC
      iexists _; isplitr
      swap; · iexact H14
      ipureintro
      rw [if_neg hC']

set_option maxHeartbeats 8000000 in
/-- Statements 421–480 of the body: what they leave in the accumulator (over its contents `a14` on entry and
    the inputs' contents) and the values they hand on, WITH the proof that from the inputs and the accumulator at `a14`
    they run to their end handing the inputs back as they were and the accumulator at the witness. -/
noncomputable def partRun8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v221 : IVec S40x200 32) (v222 : IVec S40x50 32) (v225 : Elt F .i32) (v227 : Elt F .i32) (c512_i32_130 : BitVec 32) :
    { W : Vec F S40x200x160 .f32 × IVec S40x50 32 × BitVec 32 × BitVec 32 //
      ∀ (E : Set ℕ) (K : (Σ' (v248 : IVec S40x50 32) (v272 : BitVec 32), BitVec 32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part8 i M2 h2 M3 h3 M4 h4 M5 h5 M6 h6 M7 h7 M8 h8 M9 h9 M10 h10 M11 h11 M12 h12 M13 h13 M14 h14 v4 v7 v221 v222 v225 v227 c512_i32_130) K } := by
  refine ⟨⟨?_, ?_, ?_, ?_⟩, fun E K => ?run⟩
  case run =>
    simp only [k0_part8_eq_skeleton]; unfold k0_part8_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.KernelIdeal.Body

end
-- ==== Proof.PartsCKernelIdeal.lean ====
/-
  The kernel body's printed parts 9 to 12, each run once by the symbolic executor over a VARIABLE accumulator: a part
  holds five or six of the sixty-four data-guarded updates, each taken both ways; what a part leaves in the
  accumulator is a term over the accumulator's contents on entry, so that the parts compose without the guarded
  contents of one nesting inside the next's.
-/
import proofs.«408597_j16320875725026_3_alg».proof.Proof.BodyCtxKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- Statements 481–540 of the body: what they leave in the accumulator (over its contents `a14` on entry and
    the inputs' contents) and the values they hand on, WITH the proof that from the inputs and the accumulator at `a14`
    they run to their end handing the inputs back as they were and the accumulator at the witness. -/
noncomputable def partRun9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v221 : IVec S40x200 32) (v248 : IVec S40x50 32) (v272 : BitVec 32) (c0_i32_150 : BitVec 32) :
    { W : Vec F S40x200x160 .f32 × IVec S40x50 32 × Elt F .i32 × Elt F .i32 × BitVec 1 × BitVec 1 //
      ∀ (E : Set ℕ) (K : (Σ' (v300 : IVec S40x50 32) (v303 : Elt F .i32) (v305 : Elt F .i32) (v306 : BitVec 1), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part9 i M2 h2 M3 h3 M4 h4 M5 h5 M6 h6 M7 h7 M8 h8 M9 h9 M10 h10 M11 h11 M12 h12 M13 h13 M14 h14 v4 v7 v221 v248 v272 c0_i32_150) K } := by
  refine ⟨⟨?_, ?_, ?_, ?_, ?_, ?_⟩, fun E K => ?run⟩
  case run =>
    simp only [k0_part9_eq_skeleton]; unfold k0_part9_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 541–600 of the body: what they leave in the accumulator (over its contents `a14` on entry and
    the inputs' contents) and the values they hand on, WITH the proof that from the inputs and the accumulator at `a14`
    they run to their end handing the inputs back as they were and the accumulator at the witness. -/
noncomputable def partRun10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v300 : IVec S40x50 32) (v303 : Elt F .i32) (v305 : Elt F .i32) (v306 : BitVec 1) (v307 : BitVec 1) :
    { W : Vec F S40x200x160 .f32 × IVec S40x200 32 × IVec S40x50 32 × Elt F .i32 × Elt F .i32 × BitVec 1 //
      ∀ (E : Set ℕ) (K : (Σ' (v327 : IVec S40x200 32) (v328 : IVec S40x50 32) (v331 : Elt F .i32) (v333 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2.1, W.2.2.2.2.1, W.2.2.2.2.2⟩))
          ⊢ wp frame (wpE (defs₀ (F := F)) Variants.none c none) E
              (k0_part10 i M2 h2 M3 h3 M4 h4 M5 h5 M6 h6 M7 h7 M8 h8 M9 h9 M10 h10 M11 h11 M12 h12 M13 h13 M14 h14 v4 v7 v300 v303 v305 v306 v307) K } := by
  refine ⟨⟨?_, ?_, ?_, ?_, ?_, ?_⟩, fun E K => ?run⟩
  case run =>
    simp only [k0_part10_eq_skeleton]; unfold k0_part10_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 601–660 of the body: what they leave in the accumulator (over its contents `a14` on entry and
    the inputs' contents) and the values they hand on, WITH the proof that from the inputs and the accumulator at `a14`
    they run to their end handing the inputs back as they were and the accumulator at the witness. -/
noncomputable def partRun11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v327 : IVec S40x200 32) (v328 : IVec S40x50 32) (v331 : Elt F .i32) (v333 : Elt F .i32) (v341 : BitVec 1) :
    { W : Vec F S40x200x160 .f32 × IVec S40x50 32 × Elt F .i32 × BitVec 1 //
      ∀ (E : Set ℕ) (K : (Σ' (v354 : IVec S40x50 32) (v357 : Elt F .i32), BitVec 1) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2.1, W.2.2.2⟩))
          ⊢ wp frame (wpE (defs₀ (F := F)) Variants.none c none) E
              (k0_part11 i M2 h2 M3 h3 M4 h4 M5 h5 M6 h6 M7 h7 M8 h8 M9 h9 M10 h10 M11 h11 M12 h12 M13 h13 M14 h14 v4 v7 v327 v328 v331 v333 v341) K } := by
  refine ⟨⟨?_, ?_, ?_, ?_⟩, fun E K => ?run⟩
  case run =>
    simp only [k0_part11_eq_skeleton]; unfold k0_part11_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

set_option maxHeartbeats 8000000 in
/-- Statements 661–720 of the body: what they leave in the accumulator (over its contents `a14` on entry and
    the inputs' contents) and the values they hand on, WITH the proof that from the inputs and the accumulator at `a14`
    they run to their end handing the inputs back as they were and the accumulator at the witness. -/
noncomputable def partRun12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v7 : BitVec 32) (v327 : IVec S40x200 32) (v354 : IVec S40x50 32) (v357 : Elt F .i32) (v375 : BitVec 1) :
    { W : Vec F S40x200x160 .f32 × IVec S40x50 32 × Elt F .i32 //
      ∀ (E : Set ℕ) (K : (Σ' (v406 : IVec S40x50 32), Elt F .i32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (k0_part12 i M2 h2 M3 h3 M4 h4 M5 h5 M6 h6 M7 h7 M8 h8 M9 h9 M10 h10 M11 h11 M12 h12 M13 h13 M14 h14 v4 v7 v327 v354 v357 v375) K } := by
  refine ⟨⟨?_, ?_, ?_⟩, fun E K => ?run⟩
  case run =>
    simp only [k0_part12_eq_skeleton]; unfold k0_part12_skel
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.KernelIdeal.Body

end
-- ==== Proof.StepsKernelIdeal.lean ====
/-
  One step of the body's top-level sequence at a time: the sequence after part N − 1 runs part N (its own run,
  Parts*.lean) and continues as the sequence after part N, for any accumulator on entry and any handed-on values; and
  the thirteenth part: the statements after the twelfth part call (one bound word, the last four guarded updates, the
  bias and the full accumulator read), run like the others.
-/
import proofs.«408597_j16320875725026_3_alg».proof.Proof.RestKernelIdeal
import proofs.«408597_j16320875725026_3_alg».proof.Proof.PartsAKernelIdeal
import proofs.«408597_j16320875725026_3_alg».proof.Proof.PartsBKernelIdeal
import proofs.«408597_j16320875725026_3_alg».proof.Proof.PartsCKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The sequence after part 0 runs part 1 and goes on as the sequence after part 1. -/
theorem step1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32)  (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ (∃ d, owns (c : Thread nD τ) M14 fullShare d)
        ∗ (iprop(ctxI c M2 M3 M4 M5 M6 M7 M8 M9 M10 M11 M12 x2 x3 x4 x5 x6 x7 x8 x9 x10 x11 x12 ∗ owns (c : Thread nD τ) M14 fullShare (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.1)
            -∗ wp frame (wpE (defs₀ (F := F)) Variants.none c none) E (rest1 i M2 h2 M3 h3 M4 h4 M5 h5 M6 h6 M7 h7 M8 h8 M9 h9 M10 h10 M11 h11 M12 h12 M13 h13 M14 h14 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (partRun1 (F := F) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2) K'))
      ⊢ wp frame (wpE (defs₀ (F := F)) Variants.none c none) E (k0_part13_skel i M2 h2 M3 h3 M4 h4 M5 h5 M6 h6 M7 h7 M8 h8 M9 h9 M10 h10 M11 h11 M12 h12 M13 h13 M14 h14) K' := by
  unfold k0_part13_skel
  iintro ⟨Hc, H14, Hk⟩
  rw [wp_bind]
  iapply ((partRun1 (F := F) c i M2 h2 M3 h3 M4 h4 M5 h5 M6 h6 M7 h7 M8 h8 M9 h9 M10 h10 M11 h11 M12 h12 M13 h13 M14 h14 x2 x3 x4 x5 x6 x7 x8 x9 x10 x11 x12).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 1 runs part 2 and goes on as the sequence after part 2. -/
theorem step2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v9 : IVec S40x200 32) (v10 : IVec S40x50 32) (v13 : Elt F .i32) (v31 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.1)
            -∗ wp frame (wpE (defs₀ (F := F)) Variants.none c none) E (rest2 i M2 h2 M3 h3 M4 h4 M5 h5 M6 h6 M7 h7 M8 h8 M9 h9 M10 h10 M11 h11 M12 h12 M13 h13 M14 h14 v4 v7 v9 (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.1 (partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.2) K'))
      ⊢ wp frame (wpE (defs₀ (F := F)) Variants.none c none) E (rest1 i M2 h2 M3 h3 M4 h4 M5 h5 M6 h6 M7 h7 M8 h8 M9 h9 M10 h10 M11 h11 M12 h12 M13 h13 M14 h14 v4 v7 v9 v10 v13 v31) K' := by
  unfold rest1
  iintro ⟨Hc, H14, Hk⟩
  rw [wp_bind]
  iapply ((partRun2 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 2 runs part 3 and goes on as the sequence after part 3. -/
theorem step3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v9 : IVec S40x200 32) (v62 : IVec S40x50 32) (v65 : Elt F .i32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.1)
            -∗ wp frame (wpE (defs₀ (F := F)) Variants.none c none) E (rest3 i M2 h2 M3 h3 M4 h4 M5 h5 M6 h6 M7 h7 M8 h8 M9 h9 M10 h10 M11 h11 M12 h12 M13 h13 M14 h14 v4 v7 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.1 (partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.2) K'))
      ⊢ wp frame (wpE (defs₀ (F := F)) Variants.none c none) E (rest2 i M2 h2 M3 h3 M4 h4 M5 h5 M6 h6 M7 h7 M8 h8 M9 h9 M10 h10 M11 h11 M12 h12 M13 h13 M14 h14 v4 v7 v9 v62 v65) K' := by
  unfold rest2
  iintro ⟨Hc, H14, Hk⟩
  rw [wp_bind]
  iapply ((partRun3 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 3 runs part 4 and goes on as the sequence after part 4. -/
theorem step4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v88 : IVec S40x50 32) (v91 : Elt F .i32) (v93 : Elt F .i32) (v101 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.1)
            -∗ wp frame (wpE (defs₀ (F := F)) Variants.none c none) E (rest4 i M2 h2 M3 h3 M4 h4 M5 h5 M6 h6 M7 h7 M8 h8 M9 h9 M10 h10 M11 h11 M12 h12 M13 h13 M14 h14 v4 v7 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.1 (partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.2) K'))
      ⊢ wp frame (wpE (defs₀ (F := F)) Variants.none c none) E (rest3 i M2 h2 M3 h3 M4 h4 M5 h5 M6 h6 M7 h7 M8 h8 M9 h9 M10 h10 M11 h11 M12 h12 M13 h13 M14 h14 v4 v7 v88 v91 v93 v101) K' := by
  unfold rest3
  iintro ⟨Hc, H14, Hk⟩
  rw [wp_bind]
  iapply ((partRun4 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 4 runs part 5 and goes on as the sequence after part 5. -/
theorem step5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v115 : IVec S40x200 32) (v116 : IVec S40x50 32) (v119 : Elt F .i32) (v121 : Elt F .i32) (v135 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.1)
            -∗ wp frame (wpE (defs₀ (F := F)) Variants.none c none) E (rest5 i M2 h2 M3 h3 M4 h4 M5 h5 M6 h6 M7 h7 M8 h8 M9 h9 M10 h10 M11 h11 M12 h12 M13 h13 M14 h14 v4 v7 v115 (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.1 (partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.2) K'))
      ⊢ wp frame (wpE (defs₀ (F := F)) Variants.none c none) E (rest4 i M2 h2 M3 h3 M4 h4 M5 h5 M6 h6 M7 h7 M8 h8 M9 h9 M10 h10 M11 h11 M12 h12 M13 h13 M14 h14 v4 v7 v115 v116 v119 v121 v135) K' := by
  unfold rest4
  iintro ⟨Hc, H14, Hk⟩
  rw [wp_bind]
  iapply ((partRun5 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 5 runs part 6 and goes on as the sequence after part 6. -/
theorem step6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v115 : IVec S40x200 32) (v168 : IVec S40x50 32) (v169 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.1)
            -∗ wp frame (wpE (defs₀ (F := F)) Variants.none c none) E (rest6 i M2 h2 M3 h3 M4 h4 M5 h5 M6 h6 M7 h7 M8 h8 M9 h9 M10 h10 M11 h11 M12 h12 M13 h13 M14 h14 v4 v7 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.1 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.1 (partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.2) K'))
      ⊢ wp frame (wpE (defs₀ (F := F)) Variants.none c none) E (rest5 i M2 h2 M3 h3 M4 h4 M5 h5 M6 h6 M7 h7 M8 h8 M9 h9 M10 h10 M11 h11 M12 h12 M13 h13 M14 h14 v4 v7 v115 v168 v169) K' := by
  unfold rest5
  iintro ⟨Hc, H14, Hk⟩
  rw [wp_bind]
  iapply ((partRun6 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 6 runs part 7 and goes on as the sequence after part 7. -/
theorem step7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v194 : IVec S40x50 32) (v197 : Elt F .i32) (v199 : Elt F .i32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.1)
            -∗ wp frame (wpE (defs₀ (F := F)) Variants.none c none) E (rest7 i M2 h2 M3 h3 M4 h4 M5 h5 M6 h6 M7 h7 M8 h8 M9 h9 M10 h10 M11 h11 M12 h12 M13 h13 M14 h14 v4 v7 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.1 (partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.2) K'))
      ⊢ wp frame (wpE (defs₀ (F := F)) Variants.none c none) E (rest6 i M2 h2 M3 h3 M4 h4 M5 h5 M6 h6 M7 h7 M8 h8 M9 h9 M10 h10 M11 h11 M12 h12 M13 h13 M14 h14 v4 v7 v194 v197 v199) K' := by
  unfold rest6
  iintro ⟨Hc, H14, Hk⟩
  rw [wp_bind]
  iapply ((partRun7 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 7 runs part 8 and goes on as the sequence after part 8. -/
theorem step8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v221 : IVec S40x200 32) (v222 : IVec S40x50 32) (v225 : Elt F .i32) (v227 : Elt F .i32) (c512_i32_130 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.1)
            -∗ wp frame (wpE (defs₀ (F := F)) Variants.none c none) E (rest8 i M2 h2 M3 h3 M4 h4 M5 h5 M6 h6 M7 h7 M8 h8 M9 h9 M10 h10 M11 h11 M12 h12 M13 h13 M14 h14 v4 v7 v221 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.1 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.1 (partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.2) K'))
      ⊢ wp frame (wpE (defs₀ (F := F)) Variants.none c none) E (rest7 i M2 h2 M3 h3 M4 h4 M5 h5 M6 h6 M7 h7 M8 h8 M9 h9 M10 h10 M11 h11 M12 h12 M13 h13 M14 h14 v4 v7 v221 v222 v225 v227 c512_i32_130) K' := by
  unfold rest7
  iintro ⟨Hc, H14, Hk⟩
  rw [wp_bind]
  iapply ((partRun8 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 8 runs part 9 and goes on as the sequence after part 9. -/
theorem step9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v221 : IVec S40x200 32) (v248 : IVec S40x50 32) (v272 : BitVec 32) (c0_i32_150 : BitVec 32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.1)
            -∗ wp frame (wpE (defs₀ (F := F)) Variants.none c none) E (rest9 i M2 h2 M3 h3 M4 h4 M5 h5 M6 h6 M7 h7 M8 h8 M9 h9 M10 h10 M11 h11 M12 h12 M13 h13 M14 h14 v4 v7 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.1 (partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.2) K'))
      ⊢ wp frame (wpE (defs₀ (F := F)) Variants.none c none) E (rest8 i M2 h2 M3 h3 M4 h4 M5 h5 M6 h6 M7 h7 M8 h8 M9 h9 M10 h10 M11 h11 M12 h12 M13 h13 M14 h14 v4 v7 v221 v248 v272 c0_i32_150) K' := by
  unfold rest8
  iintro ⟨Hc, H14, Hk⟩
  rw [wp_bind]
  iapply ((partRun9 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 9 runs part 10 and goes on as the sequence after part 10. -/
theorem step10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v300 : IVec S40x50 32) (v303 : Elt F .i32) (v305 : Elt F .i32) (v306 : BitVec 1) (v307 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.1)
            -∗ wp frame (wpE (defs₀ (F := F)) Variants.none c none) E (rest10 i M2 h2 M3 h3 M4 h4 M5 h5 M6 h6 M7 h7 M8 h8 M9 h9 M10 h10 M11 h11 M12 h12 M13 h13 M14 h14 v4 v7 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.1 (partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.2) K'))
      ⊢ wp frame (wpE (defs₀ (F := F)) Variants.none c none) E (rest9 i M2 h2 M3 h3 M4 h4 M5 h5 M6 h6 M7 h7 M8 h8 M9 h9 M10 h10 M11 h11 M12 h12 M13 h13 M14 h14 v4 v7 v300 v303 v305 v306 v307) K' := by
  unfold rest9
  iintro ⟨Hc, H14, Hk⟩
  rw [wp_bind]
  iapply ((partRun10 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 10 runs part 11 and goes on as the sequence after part 11. -/
theorem step11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v327 : IVec S40x200 32) (v328 : IVec S40x50 32) (v331 : Elt F .i32) (v333 : Elt F .i32) (v341 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.1)
            -∗ wp frame (wpE (defs₀ (F := F)) Variants.none c none) E (rest11 i M2 h2 M3 h3 M4 h4 M5 h5 M6 h6 M7 h7 M8 h8 M9 h9 M10 h10 M11 h11 M12 h12 M13 h13 M14 h14 v4 v7 v327 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.1 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.1 (partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.2) K'))
      ⊢ wp frame (wpE (defs₀ (F := F)) Variants.none c none) E (rest10 i M2 h2 M3 h3 M4 h4 M5 h5 M6 h6 M7 h7 M8 h8 M9 h9 M10 h10 M11 h11 M12 h12 M13 h13 M14 h14 v4 v7 v327 v328 v331 v333 v341) K' := by
  unfold rest10
  iintro ⟨Hc, H14, Hk⟩
  rw [wp_bind]
  iapply ((partRun11 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).2 E _)
  isplitl [Hc]; · iexact Hc
  isplitl [H14]; · iexact H14
  iintro ⟨Hc, H14⟩
  dsimp only
  iapply Hk
  isplitl [Hc]; · iexact Hc
  iexact H14

set_option maxHeartbeats 4000000 in
/-- The sequence after part 11 runs part 12 and goes on as the sequence after part 12. -/
theorem step12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v7 : BitVec 32) (v327 : IVec S40x200 32) (v354 : IVec S40x50 32) (v357 : Elt F .i32) (v375 : BitVec 1) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ owns (c : Thread nD τ) M14 fullShare a14
        ∗ (iprop(ctxI c M2 M3 M4 M5 M6 M7 M8 M9 M10 M11 M12 x2 x3 x4 x5 x6 x7 x8 x9 x10 x11 x12 ∗ owns (c : Thread nD τ) M14 fullShare (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.1)
            -∗ wp frame (wpE (defs₀ (F := F)) Variants.none c none) E (rest12 i M2 h2 M3 h3 M4 h4 M5 h5 M6 h6 M7 h7 M8 h8 M9 h9 M10 h10 M11 h11 M12 h12 M13 h13 M14 h14 v4 (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.1 (partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.2) K'))
      ⊢ wp frame (wpE (defs₀ (F := F)) Variants.none c none) E (rest11 i M2 h2 M3 h3 M4 h4 M5 h5 M6 h6 M7 h7 M8 h8 M9 h9 M10 h10 M11 h11 M12 h12 M13 h13 M14 h14 v4 v7 v327 v354 v357 v375) K' := by
  unfold rest11
  iintro ⟨Hc, H14, Hk⟩
  rw [wp_bind]
  iapply ((partRun12 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).2 E _)
  isplitl [Hc]; · iexact Hc
  isplitl [H14]; · iexact H14
  iintro ⟨Hc, H14⟩
  dsimp only
  iapply Hk
  isplitl [Hc]; · iexact Hc
  iexact H14

set_option maxHeartbeats 8000000 in
/-- The statements after the twelfth part call: what they leave in the accumulator (over its contents `a14` on entry and
    the inputs' contents) and the pair they return — the accumulator plus the bias, and the zero the maximum is taken with —,
    WITH the proof that from the inputs and the accumulator at `a14` they run to their end. -/
noncomputable def partRun13 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32)
    (v4 : IVec S40x50x256 32) (v406 : IVec S40x50 32) (v409 : Elt F .i32) :
    { W : Vec F S40x200x160 .f32 × FVec F S40x200x160 .f32 × FVec F S40x200x160 .f32 //
      ∀ (E : Set ℕ) (K : (Σ' (v436 : FVec F S40x200x160 .f32), FVec F S40x200x160 .f32) → sProp 𝕄),
        iprop(ctxI c M2 M3 M4 M5 M6 M7 M8 M9 M10 M11 M12 x2 x3 x4 x5 x6 x7 x8 x9 x10 x11 x12 ∗ owns (c : Thread nD τ) M14 fullShare a14
            ∗ (iprop(ctxI c M2 M3 M4 M5 M6 M7 M8 M9 M10 M11 M12 x2 x3 x4 x5 x6 x7 x8 x9 x10 x11 x12 ∗ owns (c : Thread nD τ) M14 fullShare W.1) -∗ K ⟨W.2.1, W.2.2⟩))
          ⊢ wp frame (wpE (defs₀ (F := F)) Variants.none c none) E
              (rest12 i M2 h2 M3 h3 M4 h4 M5 h5 M6 h6 M7 h7 M8 h8 M9 h9 M10 h10 M11 h11 M12 h12 M13 h13 M14 h14 v4 v406 v409) K } := by
  refine ⟨⟨?_, ?_, ?_⟩, fun E K => ?run⟩
  case run =>
    unfold rest12
    unfold ctxI owns
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f14, %hf14, H14⟩, Hk⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    iexists _; isplitr; · ipureintro; rfl
    iexact H14

end Cert.KernelIdeal.Body

end
-- ==== Proof.FinishKernelIdeal.lean ====
/-
  The end of the body: the thirteenth part, then the result's load and store, over any accumulator on entry and any
  handed-on values.
-/
import proofs.«408597_j16320875725026_3_alg».proof.Proof.StepsKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- What the body does with the pair its top-level sequence returns: the result's load and its store of the maximum. -/
noncomputable def storeOf (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) :
    (Σ' (v436 : FVec F S40x200x160 .f32), FVec F S40x200x160 .f32) → Prog (TpuEff nD τ sig (Elt F) Λ₀ .tc) PUnit := fun r => match r with
  | ⟨v436, v437⟩ => do
    let v439 : Vec F S1x40x200x160 .f32 ← Prog.lift (.load arg13 (Rect.unit (s := S1x40x200x160) ![0, 0, 0, 0] S1x40x200x160.size inb_S1x40x200x160_S1x40x200x160_0_0_0_0).toLoadRect (View.loadsAt_vmem h_S1x40x200x160)) -- %439 = vector.load %arg13[%c0_248, %c0_249, %c0_250, %c0_251] : memref<1x40x200x160xf32, #tpu.memory_space<vmem>>, vector<1x40x200x160xf32>  @ kernel:123
    -- %440 = vector.shape_cast %439 : vector<1x40x200x160xf32> to vector<40x200x160xf32>  @ kernel:123  — not in the skeleton
    Prog.lift (.store arg13 (Rect.unit (s := S1x40x200x160) ![0, 0, 0, 0] S1x40x200x160.size inb_S1x40x200x160_S1x40x200x160_0_0_0_0) (k0_pay1 v436 v437) Finset.univ (View.stores_vmem_bits_univ h_S1x40x200x160 rfl) (.inl rfl)) -- tpu.vector_store %arg13[%c0_248, %c0_249, %c0_250, %c0_251], %441 {strides = array<i32>} : memref<1x40x200x160xf32, #tpu.memory_space<vmem>>, vector<1x40x200x160xf32>,  @ kernel:123
    pure ⟨⟩                                                               -- func.return

set_option maxHeartbeats 8000000 in
/-- The body is its top-level sequence, then the result's load and store. -/
theorem cc0_eq (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) :
    cc0_kernel (F := F) i arg2 harg2 arg3 harg3 arg4 harg4 arg5 harg5 arg6 harg6 arg7 harg7 arg8 harg8 arg9 harg9 arg10 harg10 arg11 harg11 arg12 harg12 arg13 harg13 arg14 harg14 = (k0_part13_skel (F := F) i arg2 harg2 arg3 harg3 arg4 harg4 arg5 harg5 arg6 harg6 arg7 harg7 arg8 harg8 arg9 harg9 arg10 harg10 arg11 harg11 arg12 harg12 arg13 harg13 arg14 harg14 >>= storeOf (F := F) i arg2 harg2 arg3 harg3 arg4 harg4 arg5 harg5 arg6 harg6 arg7 harg7 arg8 harg8 arg9 harg9 arg10 harg10 arg11 harg11 arg12 harg12 arg13 harg13 arg14 harg14) := by
  rw [cc0_kernel_eq_skeleton]; unfold cc0_kernel_skel; rw [k0_part13_eq_skeleton]; rfl

set_option maxHeartbeats 8000000 in
/-- The pieces the result's store leaves in the result's staging memref, WITH the proof that from the inputs, the
    result's buffer at anything and the accumulator at `a14` the thirteenth part and the store run to the body's return. -/
noncomputable def finishRun (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v406 : IVec S40x50 32) (v409 : Elt F .i32) :
    { L : List (View.Piece (Elt F) S1x40x200x160 .f32) //
      ∀ (E : Set ℕ) (K : PUnit → sProp 𝕄),
        iprop(ctxI c M2 M3 M4 M5 M6 M7 M8 M9 M10 M11 M12 x2 x3 x4 x5 x6 x7 x8 x9 x10 x11 x12
            ∗ (∃ d, owns (c : Thread nD τ) M13 fullShare d) ∗ owns (c : Thread nD τ) M14 fullShare a14
            ∗ (iprop(ctxI c M2 M3 M4 M5 M6 M7 M8 M9 M10 M11 M12 x2 x3 x4 x5 x6 x7 x8 x9 x10 x11 x12
                ∗ (∃ f, M13.view.loc (c : Thread nD τ) ↦[M13.view.set]{fullShare} M13.view.writes (Elt F) f L)
                ∗ (∃ d, owns (c : Thread nD τ) M14 fullShare d)) -∗ K ⟨⟩))
          ⊢ wp frame (wpE (defs₀ (F := F)) Variants.none c none) E (rest12 i M2 h2 M3 h3 M4 h4 M5 h5 M6 h6 M7 h7 M8 h8 M9 h9 M10 h10 M11 h11 M12 h12 M13 h13 M14 h14 v4 v406 v409)
              (fun r => wp frame (wpE (defs₀ (F := F)) Variants.none c none) E (storeOf i M2 h2 M3 h3 M4 h4 M5 h5 M6 h6 M7 h7 M8 h8 M9 h9 M10 h10 M11 h11 M12 h12 M13 h13 M14 h14 r) K) } := by
  refine ⟨?_, fun E K => ?run⟩
  case run =>
    iintro ⟨Hc, H13, H14, Hk⟩
    iapply ((partRun13 (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).2 E _)
    isplitl [Hc]; · iexact Hc
    isplitl [H14]; · iexact H14
    iintro ⟨Hc, H14⟩
    dsimp only [storeOf]
    unfold ctxI owns
    icases Hc with ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩
    icases H13 with ⟨%d13, %f13, -, H13⟩
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    sl_exec
    sl_step
    iapply Hk
    isplitl [H2 H3 H4 H5 H6 H7 H8 H9 H10 H11 H12]
    · isplitl [H2]
      · iexists _; isplitr; · ipureintro; exact h2.read_unread _
        iexact H2
      isplitl [H3]
      · iexists _; isplitr; · ipureintro; exact h3.read_unread _
        iexact H3
      isplitl [H4]
      · iexists _; isplitr; · ipureintro; exact h4.read_unread _
        iexact H4
      isplitl [H5]
      · iexists _; isplitr; · ipureintro; exact h5.read_unread _
        iexact H5
      isplitl [H6]
      · iexists _; isplitr; · ipureintro; exact h6.read_unread _
        iexact H6
      isplitl [H7]
      · iexists _; isplitr; · ipureintro; exact h7.read_unread _
        iexact H7
      isplitl [H8]
      · iexists _; isplitr; · ipureintro; exact h8.read_unread _
        iexact H8
      isplitl [H9]
      · iexists _; isplitr; · ipureintro; exact h9.read_unread _
        iexact H9
      isplitl [H10]
      · iexists _; isplitr; · ipureintro; exact h10.read_unread _
        iexact H10
      isplitl [H11]
      · iexists _; isplitr; · ipureintro; exact h11.read_unread _
        iexact H11
      iexists _; isplitr; · ipureintro; exact h12.read_unread _
      iexact H12
    isplitl [H13]
    · iexists _; iexact H13
    iexists _; iexact H14

set_option maxRecDepth 16384 in
/-- The result's store is of the whole block: the pieces cover the result's staging buffer. -/
theorem finishRun_cover (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (a14 : Vec F S40x200x160 .f32) (v4 : IVec S40x50x256 32) (v406 : IVec S40x50 32) (v409 : Elt F .i32)
    (y : S1x40x200x160.Idx) : ∃ pc ∈ (finishRun (F := F) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1, y ∈ pc.1.set := by
  unfold finishRun
  dsimp only
  exact View.cover_of_tiled _ S1x40x200x160.size (by rfl) y

end Cert.KernelIdeal.Body

end
-- ==== Proof.ChainKernelIdeal.lean ====
/-
  The twelve parts in sequence: each part run from the accumulator the part before left and the values the
  earlier parts handed on.
-/
import proofs.«408597_j16320875725026_3_alg».proof.Proof.PartsAKernelIdeal
import proofs.«408597_j16320875725026_3_alg».proof.Proof.PartsBKernelIdeal
import proofs.«408597_j16320875725026_3_alg».proof.Proof.PartsCKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Part 1's run in the sequence. -/
@[reducible] noncomputable def pr1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun1 (F := F) c i M2 h2 M3 h3 M4 h4 M5 h5 M6 h6 M7 h7 M8 h8 M9 h9 M10 h10 M11 h11 M12 h12 M13 h13 M14 h14 x2 x3 x4 x5 x6 x7 x8 x9 x10 x11 x12

/-- Part 2's run in the sequence. -/
@[reducible] noncomputable def pr2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun2 (F := F) c i M2 h2 M3 h3 M4 h4 M5 h5 M6 h6 M7 h7 M8 h8 M9 h9 M10 h10 M11 h11 M12 h12 M13 h13 M14 h14 x2 x3 x4 x5 x6 x7 x8 x9 x10 x11 x12 (pr1 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2

/-- Part 3's run in the sequence. -/
@[reducible] noncomputable def pr3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun3 (F := F) c i M2 h2 M3 h3 M4 h4 M5 h5 M6 h6 M7 h7 M8 h8 M9 h9 M10 h10 M11 h11 M12 h12 M13 h13 M14 h14 x2 x3 x4 x5 x6 x7 x8 x9 x10 x11 x12 (pr2 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 4's run in the sequence. -/
@[reducible] noncomputable def pr4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun4 (F := F) c i M2 h2 M3 h3 M4 h4 M5 h5 M6 h6 M7 h7 M8 h8 M9 h9 M10 h10 M11 h11 M12 h12 M13 h13 M14 h14 x2 x3 x4 x5 x6 x7 x8 x9 x10 x11 x12 (pr3 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 5's run in the sequence. -/
@[reducible] noncomputable def pr5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun5 (F := F) c i M2 h2 M3 h3 M4 h4 M5 h5 M6 h6 M7 h7 M8 h8 M9 h9 M10 h10 M11 h11 M12 h12 M13 h13 M14 h14 x2 x3 x4 x5 x6 x7 x8 x9 x10 x11 x12 (pr4 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 6's run in the sequence. -/
@[reducible] noncomputable def pr6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun6 (F := F) c i M2 h2 M3 h3 M4 h4 M5 h5 M6 h6 M7 h7 M8 h8 M9 h9 M10 h10 M11 h11 M12 h12 M13 h13 M14 h14 x2 x3 x4 x5 x6 x7 x8 x9 x10 x11 x12 (pr5 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 7's run in the sequence. -/
@[reducible] noncomputable def pr7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun7 (F := F) c i M2 h2 M3 h3 M4 h4 M5 h5 M6 h6 M7 h7 M8 h8 M9 h9 M10 h10 M11 h11 M12 h12 M13 h13 M14 h14 x2 x3 x4 x5 x6 x7 x8 x9 x10 x11 x12 (pr6 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 8's run in the sequence. -/
@[reducible] noncomputable def pr8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun8 (F := F) c i M2 h2 M3 h3 M4 h4 M5 h5 M6 h6 M7 h7 M8 h8 M9 h9 M10 h10 M11 h11 M12 h12 M13 h13 M14 h14 x2 x3 x4 x5 x6 x7 x8 x9 x10 x11 x12 (pr7 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 9's run in the sequence. -/
@[reducible] noncomputable def pr9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun9 (F := F) c i M2 h2 M3 h3 M4 h4 M5 h5 M6 h6 M7 h7 M8 h8 M9 h9 M10 h10 M11 h11 M12 h12 M13 h13 M14 h14 x2 x3 x4 x5 x6 x7 x8 x9 x10 x11 x12 (pr8 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 10's run in the sequence. -/
@[reducible] noncomputable def pr10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun10 (F := F) c i M2 h2 M3 h3 M4 h4 M5 h5 M6 h6 M7 h7 M8 h8 M9 h9 M10 h10 M11 h11 M12 h12 M13 h13 M14 h14 x2 x3 x4 x5 x6 x7 x8 x9 x10 x11 x12 (pr9 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 11's run in the sequence. -/
@[reducible] noncomputable def pr11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun11 (F := F) c i M2 h2 M3 h3 M4 h4 M5 h5 M6 h6 M7 h7 M8 h8 M9 h9 M10 h10 M11 h11 M12 h12 M13 h13 M14 h14 x2 x3 x4 x5 x6 x7 x8 x9 x10 x11 x12 (pr10 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 12's run in the sequence. -/
@[reducible] noncomputable def pr12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :=
  partRun12 (F := F) c i M2 h2 M3 h3 M4 h4 M5 h5 M6 h6 M7 h7 M8 h8 M9 h9 M10 h10 M11 h11 M12 h12 M13 h13 M14 h14 x2 x3 x4 x5 x6 x7 x8 x9 x10 x11 x12 (pr11 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.2

end Cert.KernelIdeal.Body

end
-- ==== Proof.BodyRunKernelIdeal.lean ====
/-
  The kernel body run at symbolic operands: its twelve printed parts in sequence, each by its own run over the
  accumulator the part before left, then the last four guarded updates, the bias, the maximum with zero and the
  result's store. What the store leaves in the result's staging buffer is a piece over the input buffers' contents
  alone: the witness below. The scratch ends at something.
-/
import proofs.«408597_j16320875725026_3_alg».proof.Proof.FinishKernelIdeal
import proofs.«408597_j16320875725026_3_alg».proof.Proof.ChainKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body is its top-level sequence continued by the result's load and store. -/
theorem enter (c : Dev nD) (i : grid0.Coords) (arg2 : Memref sig .tc .smem S80x4 .i32) (harg2 : arg2.IsWhole) (arg3 : Memref sig .tc .smem S80x4 .i32) (harg3 : arg3.IsWhole) (arg4 : Memref sig .tc .vmem S1x40x200 .i32) (harg4 : arg4.IsWhole) (arg5 : Memref sig .tc .vmem S1x40x200 .i32) (harg5 : arg5.IsWhole) (arg6 : Memref sig .tc .vmem S1x40x200 .i32) (harg6 : arg6.IsWhole) (arg7 : Memref sig .tc .vmem S1x40x200 .i32) (harg7 : arg7.IsWhole) (arg8 : Memref sig .tc .vmem S1024x160 .f32) (harg8 : arg8.IsWhole) (arg9 : Memref sig .tc .vmem S1024x160 .f32) (harg9 : arg9.IsWhole) (arg10 : Memref sig .tc .vmem S1024x160 .f32) (harg10 : arg10.IsWhole) (arg11 : Memref sig .tc .vmem S1024x160 .f32) (harg11 : arg11.IsWhole) (arg12 : Memref sig .tc .vmem S160 .f32) (harg12 : arg12.IsWhole) (arg13 : Memref sig .tc .vmem S1x40x200x160 .f32) (harg13 : arg13.IsWhole) (arg14 : Memref sig .tc .vmem S40x200x160 .f32) (harg14 : arg14.IsWhole) (E : Set ℕ) (K : PUnit → sProp 𝕄) :
    wp frame (wpE (defs₀ (F := F)) Variants.none c none) E (k0_part13_skel (F := F) i arg2 harg2 arg3 harg3 arg4 harg4 arg5 harg5 arg6 harg6 arg7 harg7 arg8 harg8 arg9 harg9 arg10 harg10 arg11 harg11 arg12 harg12 arg13 harg13 arg14 harg14)
        (fun r => wp frame (wpE (defs₀ (F := F)) Variants.none c none) E (storeOf (F := F) i arg2 harg2 arg3 harg3 arg4 harg4 arg5 harg5 arg6 harg6 arg7 harg7 arg8 harg8 arg9 harg9 arg10 harg10 arg11 harg11 arg12 harg12 arg13 harg13 arg14 harg14 r) K)
      ⊢ wp frame (wpE (defs₀ (F := F)) Variants.none c none) E (cc0_kernel (F := F) i arg2 harg2 arg3 harg3 arg4 harg4 arg5 harg5 arg6 harg6 arg7 harg7 arg8 harg8 arg9 harg9 arg10 harg10 arg11 harg11 arg12 harg12 arg13 harg13 arg14 harg14) K := by
  rw [cc0_eq, wp_bind]
  first | done | exact .rfl

set_option maxHeartbeats 0 in
/-- The twelve parts in sequence, for any continuation: from the inputs and the scratch at anything the top-level
    sequence runs to the sequence after its twelfth part, the accumulator at what the twelve parts leave. -/
theorem chainAll (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (E : Set ℕ) (K' : (Σ' (v436 : FVec F S40x200x160 .f32), FVec F S40x200x160 .f32) → sProp 𝕄) :
    iprop(ctxI c M2 M3 M4 M5 M6 M7 M8 M9 M10 M11 M12 x2 x3 x4 x5 x6 x7 x8 x9 x10 x11 x12 ∗ (∃ d, owns (c : Thread nD τ) M14 fullShare d)
        ∗ (iprop(ctxI c M2 M3 M4 M5 M6 M7 M8 M9 M10 M11 M12 x2 x3 x4 x5 x6 x7 x8 x9 x10 x11 x12 ∗ owns (c : Thread nD τ) M14 fullShare (pr12 (F := F) c i M2 h2 M3 h3 M4 h4 M5 h5 M6 h6 M7 h7 M8 h8 M9 h9 M10 h10 M11 h11 M12 h12 M13 h13 M14 h14 x2 x3 x4 x5 x6 x7 x8 x9 x10 x11 x12).1.1)
            -∗ wp frame (wpE (defs₀ (F := F)) Variants.none c none) E (rest12 i M2 h2 M3 h3 M4 h4 M5 h5 M6 h6 M7 h7 M8 h8 M9 h9 M10 h10 M11 h11 M12 h12 M13 h13 M14 h14 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2) K'))
      ⊢ wp frame (wpE (defs₀ (F := F)) Variants.none c none) E (k0_part13_skel i M2 h2 M3 h3 M4 h4 M5 h5 M6 h6 M7 h7 M8 h8 M9 h9 M10 h10 M11 h11 M12 h12 M13 h13 M14 h14) K' := by
  iintro ⟨Hc, H14, Hk⟩
  iapply (step1 (F := F) c i M2 h2 M3 h3 M4 h4 M5 h5 M6 h6 M7 h7 M8 h8 M9 h9 M10 h10 M11 h11 M12 h12 M13 h13 M14 h14 x2 x3 x4 x5 x6 x7 x8 x9 x10 x11 x12 E _)
  isplitl [Hc]; · iexact Hc
  isplitl [H14]; · iexact H14
  iintro ⟨Hc, H14⟩
  iapply (step2 (F := F) c i M2 h2 M3 h3 M4 h4 M5 h5 M6 h6 M7 h7 M8 h8 M9 h9 M10 h10 M11 h11 M12 h12 M13 h13 M14 h14 x2 x3 x4 x5 x6 x7 x8 x9 x10 x11 x12 (pr1 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2 E _)
  isplitl [Hc]; · iexact Hc
  isplitl [H14]; · iexact H14
  iintro ⟨Hc, H14⟩
  iapply (step3 (F := F) c i M2 h2 M3 h3 M4 h4 M5 h5 M6 h6 M7 h7 M8 h8 M9 h9 M10 h10 M11 h11 M12 h12 M13 h13 M14 h14 x2 x3 x4 x5 x6 x7 x8 x9 x10 x11 x12 (pr2 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.1 (pr2 c i M2 h2 M3 h3 M4 h4 M5 h5 M6 h6 M7 h7 M8 h8 M9 h9 M10 h10 M11 h11 M12 h12 M13 h13 M14 h14 x2 x3 x4 x5 x6 x7 x8 x9 x10 x11 x12).1.2.2 E _)
  isplitl [Hc]; · iexact Hc
  isplitl [H14]; · iexact H14
  iintro ⟨Hc, H14⟩
  iapply (step4 (F := F) c i M2 h2 M3 h3 M4 h4 M5 h5 M6 h6 M7 h7 M8 h8 M9 h9 M10 h10 M11 h11 M12 h12 M13 h13 M14 h14 x2 x3 x4 x5 x6 x7 x8 x9 x10 x11 x12 (pr3 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 c i M2 h2 M3 h3 M4 h4 M5 h5 M6 h6 M7 h7 M8 h8 M9 h9 M10 h10 M11 h11 M12 h12 M13 h13 M14 h14 x2 x3 x4 x5 x6 x7 x8 x9 x10 x11 x12).1.2.2.2.2 E _)
  isplitl [Hc]; · iexact Hc
  isplitl [H14]; · iexact H14
  iintro ⟨Hc, H14⟩
  iapply (step5 (F := F) c i M2 h2 M3 h3 M4 h4 M5 h5 M6 h6 M7 h7 M8 h8 M9 h9 M10 h10 M11 h11 M12 h12 M13 h13 M14 h14 x2 x3 x4 x5 x6 x7 x8 x9 x10 x11 x12 (pr4 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step6 (F := F) c i M2 h2 M3 h3 M4 h4 M5 h5 M6 h6 M7 h7 M8 h8 M9 h9 M10 h10 M11 h11 M12 h12 M13 h13 M14 h14 x2 x3 x4 x5 x6 x7 x8 x9 x10 x11 x12 (pr5 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.1 (pr5 c i M2 h2 M3 h3 M4 h4 M5 h5 M6 h6 M7 h7 M8 h8 M9 h9 M10 h10 M11 h11 M12 h12 M13 h13 M14 h14 x2 x3 x4 x5 x6 x7 x8 x9 x10 x11 x12).1.2.2 E _)
  isplitl [Hc]; · iexact Hc
  isplitl [H14]; · iexact H14
  iintro ⟨Hc, H14⟩
  iapply (step7 (F := F) c i M2 h2 M3 h3 M4 h4 M5 h5 M6 h6 M7 h7 M8 h8 M9 h9 M10 h10 M11 h11 M12 h12 M13 h13 M14 h14 x2 x3 x4 x5 x6 x7 x8 x9 x10 x11 x12 (pr6 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply (step8 (F := F) c i M2 h2 M3 h3 M4 h4 M5 h5 M6 h6 M7 h7 M8 h8 M9 h9 M10 h10 M11 h11 M12 h12 M13 h13 M14 h14 x2 x3 x4 x5 x6 x7 x8 x9 x10 x11 x12 (pr7 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step9 (F := F) c i M2 h2 M3 h3 M4 h4 M5 h5 M6 h6 M7 h7 M8 h8 M9 h9 M10 h10 M11 h11 M12 h12 M13 h13 M14 h14 x2 x3 x4 x5 x6 x7 x8 x9 x10 x11 x12 (pr8 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply (step10 (F := F) c i M2 h2 M3 h3 M4 h4 M5 h5 M6 h6 M7 h7 M8 h8 M9 h9 M10 h10 M11 h11 M12 h12 M13 h13 M14 h14 x2 x3 x4 x5 x6 x7 x8 x9 x10 x11 x12 (pr9 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step11 (F := F) c i M2 h2 M3 h3 M4 h4 M5 h5 M6 h6 M7 h7 M8 h8 M9 h9 M10 h10 M11 h11 M12 h12 M13 h13 M14 h14 x2 x3 x4 x5 x6 x7 x8 x9 x10 x11 x12 (pr10 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 E _)
  isplitl [Hc]; · iexact Hc
  isplitl [H14]; · iexact H14
  iintro ⟨Hc, H14⟩
  iapply (step12 (F := F) c i M2 h2 M3 h3 M4 h4 M5 h5 M6 h6 M7 h7 M8 h8 M9 h9 M10 h10 M11 h11 M12 h12 M13 h13 M14 h14 x2 x3 x4 x5 x6 x7 x8 x9 x10 x11 x12 (pr11 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 c i M2 h2 M3 h3 M4 h4 M5 h5 M6 h6 M7 h7 M8 h8 M9 h9 M10 h10 M11 h11 M12 h12 M13 h13 M14 h14 x2 x3 x4 x5 x6 x7 x8 x9 x10 x11 x12).1.2.2.2 E _)
  isplitl [Hc]; · iexact Hc
  isplitl [H14]; · iexact H14
  iintro ⟨Hc, H14⟩
  iapply Hk
  isplitl [Hc]; · iexact Hc
  iexact H14

set_option maxHeartbeats 0 in
/-- The pieces the body's store leaves in the result's staging memref, WITH the proof that on whole memrefs — the two
    bound tables at half share and the nine input buffers at their contents, the result's buffer and the scratch at
    anything — the body runs to its return handing the inputs back as they were, the result's buffer with the pieces
    written and the scratch at something. -/
noncomputable def kernelRun (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) :
    { L : List (View.Piece (Elt F) S1x40x200x160 .f32) //
      ∀ (E : Set ℕ) (K : PUnit → sProp 𝕄),
        iprop(ctxI c M2 M3 M4 M5 M6 M7 M8 M9 M10 M11 M12 x2 x3 x4 x5 x6 x7 x8 x9 x10 x11 x12
            ∗ (∃ d, owns (c : Thread nD τ) M13 fullShare d) ∗ (∃ d, owns (c : Thread nD τ) M14 fullShare d)
            ∗ (iprop(ctxI c M2 M3 M4 M5 M6 M7 M8 M9 M10 M11 M12 x2 x3 x4 x5 x6 x7 x8 x9 x10 x11 x12
                ∗ (∃ f, M13.view.loc (c : Thread nD τ) ↦[M13.view.set]{fullShare} M13.view.writes (Elt F) f L)
                ∗ (∃ d, owns (c : Thread nD τ) M14 fullShare d)) -∗ K ⟨⟩))
          ⊢ wp frame (wpE (defs₀ (F := F)) Variants.none c none) E
              (cc0_kernel i M2 h2 M3 h3 M4 h4 M5 h5 M6 h6 M7 h7 M8 h8 M9 h9 M10 h10 M11 h11 M12 h12 M13 h13 M14 h14) K } :=
  ⟨(finishRun (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2).1, fun E K => by
    iintro ⟨Hc, H13, H14, Hk⟩
    iapply (enter (F := F) c i M2 h2 M3 h3 M4 h4 M5 h5 M6 h6 M7 h7 M8 h8 M9 h9 M10 h10 M11 h11 M12 h12 M13 h13 M14 h14 E K)
    iapply (chainAll (F := F) c i M2 h2 M3 h3 M4 h4 M5 h5 M6 h6 M7 h7 M8 h8 M9 h9 M10 h10 M11 h11 M12 h12 M13 h13 M14 h14 x2 x3 x4 x5 x6 x7 x8 x9 x10 x11 x12 E _)
    isplitl [Hc]; · iexact Hc
    isplitl [H14]; · iexact H14
    iintro ⟨Hc, H14⟩
    iapply ((finishRun (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2).2 E K)
    isplitl [Hc]; · iexact Hc
    isplitl [H13]; · iexact H13
    isplitl [H14]; · iexact H14
    iexact Hk⟩

end Cert.KernelIdeal.Body

end
-- ==== Proof.BodyCoverKernelIdeal.lean ====
/-
  The body's one store into the result's staging buffer is of the whole block: the pieces the run leaves cover it.
-/
import proofs.«408597_j16320875725026_3_alg».proof.Proof.BodyRunKernelIdeal

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's one store covers the result's staging buffer. -/
theorem kernelRun_cover (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec F S80x4 .i32) (x3 : Vec F S80x4 .i32) (x4 : Vec F S1x40x200 .i32) (x5 : Vec F S1x40x200 .i32) (x6 : Vec F S1x40x200 .i32) (x7 : Vec F S1x40x200 .i32) (x8 : Vec F S1024x160 .f32) (x9 : Vec F S1024x160 .f32) (x10 : Vec F S1024x160 .f32) (x11 : Vec F S1024x160 .f32) (x12 : Vec F S160 .f32) (y : S1x40x200x160.Idx) :
    ∃ pc ∈ (kernelRun (F := F) c i M2 h2 M3 h3 M4 h4 M5 h5 M6 h6 M7 h7 M8 h8 M9 h9 M10 h10 M11 h11 M12 h12 M13 h13 M14 h14 x2 x3 x4 x5 x6 x7 x8 x9 x10 x11 x12).1, y ∈ pc.1.set :=
  finishRun_cover (F := F) c i M2 h2 M3 h3 M4 h4 M5 h5 M6 h6 M7 h7 M8 h8 M9 h9 M10 h10 M11 h11 M12 h12 M13 h13 M14 h14 x2 x3 x4 x5 x6 x7 x8 x9 x10 x11 x12 (pr12 c i M2 h2 M3 h3 M4 h4 M5 h5 M6 h6 M7 h7 M8 h8 M9 h9 M10 h10 M11 h11 M12 h12 M13 h13 M14 h14 x2 x3 x4 x5 x6 x7 x8 x9 x10 x11 x12).1.1 (pr1 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.1 (pr12 c i M2 h2 M3 h3 M4 h4 M5 h5 M6 h6 M7 h7 M8 h8 M9 h9 M10 h10 M11 h11 M12 h12 M13 h13 M14 h14 x2 x3 x4 x5 x6 x7 x8 x9 x10 x11 x12).1.2.2 y

end Cert.KernelIdeal.Body

end
-- ==== Proof.FrameRunKernelIdeal.lean ====
/-
  The kernel region's proof data and its launch.
-/
import proofs.«408597_j16320875725026_3_alg».proof.Proof.FrameMainKernelIdeal
import proofs.«408597_j16320875725026_3_alg».proof.Proof.BodyCoverKernelIdeal
import Idealize.ShloMosaic.Lib.Pipeline.Frame
import Idealize.ShloMosaic.Lib.Pipeline.FrameBody

noncomputable section

namespace Cert.KernelIdeal.Frm

open Cert.KernelIdeal Cert.KernelIdeal.Gen Cert.KernelIdeal.GenP Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at point `t`, from the input staging buffers at their blocks and the two bound tables at the
    contents the pipeline runs at: its witness is the pieces it leaves in the result's staging buffer. -/
abbrev K (c : Dev nD) (t : Fin (cfgA m).N) :=
  kernelRun (F := F) c ((cfgA m).grid.coords t) (Memref.whole main_v62) (Memref.isWhole_whole _) (Memref.whole main_v63) (Memref.isWhole_whole _)
    (spec0_0.stage ((cfgA m).slots t 0)) (hstage0_0 (((cfgA m).slots t 0).cast nbuf0_0))
    (spec0_1.stage ((cfgA m).slots t 1)) (hstage0_1 (((cfgA m).slots t 1).cast nbuf0_1))
    (spec0_2.stage ((cfgA m).slots t 2)) (hstage0_2 (((cfgA m).slots t 2).cast nbuf0_2))
    (spec0_3.stage ((cfgA m).slots t 3)) (hstage0_3 (((cfgA m).slots t 3).cast nbuf0_3))
    (spec0_4.stage ((cfgA m).slots t 4)) (hstage0_4 (((cfgA m).slots t 4).cast nbuf0_4))
    (spec0_5.stage ((cfgA m).slots t 5)) (hstage0_5 (((cfgA m).slots t 5).cast nbuf0_5))
    (spec0_6.stage ((cfgA m).slots t 6)) (hstage0_6 (((cfgA m).slots t 6).cast nbuf0_6))
    (spec0_7.stage ((cfgA m).slots t 7)) (hstage0_7 (((cfgA m).slots t 7).cast nbuf0_7))
    (spec0_8.stage ((cfgA m).slots t 8)) (hstage0_8 (((cfgA m).slots t 8).cast nbuf0_8))
    (spec0_9.stage ((cfgA m).slots t 9)) (hstage0_9 (((cfgA m).slots t 9).cast nbuf0_9))
    (Memref.whole cc0_scratch0) (Memref.isWhole_whole _)
    ((adm m 0).1 0) ((adm m 0).1 1)
    (iblk m c (0 : Fin 10) t) (iblk m c (1 : Fin 10) t) (iblk m c (2 : Fin 10) t) (iblk m c (3 : Fin 10) t) (iblk m c (4 : Fin 10) t) (iblk m c (5 : Fin 10) t) (iblk m c (6 : Fin 10) t) (iblk m c (7 : Fin 10) t) (iblk m c (8 : Fin 10) t)

/-- The proof data on core `c`: the arrays as the region finds them; after the body each input's buffer at its
    block and the result's at the canon of the pieces the run leaves; the invariant the scratch and the generator register at anything
    with the body's halves of the bound tables; nothing owed; full shares. -/
def dats (p : Fin 1) (c : Dev nD) : Dat τ (Elt F) Unit ℕ (UR sig nD τ) ℕ (Pipeline.pin (pcfgs (F := F)) (adm m) p) c where
  A w := V m c (Pipeline.arrRef (cfgA m).spec w)
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => iblk m c (7 : Fin 10) t
    | ⟨8, _⟩ => iblk m c (8 : Fin 10) t
    | ⟨9, _⟩ => View.canon (K m c t).1
  Φ _ := iprop(Pipeline.ΦA (cfgA m).spec c ∗ Pipeline.ΦT (pcfgs (F := F) 0).pre (adm m 0).1 c)
  q _ := fullShare
  owed _ := 0

/-- The proof data's arrays are the region-entry contents. -/
theorem A_eq (c : Dev nD) (w : Fin 10) : (dats m 0 c).A w = V m c (Pipeline.arrRef (cfgA m).spec w) := by
  dsimp only [dats]

theorem after0_0 (c : Dev nD) (t : Fin (cfgA m).N) : (dats m 0 c).after (0 : Fin 10) t = iblk m c (0 : Fin 10) t := by
  show (dats m 0 c).after (⟨0, by decide⟩ : Fin 10) t = _
  dsimp only [dats]
theorem after0_1 (c : Dev nD) (t : Fin (cfgA m).N) : (dats m 0 c).after (1 : Fin 10) t = iblk m c (1 : Fin 10) t := by
  show (dats m 0 c).after (⟨1, by decide⟩ : Fin 10) t = _
  dsimp only [dats]
theorem after0_2 (c : Dev nD) (t : Fin (cfgA m).N) : (dats m 0 c).after (2 : Fin 10) t = iblk m c (2 : Fin 10) t := by
  show (dats m 0 c).after (⟨2, by decide⟩ : Fin 10) t = _
  dsimp only [dats]
theorem after0_3 (c : Dev nD) (t : Fin (cfgA m).N) : (dats m 0 c).after (3 : Fin 10) t = iblk m c (3 : Fin 10) t := by
  show (dats m 0 c).after (⟨3, by decide⟩ : Fin 10) t = _
  dsimp only [dats]
theorem after0_4 (c : Dev nD) (t : Fin (cfgA m).N) : (dats m 0 c).after (4 : Fin 10) t = iblk m c (4 : Fin 10) t := by
  show (dats m 0 c).after (⟨4, by decide⟩ : Fin 10) t = _
  dsimp only [dats]
theorem after0_5 (c : Dev nD) (t : Fin (cfgA m).N) : (dats m 0 c).after (5 : Fin 10) t = iblk m c (5 : Fin 10) t := by
  show (dats m 0 c).after (⟨5, by decide⟩ : Fin 10) t = _
  dsimp only [dats]
theorem after0_6 (c : Dev nD) (t : Fin (cfgA m).N) : (dats m 0 c).after (6 : Fin 10) t = iblk m c (6 : Fin 10) t := by
  show (dats m 0 c).after (⟨6, by decide⟩ : Fin 10) t = _
  dsimp only [dats]
theorem after0_7 (c : Dev nD) (t : Fin (cfgA m).N) : (dats m 0 c).after (7 : Fin 10) t = iblk m c (7 : Fin 10) t := by
  show (dats m 0 c).after (⟨7, by decide⟩ : Fin 10) t = _
  dsimp only [dats]
theorem after0_8 (c : Dev nD) (t : Fin (cfgA m).N) : (dats m 0 c).after (8 : Fin 10) t = iblk m c (8 : Fin 10) t := by
  show (dats m 0 c).after (⟨8, by decide⟩ : Fin 10) t = _
  dsimp only [dats]
theorem after0_9 (c : Dev nD) (t : Fin (cfgA m).N) : (dats m 0 c).after (9 : Fin 10) t = View.canon (K m c t).1 := by
  show (dats m 0 c).after (⟨9, by decide⟩ : Fin 10) t = _
  dsimp only [dats]

set_option maxHeartbeats 2000000 in
/-- Input window 0's current staging buffer holds its block at every point, fetched there or not. -/
theorem before0_0_of {c : Dev nD} (dat : Dat τ (Elt F) Unit ℕ (UR sig nD τ) ℕ (cfgA m) c) (hA : dat.A (0 : Fin 10) = V m c (Pipeline.arrRef (cfgA m).spec (0 : Fin 10)))
    (hafter : ∀ t, dat.after (0 : Fin 10) t = iblk m c (0 : Fin 10) t) (t : Fin (cfgA m).N) (d) : dat.before (0 : Fin 10) t d = iblk m c (0 : Fin 10) t :=
  (dat.before_in_eq_fetched (0 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin (cfgA m).N) (d) : (dats m 0 c).before (0 : Fin 10) t d = iblk m c (0 : Fin 10) t :=
  before0_0_of m (dats m 0 c) (A_eq m c (0 : Fin 10)) (after0_0 m c) t d
set_option maxHeartbeats 2000000 in
/-- Input window 1's current staging buffer holds its block at every point, fetched there or not. -/
theorem before0_1_of {c : Dev nD} (dat : Dat τ (Elt F) Unit ℕ (UR sig nD τ) ℕ (cfgA m) c) (hA : dat.A (1 : Fin 10) = V m c (Pipeline.arrRef (cfgA m).spec (1 : Fin 10)))
    (hafter : ∀ t, dat.after (1 : Fin 10) t = iblk m c (1 : Fin 10) t) (t : Fin (cfgA m).N) (d) : dat.before (1 : Fin 10) t d = iblk m c (1 : Fin 10) t :=
  (dat.before_in_eq_fetched (1 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin (cfgA m).N) (d) : (dats m 0 c).before (1 : Fin 10) t d = iblk m c (1 : Fin 10) t :=
  before0_1_of m (dats m 0 c) (A_eq m c (1 : Fin 10)) (after0_1 m c) t d
set_option maxHeartbeats 2000000 in
/-- Input window 2's current staging buffer holds its block at every point, fetched there or not. -/
theorem before0_2_of {c : Dev nD} (dat : Dat τ (Elt F) Unit ℕ (UR sig nD τ) ℕ (cfgA m) c) (hA : dat.A (2 : Fin 10) = V m c (Pipeline.arrRef (cfgA m).spec (2 : Fin 10)))
    (hafter : ∀ t, dat.after (2 : Fin 10) t = iblk m c (2 : Fin 10) t) (t : Fin (cfgA m).N) (d) : dat.before (2 : Fin 10) t d = iblk m c (2 : Fin 10) t :=
  (dat.before_in_eq_fetched (2 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin (cfgA m).N) (d) : (dats m 0 c).before (2 : Fin 10) t d = iblk m c (2 : Fin 10) t :=
  before0_2_of m (dats m 0 c) (A_eq m c (2 : Fin 10)) (after0_2 m c) t d
set_option maxHeartbeats 2000000 in
/-- Input window 3's current staging buffer holds its block at every point, fetched there or not. -/
theorem before0_3_of {c : Dev nD} (dat : Dat τ (Elt F) Unit ℕ (UR sig nD τ) ℕ (cfgA m) c) (hA : dat.A (3 : Fin 10) = V m c (Pipeline.arrRef (cfgA m).spec (3 : Fin 10)))
    (hafter : ∀ t, dat.after (3 : Fin 10) t = iblk m c (3 : Fin 10) t) (t : Fin (cfgA m).N) (d) : dat.before (3 : Fin 10) t d = iblk m c (3 : Fin 10) t :=
  (dat.before_in_eq_fetched (3 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin (cfgA m).N) (d) : (dats m 0 c).before (3 : Fin 10) t d = iblk m c (3 : Fin 10) t :=
  before0_3_of m (dats m 0 c) (A_eq m c (3 : Fin 10)) (after0_3 m c) t d
set_option maxHeartbeats 2000000 in
/-- Input window 4's current staging buffer holds its block at every point, fetched there or not. -/
theorem before0_4_of {c : Dev nD} (dat : Dat τ (Elt F) Unit ℕ (UR sig nD τ) ℕ (cfgA m) c) (hA : dat.A (4 : Fin 10) = V m c (Pipeline.arrRef (cfgA m).spec (4 : Fin 10)))
    (hafter : ∀ t, dat.after (4 : Fin 10) t = iblk m c (4 : Fin 10) t) (t : Fin (cfgA m).N) (d) : dat.before (4 : Fin 10) t d = iblk m c (4 : Fin 10) t :=
  (dat.before_in_eq_fetched (4 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin (cfgA m).N) (d) : (dats m 0 c).before (4 : Fin 10) t d = iblk m c (4 : Fin 10) t :=
  before0_4_of m (dats m 0 c) (A_eq m c (4 : Fin 10)) (after0_4 m c) t d
set_option maxHeartbeats 2000000 in
/-- Input window 5's current staging buffer holds its block at every point, fetched there or not. -/
theorem before0_5_of {c : Dev nD} (dat : Dat τ (Elt F) Unit ℕ (UR sig nD τ) ℕ (cfgA m) c) (hA : dat.A (5 : Fin 10) = V m c (Pipeline.arrRef (cfgA m).spec (5 : Fin 10)))
    (hafter : ∀ t, dat.after (5 : Fin 10) t = iblk m c (5 : Fin 10) t) (t : Fin (cfgA m).N) (d) : dat.before (5 : Fin 10) t d = iblk m c (5 : Fin 10) t :=
  (dat.before_in_eq_fetched (5 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin (cfgA m).N) (d) : (dats m 0 c).before (5 : Fin 10) t d = iblk m c (5 : Fin 10) t :=
  before0_5_of m (dats m 0 c) (A_eq m c (5 : Fin 10)) (after0_5 m c) t d
set_option maxHeartbeats 2000000 in
/-- Input window 6's current staging buffer holds its block at every point, fetched there or not. -/
theorem before0_6_of {c : Dev nD} (dat : Dat τ (Elt F) Unit ℕ (UR sig nD τ) ℕ (cfgA m) c) (hA : dat.A (6 : Fin 10) = V m c (Pipeline.arrRef (cfgA m).spec (6 : Fin 10)))
    (hafter : ∀ t, dat.after (6 : Fin 10) t = iblk m c (6 : Fin 10) t) (t : Fin (cfgA m).N) (d) : dat.before (6 : Fin 10) t d = iblk m c (6 : Fin 10) t :=
  (dat.before_in_eq_fetched (6 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin (cfgA m).N) (d) : (dats m 0 c).before (6 : Fin 10) t d = iblk m c (6 : Fin 10) t :=
  before0_6_of m (dats m 0 c) (A_eq m c (6 : Fin 10)) (after0_6 m c) t d
set_option maxHeartbeats 2000000 in
/-- Input window 7's current staging buffer holds its block at every point, fetched there or not. -/
theorem before0_7_of {c : Dev nD} (dat : Dat τ (Elt F) Unit ℕ (UR sig nD τ) ℕ (cfgA m) c) (hA : dat.A (7 : Fin 10) = V m c (Pipeline.arrRef (cfgA m).spec (7 : Fin 10)))
    (hafter : ∀ t, dat.after (7 : Fin 10) t = iblk m c (7 : Fin 10) t) (t : Fin (cfgA m).N) (d) : dat.before (7 : Fin 10) t d = iblk m c (7 : Fin 10) t :=
  (dat.before_in_eq_fetched (7 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin (cfgA m).N) (d) : (dats m 0 c).before (7 : Fin 10) t d = iblk m c (7 : Fin 10) t :=
  before0_7_of m (dats m 0 c) (A_eq m c (7 : Fin 10)) (after0_7 m c) t d
set_option maxHeartbeats 2000000 in
/-- Input window 8's current staging buffer holds its block at every point, fetched there or not. -/
theorem before0_8_of {c : Dev nD} (dat : Dat τ (Elt F) Unit ℕ (UR sig nD τ) ℕ (cfgA m) c) (hA : dat.A (8 : Fin 10) = V m c (Pipeline.arrRef (cfgA m).spec (8 : Fin 10)))
    (hafter : ∀ t, dat.after (8 : Fin 10) t = iblk m c (8 : Fin 10) t) (t : Fin (cfgA m).N) (d) : dat.before (8 : Fin 10) t d = iblk m c (8 : Fin 10) t :=
  (dat.before_in_eq_fetched (8 : Fin 10) rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin (cfgA m).N) (d) : (dats m 0 c).before (8 : Fin 10) t d = iblk m c (8 : Fin 10) t :=
  before0_8_of m (dats m 0 c) (A_eq m c (8 : Fin 10)) (after0_8 m c) t d

omit [FloatOps F] in
/-- A buffer held at contents `X` is its whole memref owned at `X`, and back. -/
theorem owns_whole_intro (c : Dev nD) (b : Ref sig .tc) {q : PosShare TreeShare} {X : b.ty.Contents (Elt F)} :
    (((c : Thread nD τ).loc b) ↦{q} X : sProp 𝕄) ⊢ owns (c : Thread nD τ) (Memref.whole b) q X := by
  rw [owns_whole_eq]; iintro H; iexists X; isplitr; · ipureintro; rfl
  iexact H
omit [FloatOps F] in
theorem owns_whole_elim (c : Dev nD) (b : Ref sig .tc) {q : PosShare TreeShare} {X : b.ty.Contents (Elt F)} :
    owns (c : Thread nD τ) (Memref.whole b) q X ⊢ (((c : Thread nD τ).loc b) ↦{q} X : sProp 𝕄) := by
  rw [owns_whole_eq]; iintro ⟨%f, %h, H⟩; subst h; iexact H

/-- The pieces the run leaves cover the result's staging buffer. -/
theorem K_cover (c : Dev nD) (t : Fin (cfgA m).N) (y : S1x40x200x160.Idx) : ∃ pc ∈ (K m c t).1, y ∈ pc.1.set :=
  kernelRun_cover (F := F) c _ _ _ _ _ _ _ _ _ _ _ _ _ _ _ _ _ _ _ _ _ _ _ _ _ _ _ _ _ _ _ _ _ _ _ _ _ _ y

omit [FloatOps F] in
theorem bigSep_2 (Φ : Fin 2 → sProp 𝕄) : bigSep Finset.univ Φ = iprop(Φ 0 ∗ Φ 1) := bigSep_univ_eq_bigSepL [0, 1] (by decide) (by decide) Φ

/-- What the body is called with at point `t`, the windows one by one, -/
def bodyPre (c : Dev nD) (t : Fin (cfgA m).N) : sProp 𝕄 :=
  iprop((dats m 0 c).Φ t.castSucc ∗ (dats m 0 c).owesAt () t.castSucc
    ∗ (∃ d, owns (c : Thread nD τ) (((cfgA m).win (0 : Fin 10)).stage ((cfgA m).slots t (0 : Fin 10))) fullShare ((dats m 0 c).before (0 : Fin 10) t d))
    ∗ (∃ d, owns (c : Thread nD τ) (((cfgA m).win (1 : Fin 10)).stage ((cfgA m).slots t (1 : Fin 10))) fullShare ((dats m 0 c).before (1 : Fin 10) t d))
    ∗ (∃ d, owns (c : Thread nD τ) (((cfgA m).win (2 : Fin 10)).stage ((cfgA m).slots t (2 : Fin 10))) fullShare ((dats m 0 c).before (2 : Fin 10) t d))
    ∗ (∃ d, owns (c : Thread nD τ) (((cfgA m).win (3 : Fin 10)).stage ((cfgA m).slots t (3 : Fin 10))) fullShare ((dats m 0 c).before (3 : Fin 10) t d))
    ∗ (∃ d, owns (c : Thread nD τ) (((cfgA m).win (4 : Fin 10)).stage ((cfgA m).slots t (4 : Fin 10))) fullShare ((dats m 0 c).before (4 : Fin 10) t d))
    ∗ (∃ d, owns (c : Thread nD τ) (((cfgA m).win (5 : Fin 10)).stage ((cfgA m).slots t (5 : Fin 10))) fullShare ((dats m 0 c).before (5 : Fin 10) t d))
    ∗ (∃ d, owns (c : Thread nD τ) (((cfgA m).win (6 : Fin 10)).stage ((cfgA m).slots t (6 : Fin 10))) fullShare ((dats m 0 c).before (6 : Fin 10) t d))
    ∗ (∃ d, owns (c : Thread nD τ) (((cfgA m).win (7 : Fin 10)).stage ((cfgA m).slots t (7 : Fin 10))) fullShare ((dats m 0 c).before (7 : Fin 10) t d))
    ∗ (∃ d, owns (c : Thread nD τ) (((cfgA m).win (8 : Fin 10)).stage ((cfgA m).slots t (8 : Fin 10))) fullShare ((dats m 0 c).before (8 : Fin 10) t d))
    ∗ (∃ d, owns (c : Thread nD τ) (((cfgA m).win (9 : Fin 10)).stage ((cfgA m).slots t (9 : Fin 10))) fullShare ((dats m 0 c).before (9 : Fin 10) t d)))

/-- and what it returns. -/
def bodyPost (c : Dev nD) (t : Fin (cfgA m).N) : sProp 𝕄 :=
  iprop((dats m 0 c).Φ t.succ ∗ (dats m 0 c).owesAt () t.succ
    ∗ owns (c : Thread nD τ) (((cfgA m).win (0 : Fin 10)).stage ((cfgA m).slots t (0 : Fin 10))) fullShare ((dats m 0 c).after (0 : Fin 10) t)
    ∗ owns (c : Thread nD τ) (((cfgA m).win (1 : Fin 10)).stage ((cfgA m).slots t (1 : Fin 10))) fullShare ((dats m 0 c).after (1 : Fin 10) t)
    ∗ owns (c : Thread nD τ) (((cfgA m).win (2 : Fin 10)).stage ((cfgA m).slots t (2 : Fin 10))) fullShare ((dats m 0 c).after (2 : Fin 10) t)
    ∗ owns (c : Thread nD τ) (((cfgA m).win (3 : Fin 10)).stage ((cfgA m).slots t (3 : Fin 10))) fullShare ((dats m 0 c).after (3 : Fin 10) t)
    ∗ owns (c : Thread nD τ) (((cfgA m).win (4 : Fin 10)).stage ((cfgA m).slots t (4 : Fin 10))) fullShare ((dats m 0 c).after (4 : Fin 10) t)
    ∗ owns (c : Thread nD τ) (((cfgA m).win (5 : Fin 10)).stage ((cfgA m).slots t (5 : Fin 10))) fullShare ((dats m 0 c).after (5 : Fin 10) t)
    ∗ owns (c : Thread nD τ) (((cfgA m).win (6 : Fin 10)).stage ((cfgA m).slots t (6 : Fin 10))) fullShare ((dats m 0 c).after (6 : Fin 10) t)
    ∗ owns (c : Thread nD τ) (((cfgA m).win (7 : Fin 10)).stage ((cfgA m).slots t (7 : Fin 10))) fullShare ((dats m 0 c).after (7 : Fin 10) t)
    ∗ owns (c : Thread nD τ) (((cfgA m).win (8 : Fin 10)).stage ((cfgA m).slots t (8 : Fin 10))) fullShare ((dats m 0 c).after (8 : Fin 10) t)
    ∗ owns (c : Thread nD τ) (((cfgA m).win (9 : Fin 10)).stage ((cfgA m).slots t (9 : Fin 10))) fullShare ((dats m 0 c).after (9 : Fin 10) t))

set_option maxHeartbeats 4000000 in
set_option backward.isDefEq.respectTransparency.types false in
/-- The body at any point: the inputs' buffers hold their blocks, the invariant yields the scratch and the tables'
    halves, so the run applies; the result's buffer ends at the canon of the pieces it leaves. -/
theorem sound_body (c : Dev nD) (t : Fin (cfgA m).N) :
    bodyPre m c t ⊢ wp frame (wpE (defs₀ (F := F)) Variants.none c none) Set.univ
      (defs₀ (F := F) .tc (cfgA m).body ((cfgA m).bodyArgs t ((cfgA m).slots t))) (fun _ => bodyPost m c t) := by
  unfold bodyPre bodyPost
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9,
    show (dats m 0 c).Φ t.castSucc = iprop(Pipeline.ΦA (cfgA m).spec c ∗ Pipeline.ΦT (pcfgs (F := F) 0).pre (adm m 0).1 c) from rfl]
  unfold Pipeline.ΦA Pipeline.ΦT Pipeline.prefHeld
  rw [scopedRest0_eq, bigSep_2]
  iintro ⟨⟨⟨⟨%fs, Hs⟩, Hreg⟩, Ht0, Ht1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((K m c t).2 Set.univ _)
  isplitl [Ht0 Ht1 H0 H1 H2 H3 H4 H5 H6 H7 H8]
  · isplitl [Ht0]; · iapply (owns_whole_intro (F := F) c main_v62); iexact Ht0
    isplitl [Ht1]; · iapply (owns_whole_intro (F := F) c main_v63); iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [Hs]; · iexists fs; iapply (owns_whole_intro (F := F) c cc0_scratch0); iexact Hs
  iintro ⟨⟨Ht0, Ht1, H0, H1, H2, H3, H4, H5, H6, H7, H8⟩, ⟨%f9, H9⟩, ⟨%ds, Hs⟩⟩
  isplitl [Hs Hreg Ht0 Ht1]
  · isplitl [Hs Hreg]
    · isplitl [Hs]
      · iexists ds; iapply (owns_whole_elim (F := F) c cc0_scratch0); iexact Hs
      · iexact Hreg
    · isplitl [Ht0]
      · iapply (owns_whole_elim (F := F) c main_v62); iexact Ht0
      · iapply (owns_whole_elim (F := F) c main_v63); iexact Ht1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns
  iexists _; isplitr
  swap; · iexact H9
  ipureintro
  exact View.read_writes_eq_canon _ _ _ (K_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- At the compiled mesh, for any values, from any memory with zero counters: every weakly fair execution of @main on the
    TensorCores terminates, and every final state has every array of the pipeline at what the library computes from the
    proof data and every other unscoped buffer — the two bound tables too — as the region found it. -/
theorem run_main : θ_run defs (onTc (τ := τ) (main (F := F))) (s₀ m ρ)
    (Pipeline.FramePost (Pipeline.pin (pcfgs (F := F)) (adm m)) (dats m) 0 (V m)) :=
  Pipeline.θ_run_frameP pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := hpf m) (hΦ := fun _ _ => rfl)

end Cert.KernelIdeal.Frm

end
-- ==== Proof.GeomKernelIdeal.lean ====
/-
  Where the pipeline's blocks sit at a grid point, and how the result's blocks make up the result.

  The grid has 4 × 5 = 20 points; point t is batch t / 5 and row tile t % 5. At point t the four index tensors
  [4, 200, 200] and the result [4, 200, 200, 160] are read and written through the block of batch t / 5, rows
  40 (t % 5) … 40 (t % 5) + 39, every column (and every feature); the four projected tables [1024, 160] and the
  bias [160] are read whole at every point. A block's coordinate on an axis is its block index times the block's
  extent plus the coordinate inside the block; the block indices are read off the printed index maps once over the
  twenty points.

  The twenty blocks of the result tile it (row r of batch b lies in the block of point 5 b + r / 40) and every
  point writes its block back, so if each point writes back its block of one array, the result ends holding that
  array.

  Everything is stated at any admissible contents of the two bound tables (no index map reads a table), and then
  at the contents the tables have when the region is entered.
-/
import proofs.«408597_j16320875725026_3_alg».proof.Proof.AdmKernelIdeal
import Idealize.ShloMosaic.Lib.Pipeline.Value
import Idealize.ShloMosaic.Lib.ValueIdx

set_option maxRecDepth 4096

noncomputable section

namespace Cert.KernelIdeal.Frm

open Cert.KernelIdeal Cert.KernelIdeal.Gen Cert.KernelIdeal.GenP

open Idealize.ShloMosaic Idealize.ShloMosaic.TcCoe Idealize.ShloMosaic.ValueIdx
open Idealize.SL.Sem
open Idealize.ShloMosaic.Pipeline (Dat)

variable {F : FTy → Type} [FloatOps F]

/-- The printed index maps, decided over the twenty grid points: point `t` is batch `t / 5`, row tile `t % 5`; the
    index tensors' and the result's blocks sit at block index `(t / 5, t % 5, 0 …)`, the tables and the bias at `0`. -/
theorem idx_facts : ∀ t : Fin grid0.N,
    (cc0_transform_0 (grid0.coords t) 0 = t.val / 5 ∧ cc0_transform_0 (grid0.coords t) 1 = t.val % 5 ∧ cc0_transform_0 (grid0.coords t) 2 = 0)
    ∧ (cc0_transform_1 (grid0.coords t) 0 = t.val / 5 ∧ cc0_transform_1 (grid0.coords t) 1 = t.val % 5 ∧ cc0_transform_1 (grid0.coords t) 2 = 0)
    ∧ (cc0_transform_2 (grid0.coords t) 0 = t.val / 5 ∧ cc0_transform_2 (grid0.coords t) 1 = t.val % 5 ∧ cc0_transform_2 (grid0.coords t) 2 = 0)
    ∧ (cc0_transform_3 (grid0.coords t) 0 = t.val / 5 ∧ cc0_transform_3 (grid0.coords t) 1 = t.val % 5 ∧ cc0_transform_3 (grid0.coords t) 2 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = 0 ∧ cc0_transform_6 (grid0.coords t) 1 = 0)
    ∧ (cc0_transform_7 (grid0.coords t) 0 = 0 ∧ cc0_transform_7 (grid0.coords t) 1 = 0)
    ∧ (cc0_transform_8 (grid0.coords t) 0 = 0)
    ∧ (cc0_transform_9 (grid0.coords t) 0 = t.val / 5 ∧ cc0_transform_9 (grid0.coords t) 1 = t.val % 5 ∧ cc0_transform_9 (grid0.coords t) 2 = 0 ∧ cc0_transform_9 (grid0.coords t) 3 = 0) := by
  decide +kernel

/-- Grid point `t`'s batch: `t / 5`. -/
def batchOf (t : Fin 20) : Fin 4 := ⟨t.val / 5, by have := t.isLt; omega⟩
/-- Grid point `t`'s row tile: `t % 5`. -/
def tileOf (t : Fin 20) : Fin 5 := ⟨t.val % 5, Nat.mod_lt _ (by decide)⟩
/-- Row `l` of grid point `t`'s tile, as a row of the array: `40 (t % 5) + l`. -/
def rowOf (t : Fin 20) (l : Fin 40) : Fin 200 := ⟨40 * (t.val % 5) + l.val, by have := l.isLt; omega⟩

/-- The value of a point's batch. -/
theorem batchOf_val (t : Fin 20) : (batchOf t).val = t.val / 5 := rfl
/-- The value of a point's row tile. -/
theorem tileOf_val (t : Fin 20) : (tileOf t).val = t.val % 5 := rfl
/-- The value of a tile row as a row of the array. -/
theorem rowOf_val (t : Fin 20) (l : Fin 40) : (rowOf t l).val = 40 * (t.val % 5) + l.val := rfl
/-- A point is five times its batch plus its row tile. -/
theorem point_eq (t : Fin 20) : t.val = 5 * (batchOf t).val + (tileOf t).val := by
  show t.val = 5 * (t.val / 5) + t.val % 5
  omega

variable (a : (pcfg0 (F := F)).Adm)

/-! ## Block reads at any admissible contents of the tables -/

/-- Window 0 (index tensor 0) at point `t`: rows `40 (t % 5) …` of batch `t / 5`. -/
theorem read_blk0 (t : Fin (cfg0 a).N) (X : IVec S4x200x200 32) (l : Fin 40) (q : Fin 200) :
    (((cfg0 a).win 0).blk t).view.read (Elt F) X (ix3 0 l q) = X (ix3 (batchOf t) (rowOf t l) q) := by
  show X ((((cfg0 a).win 0).blk t).view.emb (ix3 0 l q)) = _
  obtain ⟨e0, e1, e2⟩ := (idx_facts t).1
  refine congrArg X (funext fun ax => Fin.ext ?_)
  match ax with
  | ⟨0, _⟩ => show cc0_transform_0 (grid0.coords t) 0 * 1 + 1 * 0 = t.val / 5; omega
  | ⟨1, _⟩ => show cc0_transform_0 (grid0.coords t) 1 * 40 + 1 * l.val = 40 * (t.val % 5) + l.val; omega
  | ⟨2, _⟩ => show cc0_transform_0 (grid0.coords t) 2 * 200 + 1 * q.val = q.val; omega

/-- Window 1 (index tensor 1) at point `t`: rows `40 (t % 5) …` of batch `t / 5`. -/
theorem read_blk1 (t : Fin (cfg0 a).N) (X : IVec S4x200x200 32) (l : Fin 40) (q : Fin 200) :
    (((cfg0 a).win 1).blk t).view.read (Elt F) X (ix3 0 l q) = X (ix3 (batchOf t) (rowOf t l) q) := by
  show X ((((cfg0 a).win 1).blk t).view.emb (ix3 0 l q)) = _
  obtain ⟨e0, e1, e2⟩ := (idx_facts t).2.1
  refine congrArg X (funext fun ax => Fin.ext ?_)
  match ax with
  | ⟨0, _⟩ => show cc0_transform_1 (grid0.coords t) 0 * 1 + 1 * 0 = t.val / 5; omega
  | ⟨1, _⟩ => show cc0_transform_1 (grid0.coords t) 1 * 40 + 1 * l.val = 40 * (t.val % 5) + l.val; omega
  | ⟨2, _⟩ => show cc0_transform_1 (grid0.coords t) 2 * 200 + 1 * q.val = q.val; omega

/-- Window 2 (index tensor 2) at point `t`: rows `40 (t % 5) …` of batch `t / 5`. -/
theorem read_blk2 (t : Fin (cfg0 a).N) (X : IVec S4x200x200 32) (l : Fin 40) (q : Fin 200) :
    (((cfg0 a).win 2).blk t).view.read (Elt F) X (ix3 0 l q) = X (ix3 (batchOf t) (rowOf t l) q) := by
  show X ((((cfg0 a).win 2).blk t).view.emb (ix3 0 l q)) = _
  obtain ⟨e0, e1, e2⟩ := (idx_facts t).2.2.1
  refine congrArg X (funext fun ax => Fin.ext ?_)
  match ax with
  | ⟨0, _⟩ => show cc0_transform_2 (grid0.coords t) 0 * 1 + 1 * 0 = t.val / 5; omega
  | ⟨1, _⟩ => show cc0_transform_2 (grid0.coords t) 1 * 40 + 1 * l.val = 40 * (t.val % 5) + l.val; omega
  | ⟨2, _⟩ => show cc0_transform_2 (grid0.coords t) 2 * 200 + 1 * q.val = q.val; omega

/-- Window 3 (index tensor 3) at point `t`: rows `40 (t % 5) …` of batch `t / 5`. -/
theorem read_blk3 (t : Fin (cfg0 a).N) (X : IVec S4x200x200 32) (l : Fin 40) (q : Fin 200) :
    (((cfg0 a).win 3).blk t).view.read (Elt F) X (ix3 0 l q) = X (ix3 (batchOf t) (rowOf t l) q) := by
  show X ((((cfg0 a).win 3).blk t).view.emb (ix3 0 l q)) = _
  obtain ⟨e0, e1, e2⟩ := (idx_facts t).2.2.2.1
  refine congrArg X (funext fun ax => Fin.ext ?_)
  match ax with
  | ⟨0, _⟩ => show cc0_transform_3 (grid0.coords t) 0 * 1 + 1 * 0 = t.val / 5; omega
  | ⟨1, _⟩ => show cc0_transform_3 (grid0.coords t) 1 * 40 + 1 * l.val = 40 * (t.val % 5) + l.val; omega
  | ⟨2, _⟩ => show cc0_transform_3 (grid0.coords t) 2 * 200 + 1 * q.val = q.val; omega

/-- Window 4 (projected table 0) at any point: the whole table. -/
theorem read_blk4 (t : Fin (cfg0 a).N) (X : FVec F S1024x160 .f32) (r : Fin 1024) (h : Fin 160) :
    (((cfg0 a).win 4).blk t).view.read (Elt F) X (ix2 r h) = X (ix2 r h) := by
  show X ((((cfg0 a).win 4).blk t).view.emb (ix2 r h)) = _
  obtain ⟨e0, e1⟩ := (idx_facts t).2.2.2.2.1
  refine congrArg X (funext fun ax => Fin.ext ?_)
  match ax with
  | ⟨0, _⟩ => show cc0_transform_4 (grid0.coords t) 0 * 1024 + 1 * r.val = r.val; omega
  | ⟨1, _⟩ => show cc0_transform_4 (grid0.coords t) 1 * 160 + 1 * h.val = h.val; omega

/-- Window 5 (projected table 1) at any point: the whole table. -/
theorem read_blk5 (t : Fin (cfg0 a).N) (X : FVec F S1024x160 .f32) (r : Fin 1024) (h : Fin 160) :
    (((cfg0 a).win 5).blk t).view.read (Elt F) X (ix2 r h) = X (ix2 r h) := by
  show X ((((cfg0 a).win 5).blk t).view.emb (ix2 r h)) = _
  obtain ⟨e0, e1⟩ := (idx_facts t).2.2.2.2.2.1
  refine congrArg X (funext fun ax => Fin.ext ?_)
  match ax with
  | ⟨0, _⟩ => show cc0_transform_5 (grid0.coords t) 0 * 1024 + 1 * r.val = r.val; omega
  | ⟨1, _⟩ => show cc0_transform_5 (grid0.coords t) 1 * 160 + 1 * h.val = h.val; omega

/-- Window 6 (projected table 2) at any point: the whole table. -/
theorem read_blk6 (t : Fin (cfg0 a).N) (X : FVec F S1024x160 .f32) (r : Fin 1024) (h : Fin 160) :
    (((cfg0 a).win 6).blk t).view.read (Elt F) X (ix2 r h) = X (ix2 r h) := by
  show X ((((cfg0 a).win 6).blk t).view.emb (ix2 r h)) = _
  obtain ⟨e0, e1⟩ := (idx_facts t).2.2.2.2.2.2.1
  refine congrArg X (funext fun ax => Fin.ext ?_)
  match ax with
  | ⟨0, _⟩ => show cc0_transform_6 (grid0.coords t) 0 * 1024 + 1 * r.val = r.val; omega
  | ⟨1, _⟩ => show cc0_transform_6 (grid0.coords t) 1 * 160 + 1 * h.val = h.val; omega

/-- Window 7 (projected table 3) at any point: the whole table. -/
theorem read_blk7 (t : Fin (cfg0 a).N) (X : FVec F S1024x160 .f32) (r : Fin 1024) (h : Fin 160) :
    (((cfg0 a).win 7).blk t).view.read (Elt F) X (ix2 r h) = X (ix2 r h) := by
  show X ((((cfg0 a).win 7).blk t).view.emb (ix2 r h)) = _
  obtain ⟨e0, e1⟩ := (idx_facts t).2.2.2.2.2.2.2.1
  refine congrArg X (funext fun ax => Fin.ext ?_)
  match ax with
  | ⟨0, _⟩ => show cc0_transform_7 (grid0.coords t) 0 * 1024 + 1 * r.val = r.val; omega
  | ⟨1, _⟩ => show cc0_transform_7 (grid0.coords t) 1 * 160 + 1 * h.val = h.val; omega

/-- Window 8 (the bias) at any point: the whole vector. -/
theorem read_blk8 (t : Fin (cfg0 a).N) (X : FVec F S160 .f32) (h : Fin 160) :
    (((cfg0 a).win 8).blk t).view.read (Elt F) X (ix1 h) = X (ix1 h) := by
  show X ((((cfg0 a).win 8).blk t).view.emb (ix1 h)) = _
  have e0 := (idx_facts t).2.2.2.2.2.2.2.2.1
  refine congrArg X (funext fun ax => Fin.ext ?_)
  match ax with
  | ⟨0, _⟩ => show cc0_transform_8 (grid0.coords t) 0 * 160 + 1 * h.val = h.val; omega

/-- Window 9 (the result) at point `t`: rows `40 (t % 5) …` of batch `t / 5`. -/
theorem read_blk9 (t : Fin (cfg0 a).N) (X : FVec F S4x200x200x160 .f32) (l : Fin 40) (q : Fin 200) (h : Fin 160) :
    (((cfg0 a).win 9).blk t).view.read (Elt F) X (ix4 0 l q h) = X (ix4 (batchOf t) (rowOf t l) q h) := by
  show X ((((cfg0 a).win 9).blk t).view.emb (ix4 0 l q h)) = _
  obtain ⟨e0, e1, e2, e3⟩ := (idx_facts t).2.2.2.2.2.2.2.2.2
  refine congrArg X (funext fun ax => Fin.ext ?_)
  match ax with
  | ⟨0, _⟩ => show cc0_transform_9 (grid0.coords t) 0 * 1 + 1 * 0 = t.val / 5; omega
  | ⟨1, _⟩ => show cc0_transform_9 (grid0.coords t) 1 * 40 + 1 * l.val = 40 * (t.val % 5) + l.val; omega
  | ⟨2, _⟩ => show cc0_transform_9 (grid0.coords t) 2 * 200 + 1 * q.val = q.val; omega
  | ⟨3, _⟩ => show cc0_transform_9 (grid0.coords t) 3 * 160 + 1 * h.val = h.val; omega

/-! ## The result's blocks tile the array -/

/-- Between consecutive grid points the result's block index changes (decided over the grid). -/
theorem idx9_moves : ∀ t : Fin grid0.N, t.val + 1 = grid0.N
    ∨ ∃ h : t.val + 1 < grid0.N, cc0_transform_9 (grid0.coords ⟨t.val + 1, h⟩) ≠ cc0_transform_9 (grid0.coords t) := by
  decide +kernel

/-- So every grid point writes its block of the result back. -/
theorem flush9 (t : Fin (cfg0 a).N) : ((cfg0 a).win 9).flush t = true :=
  (Pipeline.Window.flush_out ((cfg0 a).win 9) rfl t).mpr (idx9_moves t)

/-- An index of the result is in point `t`'s block iff each coordinate is in the block's range on its axis. -/
theorem mem_blk9 (t : Fin (cfg0 a).N) (i : S4x200x200x160.Idx) :
    i ∈ (((cfg0 a).win 9).blk t).view.set ↔ ∀ ax : Fin 4, cc0_transform_9 (grid0.coords t) ax * S1x40x200x160.size ax ≤ (i ax).val
      ∧ (i ax).val < cc0_transform_9 (grid0.coords t) ax * S1x40x200x160.size ax + S1x40x200x160.size ax := by
  exact (iff_of_eq (congrArg (fun S => i ∈ S) (View.set_slice_whole main_v64 (((cfg0 a).win 9).rect t)))).trans
    Rect.mem_set_unit

/-- The grid point whose block holds row `r` of batch `b`: `5 b + r / 40`. -/
def pointOf (b r : Nat) (hb : b < 4) (hr : r < 200) : Fin 20 := ⟨5 * b + r / 40, by omega⟩

/-- Every index of the result is in the block of the point of its batch and row tile. -/
theorem cover9 (i : S4x200x200x160.Idx) :
    ∃ t : Fin (cfg0 a).N, ((cfg0 a).win 9).flush t = true ∧ i ∈ (((cfg0 a).win 9).blk t).view.set := by
  have h0 : (i 0).val < 4 := (i 0).isLt
  have h1 : (i 1).val < 200 := (i 1).isLt
  have h2 : (i 2).val < 200 := (i 2).isLt
  have h3 : (i 3).val < 160 := (i 3).isLt
  refine ⟨pointOf (i 0).val (i 1).val h0 h1, flush9 a _, (mem_blk9 a (pointOf (i 0).val (i 1).val h0 h1) i).mpr ?_⟩
  obtain ⟨e0, e1, e2, e3⟩ := (idx_facts (pointOf (i 0).val (i 1).val h0 h1)).2.2.2.2.2.2.2.2.2
  have hp : (pointOf (i 0).val (i 1).val h0 h1).val = 5 * (i 0).val + (i 1).val / 40 := rfl
  intro ax
  match ax with
  | ⟨0, _⟩ =>
    show cc0_transform_9 (grid0.coords (pointOf (i 0).val (i 1).val h0 h1)) 0 * 1 ≤ (i 0).val
      ∧ (i 0).val < cc0_transform_9 (grid0.coords (pointOf (i 0).val (i 1).val h0 h1)) 0 * 1 + 1
    omega
  | ⟨1, _⟩ =>
    show cc0_transform_9 (grid0.coords (pointOf (i 0).val (i 1).val h0 h1)) 1 * 40 ≤ (i 1).val
      ∧ (i 1).val < cc0_transform_9 (grid0.coords (pointOf (i 0).val (i 1).val h0 h1)) 1 * 40 + 40
    omega
  | ⟨2, _⟩ =>
    show cc0_transform_9 (grid0.coords (pointOf (i 0).val (i 1).val h0 h1)) 2 * 200 ≤ (i 2).val
      ∧ (i 2).val < cc0_transform_9 (grid0.coords (pointOf (i 0).val (i 1).val h0 h1)) 2 * 200 + 200
    omega
  | ⟨3, _⟩ =>
    show cc0_transform_9 (grid0.coords (pointOf (i 0).val (i 1).val h0 h1)) 3 * 160 ≤ (i 3).val
      ∧ (i 3).val < cc0_transform_9 (grid0.coords (pointOf (i 0).val (i 1).val h0 h1)) 3 * 160 + 160
    omega

/-- BLOCKS TO THE ARRAY: if every grid point writes back its block of one array `Gf`, the result's array ends
    holding `Gf`. -/
theorem arr9_eq_of_flushed (c : Dev nD) (dat : Pipeline.Dat τ (Elt F) Unit ℕ (UR sig nD τ) ℕ (cfg0 a) c)
    (Gf : FVec F S4x200x200x160 .f32)
    (hG : ∀ t : Fin (cfg0 a).N, dat.flushed 9 t = (((cfg0 a).win 9).blk t).view.read (Elt F) Gf) :
    dat.arrAt 9 (cfg0 a).N = Gf :=
  dat.arrAt_eq_of_cover 9 Gf (fun t _ => hG t) (cover9 a)

/-! ## At the tables' contents when the region is entered -/

variable (m : (ℓ : Loc nD τ sig) → Buf (Elt F) ℓ)

/-- Window 0 at the entry contents of the tables. -/
theorem read_blk0_A (t : Fin (cfgA m).N) (X : IVec S4x200x200 32) (l : Fin 40) (q : Fin 200) :
    (((cfgA m).win 0).blk t).view.read (Elt F) X (ix3 0 l q) = X (ix3 (batchOf t) (rowOf t l) q) :=
  read_blk0 (adm m 0) t X l q

/-- Window 1 at the entry contents of the tables. -/
theorem read_blk1_A (t : Fin (cfgA m).N) (X : IVec S4x200x200 32) (l : Fin 40) (q : Fin 200) :
    (((cfgA m).win 1).blk t).view.read (Elt F) X (ix3 0 l q) = X (ix3 (batchOf t) (rowOf t l) q) :=
  read_blk1 (adm m 0) t X l q

/-- Window 2 at the entry contents of the tables. -/
theorem read_blk2_A (t : Fin (cfgA m).N) (X : IVec S4x200x200 32) (l : Fin 40) (q : Fin 200) :
    (((cfgA m).win 2).blk t).view.read (Elt F) X (ix3 0 l q) = X (ix3 (batchOf t) (rowOf t l) q) :=
  read_blk2 (adm m 0) t X l q

/-- Window 3 at the entry contents of the tables. -/
theorem read_blk3_A (t : Fin (cfgA m).N) (X : IVec S4x200x200 32) (l : Fin 40) (q : Fin 200) :
    (((cfgA m).win 3).blk t).view.read (Elt F) X (ix3 0 l q) = X (ix3 (batchOf t) (rowOf t l) q) :=
  read_blk3 (adm m 0) t X l q

/-- Window 4 at the entry contents of the tables. -/
theorem read_blk4_A (t : Fin (cfgA m).N) (X : FVec F S1024x160 .f32) (r : Fin 1024) (h : Fin 160) :
    (((cfgA m).win 4).blk t).view.read (Elt F) X (ix2 r h) = X (ix2 r h) :=
  read_blk4 (adm m 0) t X r h

/-- Window 5 at the entry contents of the tables. -/
theorem read_blk5_A (t : Fin (cfgA m).N) (X : FVec F S1024x160 .f32) (r : Fin 1024) (h : Fin 160) :
    (((cfgA m).win 5).blk t).view.read (Elt F) X (ix2 r h) = X (ix2 r h) :=
  read_blk5 (adm m 0) t X r h

/-- Window 6 at the entry contents of the tables. -/
theorem read_blk6_A (t : Fin (cfgA m).N) (X : FVec F S1024x160 .f32) (r : Fin 1024) (h : Fin 160) :
    (((cfgA m).win 6).blk t).view.read (Elt F) X (ix2 r h) = X (ix2 r h) :=
  read_blk6 (adm m 0) t X r h

/-- Window 7 at the entry contents of the tables. -/
theorem read_blk7_A (t : Fin (cfgA m).N) (X : FVec F S1024x160 .f32) (r : Fin 1024) (h : Fin 160) :
    (((cfgA m).win 7).blk t).view.read (Elt F) X (ix2 r h) = X (ix2 r h) :=
  read_blk7 (adm m 0) t X r h

/-- Window 8 at the entry contents of the tables. -/
theorem read_blk8_A (t : Fin (cfgA m).N) (X : FVec F S160 .f32) (h : Fin 160) :
    (((cfgA m).win 8).blk t).view.read (Elt F) X (ix1 h) = X (ix1 h) :=
  read_blk8 (adm m 0) t X h

/-- Window 9 at the entry contents of the tables. -/
theorem read_blk9_A (t : Fin (cfgA m).N) (X : FVec F S4x200x200x160 .f32) (l : Fin 40) (q : Fin 200) (h : Fin 160) :
    (((cfgA m).win 9).blk t).view.read (Elt F) X (ix4 0 l q h) = X (ix4 (batchOf t) (rowOf t l) q h) :=
  read_blk9 (adm m 0) t X l q h

/-- BLOCKS TO THE ARRAY at the entry contents of the tables. -/
theorem arr9_eq_of_flushed_A (c : Dev nD) (dat : Pipeline.Dat τ (Elt F) Unit ℕ (UR sig nD τ) ℕ (cfgA m) c)
    (Gf : FVec F S4x200x200x160 .f32)
    (hG : ∀ t : Fin (cfgA m).N, dat.flushed 9 t = (((cfgA m).win 9).blk t).view.read (Elt F) Gf) :
    dat.arrAt 9 (cfgA m).N = Gf :=
  arr9_eq_of_flushed (adm m 0) c dat Gf hG

/-- Every grid point writes the result's block back, at the entry contents of the tables. -/
theorem flush9_A (t : Fin (cfgA m).N) : ((cfgA m).win 9).flush t = true := flush9 (adm m 0) t

end Cert.KernelIdeal.Frm

end
-- ==== Proof.ValueOuter.lean ====
/-
  The result array from what each grid point leaves in the result's staging buffer.

  At grid point t the body leaves a list of pieces in the result's staging buffer; their canon is a block
  [1, 40, 200, 160]. If at every point that block, read at (0, l, q, h), is one array Gf at batch t / 5, row
  40 (t % 5) + l, column q, feature h, then the result's array after the run is Gf: a point writes back exactly
  what the body left (the window is not cut at the array's end), that is its block of Gf, and the twenty blocks
  tile the array.
-/
import proofs.«408597_j16320875725026_3_alg».proof.Proof.FrameRunKernelIdeal
import proofs.«408597_j16320875725026_3_alg».proof.Proof.GeomKernelIdeal

set_option maxRecDepth 4096

noncomputable section

namespace Cert.KernelIdeal.Frm

open Cert.KernelIdeal Cert.KernelIdeal.Gen Cert.KernelIdeal.GenP

open Idealize.ShloMosaic Idealize.ShloMosaic.TcCoe Idealize.ShloMosaic.ValueIdx
open Idealize.SL.Sem
open Idealize.ShloMosaic.Pipeline (Dat)

variable (mI : (ℓ : Loc nD τ sig) → Buf (Elt Ideal) ℓ)

/-- WHAT POINT `t` WRITES BACK is its block of `Gf`, when the body's pieces at every point read as `Gf` there. -/
theorem flushed9_eq (c : Dev nD) (Gf : FVec Ideal S4x200x200x160 .f32)
    (hent : ∀ (t : Fin (cfgA mI).N) (l : Fin 40) (q : Fin 200) (h : Fin 160),
      View.canon (K mI c t).1 (ix4 (0 : Fin 1) l q h) = Gf (ix4 (batchOf t) (rowOf t l) q h))
    (t : Fin (cfgA mI).N) :
    (dats mI 0 c).flushed (9 : Fin 10) t = (((cfgA mI).win (9 : Fin 10)).blk t).view.read (Elt Ideal) Gf := by
  show ((cfgA mI).win (9 : Fin 10)).cut ((cfgA mI).grid.coords t) ((dats mI 0 c).after (9 : Fin 10) t) = _
  rw [after0_9]
  refine funext fun (j : S1x40x200x160.Idx) => ?_
  obtain ⟨z, l, q, h, rfl⟩ : ∃ (z : Fin 1) (l : Fin 40) (q : Fin 200) (h : Fin 160), j = ix4 z l q h :=
    ⟨j 0, j 1, j 2, j 3, eq_ix4 j⟩
  obtain rfl : z = 0 := Subsingleton.elim _ _
  exact (hent t l q h).trans (read_blk9_A mI t Gf l q h).symm

/-- THE RESULT ARRAY after the run is `Gf`, when the body's pieces at every point read as `Gf` there. -/
theorem final_of_entry (c : Dev nD) (Gf : FVec Ideal S4x200x200x160 .f32)
    (hent : ∀ (t : Fin (cfgA mI).N) (l : Fin 40) (q : Fin 200) (h : Fin 160),
      View.canon (K mI c t).1 (ix4 (0 : Fin 1) l q h) = Gf (ix4 (batchOf t) (rowOf t l) q h)) :
    (dats mI 0 c).arrAt (9 : Fin 10) (cfgA mI).N = Gf :=
  arr9_eq_of_flushed_A mI c (dats mI 0 c) Gf (flushed9_eq mI c Gf hent)

end Cert.KernelIdeal.Frm

end
-- ==== Proof.LibReduceBounds.lean ====
/-
  Signed minimum and maximum of 32-bit words (any width), folded over a list and reduced over axes of an array:
  the folded minimum is at most its start value and at most every element met, the folded maximum at least
  (general lemmas: nothing here depends on a program).
-/
import Idealize.ShloMosaic.Lib.ValueIdx
import Idealize.ShloMosaic.PureOps.Reduce

noncomputable section

namespace Cert.Lib.ReduceBounds

open Idealize.ShloMosaic

section Words
variable {w : Nat}

/-- The signed minimum of two words, read signed, is the minimum of the two integers. -/
theorem toInt_minsi (a b : BitVec w) : (IntOp.minsi a b).toInt = min a.toInt b.toInt := by
  unfold IntOp.minsi
  by_cases hs : a.slt b
  · rw [if_pos hs]; rw [BitVec.slt_iff_toInt_lt] at hs; omega
  · rw [if_neg hs]; rw [BitVec.slt_iff_toInt_lt] at hs; omega

/-- The signed maximum of two words, read signed, is the maximum of the two integers. -/
theorem toInt_maxsi (a b : BitVec w) : (IntOp.maxsi a b).toInt = max a.toInt b.toInt := by
  unfold IntOp.maxsi
  by_cases hs : b.slt a
  · rw [if_pos hs]; rw [BitVec.slt_iff_toInt_lt] at hs; omega
  · rw [if_neg hs]; rw [BitVec.slt_iff_toInt_lt] at hs; omega

/-- A left fold by the signed minimum ends at most at its start value and at most at every element of the list. -/
theorem foldl_minsi_le {ι : Type} (f : ι → BitVec w) :
    ∀ (l : List ι) (a : BitVec w), (l.foldl (fun r n => IntOp.minsi r (f n)) a).toInt ≤ a.toInt
      ∧ ∀ n ∈ l, (l.foldl (fun r n => IntOp.minsi r (f n)) a).toInt ≤ (f n).toInt
  | [], a => ⟨le_refl _, fun _ hn => nomatch hn⟩
  | x :: l, a => by
    obtain ⟨h1, h2⟩ := foldl_minsi_le f l (IntOp.minsi a (f x))
    rw [toInt_minsi] at h1
    refine ⟨by rw [List.foldl_cons]; omega, fun n hn => ?_⟩
    rw [List.foldl_cons]
    rcases List.mem_cons.1 hn with rfl | hn
    · omega
    · exact h2 n hn

/-- A left fold by the signed maximum ends at least at its start value and at least at every element of the list. -/
theorem le_foldl_maxsi {ι : Type} (f : ι → BitVec w) :
    ∀ (l : List ι) (a : BitVec w), a.toInt ≤ (l.foldl (fun r n => IntOp.maxsi r (f n)) a).toInt
      ∧ ∀ n ∈ l, (f n).toInt ≤ (l.foldl (fun r n => IntOp.maxsi r (f n)) a).toInt
  | [], a => ⟨le_refl _, fun _ hn => nomatch hn⟩
  | x :: l, a => by
    obtain ⟨h1, h2⟩ := le_foldl_maxsi f l (IntOp.maxsi a (f x))
    rw [toInt_maxsi] at h1
    refine ⟨by rw [List.foldl_cons]; omega, fun n hn => ?_⟩
    rw [List.foldl_cons]
    rcases List.mem_cons.1 hn with rfl | hn
    · omega
    · exact h2 n hn

end Words

section Reduce
variable {s t u : Shape} {axes : List (Fin s.rank)} {w : Nat}

/-- A reduction by the signed minimum, at result index `j`, is at most every operand element that reduces into `j`. -/
theorem reduce_minsi_le (x : s.Idx → BitVec w) (init : u.Idx → BitVec w) (h : s.ReducesTo axes t) (hu : 0 < u.numel)
    (j : t.Idx) (i : s.Idx) (hi : h.drop i = j) : (Host.reduce IntOp.minsi x init h hu j).toInt ≤ (x i).toInt := by
  rw [Host.reduce_eq_foldl]
  refine (foldl_minsi_le x _ _).2 i ?_
  rw [List.mem_filter]
  exact ⟨List.mem_map.2 ⟨s.rowMajor i, List.mem_finRange _, Equiv.symm_apply_apply _ _⟩, by simp [hi]⟩

/-- A reduction by the signed maximum, at result index `j`, is at least every operand element that reduces into `j`. -/
theorem le_reduce_maxsi (x : s.Idx → BitVec w) (init : u.Idx → BitVec w) (h : s.ReducesTo axes t) (hu : 0 < u.numel)
    (j : t.Idx) (i : s.Idx) (hi : h.drop i = j) : (x i).toInt ≤ (Host.reduce IntOp.maxsi x init h hu j).toInt := by
  rw [Host.reduce_eq_foldl]
  refine (le_foldl_maxsi x _ _).2 i ?_
  rw [List.mem_filter]
  exact ⟨List.mem_map.2 ⟨s.rowMajor i, List.mem_finRange _, Equiv.symm_apply_apply _ _⟩, by simp [hi]⟩

end Reduce

end Cert.Lib.ReduceBounds

end
-- ==== Proof.HostValsB.lean ====
/-
  The two bound tables at the kernel region's entry.

  Before the region the host side cuts each of the four clipped index tensors [4, 200, 200] into 5 × 4 tiles of
  40 × 50 per batch, takes every tile's signed minimum and maximum, and stacks the four tables of minima (and the
  four of maxima) as the four columns of an [80, 4] array whose row 20 b + 4 i + c belongs to batch b, row tile i,
  column chunk c. What is proved: at the region's entry the first table is, at a tile's row and a tensor's column,
  at most every element of that tensor's tile, and the second at least. Only "a minimum is below, a maximum above,
  every element met" is used; the exact values are never needed.

  The entry contents are nine stretches of host operations applied in order to the launch memory: the last stretch
  applied to the contents the first eight leave. The last stretch is read in two steps, each stated for any contents
  before it: its first twenty operations make the per-tensor tables, its last twelve stack them.
-/
import proofs.«408597_j16320875725026_3_alg».proof.Proof.HostVKernelIdeal
import proofs.«408597_j16320875725026_3_alg».proof.Proof.LibGatherConcat
import proofs.«408597_j16320875725026_3_alg».proof.Proof.LibReduceBounds
import Idealize.ShloMosaic.Lib.Pipeline.Value

set_option maxRecDepth 4096

noncomputable section

namespace Cert.KernelIdeal.Frm

open Cert.KernelIdeal Cert.KernelIdeal.Gen Cert.KernelIdeal.GenP

open Idealize.ShloMosaic Idealize.ShloMosaic.TcCoe Idealize.ShloMosaic.ValueIdx
open Idealize.SL.Sem

variable {F : FTy → Type} [FloatOps F]

/-! ## The last host stretch, in two steps over any contents -/

/-- After the first twenty operations of the last host stretch, `%41` holds the minimum over each tile of `%36`. -/
theorem take20_v41 (W : Valuation τ sig (Elt F)) :
    (StableHlo.after ((hostOps0_8 (F := F)).take 20) W (Proc.devRef .tc main_v41) : S4x5x4.Idx → BitVec 32)
      = Host.reduce IntOp.minsi (shapeCast S4x5x40x4x50 (W (Proc.devRef .tc main_v36)) Facts₀.shapeCasts_S4x200x200_S4x5x40x4x50)
          (constantI S_ 32 2147483647#32) Facts₀.reducesTo_S4x5x40x4x50_S4x5x4_d2_4 Facts₀.h_S_ := by
  dsimp only [hostOps0_8, List.take]
  after_results
  rfl

/-- After the first twenty operations of the last host stretch, `%42` holds the maximum over each tile of `%36`. -/
theorem take20_v42 (W : Valuation τ sig (Elt F)) :
    (StableHlo.after ((hostOps0_8 (F := F)).take 20) W (Proc.devRef .tc main_v42) : S4x5x4.Idx → BitVec 32)
      = Host.reduce IntOp.maxsi (shapeCast S4x5x40x4x50 (W (Proc.devRef .tc main_v36)) Facts₀.shapeCasts_S4x200x200_S4x5x40x4x50)
          (constantI S_ 32 2147483648#32) Facts₀.reducesTo_S4x5x40x4x50_S4x5x4_d2_4 Facts₀.h_S_ := by
  dsimp only [hostOps0_8, List.take]
  after_results
  rfl

/-- After the first twenty operations of the last host stretch, `%44` holds the minimum over each tile of `%37`. -/
theorem take20_v44 (W : Valuation τ sig (Elt F)) :
    (StableHlo.after ((hostOps0_8 (F := F)).take 20) W (Proc.devRef .tc main_v44) : S4x5x4.Idx → BitVec 32)
      = Host.reduce IntOp.minsi (shapeCast S4x5x40x4x50 (W (Proc.devRef .tc main_v37)) Facts₀.shapeCasts_S4x200x200_S4x5x40x4x50)
          (constantI S_ 32 2147483647#32) Facts₀.reducesTo_S4x5x40x4x50_S4x5x4_d2_4 Facts₀.h_S_ := by
  dsimp only [hostOps0_8, List.take]
  after_results
  rfl

/-- After the first twenty operations of the last host stretch, `%45` holds the maximum over each tile of `%37`. -/
theorem take20_v45 (W : Valuation τ sig (Elt F)) :
    (StableHlo.after ((hostOps0_8 (F := F)).take 20) W (Proc.devRef .tc main_v45) : S4x5x4.Idx → BitVec 32)
      = Host.reduce IntOp.maxsi (shapeCast S4x5x40x4x50 (W (Proc.devRef .tc main_v37)) Facts₀.shapeCasts_S4x200x200_S4x5x40x4x50)
          (constantI S_ 32 2147483648#32) Facts₀.reducesTo_S4x5x40x4x50_S4x5x4_d2_4 Facts₀.h_S_ := by
  dsimp only [hostOps0_8, List.take]
  after_results
  rfl

/-- After the first twenty operations of the last host stretch, `%47` holds the minimum over each tile of `%38`. -/
theorem take20_v47 (W : Valuation τ sig (Elt F)) :
    (StableHlo.after ((hostOps0_8 (F := F)).take 20) W (Proc.devRef .tc main_v47) : S4x5x4.Idx → BitVec 32)
      = Host.reduce IntOp.minsi (shapeCast S4x5x40x4x50 (W (Proc.devRef .tc main_v38)) Facts₀.shapeCasts_S4x200x200_S4x5x40x4x50)
          (constantI S_ 32 2147483647#32) Facts₀.reducesTo_S4x5x40x4x50_S4x5x4_d2_4 Facts₀.h_S_ := by
  dsimp only [hostOps0_8, List.take]
  after_results
  rfl

/-- After the first twenty operations of the last host stretch, `%48` holds the maximum over each tile of `%38`. -/
theorem take20_v48 (W : Valuation τ sig (Elt F)) :
    (StableHlo.after ((hostOps0_8 (F := F)).take 20) W (Proc.devRef .tc main_v48) : S4x5x4.Idx → BitVec 32)
      = Host.reduce IntOp.maxsi (shapeCast S4x5x40x4x50 (W (Proc.devRef .tc main_v38)) Facts₀.shapeCasts_S4x200x200_S4x5x40x4x50)
          (constantI S_ 32 2147483648#32) Facts₀.reducesTo_S4x5x40x4x50_S4x5x4_d2_4 Facts₀.h_S_ := by
  dsimp only [hostOps0_8, List.take]
  after_results
  rfl

/-- After the first twenty operations of the last host stretch, `%50` holds the minimum over each tile of `%39`. -/
theorem take20_v50 (W : Valuation τ sig (Elt F)) :
    (StableHlo.after ((hostOps0_8 (F := F)).take 20) W (Proc.devRef .tc main_v50) : S4x5x4.Idx → BitVec 32)
      = Host.reduce IntOp.minsi (shapeCast S4x5x40x4x50 (W (Proc.devRef .tc main_v39)) Facts₀.shapeCasts_S4x200x200_S4x5x40x4x50)
          (constantI S_ 32 2147483647#32) Facts₀.reducesTo_S4x5x40x4x50_S4x5x4_d2_4 Facts₀.h_S_ := by
  dsimp only [hostOps0_8, List.take]
  after_results
  rfl

/-- After the first twenty operations of the last host stretch, `%51` holds the maximum over each tile of `%39`. -/
theorem take20_v51 (W : Valuation τ sig (Elt F)) :
    (StableHlo.after ((hostOps0_8 (F := F)).take 20) W (Proc.devRef .tc main_v51) : S4x5x4.Idx → BitVec 32)
      = Host.reduce IntOp.maxsi (shapeCast S4x5x40x4x50 (W (Proc.devRef .tc main_v39)) Facts₀.shapeCasts_S4x200x200_S4x5x40x4x50)
          (constantI S_ 32 2147483648#32) Facts₀.reducesTo_S4x5x40x4x50_S4x5x4_d2_4 Facts₀.h_S_ := by
  dsimp only [hostOps0_8, List.take]
  after_results
  rfl

/-- The last twelve operations of the last host stretch stack the four tables `%41`, `%44`, `%47`, `%50` into `%62`. -/
theorem drop20_v62 (W : Valuation τ sig (Elt F)) :
    (StableHlo.after ((hostOps0_8 (F := F)).drop 20) W (Proc.devRef .tc main_v62) : S80x4.Idx → BitVec 32)
      = shapeCast S80x4 (concatenate S4x5x4x4 3
          [⟨S4x5x4x1, broadcastInDim S4x5x4x1 ![0, 1, 2] Facts₀.bcast_S4x5x4_S4x5x4x1_0_1_2 (W (Proc.devRef .tc main_v41))⟩,
           ⟨S4x5x4x1, broadcastInDim S4x5x4x1 ![0, 1, 2] Facts₀.bcast_S4x5x4_S4x5x4x1_0_1_2 (W (Proc.devRef .tc main_v44))⟩,
           ⟨S4x5x4x1, broadcastInDim S4x5x4x1 ![0, 1, 2] Facts₀.bcast_S4x5x4_S4x5x4x1_0_1_2 (W (Proc.devRef .tc main_v47))⟩,
           ⟨S4x5x4x1, broadcastInDim S4x5x4x1 ![0, 1, 2] Facts₀.bcast_S4x5x4_S4x5x4x1_0_1_2 (W (Proc.devRef .tc main_v50))⟩]
          Facts₀.concatenates_S4x5x4x1_S4x5x4x1_S4x5x4x1_S4x5x4x1_S4x5x4x4_d3) Facts₀.shapeCasts_S4x5x4x4_S80x4 := by
  dsimp only [hostOps0_8, List.drop]
  after_results
  rfl

/-- The last twelve operations of the last host stretch stack the four tables `%42`, `%45`, `%48`, `%51` into `%63`. -/
theorem drop20_v63 (W : Valuation τ sig (Elt F)) :
    (StableHlo.after ((hostOps0_8 (F := F)).drop 20) W (Proc.devRef .tc main_v63) : S80x4.Idx → BitVec 32)
      = shapeCast S80x4 (concatenate S4x5x4x4 3
          [⟨S4x5x4x1, broadcastInDim S4x5x4x1 ![0, 1, 2] Facts₀.bcast_S4x5x4_S4x5x4x1_0_1_2 (W (Proc.devRef .tc main_v42))⟩,
           ⟨S4x5x4x1, broadcastInDim S4x5x4x1 ![0, 1, 2] Facts₀.bcast_S4x5x4_S4x5x4x1_0_1_2 (W (Proc.devRef .tc main_v45))⟩,
           ⟨S4x5x4x1, broadcastInDim S4x5x4x1 ![0, 1, 2] Facts₀.bcast_S4x5x4_S4x5x4x1_0_1_2 (W (Proc.devRef .tc main_v48))⟩,
           ⟨S4x5x4x1, broadcastInDim S4x5x4x1 ![0, 1, 2] Facts₀.bcast_S4x5x4_S4x5x4x1_0_1_2 (W (Proc.devRef .tc main_v51))⟩]
          Facts₀.concatenates_S4x5x4x1_S4x5x4x1_S4x5x4x1_S4x5x4x1_S4x5x4x4_d3) Facts₀.shapeCasts_S4x5x4x4_S80x4 := by
  dsimp only [hostOps0_8, List.drop]
  after_results
  rfl

/-- The last host stretch as its first twenty operations followed by its last twelve. -/
theorem after8_split (W : Valuation τ sig (Elt F)) :
    StableHlo.after (hostOps0_8 (F := F)) W
      = StableHlo.after ((hostOps0_8 (F := F)).drop 20) (StableHlo.after ((hostOps0_8 (F := F)).take 20) W) := by
  rw [← StableHlo.after_append, List.take_append_drop]

/-- The last host stretch does not write `%36`. -/
theorem after8_v36 (W : Valuation τ sig (Elt F)) :
    StableHlo.after (hostOps0_8 (F := F)) W (Proc.devRef .tc main_v36) = W (Proc.devRef .tc main_v36) := by
  dsimp only [hostOps0_8]
  after_results

/-- The last host stretch does not write `%37`. -/
theorem after8_v37 (W : Valuation τ sig (Elt F)) :
    StableHlo.after (hostOps0_8 (F := F)) W (Proc.devRef .tc main_v37) = W (Proc.devRef .tc main_v37) := by
  dsimp only [hostOps0_8]
  after_results

/-- The last host stretch does not write `%38`. -/
theorem after8_v38 (W : Valuation τ sig (Elt F)) :
    StableHlo.after (hostOps0_8 (F := F)) W (Proc.devRef .tc main_v38) = W (Proc.devRef .tc main_v38) := by
  dsimp only [hostOps0_8]
  after_results

/-- The last host stretch does not write `%39`. -/
theorem after8_v39 (W : Valuation τ sig (Elt F)) :
    StableHlo.after (hostOps0_8 (F := F)) W (Proc.devRef .tc main_v39) = W (Proc.devRef .tc main_v39) := by
  dsimp only [hostOps0_8]
  after_results

/-! ## A bound table as a function of the four index tensors -/

/-- One bound table from the four index tensors: each tensor `[4, 200, 200]` is cut into `5 × 4` tiles of
    `40 × 50` per batch, every tile is reduced by `f` from `init`, and the four `[4, 5, 4]` tables are laid side by
    side as the four columns of an `[80, 4]` array (row `20 b + 4 i + c` for batch `b`, row tile `i`, column
    chunk `c`). -/
def tabOf (f : BitVec 32 → BitVec 32 → BitVec 32) (init : BitVec 32) (X0 X1 X2 X3 : IVec S4x200x200 32) : IVec S80x4 32 :=
  shapeCast S80x4 (concatenate S4x5x4x4 3
    [⟨S4x5x4x1, broadcastInDim S4x5x4x1 ![0, 1, 2] Facts₀.bcast_S4x5x4_S4x5x4x1_0_1_2
        (Host.reduce f (shapeCast S4x5x40x4x50 X0 Facts₀.shapeCasts_S4x200x200_S4x5x40x4x50) (constantI S_ 32 init) Facts₀.reducesTo_S4x5x40x4x50_S4x5x4_d2_4 Facts₀.h_S_)⟩,
     ⟨S4x5x4x1, broadcastInDim S4x5x4x1 ![0, 1, 2] Facts₀.bcast_S4x5x4_S4x5x4x1_0_1_2
        (Host.reduce f (shapeCast S4x5x40x4x50 X1 Facts₀.shapeCasts_S4x200x200_S4x5x40x4x50) (constantI S_ 32 init) Facts₀.reducesTo_S4x5x40x4x50_S4x5x4_d2_4 Facts₀.h_S_)⟩,
     ⟨S4x5x4x1, broadcastInDim S4x5x4x1 ![0, 1, 2] Facts₀.bcast_S4x5x4_S4x5x4x1_0_1_2
        (Host.reduce f (shapeCast S4x5x40x4x50 X2 Facts₀.shapeCasts_S4x200x200_S4x5x40x4x50) (constantI S_ 32 init) Facts₀.reducesTo_S4x5x40x4x50_S4x5x4_d2_4 Facts₀.h_S_)⟩,
     ⟨S4x5x4x1, broadcastInDim S4x5x4x1 ![0, 1, 2] Facts₀.bcast_S4x5x4_S4x5x4x1_0_1_2
        (Host.reduce f (shapeCast S4x5x40x4x50 X3 Facts₀.shapeCasts_S4x200x200_S4x5x40x4x50) (constantI S_ 32 init) Facts₀.reducesTo_S4x5x40x4x50_S4x5x4_d2_4 Facts₀.h_S_)⟩]
    Facts₀.concatenates_S4x5x4x1_S4x5x4x1_S4x5x4x1_S4x5x4x1_S4x5x4x4_d3) Facts₀.shapeCasts_S4x5x4x4_S80x4

/-- After the last host stretch `%62` is the table of tile minima of `%36 … %39`. -/
theorem after8_v62 (W : Valuation τ sig (Elt F)) :
    (StableHlo.after (hostOps0_8 (F := F)) W (Proc.devRef .tc main_v62) : S80x4.Idx → BitVec 32)
      = tabOf IntOp.minsi 2147483647#32 (W (Proc.devRef .tc main_v36)) (W (Proc.devRef .tc main_v37))
          (W (Proc.devRef .tc main_v38)) (W (Proc.devRef .tc main_v39)) := by
  rw [after8_split, drop20_v62, take20_v41, take20_v44, take20_v47, take20_v50]
  rfl

/-- After the last host stretch `%63` is the table of tile maxima of `%36 … %39`. -/
theorem after8_v63 (W : Valuation τ sig (Elt F)) :
    (StableHlo.after (hostOps0_8 (F := F)) W (Proc.devRef .tc main_v63) : S80x4.Idx → BitVec 32)
      = tabOf IntOp.maxsi 2147483648#32 (W (Proc.devRef .tc main_v36)) (W (Proc.devRef .tc main_v37))
          (W (Proc.devRef .tc main_v38)) (W (Proc.devRef .tc main_v39)) := by
  rw [after8_split, drop20_v63, take20_v42, take20_v45, take20_v48, take20_v51]
  rfl

/-! ## The region's entry contents through the last stretch -/

variable (m : (ℓ : Loc nD τ sig) → Buf (Elt F) ℓ)

/-- Core `c`'s buffers after the first eight host stretches. -/
def W8 (c : Dev nD) : Valuation τ sig (Elt F) :=
  StableHlo.after (List.flatten [hostOps0 (F := F), hostOps0_1, hostOps0_2, hostOps0_3, hostOps0_4, hostOps0_5, hostOps0_6,
    hostOps0_7]) (fun b => m (c, b))

/-- Nine stretches run in order are the first eight followed by the ninth. -/
theorem after_flatten9 (a0 a1 a2 a3 a4 a5 a6 a7 a8 : List (HloOp τ sig (Elt F))) (V0 : Valuation τ sig (Elt F)) :
    StableHlo.after (List.flatten [a0, a1, a2, a3, a4, a5, a6, a7, a8]) V0
      = StableHlo.after a8 (StableHlo.after (List.flatten [a0, a1, a2, a3, a4, a5, a6, a7]) V0) := by
  rw [← StableHlo.after_append]
  congr 1
  simp

/-- The entry contents are the last stretch run on the contents after the first eight. -/
theorem V_eq_after8 (c : Dev nD) (b : Ref sig .tc) :
    V m c b = StableHlo.after (hostOps0_8 (F := F)) (W8 m c) (Proc.devRef .tc b) :=
  congrFun (after_flatten9 hostOps0 hostOps0_1 hostOps0_2 hostOps0_3 hostOps0_4 hostOps0_5 hostOps0_6 hostOps0_7 hostOps0_8
    (fun b => m (c, b))) (Proc.devRef .tc b)

/-- The four index tensors at the region's entry, by table. -/
abbrev Xs (c : Dev nD) : Fin 4 → IVec S4x200x200 32 :=
  ![V m c main_v36, V m c main_v37, V m c main_v38, V m c main_v39]

/-- At the region's entry the first bound table is the table of tile minima of the four index tensors. -/
theorem V_v62 (c : Dev nD) :
    (V m c main_v62 : S80x4.Idx → BitVec 32)
      = tabOf IntOp.minsi 2147483647#32 (V m c main_v36) (V m c main_v37) (V m c main_v38) (V m c main_v39) := by
  have e36 : (V m c main_v36 : S4x200x200.Idx → BitVec 32) = W8 m c (Proc.devRef .tc main_v36) :=
    (V_eq_after8 m c main_v36).trans (after8_v36 _)
  have e37 : (V m c main_v37 : S4x200x200.Idx → BitVec 32) = W8 m c (Proc.devRef .tc main_v37) :=
    (V_eq_after8 m c main_v37).trans (after8_v37 _)
  have e38 : (V m c main_v38 : S4x200x200.Idx → BitVec 32) = W8 m c (Proc.devRef .tc main_v38) :=
    (V_eq_after8 m c main_v38).trans (after8_v38 _)
  have e39 : (V m c main_v39 : S4x200x200.Idx → BitVec 32) = W8 m c (Proc.devRef .tc main_v39) :=
    (V_eq_after8 m c main_v39).trans (after8_v39 _)
  rw [e36, e37, e38, e39]
  exact (V_eq_after8 m c main_v62).trans (after8_v62 _)

/-- At the region's entry the second bound table is the table of tile maxima of the four index tensors. -/
theorem V_v63 (c : Dev nD) :
    (V m c main_v63 : S80x4.Idx → BitVec 32)
      = tabOf IntOp.maxsi 2147483648#32 (V m c main_v36) (V m c main_v37) (V m c main_v38) (V m c main_v39) := by
  have e36 : (V m c main_v36 : S4x200x200.Idx → BitVec 32) = W8 m c (Proc.devRef .tc main_v36) :=
    (V_eq_after8 m c main_v36).trans (after8_v36 _)
  have e37 : (V m c main_v37 : S4x200x200.Idx → BitVec 32) = W8 m c (Proc.devRef .tc main_v37) :=
    (V_eq_after8 m c main_v37).trans (after8_v37 _)
  have e38 : (V m c main_v38 : S4x200x200.Idx → BitVec 32) = W8 m c (Proc.devRef .tc main_v38) :=
    (V_eq_after8 m c main_v38).trans (after8_v38 _)
  have e39 : (V m c main_v39 : S4x200x200.Idx → BitVec 32) = W8 m c (Proc.devRef .tc main_v39) :=
    (V_eq_after8 m c main_v39).trans (after8_v39 _)
  rw [e36, e37, e38, e39]
  exact (V_eq_after8 m c main_v63).trans (after8_v63 _)

/-! ## A bound table read at a row, and what it bounds -/

/-- Applying one function to each of four listed values and then choosing the `t`-th is choosing first. -/
theorem vec4_map {α β : Type} (g : α → β) (a0 a1 a2 a3 : α) (t : Fin 4) :
    (![g a0, g a1, g a2, g a3] : Fin 4 → β) t = g ((![a0, a1, a2, a3] : Fin 4 → α) t) := by
  match t with
  | ⟨0, _⟩ => rfl
  | ⟨1, _⟩ => rfl
  | ⟨2, _⟩ => rfl
  | ⟨3, _⟩ => rfl

/-- Row `20 b + 4 i + c`, column `t` of a bound table: tensor `t`'s tile `(b, i, c)` reduced. -/
theorem tabOf_apply (f : BitVec 32 → BitVec 32 → BitVec 32) (init : BitVec 32) (X0 X1 X2 X3 : IVec S4x200x200 32)
    (b : Fin 4) (li : Fin 5) (mc : Fin 4) (t : Fin 4) (hr : 20 * b.val + 4 * li.val + mc.val < 80) :
    tabOf f init X0 X1 X2 X3 (ix2 (⟨20 * b.val + 4 * li.val + mc.val, hr⟩ : Fin 80) t)
      = Host.reduce f (shapeCast S4x5x40x4x50 ((![X0, X1, X2, X3] : Fin 4 → IVec S4x200x200 32) t) Facts₀.shapeCasts_S4x200x200_S4x5x40x4x50)
          (constantI S_ 32 init) Facts₀.reducesTo_S4x5x40x4x50_S4x5x4_d2_4 Facts₀.h_S_ (ix3 b li mc) := by
  unfold tabOf
  rw [shapeCast_apply _ Facts₀.shapeCasts_S4x5x4x4_S80x4 _ (ix4 b li mc t) (by
    rw [Shape.rowMajor_val_four, Shape.rowMajor_val_two]
    show ((b.val * 5 + li.val) * 4 + mc.val) * 4 + t.val = (20 * b.val + 4 * li.val + mc.val) * 4 + t.val
    omega)]
  rw [Cert.Lib.GatherConcat.concat4_unit_apply]
  have hb : ∀ Z : IVec S4x5x4 32,
      broadcastInDim S4x5x4x1 ![0, 1, 2] Facts₀.bcast_S4x5x4_S4x5x4x1_0_1_2 Z (ix4 b li mc 0) = Z (ix3 b li mc) := fun Z =>
    broadcastInDim_apply _ _ Z _ (ix3 b li mc) (fun a => by
      match a with
      | ⟨0, _⟩ => rfl
      | ⟨1, _⟩ => rfl
      | ⟨2, _⟩ => rfl)
  have h1 := vec4_map (fun X : IVec S4x200x200 32 => broadcastInDim S4x5x4x1 ![0, 1, 2] Facts₀.bcast_S4x5x4_S4x5x4x1_0_1_2
      (Host.reduce f (shapeCast S4x5x40x4x50 X Facts₀.shapeCasts_S4x200x200_S4x5x40x4x50) (constantI S_ 32 init) Facts₀.reducesTo_S4x5x40x4x50_S4x5x4_d2_4 Facts₀.h_S_))
    X0 X1 X2 X3 t
  have h2 := hb (Host.reduce f (shapeCast S4x5x40x4x50 ((![X0, X1, X2, X3] : Fin 4 → IVec S4x200x200 32) t) Facts₀.shapeCasts_S4x200x200_S4x5x40x4x50)
      (constantI S_ 32 init) Facts₀.reducesTo_S4x5x40x4x50_S4x5x4_d2_4 Facts₀.h_S_)
  rw [h1]
  exact h2

/-- Dropping the two reduced axes of a tile index `(b, i, r, c, q)` leaves the tile `(b, i, c)`. -/
theorem drop_ix5 (h : S4x5x40x4x50.ReducesTo [2, 4] S4x5x4) (b : Fin 4) (li : Fin 5) (ll : Fin 40) (mc : Fin 4) (mm : Fin 50) :
    h.drop (ix5 b li ll mc mm) = ix3 b li mc := by
  funext a
  refine Fin.ext ?_
  match a with
  | ⟨0, _⟩ => rfl
  | ⟨1, _⟩ => rfl
  | ⟨2, _⟩ => rfl

/-- The `[4, 5, 40, 4, 50]` view of an index tensor at `(b, i, r, c, q)` is the tensor at `(b, 40 i + r, 50 c + q)`. -/
theorem tile_apply (X : IVec S4x200x200 32) (b : Fin 4) (li : Fin 5) (ll : Fin 40) (mc : Fin 4) (mm : Fin 50)
    (hl : 40 * li.val + ll.val < 200) (hm : 50 * mc.val + mm.val < 200) :
    shapeCast S4x5x40x4x50 X Facts₀.shapeCasts_S4x200x200_S4x5x40x4x50 (ix5 b li ll mc mm)
      = X (ix3 b (⟨40 * li.val + ll.val, hl⟩ : Fin 200) (⟨50 * mc.val + mm.val, hm⟩ : Fin 200)) :=
  shapeCast_apply _ _ _ _ (by
    rw [Shape.rowMajor_val_three, Shape.rowMajor_val_five]
    show (b.val * 200 + (40 * li.val + ll.val)) * 200 + (50 * mc.val + mm.val)
      = (((b.val * 5 + li.val) * 40 + ll.val) * 4 + mc.val) * 50 + mm.val
    omega)

/-- A table of tile minima is, at a tile's row, at most every element of the tile. -/
theorem tabOf_minsi_le (init : BitVec 32) (X0 X1 X2 X3 : IVec S4x200x200 32)
    (b : Fin 4) (li : Fin 5) (mc : Fin 4) (t : Fin 4) (ll : Fin 40) (mm : Fin 50)
    (hr : 20 * b.val + 4 * li.val + mc.val < 80) (hl : 40 * li.val + ll.val < 200) (hm : 50 * mc.val + mm.val < 200) :
    (tabOf IntOp.minsi init X0 X1 X2 X3 (ix2 (⟨20 * b.val + 4 * li.val + mc.val, hr⟩ : Fin 80) t)).toInt
      ≤ (((![X0, X1, X2, X3] : Fin 4 → IVec S4x200x200 32) t)
          (ix3 b (⟨40 * li.val + ll.val, hl⟩ : Fin 200) (⟨50 * mc.val + mm.val, hm⟩ : Fin 200))).toInt := by
  rw [tabOf_apply, ← tile_apply ((![X0, X1, X2, X3] : Fin 4 → IVec S4x200x200 32) t) b li ll mc mm hl hm]
  exact Cert.Lib.ReduceBounds.reduce_minsi_le _ _ _ _ _ _ (drop_ix5 _ b li ll mc mm)

/-- A table of tile maxima is, at a tile's row, at least every element of the tile. -/
theorem le_tabOf_maxsi (init : BitVec 32) (X0 X1 X2 X3 : IVec S4x200x200 32)
    (b : Fin 4) (li : Fin 5) (mc : Fin 4) (t : Fin 4) (ll : Fin 40) (mm : Fin 50)
    (hr : 20 * b.val + 4 * li.val + mc.val < 80) (hl : 40 * li.val + ll.val < 200) (hm : 50 * mc.val + mm.val < 200) :
    (((![X0, X1, X2, X3] : Fin 4 → IVec S4x200x200 32) t)
          (ix3 b (⟨40 * li.val + ll.val, hl⟩ : Fin 200) (⟨50 * mc.val + mm.val, hm⟩ : Fin 200))).toInt
      ≤ (tabOf IntOp.maxsi init X0 X1 X2 X3 (ix2 (⟨20 * b.val + 4 * li.val + mc.val, hr⟩ : Fin 80) t)).toInt := by
  rw [tabOf_apply, ← tile_apply ((![X0, X1, X2, X3] : Fin 4 → IVec S4x200x200 32) t) b li ll mc mm hl hm]
  exact Cert.Lib.ReduceBounds.le_reduce_maxsi _ _ _ _ _ _ (drop_ix5 _ b li ll mc mm)

/-! ## The statement at the region's entry -/

/-- The four tensors of `Xs`, one by one. -/
theorem Xs_zero (c : Dev nD) : Xs m c 0 = V m c main_v36 := rfl
/-- Table 1 reads `%37`. -/
theorem Xs_one (c : Dev nD) : Xs m c 1 = V m c main_v37 := rfl
/-- Table 2 reads `%38`. -/
theorem Xs_two (c : Dev nD) : Xs m c 2 = V m c main_v38 := rfl
/-- Table 3 reads `%39`. -/
theorem Xs_three (c : Dev nD) : Xs m c 3 = V m c main_v39 := rfl

/-- THE BOUND TABLES BOUND THE INDEX TENSORS, TILE BY TILE: at the region's entry, for table `t`, batch `b`, row tile
    `li`, column chunk `mc` and a place `(ll, mm)` in the tile, the word of the first table at row
    `20 b + 4 li + mc`, column `t` is at most (signed) the index `X_t[b, 40 li + ll, 50 mc + mm]`, which is at most the
    word of the second table there. -/
theorem V_bounds (c : Dev nD) (t : Fin 4) (b : Fin 4) (li : Fin 5) (mc : Fin 4) (ll : Fin 40) (mm : Fin 50) :
    ((V m c main_v62 : S80x4.Idx → BitVec 32) (ix2 (⟨20 * b.val + 4 * li.val + mc.val, by omega⟩ : Fin 80) t)).toInt
        ≤ ((Xs m c t) (ix3 b (⟨40 * li.val + ll.val, by omega⟩ : Fin 200) (⟨50 * mc.val + mm.val, by omega⟩ : Fin 200))).toInt
      ∧ ((Xs m c t) (ix3 b (⟨40 * li.val + ll.val, by omega⟩ : Fin 200) (⟨50 * mc.val + mm.val, by omega⟩ : Fin 200))).toInt
        ≤ ((V m c main_v63 : S80x4.Idx → BitVec 32) (ix2 (⟨20 * b.val + 4 * li.val + mc.val, by omega⟩ : Fin 80) t)).toInt := by
  rw [V_v62 m c, V_v63 m c]
  exact ⟨tabOf_minsi_le _ (V m c main_v36) (V m c main_v37) (V m c main_v38) (V m c main_v39) b li mc t ll mm _ _ _,
    le_tabOf_maxsi _ (V m c main_v36) (V m c main_v37) (V m c main_v38) (V m c main_v39) b li mc t ll mm _ _ _⟩

end Cert.KernelIdeal.Frm

end
-- ==== Proof.BlockMath.lean ====
/-
  The arithmetic of one accumulator entry.

  For one table and one output entry the kernel adds, chunk by chunk of 256 table rows and only where a guard holds,
  the product of a one-hot row with the chunk's column: Σ_{j<256} onehot[j] · T[256·c + j], where onehot[j] is 1 when the
  (clipped) index word minus the chunk's first row equals j, and 0 otherwise. Exactly one chunk and one j match, so
  the four guarded updates add T[row] once, and the four tables in turn add their four rows. Everything is over the
  extended reals; only 1·x = x, 0·x = 0, x + 0 = x and 0 + x = x are used, which hold for every extended real.
-/
import proofs.«408597_j16320875725026_3_alg».proof.Proof.Spec
import proofs.«408597_j16320875725026_3_alg».proof.Proof.PreFacts
import Idealize.ShloMosaic.Lib.ValueIdx
import Idealize.ShloMosaic.PureOps.Ideal
import Mathlib.Data.EReal.Basic
import Mathlib.Algebra.BigOperators.Group.Finset.Basic
import Mathlib.Tactic.FinCases

noncomputable section

open scoped BigOperators

namespace Cert.BlockMath

open Idealize.ShloMosaic Idealize.ShloMosaic.ValueIdx
open Cert.Spec Cert.PreFacts

/-! ## The one-hot entry -/

/-- The bit 1 widened to 32 bits and converted to a float is 1. -/
theorem sitofp_bit_one : FloatOps.sitofp (F := Ideal) .f32 ((1#1 : BitVec 1).setWidth 32) = (1 : EReal) := by
  show ((((1#1 : BitVec 1).setWidth 32).toInt : ℝ) : EReal) = 1
  rw [show ((1#1 : BitVec 1).setWidth 32).toInt = 1 from by decide, Int.cast_one, EReal.coe_one]

/-- The bit 0 widened to 32 bits and converted to a float is 0. -/
theorem sitofp_bit_zero : FloatOps.sitofp (F := Ideal) .f32 ((0#1 : BitVec 1).setWidth 32) = (0 : EReal) := by
  show ((((0#1 : BitVec 1).setWidth 32).toInt : ℝ) : EReal) = 0
  rw [show ((0#1 : BitVec 1).setWidth 32).toInt = 0 from by decide, Int.cast_zero, EReal.coe_zero]

/-- A comparison bit widened and converted is 1 where the words are equal and 0 elsewhere; narrowing the format
    changes nothing at the ideal values. -/
theorem onehot_word (u v : BitVec 32) (h : FTy.bf16.bits < FTy.f32.bits) :
    FloatOps.truncf (F := Ideal) .bf16 h (FloatOps.sitofp (F := Ideal) .f32 ((IntOp.cmpi .eq u v).setWidth 32))
      = if u = v then (1 : EReal) else 0 := by
  show FloatOps.sitofp (F := Ideal) .f32 ((IntOp.cmpi .eq u v).setWidth 32) = _
  by_cases e : u = v
  · rw [if_pos e, IntOp.cmpi_eq.2 e]; exact sitofp_bit_one
  · rw [if_neg e, eq_zero_of_ne_one (fun hh => e (IntOp.cmpi_eq.1 hh))]; exact sitofp_bit_zero

/-- The same for arrays, read at an index: the one-hot array the kernel builds from a comparison of two word arrays. -/
theorem onehot_apply {s : Shape} (x y : IVec s 32) (h1 : 1 < 32) (h2 : FTy.bf16.bits < FTy.f32.bits) (i : s.Idx) :
    (truncf .bf16 (sitofp (F := Ideal) .f32 (extui 32 (cmpi .eq x y) h1)) h2 : FVec Ideal s .bf16) i
      = if x i = y i then (1 : EReal) else 0 :=
  onehot_word (x i) (y i) h2

/-- The lane-number array along one axis reads, at an index, that coordinate as a word. -/
theorem iota_apply (κ : Kind) (s : Shape) (a : Fin s.rank) (h : s.Iotas κ 32 [a]) (i : s.Idx) :
    iota κ s 32 [a] h i = BitVec.ofNat 32 (i a).val := by
  show BitVec.ofNat 32 (0 * s.size a + (i a).val) = _
  rw [Nat.zero_mul, Nat.zero_add]

/-! ## One chunk's product -/

/-- The one-hot row against a chunk's column: the table entry at the word's row if the row lies in the chunk,
    zero otherwise. -/
theorem onehot_dot (T : Fin 1024 → EReal) {w : BitVec 32} (h0 : 0 ≤ w.toInt) (h1 : w.toInt ≤ 1023) (c : Fin 4)
    (lo : BitVec 32) (hlo : lo.toNat = 256 * c.val) :
    ∑ j : Fin 256, (if w - lo = BitVec.ofNat 32 j.val then (1 : EReal) else 0) * T ⟨256 * c.val + j.val, by omega⟩
      = if w.toNat / 256 = c.val then T ⟨w.toNat, by have := (toNat_of_bounds h0 h1).1; omega⟩ else 0 := by
  have hw := (toNat_of_bounds h0 h1).1
  by_cases hc : w.toNat / 256 = c.val
  · rw [if_pos hc, Finset.sum_eq_single (⟨w.toNat % 256, by omega⟩ : Fin 256)]
    · rw [if_pos ((onehot_iff h0 h1 c _ lo hlo).2 (by show w.toNat = 256 * c.val + w.toNat % 256; omega)), one_mul]
      congr 1
      apply Fin.ext
      show 256 * c.val + w.toNat % 256 = w.toNat
      omega
    · intro j _ hj
      rw [if_neg, zero_mul]
      intro e
      apply hj
      have := (onehot_iff h0 h1 c j lo hlo).1 e
      apply Fin.ext
      show j.val = w.toNat % 256
      omega
    · intro h; exact absurd (Finset.mem_univ _) h
  · rw [if_neg hc]
    apply Finset.sum_eq_zero
    intro j _
    rw [if_neg, zero_mul]
    intro e
    have := (onehot_iff h0 h1 c j lo hlo).1 e
    omega

/-- The same for the clipped index word, in terms of the row the unclipped word selects. -/
theorem onehot_dot_clip (T : Fin 1024 → EReal) (i : BitVec 32) (c : Fin 4) (lo : BitVec 32) (hlo : lo.toNat = 256 * c.val) :
    ∑ j : Fin 256, (if clip i - lo = BitVec.ofNat 32 j.val then (1 : EReal) else 0) * T ⟨256 * c.val + j.val, by omega⟩
      = if (rowOf i).val / 256 = c.val then T (rowOf i) else 0 := by
  rw [onehot_dot T (clip_bounds i).1 (clip_bounds i).2 c lo hlo]
  have e : ∀ h, (⟨(clip i).toNat, h⟩ : Fin 1024) = rowOf i := fun h => Fin.ext (toNat_clip i)
  simp only [e, toNat_clip]

/-! ## The four guarded updates of one table -/

/-- One guarded update of an accumulator entry: under the chunk's guard, add the chunk's product. -/
def step (g : Fin 4 → Prop) [DecidablePred g] (d : Fin 4 → EReal) (c : Fin 4) (v : EReal) : EReal :=
  if g c then v + d c else v

/-- If only chunk `r`'s product can be non-zero, where it is `x`, and chunk `r`'s guard holds, the four guarded updates
    add `x` once: adding zero, or skipping, changes nothing. -/
theorem four_steps (a x : EReal) (d : Fin 4 → EReal) (g : Fin 4 → Prop) [DecidablePred g] (r : Fin 4)
    (hd : ∀ c, d c = if r = c then x else 0) (hg : g r) :
    step g d 3 (step g d 2 (step g d 1 (step g d 0 a))) = a + x := by
  have hs : ∀ c v, step g d c v = if r = c then v + x else v := by
    intro c v
    unfold step
    by_cases hrc : r = c
    · subst hrc; rw [if_pos hg, if_pos rfl, hd, if_pos rfl]
    · rw [if_neg hrc, hd, if_neg hrc, add_zero]; split <;> rfl
  rw [hs, hs, hs, hs]
  fin_cases r <;> rfl

/-- One table's four chunks: the guarded updates add the table entry at the row the index word selects. `lo c` is
    chunk `c`'s first row as a word; the guard of the chunk that holds the row is assumed. -/
theorem table_steps (T : Fin 1024 → EReal) (i : BitVec 32) (g : Fin 4 → Prop) [DecidablePred g] (lo : Fin 4 → BitVec 32)
    (hlo : ∀ c, (lo c).toNat = 256 * c.val) (hg : g ⟨(rowOf i).val / 256, by have := (rowOf i).isLt; omega⟩) (a : EReal) :
    step g (fun c => ∑ j : Fin 256, (if clip i - lo c = BitVec.ofNat 32 j.val then (1 : EReal) else 0)
        * T ⟨256 * c.val + j.val, by omega⟩) 3
      (step g (fun c => ∑ j : Fin 256, (if clip i - lo c = BitVec.ofNat 32 j.val then (1 : EReal) else 0)
        * T ⟨256 * c.val + j.val, by omega⟩) 2
      (step g (fun c => ∑ j : Fin 256, (if clip i - lo c = BitVec.ofNat 32 j.val then (1 : EReal) else 0)
        * T ⟨256 * c.val + j.val, by omega⟩) 1
      (step g (fun c => ∑ j : Fin 256, (if clip i - lo c = BitVec.ofNat 32 j.val then (1 : EReal) else 0)
        * T ⟨256 * c.val + j.val, by omega⟩) 0 a))) = a + T (rowOf i) := by
  refine four_steps a (T (rowOf i)) _ g ⟨(rowOf i).val / 256, by have := (rowOf i).isLt; omega⟩ (fun c => ?_) hg
  show (∑ j : Fin 256, _) = _
  rw [onehot_dot_clip T i c (lo c) (hlo c)]
  exact if_congr ⟨fun h => Fin.ext h, fun h => congrArg Fin.val h⟩ rfl rfl

/-! ## The four tables in turn -/

/-- Starting from zero and adding the four tables' entries one after the other gives their sum, associated to the left. -/
theorem four_tables (x0 x1 x2 x3 : EReal) : ((((0 + x0) + x1) + x2) + x3) = x0 + x1 + x2 + x3 := by
  rw [zero_add]

end Cert.BlockMath

end
-- ==== Proof.EntryMath.lean ====
/-
  One entry of the kernel's result at a grid point, as arithmetic.

  At grid point t (batch t / 5, row tile t % 5), for row l of the tile, column q and feature h, the body reads: from
  each of the four index blocks the clipped shifted position difference of row 40 (t % 5) + l and column q; from each
  of the four pre-multiplied tables, whole, the table's term against its slice of the weight matrix; the bias. For each
  table it runs over the four chunks of 256 rows and, where the chunk's guard holds, adds the one-hot row against the
  chunk's column. The guard of the chunk that holds the entry's row does hold, because the two bound tables bracket
  every index word of the entry's 40 × 50 tile; so each table adds its term at the row the index word selects, and the
  four tables, the bias and the maximum with zero give the specification's value at the entry.
-/
import proofs.«408597_j16320875725026_3_alg».proof.Proof.AdmKernelIdeal
import proofs.«408597_j16320875725026_3_alg».proof.Proof.HostValsA
import proofs.«408597_j16320875725026_3_alg».proof.Proof.HostValsB
import proofs.«408597_j16320875725026_3_alg».proof.Proof.GeomKernelIdeal
import proofs.«408597_j16320875725026_3_alg».proof.Proof.BlockMath
import proofs.«408597_j16320875725026_3_alg».proof.Proof.PreFacts
import proofs.«408597_j16320875725026_3_alg».proof.Proof.Spec

set_option maxRecDepth 4096

noncomputable section

open scoped BigOperators

namespace Cert.KernelIdeal.Frm

open Cert.KernelIdeal Cert.KernelIdeal.Gen Cert.KernelIdeal.GenP

open Idealize.ShloMosaic Idealize.ShloMosaic.TcCoe Idealize.ShloMosaic.ValueIdx
open Idealize.SL.Sem

variable (mI : (ℓ : Loc nD τ sig) → Buf (Elt Ideal) ℓ)

/-! ## What the body reads at the entry -/

/-- Index block 0 at (l, q): the clipped start–start difference of the tile's row l and column q. -/
theorem idx0_entry (c : Dev nD) (t : Fin (cfgA mI).N) (l : Fin 40) (q : Fin 200) :
    (iblk mI c (0 : Fin 10) t) (ix3 0 l q)
      = Cert.PreFacts.clip (Cert.Spec.gidx (posS mI c (ix2 (batchOf t) (rowOf t l))) (posS mI c (ix2 (batchOf t) q))) :=
  (read_blk0_A mI t (V mI c main_v36) l q).trans (congrFun (V_v36 mI c) (ix3 (batchOf t) (rowOf t l) q))

/-- Index block 1 at (l, q): the clipped start–end difference. -/
theorem idx1_entry (c : Dev nD) (t : Fin (cfgA mI).N) (l : Fin 40) (q : Fin 200) :
    (iblk mI c (1 : Fin 10) t) (ix3 0 l q)
      = Cert.PreFacts.clip (Cert.Spec.gidx (posS mI c (ix2 (batchOf t) (rowOf t l))) (posE mI c (ix2 (batchOf t) q))) :=
  (read_blk1_A mI t (V mI c main_v37) l q).trans (congrFun (V_v37 mI c) (ix3 (batchOf t) (rowOf t l) q))

/-- Index block 2 at (l, q): the clipped end–start difference. -/
theorem idx2_entry (c : Dev nD) (t : Fin (cfgA mI).N) (l : Fin 40) (q : Fin 200) :
    (iblk mI c (2 : Fin 10) t) (ix3 0 l q)
      = Cert.PreFacts.clip (Cert.Spec.gidx (posE mI c (ix2 (batchOf t) (rowOf t l))) (posS mI c (ix2 (batchOf t) q))) :=
  (read_blk2_A mI t (V mI c main_v38) l q).trans (congrFun (V_v38 mI c) (ix3 (batchOf t) (rowOf t l) q))

/-- Index block 3 at (l, q): the clipped end–end difference. -/
theorem idx3_entry (c : Dev nD) (t : Fin (cfgA mI).N) (l : Fin 40) (q : Fin 200) :
    (iblk mI c (3 : Fin 10) t) (ix3 0 l q)
      = Cert.PreFacts.clip (Cert.Spec.gidx (posE mI c (ix2 (batchOf t) (rowOf t l))) (posE mI c (ix2 (batchOf t) q))) :=
  (read_blk3_A mI t (V mI c main_v39) l q).trans (congrFun (V_v39 mI c) (ix3 (batchOf t) (rowOf t l) q))

/-- Table block 0 at (r, h): table 0's term against its slice of the weight matrix. -/
theorem tbl0_entry (c : Dev nD) (t : Fin (cfgA mI).N) (r : Fin 1024) (h : Fin 160) :
    (iblk mI c (4 : Fin 10) t) (ix2 r h) = Cert.Spec.tblTerm (tbl0 mI c) (wMat mI c) 0 r h :=
  (read_blk4_A mI t (V mI c main_v4) r h).trans (V_v4 mI c r h)

/-- Table block 1 at (r, h). -/
theorem tbl1_entry (c : Dev nD) (t : Fin (cfgA mI).N) (r : Fin 1024) (h : Fin 160) :
    (iblk mI c (5 : Fin 10) t) (ix2 r h) = Cert.Spec.tblTerm (tbl1 mI c) (wMat mI c) 1 r h :=
  (read_blk5_A mI t (V mI c main_v5) r h).trans (V_v5 mI c r h)

/-- Table block 2 at (r, h). -/
theorem tbl2_entry (c : Dev nD) (t : Fin (cfgA mI).N) (r : Fin 1024) (h : Fin 160) :
    (iblk mI c (6 : Fin 10) t) (ix2 r h) = Cert.Spec.tblTerm (tbl2 mI c) (wMat mI c) 2 r h :=
  (read_blk6_A mI t (V mI c main_v6) r h).trans (V_v6 mI c r h)

/-- Table block 3 at (r, h). -/
theorem tbl3_entry (c : Dev nD) (t : Fin (cfgA mI).N) (r : Fin 1024) (h : Fin 160) :
    (iblk mI c (7 : Fin 10) t) (ix2 r h) = Cert.Spec.tblTerm (tbl3 mI c) (wMat mI c) 3 r h :=
  (read_blk7_A mI t (V mI c main_v7) r h).trans (V_v7 mI c r h)

/-- The bias block at h: the bias as launched. -/
theorem bias_entry (c : Dev nD) (t : Fin (cfgA mI).N) (h : Fin 160) :
    (iblk mI c (8 : Fin 10) t) (ix1 h) = mI ((c : Thread nD τ).loc main_arg5) (ix1 h) :=
  (read_blk8_A mI t (V mI c main_arg5) h).trans (congrFun (V_arg5 mI c) (ix1 h))

/-! ## The chunks of 256 rows and their guards -/

/-- Chunk cc's first row as a word: 0, 256, 512, 768. -/
abbrev loW : Fin 4 → BitVec 32 := ![0#32, 256#32, 512#32, 768#32]
/-- One past chunk cc's last row as a word: 256, 512, 768, 1024. -/
abbrev hiW : Fin 4 → BitVec 32 := ![256#32, 512#32, 768#32, 1024#32]

/-- A chunk's first row, read unsigned. -/
theorem loW_toNat (cc : Fin 4) : (loW cc).toNat = 256 * cc.val := by
  match cc with
  | ⟨0, _⟩ => exact Cert.PreFacts.lo_literals.1
  | ⟨1, _⟩ => exact Cert.PreFacts.lo_literals.2.1
  | ⟨2, _⟩ => exact Cert.PreFacts.lo_literals.2.2.1
  | ⟨3, _⟩ => exact Cert.PreFacts.lo_literals.2.2.2

/-- A chunk's first row, read signed. -/
theorem loW_toInt (cc : Fin 4) : (loW cc).toInt = 256 * cc.val := by
  match cc with
  | ⟨0, _⟩ => exact Cert.PreFacts.lohi_literals.1.1
  | ⟨1, _⟩ => exact Cert.PreFacts.lohi_literals.2.1.1
  | ⟨2, _⟩ => exact Cert.PreFacts.lohi_literals.2.2.1.1
  | ⟨3, _⟩ => exact Cert.PreFacts.lohi_literals.2.2.2.1

/-- One past a chunk's last row, read signed. -/
theorem hiW_toInt (cc : Fin 4) : (hiW cc).toInt = 256 * (cc.val + 1) := by
  match cc with
  | ⟨0, _⟩ => exact Cert.PreFacts.lohi_literals.1.2
  | ⟨1, _⟩ => exact Cert.PreFacts.lohi_literals.2.1.2
  | ⟨2, _⟩ => exact Cert.PreFacts.lohi_literals.2.2.1.2
  | ⟨3, _⟩ => exact Cert.PreFacts.lohi_literals.2.2.2.2

/-- The chunk of 256 rows that holds the row an index word selects. -/
def chunkOf (i : BitVec 32) : Fin 4 := ⟨(Cert.Spec.rowOf i).val / 256, by have := (Cert.Spec.rowOf i).isLt; omega⟩

/-- If two words bracket the clipped index word, signed, the guard of the chunk that holds the word's row is set: the
    clipped word lies in [0, 1023] and its unsigned value is the row. -/
theorem guard_of_bounds (vmin vmax i : BitVec 32) (hmin : vmin.toInt ≤ (Cert.PreFacts.clip i).toInt)
    (hmax : (Cert.PreFacts.clip i).toInt ≤ vmax.toInt) :
    Cert.PreFacts.guard vmin vmax (loW (chunkOf i)) (hiW (chunkOf i)) = 1#1 :=
  Cert.PreFacts.guard_of_mem hmin hmax (Cert.PreFacts.clip_bounds i).1 (Cert.PreFacts.clip_bounds i).2 (chunkOf i)
    (by rw [Cert.PreFacts.toNat_clip]; rfl) _ _ (loW_toInt _) (hiW_toInt _)

/-- The bound tables' row of the 40 × 50 tile that holds column q at point t: 20 (t / 5) + 4 (t % 5) + q / 50. -/
def tileRow (t : Fin 20) (q : Fin 200) : Fin 80 :=
  ⟨20 * (batchOf t).val + 4 * (tileOf t).val + q.val / 50, by
    have := (batchOf t).isLt; have := (tileOf t).isLt; have := q.isLt; omega⟩

/-- Row 40 (t % 5) + l of the array is the tile's row l, and column 50 mc + mm is q when mc = q / 50, mm = q % 50. -/
theorem tile_idx (t : Fin 20) (l : Fin 40) (q : Fin 200) (mc : Fin 4) (mm : Fin 50) (hc : mc.val = q.val / 50)
    (hm : mm.val = q.val % 50) (h1 : 40 * (tileOf t).val + l.val < 200) (h2 : 50 * mc.val + mm.val < 200) :
    (ix3 (batchOf t) (⟨40 * (tileOf t).val + l.val, h1⟩ : Fin 200) (⟨50 * mc.val + mm.val, h2⟩ : Fin 200)
      : S4x200x200.Idx) = ix3 (batchOf t) (rowOf t l) q := by
  have e2 : (⟨50 * mc.val + mm.val, h2⟩ : Fin 200) = q := Fin.ext (by show 50 * mc.val + mm.val = q.val; omega)
  rw [e2]
  rfl

/-- The two bound tables bracket index tensor k's word at the entry (row l of point t's tile, column q). -/
theorem bounds_entry (c : Dev nD) (t : Fin (cfgA mI).N) (l : Fin 40) (q : Fin 200) (k : Fin 4) :
    ((V mI c main_v62 : S80x4.Idx → BitVec 32) (ix2 (tileRow t q) k)).toInt
        ≤ ((Xs mI c k) (ix3 (batchOf t) (rowOf t l) q)).toInt
      ∧ ((Xs mI c k) (ix3 (batchOf t) (rowOf t l) q)).toInt
        ≤ ((V mI c main_v63 : S80x4.Idx → BitVec 32) (ix2 (tileRow t q) k)).toInt := by
  have hq : q.val / 50 < 4 := by have := q.isLt; omega
  have hb := V_bounds mI c k (batchOf t) (tileOf t) (⟨q.val / 50, hq⟩ : Fin 4) l (⟨q.val % 50, Nat.mod_lt _ (by decide)⟩ : Fin 50)
  rw [tile_idx t l q (⟨q.val / 50, hq⟩ : Fin 4) (⟨q.val % 50, Nat.mod_lt _ (by decide)⟩ : Fin 50) rfl rfl] at hb
  exact hb

/-- THE GUARD OF THE ENTRY'S OWN CHUNK HOLDS, table 0. -/
theorem guard0_on (c : Dev nD) (t : Fin (cfgA mI).N) (l : Fin 40) (q : Fin 200) :
    Cert.PreFacts.guard ((V mI c main_v62 : S80x4.Idx → BitVec 32) (ix2 (tileRow t q) 0))
        ((V mI c main_v63 : S80x4.Idx → BitVec 32) (ix2 (tileRow t q) 0))
        (loW (chunkOf (Cert.Spec.gidx (posS mI c (ix2 (batchOf t) (rowOf t l))) (posS mI c (ix2 (batchOf t) q)))))
        (hiW (chunkOf (Cert.Spec.gidx (posS mI c (ix2 (batchOf t) (rowOf t l))) (posS mI c (ix2 (batchOf t) q))))) = 1#1 := by
  have hb := bounds_entry mI c t l q 0
  rw [Xs_zero, congrFun (V_v36 mI c) (ix3 (batchOf t) (rowOf t l) q)] at hb
  exact guard_of_bounds _ _ _ hb.1 hb.2

/-- THE GUARD OF THE ENTRY'S OWN CHUNK HOLDS, table 1. -/
theorem guard1_on (c : Dev nD) (t : Fin (cfgA mI).N) (l : Fin 40) (q : Fin 200) :
    Cert.PreFacts.guard ((V mI c main_v62 : S80x4.Idx → BitVec 32) (ix2 (tileRow t q) 1))
        ((V mI c main_v63 : S80x4.Idx → BitVec 32) (ix2 (tileRow t q) 1))
        (loW (chunkOf (Cert.Spec.gidx (posS mI c (ix2 (batchOf t) (rowOf t l))) (posE mI c (ix2 (batchOf t) q)))))
        (hiW (chunkOf (Cert.Spec.gidx (posS mI c (ix2 (batchOf t) (rowOf t l))) (posE mI c (ix2 (batchOf t) q))))) = 1#1 := by
  have hb := bounds_entry mI c t l q 1
  rw [Xs_one, congrFun (V_v37 mI c) (ix3 (batchOf t) (rowOf t l) q)] at hb
  exact guard_of_bounds _ _ _ hb.1 hb.2

/-- THE GUARD OF THE ENTRY'S OWN CHUNK HOLDS, table 2. -/
theorem guard2_on (c : Dev nD) (t : Fin (cfgA mI).N) (l : Fin 40) (q : Fin 200) :
    Cert.PreFacts.guard ((V mI c main_v62 : S80x4.Idx → BitVec 32) (ix2 (tileRow t q) 2))
        ((V mI c main_v63 : S80x4.Idx → BitVec 32) (ix2 (tileRow t q) 2))
        (loW (chunkOf (Cert.Spec.gidx (posE mI c (ix2 (batchOf t) (rowOf t l))) (posS mI c (ix2 (batchOf t) q)))))
        (hiW (chunkOf (Cert.Spec.gidx (posE mI c (ix2 (batchOf t) (rowOf t l))) (posS mI c (ix2 (batchOf t) q))))) = 1#1 := by
  have hb := bounds_entry mI c t l q 2
  rw [Xs_two, congrFun (V_v38 mI c) (ix3 (batchOf t) (rowOf t l) q)] at hb
  exact guard_of_bounds _ _ _ hb.1 hb.2

/-- THE GUARD OF THE ENTRY'S OWN CHUNK HOLDS, table 3. -/
theorem guard3_on (c : Dev nD) (t : Fin (cfgA mI).N) (l : Fin 40) (q : Fin 200) :
    Cert.PreFacts.guard ((V mI c main_v62 : S80x4.Idx → BitVec 32) (ix2 (tileRow t q) 3))
        ((V mI c main_v63 : S80x4.Idx → BitVec 32) (ix2 (tileRow t q) 3))
        (loW (chunkOf (Cert.Spec.gidx (posE mI c (ix2 (batchOf t) (rowOf t l))) (posE mI c (ix2 (batchOf t) q)))))
        (hiW (chunkOf (Cert.Spec.gidx (posE mI c (ix2 (batchOf t) (rowOf t l))) (posE mI c (ix2 (batchOf t) q))))) = 1#1 := by
  have hb := bounds_entry mI c t l q 3
  rw [Xs_three, congrFun (V_v39 mI c) (ix3 (batchOf t) (rowOf t l) q)] at hb
  exact guard_of_bounds _ _ _ hb.1 hb.2

/-! ## One table's four guarded updates at the entry -/

/-- The guards of table k's four chunks at the tile that holds column q at point t. -/
abbrev grd (c : Dev nD) (t : Fin 20) (q : Fin 200) (k : Fin 4) : Fin 4 → Prop := fun cc =>
  Cert.PreFacts.guard ((V mI c main_v62 : S80x4.Idx → BitVec 32) (ix2 (tileRow t q) k))
    ((V mI c main_v63 : S80x4.Idx → BitVec 32) (ix2 (tileRow t q) k)) (loW cc) (hiW cc) = 1#1

/-- Chunk cc's one-hot row for the clipped index word against the chunk's rows of a column T. -/
abbrev prod (T : Fin 1024 → EReal) (i : BitVec 32) : Fin 4 → EReal := fun cc =>
  ∑ j : Fin 256, (if Cert.PreFacts.clip i - loW cc = BitVec.ofNat 32 j.val then (1 : EReal) else 0)
    * T ⟨256 * cc.val + j.val, by omega⟩

/-- The four guarded updates of one table, chunk 0 first. -/
abbrev steps (g : Fin 4 → Prop) [DecidablePred g] (d : Fin 4 → EReal) (a : EReal) : EReal :=
  Cert.BlockMath.step g d 3 (Cert.BlockMath.step g d 2 (Cert.BlockMath.step g d 1 (Cert.BlockMath.step g d 0 a)))

/-- Under the guard of the index word's own chunk the four updates add the column's entry at the row the word selects. -/
theorem steps_of_guard (T : Fin 1024 → EReal) (i : BitVec 32) (g : Fin 4 → Prop) [DecidablePred g] (hg : g (chunkOf i))
    (a : EReal) : steps g (prod T i) a = a + T (Cert.Spec.rowOf i) :=
  Cert.BlockMath.table_steps T i g loW loW_toNat hg a

/-- Table 0 at the entry: its four guarded updates add its term at the row the start–start difference selects. -/
theorem table0_steps (c : Dev nD) (t : Fin (cfgA mI).N) (l : Fin 40) (q : Fin 200) (h : Fin 160) (a : EReal) :
    steps (grd mI c t q 0) (prod (fun r : Fin 1024 => (iblk mI c (4 : Fin 10) t (ix2 r h) : EReal))
        (Cert.Spec.gidx (posS mI c (ix2 (batchOf t) (rowOf t l))) (posS mI c (ix2 (batchOf t) q)))) a
      = a + Cert.Spec.tblTerm (tbl0 mI c) (wMat mI c) 0
          (Cert.Spec.rowOf (Cert.Spec.gidx (posS mI c (ix2 (batchOf t) (rowOf t l))) (posS mI c (ix2 (batchOf t) q)))) h :=
  (steps_of_guard _ _ _ (guard0_on mI c t l q) a).trans (congrArg (a + ·) (tbl0_entry mI c t _ h))

/-- Table 1 at the entry. -/
theorem table1_steps (c : Dev nD) (t : Fin (cfgA mI).N) (l : Fin 40) (q : Fin 200) (h : Fin 160) (a : EReal) :
    steps (grd mI c t q 1) (prod (fun r : Fin 1024 => (iblk mI c (5 : Fin 10) t (ix2 r h) : EReal))
        (Cert.Spec.gidx (posS mI c (ix2 (batchOf t) (rowOf t l))) (posE mI c (ix2 (batchOf t) q)))) a
      = a + Cert.Spec.tblTerm (tbl1 mI c) (wMat mI c) 1
          (Cert.Spec.rowOf (Cert.Spec.gidx (posS mI c (ix2 (batchOf t) (rowOf t l))) (posE mI c (ix2 (batchOf t) q)))) h :=
  (steps_of_guard _ _ _ (guard1_on mI c t l q) a).trans (congrArg (a + ·) (tbl1_entry mI c t _ h))

/-- Table 2 at the entry. -/
theorem table2_steps (c : Dev nD) (t : Fin (cfgA mI).N) (l : Fin 40) (q : Fin 200) (h : Fin 160) (a : EReal) :
    steps (grd mI c t q 2) (prod (fun r : Fin 1024 => (iblk mI c (6 : Fin 10) t (ix2 r h) : EReal))
        (Cert.Spec.gidx (posE mI c (ix2 (batchOf t) (rowOf t l))) (posS mI c (ix2 (batchOf t) q)))) a
      = a + Cert.Spec.tblTerm (tbl2 mI c) (wMat mI c) 2
          (Cert.Spec.rowOf (Cert.Spec.gidx (posE mI c (ix2 (batchOf t) (rowOf t l))) (posS mI c (ix2 (batchOf t) q)))) h :=
  (steps_of_guard _ _ _ (guard2_on mI c t l q) a).trans (congrArg (a + ·) (tbl2_entry mI c t _ h))

/-- Table 3 at the entry. -/
theorem table3_steps (c : Dev nD) (t : Fin (cfgA mI).N) (l : Fin 40) (q : Fin 200) (h : Fin 160) (a : EReal) :
    steps (grd mI c t q 3) (prod (fun r : Fin 1024 => (iblk mI c (7 : Fin 10) t (ix2 r h) : EReal))
        (Cert.Spec.gidx (posE mI c (ix2 (batchOf t) (rowOf t l))) (posE mI c (ix2 (batchOf t) q)))) a
      = a + Cert.Spec.tblTerm (tbl3 mI c) (wMat mI c) 3
          (Cert.Spec.rowOf (Cert.Spec.gidx (posE mI c (ix2 (batchOf t) (rowOf t l))) (posE mI c (ix2 (batchOf t) q)))) h :=
  (steps_of_guard _ _ _ (guard3_on mI c t l q) a).trans (congrArg (a + ·) (tbl3_entry mI c t _ h))

/-! ## The entry's value -/

/-- The four tables' terms added in turn from zero, the bias added, the maximum with zero taken: the specification's
    value at batch t / 5, row 40 (t % 5) + l, column q, feature h. -/
theorem value_eq_G (c : Dev nD) (t : Fin (cfgA mI).N) (l : Fin 40) (q : Fin 200) (h : Fin 160) :
    max ((((((0 : EReal)
        + Cert.Spec.tblTerm (tbl0 mI c) (wMat mI c) 0
            (Cert.Spec.rowOf (Cert.Spec.gidx (posS mI c (ix2 (batchOf t) (rowOf t l))) (posS mI c (ix2 (batchOf t) q)))) h)
        + Cert.Spec.tblTerm (tbl1 mI c) (wMat mI c) 1
            (Cert.Spec.rowOf (Cert.Spec.gidx (posS mI c (ix2 (batchOf t) (rowOf t l))) (posE mI c (ix2 (batchOf t) q)))) h)
        + Cert.Spec.tblTerm (tbl2 mI c) (wMat mI c) 2
            (Cert.Spec.rowOf (Cert.Spec.gidx (posE mI c (ix2 (batchOf t) (rowOf t l))) (posS mI c (ix2 (batchOf t) q)))) h)
        + Cert.Spec.tblTerm (tbl3 mI c) (wMat mI c) 3
            (Cert.Spec.rowOf (Cert.Spec.gidx (posE mI c (ix2 (batchOf t) (rowOf t l))) (posE mI c (ix2 (batchOf t) q)))) h)
        + (mI ((c : Thread nD τ).loc main_arg5) : FVec Ideal S160 .f32) (ix1 h)) 0
      = Cert.Spec.G (mI ((c : Thread nD τ).loc main_arg0)) (mI ((c : Thread nD τ).loc main_arg1))
          (mI ((c : Thread nD τ).loc main_arg2)) (mI ((c : Thread nD τ).loc main_arg3)) (mI ((c : Thread nD τ).loc main_arg4))
          (mI ((c : Thread nD τ).loc main_arg5)) (mI ((c : Thread nD τ).loc main_arg6)) (mI ((c : Thread nD τ).loc main_arg7))
          (ix4 (batchOf t) (rowOf t l) q h) := by
  rw [Cert.BlockMath.four_tables]
  rfl

/-- THE ENTRY: from a zero accumulator, the four tables' guarded updates in turn, the bias block added, the maximum with
    zero taken, is the specification's value at the entry. -/
theorem entry_eq_G (c : Dev nD) (t : Fin (cfgA mI).N) (l : Fin 40) (q : Fin 200) (h : Fin 160) :
    max (steps (grd mI c t q 3) (prod (fun r : Fin 1024 => (iblk mI c (7 : Fin 10) t (ix2 r h) : EReal))
            (Cert.Spec.gidx (posE mI c (ix2 (batchOf t) (rowOf t l))) (posE mI c (ix2 (batchOf t) q))))
          (steps (grd mI c t q 2) (prod (fun r : Fin 1024 => (iblk mI c (6 : Fin 10) t (ix2 r h) : EReal))
            (Cert.Spec.gidx (posE mI c (ix2 (batchOf t) (rowOf t l))) (posS mI c (ix2 (batchOf t) q))))
          (steps (grd mI c t q 1) (prod (fun r : Fin 1024 => (iblk mI c (5 : Fin 10) t (ix2 r h) : EReal))
            (Cert.Spec.gidx (posS mI c (ix2 (batchOf t) (rowOf t l))) (posE mI c (ix2 (batchOf t) q))))
          (steps (grd mI c t q 0) (prod (fun r : Fin 1024 => (iblk mI c (4 : Fin 10) t (ix2 r h) : EReal))
            (Cert.Spec.gidx (posS mI c (ix2 (batchOf t) (rowOf t l))) (posS mI c (ix2 (batchOf t) q)))) 0)))
        + (iblk mI c (8 : Fin 10) t (ix1 h) : EReal)) 0
      = Cert.Spec.G (mI ((c : Thread nD τ).loc main_arg0)) (mI ((c : Thread nD τ).loc main_arg1))
          (mI ((c : Thread nD τ).loc main_arg2)) (mI ((c : Thread nD τ).loc main_arg3)) (mI ((c : Thread nD τ).loc main_arg4))
          (mI ((c : Thread nD τ).loc main_arg5)) (mI ((c : Thread nD τ).loc main_arg6)) (mI ((c : Thread nD τ).loc main_arg7))
          (ix4 (batchOf t) (rowOf t l) q h) := by
  rw [table0_steps mI c t l q h, table1_steps mI c t l q h, table2_steps mI c t l q h, table3_steps mI c t l q h,
    bias_entry mI c t h]
  exact value_eq_G mI c t l q h

end Cert.KernelIdeal.Frm

end
-- ==== Proof.PayloadVals.lean ====
/-
  The kernel body's payloads read at an index, at the ideal values.

  Sixty-four of the body's payloads have one shape: the accumulator block plus the product of a one-hot array with a
  256-row chunk of a pre-multiplied table. The one-hot array compares, for each of the 40 × 50 index words of a slice
  of the index block, the word minus the chunk's first row with the lane number 0 … 255. At entry (l, mm, h) such a payload
  is the accumulator's entry plus Σ_{j<256} [w − lo = j] · chunk[j, h], where w is the index word at (l, mm).
  The other payloads: the zero accumulator, the bias added along the last axis, and the maximum with zero.
-/
import proofs.«408597_j16320875725026_3_alg».proof.Proof.Gen.KernelIdeal.Skeleton
import proofs.«408597_j16320875725026_3_alg».proof.Proof.BlockMath
import proofs.«408597_j16320875725026_3_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen

open Idealize.ShloMosaic Idealize.ShloMosaic.ValueIdx

/-! ## The shape shared by the sixty-four updates -/

/-- The lane-number array: at every index, the coordinate along the last axis as a word. -/
def LaneNumbers (v4 : IVec S40x50x256 32) : Prop := ∀ i, v4 i = BitVec.ofNat 32 (i 2).val

/-- The lane-number array the kernel builds is one. -/
theorem iota_lanes : LaneNumbers (iota .tc S40x50x256 32 [2] iota_S40x50x256_d2_w32) :=
  fun i => Cert.BlockMath.iota_apply .tc S40x50x256 2 iota_S40x50x256_d2_w32 i

/-- Column `off + mm` of a 200-column row: the column a 50-column slice at offset `off` reads at `mm`. -/
def col (off : Nat) (mm : Fin 50) (h : off + 50 ≤ 200) : Fin 200 := ⟨off + mm.val, by omega⟩

/-- The product of one index word's one-hot row with column `h` of a 256-row chunk. -/
def chunkSum (w lo : BitVec 32) (v451 : FVec Ideal S256x160 .f32) (h : Fin 160) : EReal :=
  ∑ j : Fin 256, (if w - lo = BitVec.ofNat 32 j.val then (1 : EReal) else 0) * v451 (ix2 j h)

section Shape
variable {F : FTy → Type} [FloatOps F]

/-- One update: the accumulator block plus the one-hot array of the 40 × 50 index words `idx` (each minus `lo`, against the
    lane numbers `v4`) times the chunk `v451`. -/
def upd (v4 : IVec S40x50x256 32) (idx : IVec S40x50 32) (lo : BitVec 32) (v451 : Vec F S256x160 .f32)
    (v455 : Vec F S40x50x160 .f32) : FVec F S40x50x160 .f32 :=
  shapeCast S40x50x160
    (addf v455
      (shapeCast S40x50x160
        (matmul dot_S2000x256_S256x160_S2000x160_1_0_0_1_n_n none
          (shapeCast S2000x256
            (truncf .bf16
              (sitofp .f32
                (extui 32
                  (cmpi .eq
                    (broadcastTo S40x50x256
                      (subi (shapeCast S40x50x1 idx shapeCasts_S40x50_S40x50x1) (broadcast S40x50x1 lo))
                      broadcasts_S40x50x1_S40x50x256)
                    v4)
                  natLt_1_32))
              bitsLt_bf16_f32)
            shapeCasts_S40x50x256_S2000x256)
          (truncf .bf16 (shapeCast S256x160 v451 shapeCasts_S256x160_S256x160) bitsLt_bf16_f32)
          (constant S2000x160 .f32 0x00000000#32))
        shapeCasts_S2000x160_S40x50x160))
    shapeCasts_S40x50x160_S40x50x160

end Shape

/-- The word array compared with the lane numbers, at (l, mm, j): the index word at (l, mm) minus `lo`. -/
theorem word_apply (idx : IVec S40x50 32) (lo : BitVec 32) (l : Fin 40) (mm : Fin 50) (j : Fin 256) :
    broadcastTo S40x50x256 (subi (shapeCast S40x50x1 idx shapeCasts_S40x50_S40x50x1) (broadcast S40x50x1 lo))
        broadcasts_S40x50x1_S40x50x256 (ix3 l mm j) = idx (ix2 l mm) - lo := by
  rw [broadcastTo_apply _ _ _ (ix3 l mm (0 : Fin 1))
    (fun a => match a with | ⟨0, _⟩ => rfl | ⟨1, _⟩ => rfl | ⟨2, _⟩ => rfl)]
  show IntOp.subi (shapeCast S40x50x1 idx shapeCasts_S40x50_S40x50x1 (ix3 l mm (0 : Fin 1))) lo = _
  rw [shapeCast_apply idx shapeCasts_S40x50_S40x50x1 (ix3 l mm (0 : Fin 1)) (ix2 l mm) (by
    rw [Shape.rowMajor_val_two, Shape.rowMajor_val_three]
    show l.val * 50 + mm.val = (l.val * 50 + mm.val) * 1 + 0
    omega)]
  rfl

/-- THE UPDATE AT AN ENTRY: the accumulator's entry plus the one-hot row of the index word at (l, mm) against column h of
    the chunk. -/
theorem upd_apply (v4 : IVec S40x50x256 32) (hv4 : LaneNumbers v4) (idx : IVec S40x50 32) (lo : BitVec 32)
    (v451 : FVec Ideal S256x160 .f32) (v455 : FVec Ideal S40x50x160 .f32) (l : Fin 40) (mm : Fin 50) (h : Fin 160) :
    upd (F := Ideal) v4 idx lo v451 v455 (ix3 l mm h) = v455 (ix3 l mm h) + chunkSum (idx (ix2 l mm)) lo v451 h := by
  unfold upd chunkSum
  rw [shapeCast_self, addf_apply]
  congr 1
  rw [shapeCast_apply _ shapeCasts_S2000x160_S40x50x160 (ix3 l mm h)
    (ix2 (⟨l.val * 50 + mm.val, by omega⟩ : Fin 2000) h) (by
      rw [Shape.rowMajor_val_two, Shape.rowMajor_val_three]; rfl)]
  show FloatOps.matmul (DotDims.plain 2000 256 160) none _ _ (constant ⟨2, ![2000, 160]⟩ .f32 0x00000000#32)
    (ix2 (⟨l.val * 50 + mm.val, by omega⟩ : Fin 2000) h) = _
  rw [Cert.Lib.Matmul.matmul_zero_apply]
  refine Finset.sum_congr rfl fun j _ => ?_
  congr 1
  · rw [shapeCast_apply _ shapeCasts_S40x50x256_S2000x256 (ix2 (⟨l.val * 50 + mm.val, by omega⟩ : Fin 2000) j)
      (ix3 l mm j) (by rw [Shape.rowMajor_val_two, Shape.rowMajor_val_three]; rfl)]
    rw [Cert.BlockMath.onehot_apply, word_apply, hv4]
  · rw [truncf_apply, shapeCast_self]

/-! ## The index slices -/

/-- A 50-column slice at column offset `off` of a 40 × 200 word array, at (l, mm): the array at (l, off + mm). -/
theorem slice_apply (x : IVec S40x200 32) (off : Nat) (hs : S40x200.Slices ![0, off] S40x50) (hoff : off + 50 ≤ 200)
    (l : Fin 40) (mm : Fin 50) :
    extractStridedSlice S40x50 ![0, off] x hs (ix2 l mm) = x (ix2 l (col off mm hoff)) := by
  show x _ = x _
  congr 1
  funext a
  match a with
  | ⟨0, _⟩ => exact Fin.ext (Nat.zero_add _)
  | ⟨1, _⟩ => rfl

/-- A [1, 40, 200] index block with its unit axis dropped, at (l, q): the block at (0, l, q). -/
theorem squeeze_apply (v8 : IVec S1x40x200 32) (l : Fin 40) (q : Fin 200) :
    shapeCast S40x200 v8 shapeCasts_S1x40x200_S40x200 (ix2 l q) = v8 (ix3 (0 : Fin 1) l q) :=
  shapeCast_1ab_ab_apply v8 shapeCasts_S1x40x200_S40x200 l q

/-- The first 50 columns of a raw index block, at (l, mm): the block at (0, l, mm). -/
theorem raw_slice_apply (v8 : IVec S1x40x200 32) (l : Fin 40) (mm : Fin 50) :
    extractStridedSlice S40x50 ![0, 0] (shapeCast S40x200 v8 shapeCasts_S1x40x200_S40x200) slices_S40x200_o0_0_S40x50 (ix2 l mm)
      = v8 (ix3 (0 : Fin 1) l (col 0 mm (by omega))) := by
  rw [slice_apply _ 0 _ (by omega), squeeze_apply]

/-- States one "unit axis dropped" payload at an index. -/
local macro "squeeze_payload" n:ident p:ident : command =>
  `(theorem $n (v8 : IVec S1x40x200 32) (l : Fin 40) (q : Fin 200) :
      $p (F := Ideal) v8 (ix2 l q) = v8 (ix3 (0 : Fin 1) l q) := squeeze_apply v8 l q)

/-- States one "first 50 columns of a raw block" payload at an index. -/
local macro "raw_slice_payload" n:ident p:ident : command =>
  `(theorem $n (v8 : IVec S1x40x200 32) (l : Fin 40) (mm : Fin 50) :
      $p (F := Ideal) v8 (ix2 l mm) = v8 (ix3 (0 : Fin 1) l (col 0 mm (by omega))) := raw_slice_apply v8 l mm)

/-- States one "50 columns at an offset" payload at an index. -/
local macro "slice_payload" n:ident p:ident off:num : command =>
  `(theorem $n (x : IVec S40x200 32) (l : Fin 40) (mm : Fin 50) :
      $p x (ix2 l mm) = x (ix2 l (col $off mm (by omega))) := slice_apply x $off (by decide) (by omega) l mm)

squeeze_payload pay3_apply k0_pay3
squeeze_payload pay24_apply k0_pay24
squeeze_payload pay45_apply k0_pay45
squeeze_payload pay66_apply k0_pay66
raw_slice_payload pay4_apply k0_pay4
raw_slice_payload pay25_apply k0_pay25
raw_slice_payload pay46_apply k0_pay46
raw_slice_payload pay67_apply k0_pay67
slice_payload pay9_apply k0_pay9 50
slice_payload pay14_apply k0_pay14 100
slice_payload pay19_apply k0_pay19 150
slice_payload pay30_apply k0_pay30 50
slice_payload pay35_apply k0_pay35 100
slice_payload pay40_apply k0_pay40 150
slice_payload pay51_apply k0_pay51 50
slice_payload pay56_apply k0_pay56 100
slice_payload pay61_apply k0_pay61 150
slice_payload pay72_apply k0_pay72 50
slice_payload pay77_apply k0_pay77 100
slice_payload pay82_apply k0_pay82 150

/-! ## The sixty-four updates at an entry

Each line names a payload, how it reaches its 40 × 50 index words (a raw block's first 50 columns; 50 columns of a
40 × 200 array at an offset; or the 40 × 50 array itself) and its chunk's first row. -/

/-- A payload that builds the lane numbers itself and reads the first 50 columns of a raw index block. -/
local macro "update_raw_own_lanes" n:ident p:ident s:ident lo:term : command =>
  `(theorem $n (v8 : IVec S1x40x200 32) (v451 : FVec Ideal S256x160 .f32) (v455 : FVec Ideal S40x50x160 .f32) (l : Fin 40) (mm : Fin 50) (h : Fin 160) :
      $p (F := Ideal) v8 v451 v455 (ix3 l mm h)
        = v455 (ix3 l mm h) + chunkSum (v8 (ix3 (0 : Fin 1) l (col 0 mm (by omega)))) $lo v451 h :=
    (upd_apply _ iota_lanes ($s (F := Ideal) v8) $lo v451 v455 l mm h).trans
      (congrArg (fun w => v455 (ix3 l mm h) + chunkSum w $lo v451 h) (raw_slice_apply v8 l mm)))

/-- A payload given the lane numbers that reads the first 50 columns of a raw index block. -/
local macro "update_raw" n:ident p:ident s:ident lo:term : command =>
  `(theorem $n (v4 : IVec S40x50x256 32) (hv4 : LaneNumbers v4) (v8 : IVec S1x40x200 32) (v451 : FVec Ideal S256x160 .f32) (v455 : FVec Ideal S40x50x160 .f32) (l : Fin 40) (mm : Fin 50) (h : Fin 160) :
      $p (F := Ideal) v4 v8 v451 v455 (ix3 l mm h)
        = v455 (ix3 l mm h) + chunkSum (v8 (ix3 (0 : Fin 1) l (col 0 mm (by omega)))) $lo v451 h :=
    (upd_apply v4 hv4 ($s (F := Ideal) v8) $lo v451 v455 l mm h).trans
      (congrArg (fun w => v455 (ix3 l mm h) + chunkSum w $lo v451 h) (raw_slice_apply v8 l mm)))

/-- A payload given the lane numbers that reads 50 columns at an offset of a 40 × 200 index array. -/
local macro "update_wide" n:ident p:ident s:ident off:num lo:term : command =>
  `(theorem $n (v4 : IVec S40x50x256 32) (hv4 : LaneNumbers v4) (x : IVec S40x200 32) (v451 : FVec Ideal S256x160 .f32) (v455 : FVec Ideal S40x50x160 .f32) (l : Fin 40) (mm : Fin 50) (h : Fin 160) :
      $p (F := Ideal) v4 x v451 v455 (ix3 l mm h)
        = v455 (ix3 l mm h) + chunkSum (x (ix2 l (col $off mm (by omega)))) $lo v451 h :=
    (upd_apply v4 hv4 ($s x) $lo v451 v455 l mm h).trans
      (congrArg (fun w => v455 (ix3 l mm h) + chunkSum w $lo v451 h) (slice_apply x $off (by decide) (by omega) l mm)))

/-- A payload given the lane numbers and the 40 × 50 index words themselves. -/
local macro "update_narrow" n:ident p:ident lo:term : command =>
  `(theorem $n (v4 : IVec S40x50x256 32) (hv4 : LaneNumbers v4) (idx : IVec S40x50 32) (v451 : FVec Ideal S256x160 .f32) (v455 : FVec Ideal S40x50x160 .f32) (l : Fin 40) (mm : Fin 50) (h : Fin 160) :
      $p (F := Ideal) v4 idx v451 v455 (ix3 l mm h) = v455 (ix3 l mm h) + chunkSum (idx (ix2 l mm)) $lo v451 h :=
    upd_apply v4 hv4 idx $lo v451 v455 l mm h)

update_raw_own_lanes pay5_apply k0_pay5 k0_pay4 0#32
update_raw_own_lanes pay6_apply k0_pay6 k0_pay4 256#32
update_raw_own_lanes pay7_apply k0_pay7 k0_pay4 512#32
update_narrow pay8_apply k0_pay8 768#32
update_wide pay10_apply k0_pay10 k0_pay9 50 0#32
update_wide pay11_apply k0_pay11 k0_pay9 50 256#32
update_wide pay12_apply k0_pay12 k0_pay9 50 512#32
update_wide pay13_apply k0_pay13 k0_pay9 50 768#32
update_narrow pay15_apply k0_pay15 0#32
update_narrow pay16_apply k0_pay16 256#32
update_narrow pay17_apply k0_pay17 512#32
update_narrow pay18_apply k0_pay18 768#32
update_wide pay20_apply k0_pay20 k0_pay19 150 0#32
update_narrow pay21_apply k0_pay21 256#32
update_narrow pay22_apply k0_pay22 512#32
update_narrow pay23_apply k0_pay23 768#32
update_raw pay26_apply k0_pay26 k0_pay25 0#32
update_raw pay27_apply k0_pay27 k0_pay25 256#32
update_narrow pay28_apply k0_pay28 512#32
update_narrow pay29_apply k0_pay29 768#32
update_wide pay31_apply k0_pay31 k0_pay30 50 0#32
update_wide pay32_apply k0_pay32 k0_pay30 50 256#32
update_wide pay33_apply k0_pay33 k0_pay30 50 512#32
update_wide pay34_apply k0_pay34 k0_pay30 50 768#32
update_narrow pay36_apply k0_pay36 0#32
update_narrow pay37_apply k0_pay37 256#32
update_narrow pay38_apply k0_pay38 512#32
update_narrow pay39_apply k0_pay39 768#32
update_wide pay41_apply k0_pay41 k0_pay40 150 0#32
update_narrow pay42_apply k0_pay42 256#32
update_narrow pay43_apply k0_pay43 512#32
update_narrow pay44_apply k0_pay44 768#32
update_raw pay47_apply k0_pay47 k0_pay46 0#32
update_raw pay48_apply k0_pay48 k0_pay46 256#32
update_narrow pay49_apply k0_pay49 512#32
update_narrow pay50_apply k0_pay50 768#32
update_wide pay52_apply k0_pay52 k0_pay51 50 0#32
update_wide pay53_apply k0_pay53 k0_pay51 50 256#32
update_wide pay54_apply k0_pay54 k0_pay51 50 512#32
update_narrow pay55_apply k0_pay55 768#32
update_wide pay57_apply k0_pay57 k0_pay56 100 0#32
update_wide pay58_apply k0_pay58 k0_pay56 100 256#32
update_wide pay59_apply k0_pay59 k0_pay56 100 512#32
update_wide pay60_apply k0_pay60 k0_pay56 100 768#32
update_narrow pay62_apply k0_pay62 0#32
update_narrow pay63_apply k0_pay63 256#32
update_narrow pay64_apply k0_pay64 512#32
update_narrow pay65_apply k0_pay65 768#32
update_raw pay68_apply k0_pay68 k0_pay67 0#32
update_narrow pay69_apply k0_pay69 256#32
update_narrow pay70_apply k0_pay70 512#32
update_narrow pay71_apply k0_pay71 768#32
update_wide pay73_apply k0_pay73 k0_pay72 50 0#32
update_wide pay74_apply k0_pay74 k0_pay72 50 256#32
update_wide pay75_apply k0_pay75 k0_pay72 50 512#32
update_narrow pay76_apply k0_pay76 768#32
update_wide pay78_apply k0_pay78 k0_pay77 100 0#32
update_wide pay79_apply k0_pay79 k0_pay77 100 256#32
update_wide pay80_apply k0_pay80 k0_pay77 100 512#32
update_wide pay81_apply k0_pay81 k0_pay77 100 768#32
update_narrow pay83_apply k0_pay83 0#32
update_narrow pay84_apply k0_pay84 256#32
update_narrow pay85_apply k0_pay85 512#32
update_narrow pay86_apply k0_pay86 768#32

/-! ## The other payloads -/

/-- The zero accumulator. -/
theorem pay2_apply (j : S40x200x160.Idx) : k0_pay2 (F := Ideal) j = 0 := by
  unfold k0_pay2
  rw [shapeCast_self]
  exact Ideal.ofBits_zero_f32

/-- The zero the result is compared with. -/
theorem pay88_apply (j : S40x200x160.Idx) : k0_pay88 (F := Ideal) j = 0 := Ideal.ofBits_zero_f32

/-- The accumulator plus the bias, laid along the last axis. -/
theorem pay87_apply (v432 : FVec Ideal S160 .f32) (v433 : FVec Ideal S40x200x160 .f32) (l : Fin 40) (m' : Fin 200)
    (h : Fin 160) : k0_pay87 (F := Ideal) v432 v433 (ix3 l m' h) = v433 (ix3 l m' h) + v432 (ix1 h) := by
  unfold k0_pay87
  rw [addf_apply]
  congr 1
  rw [broadcastTo_apply _ _ _ (ix3 (0 : Fin 1) (0 : Fin 1) h)
    (fun a => match a with | ⟨0, _⟩ => rfl | ⟨1, _⟩ => rfl | ⟨2, _⟩ => rfl)]
  exact shapeCast_apply v432 shapeCasts_S160_S1x1x160 _ (ix1 h) (by
    rw [Shape.rowMajor_val_one, Shape.rowMajor_val_three]
    show h.val = (0 * 1 + 0) * 160 + h.val
    omega)

/-- The maximum of two blocks, with a leading unit axis added. -/
theorem pay1_apply (v436 v437 : FVec Ideal S40x200x160 .f32) (l : Fin 40) (m' : Fin 200) (h : Fin 160) :
    k0_pay1 (F := Ideal) v436 v437 (ix4 (0 : Fin 1) l m' h) = max (v436 (ix3 l m' h)) (v437 (ix3 l m' h)) := by
  unfold k0_pay1
  rw [shapeCast_abc_1abc_apply, maximumf_apply]

end Cert.KernelIdeal.Pay

end
-- ==== Proof.GuardRead.lean ====
/-
  One guarded slice update of the accumulator, read back at an entry.

  A block of the kernel body stores, under a guard bit, a 40 × 50 × 160 payload into columns [off, off + 50) of the
  40 × 200 × 160 accumulator. The contents it leaves are "the write over the previous contents" if the guard bit is set
  and the previous contents otherwise. Read at entry (l, m', h): the payload at (l, m' − off, h) when the guard bit is set
  and off ≤ m' < off + 50, and the previous contents' entry in every other case. The loads a block makes read, through a
  unit-stride rectangle, the array at the rectangle's offset plus the local index.
-/
import proofs.«408597_j16320875725026_3_alg».proof.Proof.PayloadVals
import Idealize.ShloMosaic.Lib.WritesUnit
import Idealize.ShloMosaic.Lib.Pipeline.FrameBody

noncomputable section

namespace Cert.KernelIdeal.Guard

open Cert.KernelIdeal Cert.KernelIdeal.Gen

open Idealize.ShloMosaic Idealize.ShloMosaic.ValueIdx

variable {sg : RefSig} {κ : Kind} {sp : Space} {Val : EltTy → Type}

/-! ## The loads -/

/-- A 40 × 50 × 160 slice of the accumulator at column offset `off`, at (l, mm, h): the accumulator at (l, off + mm, h). -/
theorem ld_acc (R : S40x200x160.Idx → Val .f32) (off : Nat) (hoff : off + 50 ≤ 200)
    (inb : ∀ a, (![0, off, 0] : Fin 3 → Nat) a + S40x50x160.size a ≤ S40x200x160.size a) (l : Fin 40) (mm : Fin 50) (h : Fin 160) :
    View.ld R (Rect.unit (s := S40x200x160) ![0, off, 0] S40x50x160.size inb) (ix3 l mm h)
      = R (ix3 l (⟨off + mm.val, by omega⟩ : Fin 200) h) := by
  show R _ = R _
  congr 1
  funext a
  match a with
  | ⟨0, _⟩ => exact Fin.ext (by show 0 + 1 * l.val = l.val; omega)
  | ⟨1, _⟩ => exact Fin.ext (by show off + 1 * mm.val = off + mm.val; omega)
  | ⟨2, _⟩ => exact Fin.ext (by show 0 + 1 * h.val = h.val; omega)

/-- A 256-row chunk of a table at row offset `o`, at (j, h): the table at (o + j, h). -/
theorem ld_tbl (X : S1024x160.Idx → Val .f32) (o : Nat) (ho : o + 256 ≤ 1024)
    (inb : ∀ a, (![o, 0] : Fin 2 → Nat) a + S256x160.size a ≤ S1024x160.size a) (j : Fin 256) (h : Fin 160) :
    View.ld X (Rect.unit (s := S1024x160) ![o, 0] S256x160.size inb) (ix2 j h) = X (ix2 (⟨o + j.val, by omega⟩ : Fin 1024) h) := by
  show X _ = X _
  congr 1
  funext a
  match a with
  | ⟨0, _⟩ => exact Fin.ext (by show o + 1 * j.val = o + j.val; omega)
  | ⟨1, _⟩ => exact Fin.ext (by show 0 + 1 * h.val = h.val; omega)

/-- The whole [1, 40, 200] index block, loaded through the whole-shape rectangle, is the block. -/
theorem ld_idx (X : S1x40x200.Idx → Val .i32) (inb : ∀ a, (![0, 0, 0] : Fin 3 → Nat) a + S1x40x200.size a ≤ S1x40x200.size a) :
    View.ld X (Rect.unit (s := S1x40x200) ![0, 0, 0] S1x40x200.size inb) = X :=
  View.ld_unit_zero (funext fun a => match a with | ⟨0, _⟩ => rfl | ⟨1, _⟩ => rfl | ⟨2, _⟩ => rfl) inb X

/-! ## One guarded update read at an entry -/

section Read
variable (v : View sg κ sp S40x200x160 .f32)

/-- THE GUARDED UPDATE AT AN ENTRY, over any earlier writes `L`: where the guard bit is set and the column lies in the
    slice, the payload at the local index; everywhere else what the earlier writes left. -/
theorem read_guarded_cons (g : BitVec 1) (A : v.ty.Contents Val) (off : Nat) (hoff : off + 50 ≤ 200)
    (inb : ∀ a, (![0, off, 0] : Fin 3 → Nat) a + S40x50x160.size a ≤ S40x200x160.size a)
    (P : (Rect.unit (s := S40x200x160) ![0, off, 0] S40x50x160.size inb).shape.Idx → Val .f32)
    (L : List (View.Piece Val S40x200x160 .f32)) (l : Fin 40) (m' : Fin 200) (h : Fin 160) :
    v.read Val (if hc : g = 1#1 then v.writes Val A (⟨Rect.unit (s := S40x200x160) ![0, off, 0] S40x50x160.size inb, P⟩ :: L)
        else v.writes Val A L) (ix3 l m' h)
      = if hm : g = 1#1 ∧ off ≤ m'.val ∧ m'.val < off + 50 then P (ix3 l (⟨m'.val - off, by omega⟩ : Fin 50) h)
        else v.read Val (v.writes Val A L) (ix3 l m' h) := by
  by_cases hg : g = 1#1
  · rw [dif_pos hg]
    by_cases hin : off ≤ m'.val ∧ m'.val < off + 50
    · rw [dif_pos ⟨hg, hin⟩]
      exact View.read_writes_cons_unit_of_mem v A inb P L (ix3 l m' h) (ix3 l (⟨m'.val - off, by omega⟩ : Fin 50) h) rfl
        (fun a => match a with
          | ⟨0, _⟩ => (Nat.zero_add _).symm
          | ⟨1, _⟩ => by show m'.val = off + (m'.val - off); omega
          | ⟨2, _⟩ => (Nat.zero_add _).symm)
    · rw [dif_neg (fun hh => hin hh.2)]
      exact View.read_writes_cons_unit_of_not_mem v A inb P L (ix3 l m' h) rfl (1 : Fin 3)
        (by show m'.val < off ∨ off + 50 ≤ m'.val; omega)
  · rw [dif_neg hg, dif_neg (fun hh => hg hh.1)]

/-- The same over previous contents `A` with no earlier writes named: the shape every block after the first leaves. -/
theorem read_guarded (g : BitVec 1) (A : v.ty.Contents Val) (off : Nat) (hoff : off + 50 ≤ 200)
    (inb : ∀ a, (![0, off, 0] : Fin 3 → Nat) a + S40x50x160.size a ≤ S40x200x160.size a)
    (P : (Rect.unit (s := S40x200x160) ![0, off, 0] S40x50x160.size inb).shape.Idx → Val .f32)
    (l : Fin 40) (m' : Fin 200) (h : Fin 160) :
    v.read Val (if hc : g = 1#1 then v.writes Val A [⟨Rect.unit (s := S40x200x160) ![0, off, 0] S40x50x160.size inb, P⟩] else A)
        (ix3 l m' h)
      = if hm : g = 1#1 ∧ off ≤ m'.val ∧ m'.val < off + 50 then P (ix3 l (⟨m'.val - off, by omega⟩ : Fin 50) h)
        else v.read Val A (ix3 l m' h) :=
  read_guarded_cons v g A off hoff inb P [] l m' h

end Read

/-! ## One guarded update as arithmetic, at the ideal values -/

section Step
variable (v : View sg κ sp S40x200x160 .f32)

/-- What the accumulator's contents read, as an array of extended reals. -/
abbrev acc (A : v.ty.Contents (Elt Ideal)) : FVec Ideal S40x200x160 .f32 := v.read (Elt Ideal) A

/-- If the payload is "the loaded slice of the previous contents plus `d`", the guarded update adds `d` at the entries of the
    slice when the guard bit is set and changes nothing otherwise. -/
theorem step_guarded (g : BitVec 1) (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (d : Fin 40 → Fin 50 → Fin 160 → EReal)
    (hP : ∀ l mm h, P (ix3 l mm h)
      = View.ld (Val := Elt Ideal) (e' := EltTy.f32) (acc v A) (Rect.unit (s := S40x200x160) ![0, off, 0] S40x50x160.size inb) (ix3 l mm h) + d l mm h)
    (l : Fin 40) (m' : Fin 200) (h : Fin 160) :
    acc v (if hc : g = 1#1 then v.writes (Elt Ideal) A [⟨Rect.unit (s := S40x200x160) ![0, off, 0] S40x50x160.size inb, P⟩] else A)
        (ix3 l m' h)
      = if hm : g = 1#1 ∧ off ≤ m'.val ∧ m'.val < off + 50 then acc v A (ix3 l m' h) + d l (⟨m'.val - off, by omega⟩ : Fin 50) h
        else acc v A (ix3 l m' h) := by
  show v.read (Elt Ideal) _ (ix3 l m' h) = _
  rw [read_guarded v g A off hoff inb P l m' h]
  by_cases hm : g = 1#1 ∧ off ≤ m'.val ∧ m'.val < off + 50
  · rw [dif_pos hm, dif_pos hm, hP, ld_acc (Val := Elt Ideal) (acc v A) off hoff inb]
    congr 3
    exact Fin.ext (by show off + (m'.val - off) = m'.val; omega)
  · rw [dif_neg hm, dif_neg hm]

end Step

/-! ## The update folded into one step

So that many updates chain as nested applications, with the previous entry occurring once. -/

/-- One conditional addition. -/
def gstep (C : Prop) [Decidable C] (d x : EReal) : EReal := if C then x + d else x

/-- A guarded update is the identity when the condition fails and adds `d` when it holds. -/
theorem gstep_pos {C : Prop} [Decidable C] (hC : C) (d x : EReal) : gstep C d x = x + d := if_pos hC
theorem gstep_neg {C : Prop} [Decidable C] (hC : ¬C) (d x : EReal) : gstep C d x = x := if_neg hC

/-- The four-chunk step of one table is a conditional addition. -/
theorem step_eq_gstep (g : Fin 4 → Prop) [DecidablePred g] (d : Fin 4 → EReal) (c : Fin 4) (x : EReal) :
    Cert.BlockMath.step g d c x = gstep (g c) (d c) x := rfl

section Fold
variable (v : View sg κ sp S40x200x160 .f32)

/-- INSIDE the block's 50 columns: the entry after the block is one conditional addition applied to the entry before. -/
theorem step_guarded_in (g : BitVec 1) (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (d : Fin 40 → Fin 50 → Fin 160 → EReal)
    (hP : ∀ l mm h, P (ix3 l mm h)
      = View.ld (Val := Elt Ideal) (e' := EltTy.f32) (acc v A) (Rect.unit (s := S40x200x160) ![0, off, 0] S40x50x160.size inb) (ix3 l mm h) + d l mm h)
    (l : Fin 40) (mm : Fin 50) (h : Fin 160) :
    acc v (if hc : g = 1#1 then v.writes (Elt Ideal) A [⟨Rect.unit (s := S40x200x160) ![0, off, 0] S40x50x160.size inb, P⟩] else A)
        (ix3 l (Cert.KernelIdeal.Pay.col off mm hoff) h)
      = gstep (g = 1#1) (d l mm h) (acc v A (ix3 l (Cert.KernelIdeal.Pay.col off mm hoff) h)) := by
  rw [step_guarded v g A off hoff inb P d hP l (Cert.KernelIdeal.Pay.col off mm hoff) h]
  have hin : off ≤ (Cert.KernelIdeal.Pay.col off mm hoff).val ∧ (Cert.KernelIdeal.Pay.col off mm hoff).val < off + 50 := by
    show off ≤ off + mm.val ∧ off + mm.val < off + 50
    omega
  have hmm : (⟨(Cert.KernelIdeal.Pay.col off mm hoff).val - off, by omega⟩ : Fin 50) = mm :=
    Fin.ext (by show off + mm.val - off = mm.val; omega)
  unfold gstep
  by_cases hg : g = 1#1
  · rw [dif_pos ⟨hg, hin⟩, if_pos hg, hmm]
  · rw [dif_neg (fun hh => hg hh.1), if_neg hg]

/-- OUTSIDE the block's 50 columns the entry is unchanged. -/
theorem step_guarded_out (g : BitVec 1) (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (l : Fin 40) (m' : Fin 200) (h : Fin 160) (hout : m'.val < off ∨ off + 50 ≤ m'.val) :
    acc v (if hc : g = 1#1 then v.writes (Elt Ideal) A [⟨Rect.unit (s := S40x200x160) ![0, off, 0] S40x50x160.size inb, P⟩] else A)
        (ix3 l m' h) = acc v A (ix3 l m' h) := by
  show v.read (Elt Ideal) _ (ix3 l m' h) = _
  rw [read_guarded v g A off hoff inb P l m' h, dif_neg (fun hh => by omega)]

end Fold

section FoldTotal
variable (v : View sg κ sp S40x200x160 .f32)

/-- ONE LEMMA FOR BOTH CASES, total in the column: the entry after the block is one conditional addition applied to the
    entry before, the condition being "the guard bit is set and the column lies in the block's 50 columns"; the added
    term is indexed by the column's position modulo 50, which inside the block is its position in the slice. -/
theorem fold_guarded (g : BitVec 1) (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (d : Fin 40 → Fin 50 → Fin 160 → EReal)
    (hP : ∀ l mm h, P (ix3 l mm h)
      = View.ld (Val := Elt Ideal) (e' := EltTy.f32) (acc v A) (Rect.unit (s := S40x200x160) ![0, off, 0] S40x50x160.size inb) (ix3 l mm h) + d l mm h)
    (l : Fin 40) (m' : Fin 200) (h : Fin 160) :
    v.read (Elt Ideal) (if hc : g = 1#1 then v.writes (Elt Ideal) A [⟨Rect.unit (s := S40x200x160) ![0, off, 0] S40x50x160.size inb, P⟩] else A)
        (ix3 l m' h)
      = gstep (g = 1#1 ∧ off ≤ m'.val ∧ m'.val < off + 50)
          (d l (⟨(m'.val - off) % 50, Nat.mod_lt _ (by decide)⟩ : Fin 50) h) (v.read (Elt Ideal) A (ix3 l m' h)) := by
  have e := step_guarded v g A off hoff inb P d hP l m' h
  unfold acc at e
  rw [e]
  unfold gstep
  by_cases hm : g = 1#1 ∧ off ≤ m'.val ∧ m'.val < off + 50
  · rw [dif_pos hm, if_pos hm]
    have hmod : (⟨m'.val - off, by omega⟩ : Fin 50) = ⟨(m'.val - off) % 50, Nat.mod_lt _ (by decide)⟩ :=
      Fin.ext (Nat.mod_eq_of_lt (by omega)).symm
    rw [hmod]
  · rw [dif_neg hm, if_neg hm]

end FoldTotal

end Cert.KernelIdeal.Guard

end
-- ==== Proof.AccAbbrevs.lean ====
/-
  Two spellings shared by the readings of the kernel body's parts: a 256-row chunk of a table as the load reads it,
  and the word of a bound table at a printed offset as the scalar load reads it.
-/
import proofs.«408597_j16320875725026_3_alg».proof.Proof.Gen.KernelIdeal
import Idealize.ShloMosaic.Lib.Pipeline.FrameBody
import Idealize.ShloMosaic.PureOps.Ideal

noncomputable section

namespace Cert.KernelIdeal.Body

open Cert.KernelIdeal Cert.KernelIdeal.Gen

open Idealize.ShloMosaic

/-- The 256-row chunk of a table at row offset `o`, as a load through the unit-stride rectangle there reads it. -/
abbrev tb (x : Vec Ideal S1024x160 .f32) (o : Nat)
    (inb : ∀ a, (![o, 0] : Fin 2 → Nat) a + S256x160.size a ≤ S1024x160.size a) : FVec Ideal S256x160 .f32 :=
  View.ld (Val := Elt Ideal) (e' := EltTy.f32) x (Rect.unit (s := S1024x160) ![o, 0] S256x160.size inb)

/-- The word of a bound table at a printed offset, as a scalar load of the one element there reads it. -/
abbrev wd (x : Vec Ideal S80x4 .i32) (off : Fin 2 → Nat) (inb : ∀ a, off a + S1x1.size a ≤ S80x4.size a) : BitVec 32 :=
  View.ld (Val := Elt Ideal) (e' := EltTy.i32) x (Rect.unit (s := S80x4) off S1x1.size inb)
    (Shape.Idx.first (numel1_S1x1.symm ▸ Nat.one_pos))

end Cert.KernelIdeal.Body

end
-- ==== Proof.ValueInner.lean ====
/-
  From the kernel body's value as sixteen groups of four guarded updates to the specification's value at an entry.

  The body's sixty-four guarded updates, in program order, are sixteen groups of four: table k (0 … 3) on the 50-column
  slice at offset 50 mc (mc = 0 … 3), one update per chunk of 256 rows, all four under guard bits computed from the same
  two bound-table words (row 20 (t / 5) + 4 (t % 5) + mc, column k) and over the same index words. Column q lies in
  exactly one slice, mc = q / 50: the twelve groups of the other slices leave the entry as it was, and the four that remain
  are the entry's four guarded steps of the four tables; with the bias added and the maximum with zero taken that is the
  specification's value at batch t / 5, row 40 (t % 5) + l, column q, feature h.
-/
import proofs.«408597_j16320875725026_3_alg».proof.Proof.FrameRunKernelIdeal
import proofs.«408597_j16320875725026_3_alg».proof.Proof.EntryMath
import proofs.«408597_j16320875725026_3_alg».proof.Proof.PayloadVals
import proofs.«408597_j16320875725026_3_alg».proof.Proof.GuardRead
import proofs.«408597_j16320875725026_3_alg».proof.Proof.AccAbbrevs

set_option maxRecDepth 4096

noncomputable section

open scoped BigOperators

/-! ## One group: a table's four updates of one 50-column slice -/

namespace Cert.KernelIdeal.Body

open Cert.KernelIdeal Cert.KernelIdeal.Gen

open Idealize.ShloMosaic Idealize.ShloMosaic.ValueIdx
open Cert.KernelIdeal.Guard

/-- One table's four guarded updates of the 50-column slice at offset off, read at (l, q, h): chunk by chunk of 256 rows,
    under the chunk's guard bit and where column q lies in the slice, the one-hot row of the index word at row l and
    the column's place in the slice against column h of the chunk is added. -/
abbrev tblUpd (vmax vmin : BitVec 32) (off : Nat) (hoff : off + 50 ≤ 200) (xi : Vec Ideal S1x40x200 .i32)
    (X : Vec Ideal S1024x160 .f32) (l : Fin 40) (q : Fin 200) (h : Fin 160) (x : EReal) : EReal :=
  gstep (Scalar.cmpi .ne (Scalar.extui (Scalar.andi (Scalar.cmpi .sge vmax 768#32) (Scalar.cmpi .slt vmin 1024#32))) 0#32 = 1#1 ∧ off ≤ q.val ∧ q.val < off + 50)
      (Cert.KernelIdeal.Pay.chunkSum (xi (ix3 (0 : Fin 1) l (Cert.KernelIdeal.Pay.col off (⟨(q.val - off) % 50, Nat.mod_lt _ (by decide)⟩ : Fin 50) hoff))) 768#32 (tb X 768 inb_S1024x160_S256x160_768_0) h)
    (gstep (Scalar.cmpi .ne (Scalar.extui (Scalar.andi (Scalar.cmpi .sge vmax 512#32) (Scalar.cmpi .slt vmin 768#32))) 0#32 = 1#1 ∧ off ≤ q.val ∧ q.val < off + 50)
      (Cert.KernelIdeal.Pay.chunkSum (xi (ix3 (0 : Fin 1) l (Cert.KernelIdeal.Pay.col off (⟨(q.val - off) % 50, Nat.mod_lt _ (by decide)⟩ : Fin 50) hoff))) 512#32 (tb X 512 inb_S1024x160_S256x160_512_0) h)
    (gstep (Scalar.cmpi .ne (Scalar.extui (Scalar.andi (Scalar.cmpi .sge vmax 256#32) (Scalar.cmpi .slt vmin 512#32))) 0#32 = 1#1 ∧ off ≤ q.val ∧ q.val < off + 50)
      (Cert.KernelIdeal.Pay.chunkSum (xi (ix3 (0 : Fin 1) l (Cert.KernelIdeal.Pay.col off (⟨(q.val - off) % 50, Nat.mod_lt _ (by decide)⟩ : Fin 50) hoff))) 256#32 (tb X 256 inb_S1024x160_S256x160_256_0) h)
    (gstep (Scalar.cmpi .ne (Scalar.extui (Scalar.andi (Scalar.cmpi .sge vmax 0#32) (Scalar.cmpi .slt vmin 256#32))) 0#32 = 1#1 ∧ off ≤ q.val ∧ q.val < off + 50)
      (Cert.KernelIdeal.Pay.chunkSum (xi (ix3 (0 : Fin 1) l (Cert.KernelIdeal.Pay.col off (⟨(q.val - off) % 50, Nat.mod_lt _ (by decide)⟩ : Fin 50) hoff))) 0#32 (tb X 0 inb_S1024x160_S256x160_0_0) h)
      x)))

end Cert.KernelIdeal.Body

namespace Cert.KernelIdeal.Frm

open Cert.KernelIdeal Cert.KernelIdeal.Gen Cert.KernelIdeal.GenP Cert.KernelIdeal.Body

open Idealize.ShloMosaic Idealize.ShloMosaic.TcCoe Idealize.ShloMosaic.ValueIdx
open Idealize.SL.Sem
open Cert.KernelIdeal.Guard

/-! ## A guarded update's column range against the entry's column -/

/-- An update whose 50 columns do not hold column q leaves the entry as it was. -/
theorem gstep_out (G : Prop) [Decidable G] (off q : Nat) (d x : EReal) (hout : q < off ∨ off + 50 ≤ q) :
    gstep (G ∧ off ≤ q ∧ q < off + 50) d x = x :=
  gstep_neg (fun hh => by omega) d x

/-- An update whose 50 columns hold column q is conditional on its guard bit alone. -/
theorem gstep_in (G : Prop) [Decidable G] (off q : Nat) (d x : EReal) (hin : off ≤ q ∧ q < off + 50) :
    gstep (G ∧ off ≤ q ∧ q < off + 50) d x = gstep G d x := by
  unfold gstep
  by_cases hG : G
  · rw [if_pos ⟨hG, hin⟩, if_pos hG]
  · rw [if_neg (fun hh => hG hh.1), if_neg hG]

/-! ## One table's four guarded updates, in the entry's form -/

/-- A 256-row chunk of a table at (j, h) is the table at row o + j. -/
theorem tb_apply (X : Vec Ideal S1024x160 .f32) (o : Nat) (ho : o + 256 ≤ 1024)
    (inb : ∀ a, (![o, 0] : Fin 2 → Nat) a + S256x160.size a ≤ S1024x160.size a) (j : Fin 256) (h : Fin 160) :
    tb X o inb (ix2 j h) = X (ix2 (⟨o + j.val, by omega⟩ : Fin 1024) h) :=
  Cert.KernelIdeal.Guard.ld_tbl (Val := Elt Ideal) X o ho inb j h

/-- The one-hot row of a word against column h of the chunk at row offset 256 cc is the chunk's product of the entry. -/
theorem chunkSum_eq_prod (W : BitVec 32) (X : Vec Ideal S1024x160 .f32) (h : Fin 160) (cc : Fin 4) (lo : BitVec 32)
    (hlo : lo = loW cc) (inb : ∀ a, (![256 * cc.val, 0] : Fin 2 → Nat) a + S256x160.size a ≤ S1024x160.size a) :
    Cert.KernelIdeal.Pay.chunkSum W lo (tb X (256 * cc.val) inb) h
      = ∑ j : Fin 256, (if W - loW cc = BitVec.ofNat 32 j.val then (1 : EReal) else 0)
          * (fun r : Fin 1024 => (X (ix2 r h) : EReal)) ⟨256 * cc.val + j.val, by omega⟩ := by
  subst hlo
  unfold Cert.KernelIdeal.Pay.chunkSum
  refine Finset.sum_congr rfl fun j _ => ?_
  rw [tb_apply X (256 * cc.val) (by omega) inb j h]

/-- The same with the chunk's row offset given as a number equal to 256 cc. -/
theorem chunkSum_eq_prod' (W : BitVec 32) (X : Vec Ideal S1024x160 .f32) (h : Fin 160) (cc : Fin 4) (lo : BitVec 32)
    (hlo : lo = loW cc) (o : Nat) (ho : o = 256 * cc.val)
    (inb : ∀ a, (![o, 0] : Fin 2 → Nat) a + S256x160.size a ≤ S1024x160.size a) :
    Cert.KernelIdeal.Pay.chunkSum W lo (tb X o inb) h
      = ∑ j : Fin 256, (if W - loW cc = BitVec.ofNat 32 j.val then (1 : EReal) else 0)
          * (fun r : Fin 1024 => (X (ix2 r h) : EReal)) ⟨256 * cc.val + j.val, by omega⟩ := by
  subst ho
  exact chunkSum_eq_prod W X h cc lo hlo inb

/-- ONE TABLE AT THE ENTRY: its four guarded updates, conditional on their guard bits alone, are the entry's four guarded
    steps: the printed guard bit of chunk cc is the guard of the two bound words against the chunk's first row and one
    past its last, and the one-hot row against the loaded chunk is the chunk's product. -/
theorem table_gsteps (vmin vmax W : BitVec 32) (X : Vec Ideal S1024x160 .f32) (h : Fin 160) (a : EReal)
    (inb0 : ∀ a, (![0, 0] : Fin 2 → Nat) a + S256x160.size a ≤ S1024x160.size a)
    (inb256 : ∀ a, (![256, 0] : Fin 2 → Nat) a + S256x160.size a ≤ S1024x160.size a)
    (inb512 : ∀ a, (![512, 0] : Fin 2 → Nat) a + S256x160.size a ≤ S1024x160.size a)
    (inb768 : ∀ a, (![768, 0] : Fin 2 → Nat) a + S256x160.size a ≤ S1024x160.size a) :
    gstep (Scalar.cmpi .ne (Scalar.extui (Scalar.andi (Scalar.cmpi .sge vmax 768#32) (Scalar.cmpi .slt vmin 1024#32))) 0#32 = 1#1)
        (Cert.KernelIdeal.Pay.chunkSum W 768#32 (tb X 768 inb768) h)
      (gstep (Scalar.cmpi .ne (Scalar.extui (Scalar.andi (Scalar.cmpi .sge vmax 512#32) (Scalar.cmpi .slt vmin 768#32))) 0#32 = 1#1)
        (Cert.KernelIdeal.Pay.chunkSum W 512#32 (tb X 512 inb512) h)
      (gstep (Scalar.cmpi .ne (Scalar.extui (Scalar.andi (Scalar.cmpi .sge vmax 256#32) (Scalar.cmpi .slt vmin 512#32))) 0#32 = 1#1)
        (Cert.KernelIdeal.Pay.chunkSum W 256#32 (tb X 256 inb256) h)
      (gstep (Scalar.cmpi .ne (Scalar.extui (Scalar.andi (Scalar.cmpi .sge vmax 0#32) (Scalar.cmpi .slt vmin 256#32))) 0#32 = 1#1)
        (Cert.KernelIdeal.Pay.chunkSum W 0#32 (tb X 0 inb0) h) a)))
      = steps (fun cc => Cert.PreFacts.guard vmin vmax (loW cc) (hiW cc) = 1#1)
          (fun cc => ∑ j : Fin 256, (if W - loW cc = BitVec.ofNat 32 j.val then (1 : EReal) else 0)
            * (fun r : Fin 1024 => (X (ix2 r h) : EReal)) ⟨256 * cc.val + j.val, by omega⟩) a := by
  rw [chunkSum_eq_prod' W X h 3 768#32 rfl 768 rfl inb768, chunkSum_eq_prod' W X h 2 512#32 rfl 512 rfl inb512,
    chunkSum_eq_prod' W X h 1 256#32 rfl 256 rfl inb256, chunkSum_eq_prod' W X h 0 0#32 rfl 0 rfl inb0]
  rfl

/-! ## One group against the entry's column -/

/-- A slice that does not hold column q leaves the entry as it was. -/
theorem tblUpd_out (vmax vmin : BitVec 32) (off : Nat) (hoff : off + 50 ≤ 200) (xi : Vec Ideal S1x40x200 .i32)
    (X : Vec Ideal S1024x160 .f32) (l : Fin 40) (q : Fin 200) (h : Fin 160) (x : EReal)
    (hout : q.val < off ∨ off + 50 ≤ q.val) : tblUpd vmax vmin off hoff xi X l q h x = x := by
  unfold tblUpd
  rw [gstep_out _ off q.val _ _ hout, gstep_out _ off q.val _ _ hout, gstep_out _ off q.val _ _ hout,
    gstep_out _ off q.val _ _ hout]

/-- The place of column q in the slice that holds it is q. -/
theorem col_mm (off : Nat) (hoff : off + 50 ≤ 200) (q : Fin 200) (hin : off ≤ q.val ∧ q.val < off + 50) :
    Cert.KernelIdeal.Pay.col off (⟨(q.val - off) % 50, Nat.mod_lt _ (by decide)⟩ : Fin 50) hoff = q :=
  Fin.ext (by show off + (q.val - off) % 50 = q.val; omega)

/-- The slice that holds column q makes the entry's four guarded steps of the table: the index word is the block's at
    (l, q), the guards those of the two bound words. -/
theorem tblUpd_in (vmax vmin : BitVec 32) (off : Nat) (hoff : off + 50 ≤ 200) (xi : Vec Ideal S1x40x200 .i32)
    (X : Vec Ideal S1024x160 .f32) (l : Fin 40) (q : Fin 200) (h : Fin 160) (x : EReal)
    (hin : off ≤ q.val ∧ q.val < off + 50) :
    tblUpd vmax vmin off hoff xi X l q h x
      = steps (fun cc => Cert.PreFacts.guard vmin vmax (loW cc) (hiW cc) = 1#1)
          (fun cc => ∑ j : Fin 256, (if xi (ix3 (0 : Fin 1) l q) - loW cc = BitVec.ofNat 32 j.val then (1 : EReal) else 0)
            * (fun r : Fin 1024 => (X (ix2 r h) : EReal)) ⟨256 * cc.val + j.val, by omega⟩) x := by
  unfold tblUpd
  rw [gstep_in _ off q.val _ _ hin, gstep_in _ off q.val _ _ hin, gstep_in _ off q.val _ _ hin,
    gstep_in _ off q.val _ _ hin, col_mm off hoff q hin]
  exact table_gsteps vmin vmax (xi (ix3 (0 : Fin 1) l q)) X h x _ _ _ _

/-! ## The bound tables' words at the printed offsets -/

/-- The word of a bound table at an offset that is row r, column k. -/
theorem wd_closed (x : Vec Ideal S80x4 .i32) (off : Fin 2 → Nat) (inb : ∀ a, off a + S1x1.size a ≤ S80x4.size a)
    (r : Fin 80) (k : Fin 4) (hoff : off = ![r.val, k.val]) : wd x off inb = x (ix2 r k) := by
  subst hoff
  show x _ = x _
  congr 1
  funext a
  match a with
  | ⟨0, _⟩ => exact Fin.ext (by show r.val + 1 * 0 = r.val; omega)
  | ⟨1, _⟩ => exact Fin.ext (by show k.val + 1 * 0 = k.val; omega)

/-- Grid point t's coordinates: batch t / 5, row tile t % 5. -/
theorem coords_val : ∀ t : Fin grid0.N, ((grid0.coords t) 0).val = t.val / 5 ∧ ((grid0.coords t) 1).val = t.val % 5 := by
  decide +kernel

/-- The word of a bound table at the printed offset of the tile that holds column q, table k, at grid point t. -/
theorem wd_tile (x : Vec Ideal S80x4 .i32) (i : grid0.Coords) (t : Fin 20) (q : Fin 200) (k : Fin 4)
    (hi0 : (i 0).val = t.val / 5) (hi1 : (i 1).val = t.val % 5) (off : Fin 2 → Nat)
    (inb : ∀ a, off a + S1x1.size a ≤ S80x4.size a)
    (hoff : off = ![20 * (i 0).val + 4 * (i 1).val + q.val / 50, k.val]) :
    wd x off inb = x (ix2 (tileRow t q) k) := by
  refine wd_closed x off inb (tileRow t q) k ?_
  rw [hoff, hi0, hi1]
  rfl

/-! ## The entry -/

variable (mI : (ℓ : Loc nD τ sig) → Buf (Elt Ideal) ℓ)

/-- The table of tile minima the pipeline runs at is the one the region finds. -/
theorem adm_min (c : Dev nD) : ((adm mI 0).1 0 : Vec Ideal S80x4 .i32) = V mI c main_v62 := by
  obtain rfl : c = 0 := Subsingleton.elim _ _
  rfl

/-- The table of tile maxima the pipeline runs at is the one the region finds. -/
theorem adm_max (c : Dev nD) : ((adm mI 0).1 1 : Vec Ideal S80x4 .i32) = V mI c main_v63 := by
  obtain rfl : c = 0 := Subsingleton.elim _ _
  rfl

set_option maxHeartbeats 16000000 in
/-- FROM THE SIXTEEN GROUPS TO THE SPECIFICATION'S VALUE: if at grid point t, row l of the tile, column q, feature h the
    body's piece is the sixteen groups over a zero accumulator, the bias added, the maximum with zero taken, then it is
    G at batch t / 5, row 40 (t % 5) + l, column q, feature h. -/
theorem hent_of (c : Dev nD) (t : Fin (cfgA mI).N) (l : Fin 40) (q : Fin 200) (h : Fin 160)
    (hK : View.canon (K mI c t).1 (ix4 (0 : Fin 1) l q h)
      = max (tblUpd (wd (V mI c main_v63) (k0_off16 ((cfgA mI).grid.coords t)) (k0_off16_inb ((cfgA mI).grid.coords t))) (wd (V mI c main_v62) (k0_off16 ((cfgA mI).grid.coords t)) (k0_off16_inb ((cfgA mI).grid.coords t))) 150 (by omega) (iblk mI c (3 : Fin 10) t) (iblk mI c (7 : Fin 10) t) l q h
          (tblUpd (wd (V mI c main_v63) (k0_off15 ((cfgA mI).grid.coords t)) (k0_off15_inb ((cfgA mI).grid.coords t))) (wd (V mI c main_v62) (k0_off15 ((cfgA mI).grid.coords t)) (k0_off15_inb ((cfgA mI).grid.coords t))) 100 (by omega) (iblk mI c (3 : Fin 10) t) (iblk mI c (7 : Fin 10) t) l q h
          (tblUpd (wd (V mI c main_v63) (k0_off14 ((cfgA mI).grid.coords t)) (k0_off14_inb ((cfgA mI).grid.coords t))) (wd (V mI c main_v62) (k0_off14 ((cfgA mI).grid.coords t)) (k0_off14_inb ((cfgA mI).grid.coords t))) 50 (by omega) (iblk mI c (3 : Fin 10) t) (iblk mI c (7 : Fin 10) t) l q h
          (tblUpd (wd (V mI c main_v63) (k0_off13 ((cfgA mI).grid.coords t)) (k0_off13_inb ((cfgA mI).grid.coords t))) (wd (V mI c main_v62) (k0_off13 ((cfgA mI).grid.coords t)) (k0_off13_inb ((cfgA mI).grid.coords t))) 0 (by omega) (iblk mI c (3 : Fin 10) t) (iblk mI c (7 : Fin 10) t) l q h
          (tblUpd (wd (V mI c main_v63) (k0_off12 ((cfgA mI).grid.coords t)) (k0_off12_inb ((cfgA mI).grid.coords t))) (wd (V mI c main_v62) (k0_off12 ((cfgA mI).grid.coords t)) (k0_off12_inb ((cfgA mI).grid.coords t))) 150 (by omega) (iblk mI c (2 : Fin 10) t) (iblk mI c (6 : Fin 10) t) l q h
          (tblUpd (wd (V mI c main_v63) (k0_off11 ((cfgA mI).grid.coords t)) (k0_off11_inb ((cfgA mI).grid.coords t))) (wd (V mI c main_v62) (k0_off11 ((cfgA mI).grid.coords t)) (k0_off11_inb ((cfgA mI).grid.coords t))) 100 (by omega) (iblk mI c (2 : Fin 10) t) (iblk mI c (6 : Fin 10) t) l q h
          (tblUpd (wd (V mI c main_v63) (k0_off10 ((cfgA mI).grid.coords t)) (k0_off10_inb ((cfgA mI).grid.coords t))) (wd (V mI c main_v62) (k0_off10 ((cfgA mI).grid.coords t)) (k0_off10_inb ((cfgA mI).grid.coords t))) 50 (by omega) (iblk mI c (2 : Fin 10) t) (iblk mI c (6 : Fin 10) t) l q h
          (tblUpd (wd (V mI c main_v63) (k0_off9 ((cfgA mI).grid.coords t)) (k0_off9_inb ((cfgA mI).grid.coords t))) (wd (V mI c main_v62) (k0_off9 ((cfgA mI).grid.coords t)) (k0_off9_inb ((cfgA mI).grid.coords t))) 0 (by omega) (iblk mI c (2 : Fin 10) t) (iblk mI c (6 : Fin 10) t) l q h
          (tblUpd (wd (V mI c main_v63) (k0_off8 ((cfgA mI).grid.coords t)) (k0_off8_inb ((cfgA mI).grid.coords t))) (wd (V mI c main_v62) (k0_off8 ((cfgA mI).grid.coords t)) (k0_off8_inb ((cfgA mI).grid.coords t))) 150 (by omega) (iblk mI c (1 : Fin 10) t) (iblk mI c (5 : Fin 10) t) l q h
          (tblUpd (wd (V mI c main_v63) (k0_off7 ((cfgA mI).grid.coords t)) (k0_off7_inb ((cfgA mI).grid.coords t))) (wd (V mI c main_v62) (k0_off7 ((cfgA mI).grid.coords t)) (k0_off7_inb ((cfgA mI).grid.coords t))) 100 (by omega) (iblk mI c (1 : Fin 10) t) (iblk mI c (5 : Fin 10) t) l q h
          (tblUpd (wd (V mI c main_v63) (k0_off6 ((cfgA mI).grid.coords t)) (k0_off6_inb ((cfgA mI).grid.coords t))) (wd (V mI c main_v62) (k0_off6 ((cfgA mI).grid.coords t)) (k0_off6_inb ((cfgA mI).grid.coords t))) 50 (by omega) (iblk mI c (1 : Fin 10) t) (iblk mI c (5 : Fin 10) t) l q h
          (tblUpd (wd (V mI c main_v63) (k0_off5 ((cfgA mI).grid.coords t)) (k0_off5_inb ((cfgA mI).grid.coords t))) (wd (V mI c main_v62) (k0_off5 ((cfgA mI).grid.coords t)) (k0_off5_inb ((cfgA mI).grid.coords t))) 0 (by omega) (iblk mI c (1 : Fin 10) t) (iblk mI c (5 : Fin 10) t) l q h
          (tblUpd (wd (V mI c main_v63) (k0_off4 ((cfgA mI).grid.coords t)) (k0_off4_inb ((cfgA mI).grid.coords t))) (wd (V mI c main_v62) (k0_off4 ((cfgA mI).grid.coords t)) (k0_off4_inb ((cfgA mI).grid.coords t))) 150 (by omega) (iblk mI c (0 : Fin 10) t) (iblk mI c (4 : Fin 10) t) l q h
          (tblUpd (wd (V mI c main_v63) (k0_off3 ((cfgA mI).grid.coords t)) (k0_off3_inb ((cfgA mI).grid.coords t))) (wd (V mI c main_v62) (k0_off3 ((cfgA mI).grid.coords t)) (k0_off3_inb ((cfgA mI).grid.coords t))) 100 (by omega) (iblk mI c (0 : Fin 10) t) (iblk mI c (4 : Fin 10) t) l q h
          (tblUpd (wd (V mI c main_v63) (k0_off2 ((cfgA mI).grid.coords t)) (k0_off2_inb ((cfgA mI).grid.coords t))) (wd (V mI c main_v62) (k0_off2 ((cfgA mI).grid.coords t)) (k0_off2_inb ((cfgA mI).grid.coords t))) 50 (by omega) (iblk mI c (0 : Fin 10) t) (iblk mI c (4 : Fin 10) t) l q h
          (tblUpd (wd (V mI c main_v63) (k0_off1 ((cfgA mI).grid.coords t)) (k0_off1_inb ((cfgA mI).grid.coords t))) (wd (V mI c main_v62) (k0_off1 ((cfgA mI).grid.coords t)) (k0_off1_inb ((cfgA mI).grid.coords t))) 0 (by omega) (iblk mI c (0 : Fin 10) t) (iblk mI c (4 : Fin 10) t) l q h
            0)))))))))))))))
          + (iblk mI c (8 : Fin 10) t (ix1 h) : EReal)) 0) :
    View.canon (K mI c t).1 (ix4 (0 : Fin 1) l q h)
      = Cert.Spec.G (mI ((c : Thread nD τ).loc main_arg0)) (mI ((c : Thread nD τ).loc main_arg1))
          (mI ((c : Thread nD τ).loc main_arg2)) (mI ((c : Thread nD τ).loc main_arg3)) (mI ((c : Thread nD τ).loc main_arg4))
          (mI ((c : Thread nD τ).loc main_arg5)) (mI ((c : Thread nD τ).loc main_arg6)) (mI ((c : Thread nD τ).loc main_arg7))
          (ix4 (batchOf t) (rowOf t l) q h) := by
  rw [← entry_eq_G mI c t l q h]
  rw [hK]
  have hq := q.isLt
  have hi : (((cfgA mI).grid.coords t) 0).val = t.val / 5 ∧ (((cfgA mI).grid.coords t) 1).val = t.val % 5 :=
    coords_val t
  rcases (show q.val / 50 = 0 ∨ q.val / 50 = 1 ∨ q.val / 50 = 2 ∨ q.val / 50 = 3 from by omega) with hc | hc | hc | hc
  · simp (discharger := omega) only [tblUpd_out, tblUpd_in]
    rw [wd_tile (V mI c main_v63) ((cfgA mI).grid.coords t) t q 3 hi.1 hi.2 (k0_off13 _) (k0_off13_inb _) (by rw [k0_off13_eq, hc]; rfl),
      wd_tile (V mI c main_v62) ((cfgA mI).grid.coords t) t q 3 hi.1 hi.2 (k0_off13 _) (k0_off13_inb _) (by rw [k0_off13_eq, hc]; rfl),
      wd_tile (V mI c main_v63) ((cfgA mI).grid.coords t) t q 2 hi.1 hi.2 (k0_off9 _) (k0_off9_inb _) (by rw [k0_off9_eq, hc]; rfl),
      wd_tile (V mI c main_v62) ((cfgA mI).grid.coords t) t q 2 hi.1 hi.2 (k0_off9 _) (k0_off9_inb _) (by rw [k0_off9_eq, hc]; rfl),
      wd_tile (V mI c main_v63) ((cfgA mI).grid.coords t) t q 1 hi.1 hi.2 (k0_off5 _) (k0_off5_inb _) (by rw [k0_off5_eq, hc]; rfl),
      wd_tile (V mI c main_v62) ((cfgA mI).grid.coords t) t q 1 hi.1 hi.2 (k0_off5 _) (k0_off5_inb _) (by rw [k0_off5_eq, hc]; rfl),
      wd_tile (V mI c main_v63) ((cfgA mI).grid.coords t) t q 0 hi.1 hi.2 (k0_off1 _) (k0_off1_inb _) (by rw [k0_off1_eq, hc]; rfl),
      wd_tile (V mI c main_v62) ((cfgA mI).grid.coords t) t q 0 hi.1 hi.2 (k0_off1 _) (k0_off1_inb _) (by rw [k0_off1_eq, hc]; rfl)]
    rw [idx3_entry mI c t l q, idx2_entry mI c t l q, idx1_entry mI c t l q, idx0_entry mI c t l q]
  · simp (discharger := omega) only [tblUpd_out, tblUpd_in]
    rw [wd_tile (V mI c main_v63) ((cfgA mI).grid.coords t) t q 3 hi.1 hi.2 (k0_off14 _) (k0_off14_inb _) (by rw [k0_off14_eq, hc]; rfl),
      wd_tile (V mI c main_v62) ((cfgA mI).grid.coords t) t q 3 hi.1 hi.2 (k0_off14 _) (k0_off14_inb _) (by rw [k0_off14_eq, hc]; rfl),
      wd_tile (V mI c main_v63) ((cfgA mI).grid.coords t) t q 2 hi.1 hi.2 (k0_off10 _) (k0_off10_inb _) (by rw [k0_off10_eq, hc]; rfl),
      wd_tile (V mI c main_v62) ((cfgA mI).grid.coords t) t q 2 hi.1 hi.2 (k0_off10 _) (k0_off10_inb _) (by rw [k0_off10_eq, hc]; rfl),
      wd_tile (V mI c main_v63) ((cfgA mI).grid.coords t) t q 1 hi.1 hi.2 (k0_off6 _) (k0_off6_inb _) (by rw [k0_off6_eq, hc]; rfl),
      wd_tile (V mI c main_v62) ((cfgA mI).grid.coords t) t q 1 hi.1 hi.2 (k0_off6 _) (k0_off6_inb _) (by rw [k0_off6_eq, hc]; rfl),
      wd_tile (V mI c main_v63) ((cfgA mI).grid.coords t) t q 0 hi.1 hi.2 (k0_off2 _) (k0_off2_inb _) (by rw [k0_off2_eq, hc]; rfl),
      wd_tile (V mI c main_v62) ((cfgA mI).grid.coords t) t q 0 hi.1 hi.2 (k0_off2 _) (k0_off2_inb _) (by rw [k0_off2_eq, hc]; rfl)]
    rw [idx3_entry mI c t l q, idx2_entry mI c t l q, idx1_entry mI c t l q, idx0_entry mI c t l q]
  · simp (discharger := omega) only [tblUpd_out, tblUpd_in]
    rw [wd_tile (V mI c main_v63) ((cfgA mI).grid.coords t) t q 3 hi.1 hi.2 (k0_off15 _) (k0_off15_inb _) (by rw [k0_off15_eq, hc]; rfl),
      wd_tile (V mI c main_v62) ((cfgA mI).grid.coords t) t q 3 hi.1 hi.2 (k0_off15 _) (k0_off15_inb _) (by rw [k0_off15_eq, hc]; rfl),
      wd_tile (V mI c main_v63) ((cfgA mI).grid.coords t) t q 2 hi.1 hi.2 (k0_off11 _) (k0_off11_inb _) (by rw [k0_off11_eq, hc]; rfl),
      wd_tile (V mI c main_v62) ((cfgA mI).grid.coords t) t q 2 hi.1 hi.2 (k0_off11 _) (k0_off11_inb _) (by rw [k0_off11_eq, hc]; rfl),
      wd_tile (V mI c main_v63) ((cfgA mI).grid.coords t) t q 1 hi.1 hi.2 (k0_off7 _) (k0_off7_inb _) (by rw [k0_off7_eq, hc]; rfl),
      wd_tile (V mI c main_v62) ((cfgA mI).grid.coords t) t q 1 hi.1 hi.2 (k0_off7 _) (k0_off7_inb _) (by rw [k0_off7_eq, hc]; rfl),
      wd_tile (V mI c main_v63) ((cfgA mI).grid.coords t) t q 0 hi.1 hi.2 (k0_off3 _) (k0_off3_inb _) (by rw [k0_off3_eq, hc]; rfl),
      wd_tile (V mI c main_v62) ((cfgA mI).grid.coords t) t q 0 hi.1 hi.2 (k0_off3 _) (k0_off3_inb _) (by rw [k0_off3_eq, hc]; rfl)]
    rw [idx3_entry mI c t l q, idx2_entry mI c t l q, idx1_entry mI c t l q, idx0_entry mI c t l q]
  · simp (discharger := omega) only [tblUpd_out, tblUpd_in]
    rw [wd_tile (V mI c main_v63) ((cfgA mI).grid.coords t) t q 3 hi.1 hi.2 (k0_off16 _) (k0_off16_inb _) (by rw [k0_off16_eq, hc]; rfl),
      wd_tile (V mI c main_v62) ((cfgA mI).grid.coords t) t q 3 hi.1 hi.2 (k0_off16 _) (k0_off16_inb _) (by rw [k0_off16_eq, hc]; rfl),
      wd_tile (V mI c main_v63) ((cfgA mI).grid.coords t) t q 2 hi.1 hi.2 (k0_off12 _) (k0_off12_inb _) (by rw [k0_off12_eq, hc]; rfl),
      wd_tile (V mI c main_v62) ((cfgA mI).grid.coords t) t q 2 hi.1 hi.2 (k0_off12 _) (k0_off12_inb _) (by rw [k0_off12_eq, hc]; rfl),
      wd_tile (V mI c main_v63) ((cfgA mI).grid.coords t) t q 1 hi.1 hi.2 (k0_off8 _) (k0_off8_inb _) (by rw [k0_off8_eq, hc]; rfl),
      wd_tile (V mI c main_v62) ((cfgA mI).grid.coords t) t q 1 hi.1 hi.2 (k0_off8 _) (k0_off8_inb _) (by rw [k0_off8_eq, hc]; rfl),
      wd_tile (V mI c main_v63) ((cfgA mI).grid.coords t) t q 0 hi.1 hi.2 (k0_off4 _) (k0_off4_inb _) (by rw [k0_off4_eq, hc]; rfl),
      wd_tile (V mI c main_v62) ((cfgA mI).grid.coords t) t q 0 hi.1 hi.2 (k0_off4 _) (k0_off4_inb _) (by rw [k0_off4_eq, hc]; rfl)]
    rw [idx3_entry mI c t l q, idx2_entry mI c t l q, idx1_entry mI c t l q, idx0_entry mI c t l q]

end Cert.KernelIdeal.Frm

end
-- ==== Proof.AccReadLib.lean ====
/-
  Two lemmas for reading what the first printed part of the kernel body leaves in the accumulator: the first guarded
  update of the body is made over the clearing store's list, and the cleared accumulator reads zero.
-/
import proofs.«408597_j16320875725026_3_alg».proof.Proof.AccAbbrevs
import proofs.«408597_j16320875725026_3_alg».proof.Proof.GuardRead
import proofs.«408597_j16320875725026_3_alg».proof.Proof.PayloadVals
import proofs.«408597_j16320875725026_3_alg».proof.Proof.BlockMath

noncomputable section

namespace Cert.KernelIdeal.Body

open Cert.KernelIdeal Cert.KernelIdeal.Gen

open Idealize.ShloMosaic Idealize.ShloMosaic.ValueIdx

/-- The first guarded update, made over the clearing store's list `L`: the same conditional addition, the previous
    entry being what the list left. -/
theorem fold_guarded_cons {sg : RefSig} {κ : Kind} {sp : Space} (v : View sg κ sp S40x200x160 .f32) (g : BitVec 1)
    (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (L : List (View.Piece (Elt Ideal) S40x200x160 .f32))
    (d : Fin 40 → Fin 50 → Fin 160 → EReal)
    (hP : ∀ l mm h, P (ix3 l mm h)
      = View.ld (Val := Elt Ideal) (e' := EltTy.f32) (Cert.KernelIdeal.Guard.acc v (v.writes (Elt Ideal) A L))
          (Rect.unit (s := S40x200x160) ![0, off, 0] S40x50x160.size inb) (ix3 l mm h) + d l mm h)
    (l : Fin 40) (m' : Fin 200) (h : Fin 160) :
    v.read (Elt Ideal) (if hc : g = 1#1 then v.writes (Elt Ideal) A (⟨Rect.unit (s := S40x200x160) ![0, off, 0] S40x50x160.size inb, P⟩ :: L)
        else v.writes (Elt Ideal) A L) (ix3 l m' h)
      = Cert.KernelIdeal.Guard.gstep (g = 1#1 ∧ off ≤ m'.val ∧ m'.val < off + 50)
          (d l (⟨(m'.val - off) % 50, Nat.mod_lt _ (by decide)⟩ : Fin 50) h) (v.read (Elt Ideal) (v.writes (Elt Ideal) A L) (ix3 l m' h)) :=
  Cert.KernelIdeal.Guard.fold_guarded v g (v.writes (Elt Ideal) A L) off hoff inb P d hP l m' h

/-- The cleared accumulator reads zero. -/
theorem read_clear {sg : RefSig} {κ : Kind} {sp : Space} (v : View sg κ sp S40x200x160 .f32) (A : v.ty.Contents (Elt Ideal))
    (inb : ∀ a, (![0, 0, 0] : Fin 3 → Nat) a + S40x200x160.size a ≤ S40x200x160.size a) (y : S40x200x160.Idx) :
    v.read (Elt Ideal) (v.writes (Elt Ideal) A [⟨Rect.unit (s := S40x200x160) ![0, 0, 0] S40x200x160.size inb, k0_pay2 (F := Ideal)⟩]) y
      = 0 := by
  rw [View.read_writes_cons_unit_of_mem v A inb (k0_pay2 (F := Ideal)) [] y y rfl
    (fun a => match a with | ⟨0, _⟩ => (Nat.zero_add _).symm | ⟨1, _⟩ => (Nat.zero_add _).symm | ⟨2, _⟩ => (Nat.zero_add _).symm)]
  exact Cert.KernelIdeal.Pay.pay2_apply y

end Cert.KernelIdeal.Body

end
-- ==== Proof.AccReadP.lean ====
/-
  What each printed part of the kernel body leaves in the accumulator, read at an entry, and the values it hands on
  (parts 1, 2, 3, 4).

  A part makes a few guarded slice updates. Read at entry (l, m', h), each update is one conditional addition applied to
  the entry before it: the condition is "the chunk's guard bit is set and column m' lies in the update's 50 columns", the
  added term the one-hot row of the entry's index word against the loaded 256-row table chunk.
-/
import proofs.«408597_j16320875725026_3_alg».proof.Proof.PartsAKernelIdeal
import proofs.«408597_j16320875725026_3_alg».proof.Proof.AccReadLib

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Part 1 -/

set_option maxHeartbeats 4000000 in
/-- The accumulator entry part 1 leaves: 3 guarded updates, in program order from the inside out. -/
theorem acc_part1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32)
    (l : Fin 40) (m' : Fin 200) (h : Fin 160) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l m' h)
      = Cert.KernelIdeal.Guard.gstep (Scalar.cmpi .ne (Scalar.extui (Scalar.andi (Scalar.cmpi .sge (wd x3 (k0_off1 i) (k0_off1_inb i)) 512#32) (Scalar.cmpi .slt (wd x2 (k0_off1 i) (k0_off1_inb i)) 768#32))) 0#32 = 1#1 ∧ 0 ≤ m'.val ∧ m'.val < 0 + 50)
      (Cert.KernelIdeal.Pay.chunkSum ((x4) (ix3 (0 : Fin 1) l (Cert.KernelIdeal.Pay.col 0 (⟨(m'.val - 0) % 50, Nat.mod_lt _ (by decide)⟩ : Fin 50) (by omega)))) 512#32 (tb x8 512 inb_S1024x160_S256x160_512_0) h)
      (Cert.KernelIdeal.Guard.gstep (Scalar.cmpi .ne (Scalar.extui (Scalar.andi (Scalar.cmpi .sge (wd x3 (k0_off1 i) (k0_off1_inb i)) 256#32) (Scalar.cmpi .slt (wd x2 (k0_off1 i) (k0_off1_inb i)) 512#32))) 0#32 = 1#1 ∧ 0 ≤ m'.val ∧ m'.val < 0 + 50)
      (Cert.KernelIdeal.Pay.chunkSum ((x4) (ix3 (0 : Fin 1) l (Cert.KernelIdeal.Pay.col 0 (⟨(m'.val - 0) % 50, Nat.mod_lt _ (by decide)⟩ : Fin 50) (by omega)))) 256#32 (tb x8 256 inb_S1024x160_S256x160_256_0) h)
      (Cert.KernelIdeal.Guard.gstep (Scalar.cmpi .ne (Scalar.extui (Scalar.andi (Scalar.cmpi .sge (wd x3 (k0_off1 i) (k0_off1_inb i)) 0#32) (Scalar.cmpi .slt (wd x2 (k0_off1 i) (k0_off1_inb i)) 256#32))) 0#32 = 1#1 ∧ 0 ≤ m'.val ∧ m'.val < 0 + 50)
      (Cert.KernelIdeal.Pay.chunkSum ((x4) (ix3 (0 : Fin 1) l (Cert.KernelIdeal.Pay.col 0 (⟨(m'.val - 0) % 50, Nat.mod_lt _ (by decide)⟩ : Fin 50) (by omega)))) 0#32 (tb x8 0 inb_S1024x160_S256x160_0_0) h)
      ((0 : EReal)))) := by
  unfold partRun1
  dsimp only
  sl_unfold_run_names
  simp only [View.readAt_eq_ld, h2.read_unread, h3.read_unread, h4.read_unread, h5.read_unread, h6.read_unread, h7.read_unread, h8.read_unread, h9.read_unread, h10.read_unread, h11.read_unread, h12.read_unread, View.readCov]
  rw [Cert.KernelIdeal.Guard.ld_idx x4 inb_S1x40x200_S1x40x200_0_0_0]
  rw [Cert.KernelIdeal.Guard.fold_guarded M14.view _ _ 0 (by omega) _ _
    (fun l mm h => Cert.KernelIdeal.Pay.chunkSum ((x4) (ix3 (0 : Fin 1) l (Cert.KernelIdeal.Pay.col 0 mm (by omega)))) 512#32 (tb x8 512 inb_S1024x160_S256x160_512_0) h)
    (fun l mm h => Cert.KernelIdeal.Pay.pay7_apply (x4) _ _ l mm h)]
  rw [Cert.KernelIdeal.Guard.fold_guarded M14.view _ _ 0 (by omega) _ _
    (fun l mm h => Cert.KernelIdeal.Pay.chunkSum ((x4) (ix3 (0 : Fin 1) l (Cert.KernelIdeal.Pay.col 0 mm (by omega)))) 256#32 (tb x8 256 inb_S1024x160_S256x160_256_0) h)
    (fun l mm h => Cert.KernelIdeal.Pay.pay6_apply (x4) _ _ l mm h)]
  rw [fold_guarded_cons M14.view _ _ 0 (by omega) _ _ _
    (fun l mm h => Cert.KernelIdeal.Pay.chunkSum ((x4) (ix3 (0 : Fin 1) l (Cert.KernelIdeal.Pay.col 0 mm (by omega)))) 0#32 (tb x8 0 inb_S1024x160_S256x160_0_0) h)
    (fun l mm h => Cert.KernelIdeal.Pay.pay5_apply (x4) _ _ l mm h)]
  rw [read_clear]

/-- Value 1 of 6 that part 1 hands on. -/
theorem ret_part1_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = (iota .tc S40x50x256 32 [2] iota_S40x50x256_d2_w32) := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-- Value 2 of 6 that part 1 hands on. -/
theorem ret_part1_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = (Scalar.addi (Scalar.muli (BitVec.ofNat 32 (i 0).val) 20#32) (Scalar.muli (BitVec.ofNat 32 (i 1).val) 4#32)) := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-- Value 3 of 6 that part 1 hands on. -/
theorem ret_part1_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = k0_pay3 x4 := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-- Value 4 of 6 that part 1 hands on. -/
theorem ret_part1_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = k0_pay4 x4 := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-- Value 5 of 6 that part 1 hands on. -/
theorem ret_part1_5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 = (wd x2 (k0_off1 i) (k0_off1_inb i)) := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-- Value 6 of 6 that part 1 hands on. -/
theorem ret_part1_6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) :
    (partRun1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2 = (Scalar.cmpi .sge (wd x3 (k0_off1 i) (k0_off1_inb i)) 768#32) := by
  unfold partRun1
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, View.readCov]
  all_goals try rw [Cert.KernelIdeal.Guard.ld_idx x4 inb_S1x40x200_S1x40x200_0_0_0]
  all_goals try rfl

/-! ## Part 2 -/

set_option maxHeartbeats 4000000 in
/-- The accumulator entry part 2 leaves: 5 guarded updates, in program order from the inside out. -/
theorem acc_part2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v10 : IVec S40x50 32) (v13 : Elt Ideal .i32) (v31 : BitVec 1) (hv4 : Cert.KernelIdeal.Pay.LaneNumbers v4)
    (l : Fin 40) (m' : Fin 200) (h : Fin 160) :
    (partRun2 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.1 (ix3 l m' h)
      = Cert.KernelIdeal.Guard.gstep (Scalar.cmpi .ne (Scalar.extui (Scalar.andi (Scalar.cmpi .sge (wd x3 (k0_off2 i) (k0_off2_inb i)) 768#32) (Scalar.cmpi .slt (wd x2 (k0_off2 i) (k0_off2_inb i)) 1024#32))) 0#32 = 1#1 ∧ 50 ≤ m'.val ∧ m'.val < 50 + 50)
      (Cert.KernelIdeal.Pay.chunkSum ((v9) (ix2 l (Cert.KernelIdeal.Pay.col 50 (⟨(m'.val - 50) % 50, Nat.mod_lt _ (by decide)⟩ : Fin 50) (by omega)))) 768#32 (tb x8 768 inb_S1024x160_S256x160_768_0) h)
      (Cert.KernelIdeal.Guard.gstep (Scalar.cmpi .ne (Scalar.extui (Scalar.andi (Scalar.cmpi .sge (wd x3 (k0_off2 i) (k0_off2_inb i)) 512#32) (Scalar.cmpi .slt (wd x2 (k0_off2 i) (k0_off2_inb i)) 768#32))) 0#32 = 1#1 ∧ 50 ≤ m'.val ∧ m'.val < 50 + 50)
      (Cert.KernelIdeal.Pay.chunkSum ((v9) (ix2 l (Cert.KernelIdeal.Pay.col 50 (⟨(m'.val - 50) % 50, Nat.mod_lt _ (by decide)⟩ : Fin 50) (by omega)))) 512#32 (tb x8 512 inb_S1024x160_S256x160_512_0) h)
      (Cert.KernelIdeal.Guard.gstep (Scalar.cmpi .ne (Scalar.extui (Scalar.andi (Scalar.cmpi .sge (wd x3 (k0_off2 i) (k0_off2_inb i)) 256#32) (Scalar.cmpi .slt (wd x2 (k0_off2 i) (k0_off2_inb i)) 512#32))) 0#32 = 1#1 ∧ 50 ≤ m'.val ∧ m'.val < 50 + 50)
      (Cert.KernelIdeal.Pay.chunkSum ((v9) (ix2 l (Cert.KernelIdeal.Pay.col 50 (⟨(m'.val - 50) % 50, Nat.mod_lt _ (by decide)⟩ : Fin 50) (by omega)))) 256#32 (tb x8 256 inb_S1024x160_S256x160_256_0) h)
      (Cert.KernelIdeal.Guard.gstep (Scalar.cmpi .ne (Scalar.extui (Scalar.andi (Scalar.cmpi .sge (wd x3 (k0_off2 i) (k0_off2_inb i)) 0#32) (Scalar.cmpi .slt (wd x2 (k0_off2 i) (k0_off2_inb i)) 256#32))) 0#32 = 1#1 ∧ 50 ≤ m'.val ∧ m'.val < 50 + 50)
      (Cert.KernelIdeal.Pay.chunkSum ((v9) (ix2 l (Cert.KernelIdeal.Pay.col 50 (⟨(m'.val - 50) % 50, Nat.mod_lt _ (by decide)⟩ : Fin 50) (by omega)))) 0#32 (tb x8 0 inb_S1024x160_S256x160_0_0) h)
      (Cert.KernelIdeal.Guard.gstep (Scalar.cmpi .ne (Scalar.extui (Scalar.andi v31 (Scalar.cmpi .slt v13 1024#32))) 0#32 = 1#1 ∧ 0 ≤ m'.val ∧ m'.val < 0 + 50)
      (Cert.KernelIdeal.Pay.chunkSum ((v10) (ix2 l (⟨(m'.val - 0) % 50, Nat.mod_lt _ (by decide)⟩ : Fin 50))) 768#32 (tb x8 768 inb_S1024x160_S256x160_768_0) h)
      (a14 (ix3 l m' h)))))) := by
  unfold partRun2
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.fold_guarded M14.view _ _ 50 (by omega) _ _
    (fun l mm h => Cert.KernelIdeal.Pay.chunkSum ((v9) (ix2 l (Cert.KernelIdeal.Pay.col 50 mm (by omega)))) 768#32 (tb x8 768 inb_S1024x160_S256x160_768_0) h)
    (fun l mm h => Cert.KernelIdeal.Pay.pay13_apply (v4) hv4 (v9) _ _ l mm h)]
  rw [Cert.KernelIdeal.Guard.fold_guarded M14.view _ _ 50 (by omega) _ _
    (fun l mm h => Cert.KernelIdeal.Pay.chunkSum ((v9) (ix2 l (Cert.KernelIdeal.Pay.col 50 mm (by omega)))) 512#32 (tb x8 512 inb_S1024x160_S256x160_512_0) h)
    (fun l mm h => Cert.KernelIdeal.Pay.pay12_apply (v4) hv4 (v9) _ _ l mm h)]
  rw [Cert.KernelIdeal.Guard.fold_guarded M14.view _ _ 50 (by omega) _ _
    (fun l mm h => Cert.KernelIdeal.Pay.chunkSum ((v9) (ix2 l (Cert.KernelIdeal.Pay.col 50 mm (by omega)))) 256#32 (tb x8 256 inb_S1024x160_S256x160_256_0) h)
    (fun l mm h => Cert.KernelIdeal.Pay.pay11_apply (v4) hv4 (v9) _ _ l mm h)]
  rw [Cert.KernelIdeal.Guard.fold_guarded M14.view _ _ 50 (by omega) _ _
    (fun l mm h => Cert.KernelIdeal.Pay.chunkSum ((v9) (ix2 l (Cert.KernelIdeal.Pay.col 50 mm (by omega)))) 0#32 (tb x8 0 inb_S1024x160_S256x160_0_0) h)
    (fun l mm h => Cert.KernelIdeal.Pay.pay10_apply (v4) hv4 (v9) _ _ l mm h)]
  rw [Cert.KernelIdeal.Guard.fold_guarded M14.view _ _ 0 (by omega) _ _
    (fun l mm h => Cert.KernelIdeal.Pay.chunkSum ((v10) (ix2 l mm)) 768#32 (tb x8 768 inb_S1024x160_S256x160_768_0) h)
    (fun l mm h => Cert.KernelIdeal.Pay.pay8_apply (v4) hv4 (v10) _ _ l mm h)]
  rw [h14.read_unread]

/-- Value 1 of 2 that part 2 hands on. -/
theorem ret_part2_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v10 : IVec S40x50 32) (v13 : Elt Ideal .i32) (v31 : BitVec 1) :
    (partRun2 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.1 = k0_pay14 v9 := by
  unfold partRun2
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 2 of 2 that part 2 hands on. -/
theorem ret_part2_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v10 : IVec S40x50 32) (v13 : Elt Ideal .i32) (v31 : BitVec 1) :
    (partRun2 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.2.2 = (wd x2 (k0_off3 i) (k0_off3_inb i)) := by
  unfold partRun2
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-! ## Part 3 -/

set_option maxHeartbeats 4000000 in
/-- The accumulator entry part 3 leaves: 5 guarded updates, in program order from the inside out. -/
theorem acc_part3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v62 : IVec S40x50 32) (v65 : Elt Ideal .i32) (hv4 : Cert.KernelIdeal.Pay.LaneNumbers v4)
    (l : Fin 40) (m' : Fin 200) (h : Fin 160) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.1 (ix3 l m' h)
      = Cert.KernelIdeal.Guard.gstep (Scalar.cmpi .ne (Scalar.extui (Scalar.andi (Scalar.cmpi .sge (wd x3 (k0_off4 i) (k0_off4_inb i)) 0#32) (Scalar.cmpi .slt (wd x2 (k0_off4 i) (k0_off4_inb i)) 256#32))) 0#32 = 1#1 ∧ 150 ≤ m'.val ∧ m'.val < 150 + 50)
      (Cert.KernelIdeal.Pay.chunkSum ((v9) (ix2 l (Cert.KernelIdeal.Pay.col 150 (⟨(m'.val - 150) % 50, Nat.mod_lt _ (by decide)⟩ : Fin 50) (by omega)))) 0#32 (tb x8 0 inb_S1024x160_S256x160_0_0) h)
      (Cert.KernelIdeal.Guard.gstep (Scalar.cmpi .ne (Scalar.extui (Scalar.andi (Scalar.cmpi .sge (wd x3 (k0_off3 i) (k0_off3_inb i)) 768#32) (Scalar.cmpi .slt v65 1024#32))) 0#32 = 1#1 ∧ 100 ≤ m'.val ∧ m'.val < 100 + 50)
      (Cert.KernelIdeal.Pay.chunkSum ((v62) (ix2 l (⟨(m'.val - 100) % 50, Nat.mod_lt _ (by decide)⟩ : Fin 50))) 768#32 (tb x8 768 inb_S1024x160_S256x160_768_0) h)
      (Cert.KernelIdeal.Guard.gstep (Scalar.cmpi .ne (Scalar.extui (Scalar.andi (Scalar.cmpi .sge (wd x3 (k0_off3 i) (k0_off3_inb i)) 512#32) (Scalar.cmpi .slt v65 768#32))) 0#32 = 1#1 ∧ 100 ≤ m'.val ∧ m'.val < 100 + 50)
      (Cert.KernelIdeal.Pay.chunkSum ((v62) (ix2 l (⟨(m'.val - 100) % 50, Nat.mod_lt _ (by decide)⟩ : Fin 50))) 512#32 (tb x8 512 inb_S1024x160_S256x160_512_0) h)
      (Cert.KernelIdeal.Guard.gstep (Scalar.cmpi .ne (Scalar.extui (Scalar.andi (Scalar.cmpi .sge (wd x3 (k0_off3 i) (k0_off3_inb i)) 256#32) (Scalar.cmpi .slt v65 512#32))) 0#32 = 1#1 ∧ 100 ≤ m'.val ∧ m'.val < 100 + 50)
      (Cert.KernelIdeal.Pay.chunkSum ((v62) (ix2 l (⟨(m'.val - 100) % 50, Nat.mod_lt _ (by decide)⟩ : Fin 50))) 256#32 (tb x8 256 inb_S1024x160_S256x160_256_0) h)
      (Cert.KernelIdeal.Guard.gstep (Scalar.cmpi .ne (Scalar.extui (Scalar.andi (Scalar.cmpi .sge (wd x3 (k0_off3 i) (k0_off3_inb i)) 0#32) (Scalar.cmpi .slt v65 256#32))) 0#32 = 1#1 ∧ 100 ≤ m'.val ∧ m'.val < 100 + 50)
      (Cert.KernelIdeal.Pay.chunkSum ((v62) (ix2 l (⟨(m'.val - 100) % 50, Nat.mod_lt _ (by decide)⟩ : Fin 50))) 0#32 (tb x8 0 inb_S1024x160_S256x160_0_0) h)
      (a14 (ix3 l m' h)))))) := by
  unfold partRun3
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.fold_guarded M14.view _ _ 150 (by omega) _ _
    (fun l mm h => Cert.KernelIdeal.Pay.chunkSum ((v9) (ix2 l (Cert.KernelIdeal.Pay.col 150 mm (by omega)))) 0#32 (tb x8 0 inb_S1024x160_S256x160_0_0) h)
    (fun l mm h => Cert.KernelIdeal.Pay.pay20_apply (v4) hv4 (v9) _ _ l mm h)]
  rw [Cert.KernelIdeal.Guard.fold_guarded M14.view _ _ 100 (by omega) _ _
    (fun l mm h => Cert.KernelIdeal.Pay.chunkSum ((v62) (ix2 l mm)) 768#32 (tb x8 768 inb_S1024x160_S256x160_768_0) h)
    (fun l mm h => Cert.KernelIdeal.Pay.pay18_apply (v4) hv4 (v62) _ _ l mm h)]
  rw [Cert.KernelIdeal.Guard.fold_guarded M14.view _ _ 100 (by omega) _ _
    (fun l mm h => Cert.KernelIdeal.Pay.chunkSum ((v62) (ix2 l mm)) 512#32 (tb x8 512 inb_S1024x160_S256x160_512_0) h)
    (fun l mm h => Cert.KernelIdeal.Pay.pay17_apply (v4) hv4 (v62) _ _ l mm h)]
  rw [Cert.KernelIdeal.Guard.fold_guarded M14.view _ _ 100 (by omega) _ _
    (fun l mm h => Cert.KernelIdeal.Pay.chunkSum ((v62) (ix2 l mm)) 256#32 (tb x8 256 inb_S1024x160_S256x160_256_0) h)
    (fun l mm h => Cert.KernelIdeal.Pay.pay16_apply (v4) hv4 (v62) _ _ l mm h)]
  rw [Cert.KernelIdeal.Guard.fold_guarded M14.view _ _ 100 (by omega) _ _
    (fun l mm h => Cert.KernelIdeal.Pay.chunkSum ((v62) (ix2 l mm)) 0#32 (tb x8 0 inb_S1024x160_S256x160_0_0) h)
    (fun l mm h => Cert.KernelIdeal.Pay.pay15_apply (v4) hv4 (v62) _ _ l mm h)]
  rw [h14.read_unread]

/-- Value 1 of 4 that part 3 hands on. -/
theorem ret_part3_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v62 : IVec S40x50 32) (v65 : Elt Ideal .i32) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.1 = k0_pay19 v9 := by
  unfold partRun3
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 2 of 4 that part 3 hands on. -/
theorem ret_part3_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v62 : IVec S40x50 32) (v65 : Elt Ideal .i32) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.1 = (wd x2 (k0_off4 i) (k0_off4_inb i)) := by
  unfold partRun3
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 3 of 4 that part 3 hands on. -/
theorem ret_part3_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v62 : IVec S40x50 32) (v65 : Elt Ideal .i32) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.1 = (wd x3 (k0_off4 i) (k0_off4_inb i)) := by
  unfold partRun3
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 4 of 4 that part 3 hands on. -/
theorem ret_part3_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v9 : IVec S40x200 32) (v62 : IVec S40x50 32) (v65 : Elt Ideal .i32) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.2.2.2.2 = (Scalar.andi (Scalar.cmpi .sge (wd x3 (k0_off4 i) (k0_off4_inb i)) 256#32) (Scalar.cmpi .slt (wd x2 (k0_off4 i) (k0_off4_inb i)) 512#32)) := by
  unfold partRun3
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-! ## Part 4 -/

set_option maxHeartbeats 4000000 in
/-- The accumulator entry part 4 leaves: 5 guarded updates, in program order from the inside out. -/
theorem acc_part4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) (hv4 : Cert.KernelIdeal.Pay.LaneNumbers v4)
    (l : Fin 40) (m' : Fin 200) (h : Fin 160) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.1 (ix3 l m' h)
      = Cert.KernelIdeal.Guard.gstep (Scalar.cmpi .ne (Scalar.extui (Scalar.andi (Scalar.cmpi .sge (wd x3 (k0_off5 i) (k0_off5_inb i)) 256#32) (Scalar.cmpi .slt (wd x2 (k0_off5 i) (k0_off5_inb i)) 512#32))) 0#32 = 1#1 ∧ 0 ≤ m'.val ∧ m'.val < 0 + 50)
      (Cert.KernelIdeal.Pay.chunkSum ((x5) (ix3 (0 : Fin 1) l (Cert.KernelIdeal.Pay.col 0 (⟨(m'.val - 0) % 50, Nat.mod_lt _ (by decide)⟩ : Fin 50) (by omega)))) 256#32 (tb x9 256 inb_S1024x160_S256x160_256_0) h)
      (Cert.KernelIdeal.Guard.gstep (Scalar.cmpi .ne (Scalar.extui (Scalar.andi (Scalar.cmpi .sge (wd x3 (k0_off5 i) (k0_off5_inb i)) 0#32) (Scalar.cmpi .slt (wd x2 (k0_off5 i) (k0_off5_inb i)) 256#32))) 0#32 = 1#1 ∧ 0 ≤ m'.val ∧ m'.val < 0 + 50)
      (Cert.KernelIdeal.Pay.chunkSum ((x5) (ix3 (0 : Fin 1) l (Cert.KernelIdeal.Pay.col 0 (⟨(m'.val - 0) % 50, Nat.mod_lt _ (by decide)⟩ : Fin 50) (by omega)))) 0#32 (tb x9 0 inb_S1024x160_S256x160_0_0) h)
      (Cert.KernelIdeal.Guard.gstep (Scalar.cmpi .ne (Scalar.extui (Scalar.andi (Scalar.cmpi .sge v93 768#32) (Scalar.cmpi .slt v91 1024#32))) 0#32 = 1#1 ∧ 150 ≤ m'.val ∧ m'.val < 150 + 50)
      (Cert.KernelIdeal.Pay.chunkSum ((v88) (ix2 l (⟨(m'.val - 150) % 50, Nat.mod_lt _ (by decide)⟩ : Fin 50))) 768#32 (tb x8 768 inb_S1024x160_S256x160_768_0) h)
      (Cert.KernelIdeal.Guard.gstep (Scalar.cmpi .ne (Scalar.extui (Scalar.andi (Scalar.cmpi .sge v93 512#32) (Scalar.cmpi .slt v91 768#32))) 0#32 = 1#1 ∧ 150 ≤ m'.val ∧ m'.val < 150 + 50)
      (Cert.KernelIdeal.Pay.chunkSum ((v88) (ix2 l (⟨(m'.val - 150) % 50, Nat.mod_lt _ (by decide)⟩ : Fin 50))) 512#32 (tb x8 512 inb_S1024x160_S256x160_512_0) h)
      (Cert.KernelIdeal.Guard.gstep (Scalar.cmpi .ne (Scalar.extui v101) 0#32 = 1#1 ∧ 150 ≤ m'.val ∧ m'.val < 150 + 50)
      (Cert.KernelIdeal.Pay.chunkSum ((v88) (ix2 l (⟨(m'.val - 150) % 50, Nat.mod_lt _ (by decide)⟩ : Fin 50))) 256#32 (tb x8 256 inb_S1024x160_S256x160_256_0) h)
      (a14 (ix3 l m' h)))))) := by
  unfold partRun4
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.ld_idx x5 inb_S1x40x200_S1x40x200_0_0_0]
  rw [Cert.KernelIdeal.Guard.fold_guarded M14.view _ _ 0 (by omega) _ _
    (fun l mm h => Cert.KernelIdeal.Pay.chunkSum ((x5) (ix3 (0 : Fin 1) l (Cert.KernelIdeal.Pay.col 0 mm (by omega)))) 256#32 (tb x9 256 inb_S1024x160_S256x160_256_0) h)
    (fun l mm h => Cert.KernelIdeal.Pay.pay27_apply (v4) hv4 (x5) _ _ l mm h)]
  rw [Cert.KernelIdeal.Guard.fold_guarded M14.view _ _ 0 (by omega) _ _
    (fun l mm h => Cert.KernelIdeal.Pay.chunkSum ((x5) (ix3 (0 : Fin 1) l (Cert.KernelIdeal.Pay.col 0 mm (by omega)))) 0#32 (tb x9 0 inb_S1024x160_S256x160_0_0) h)
    (fun l mm h => Cert.KernelIdeal.Pay.pay26_apply (v4) hv4 (x5) _ _ l mm h)]
  rw [Cert.KernelIdeal.Guard.fold_guarded M14.view _ _ 150 (by omega) _ _
    (fun l mm h => Cert.KernelIdeal.Pay.chunkSum ((v88) (ix2 l mm)) 768#32 (tb x8 768 inb_S1024x160_S256x160_768_0) h)
    (fun l mm h => Cert.KernelIdeal.Pay.pay23_apply (v4) hv4 (v88) _ _ l mm h)]
  rw [Cert.KernelIdeal.Guard.fold_guarded M14.view _ _ 150 (by omega) _ _
    (fun l mm h => Cert.KernelIdeal.Pay.chunkSum ((v88) (ix2 l mm)) 512#32 (tb x8 512 inb_S1024x160_S256x160_512_0) h)
    (fun l mm h => Cert.KernelIdeal.Pay.pay22_apply (v4) hv4 (v88) _ _ l mm h)]
  rw [Cert.KernelIdeal.Guard.fold_guarded M14.view _ _ 150 (by omega) _ _
    (fun l mm h => Cert.KernelIdeal.Pay.chunkSum ((v88) (ix2 l mm)) 256#32 (tb x8 256 inb_S1024x160_S256x160_256_0) h)
    (fun l mm h => Cert.KernelIdeal.Pay.pay21_apply (v4) hv4 (v88) _ _ l mm h)]
  rw [h14.read_unread]

/-- Value 1 of 5 that part 4 hands on. -/
theorem ret_part4_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.1 = k0_pay24 x5 := by
  unfold partRun4
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x5 inb_S1x40x200_S1x40x200_0_0_0]
  all_goals try rfl

/-- Value 2 of 5 that part 4 hands on. -/
theorem ret_part4_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.1 = k0_pay25 x5 := by
  unfold partRun4
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x5 inb_S1x40x200_S1x40x200_0_0_0]
  all_goals try rfl

/-- Value 3 of 5 that part 4 hands on. -/
theorem ret_part4_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.1 = (wd x2 (k0_off5 i) (k0_off5_inb i)) := by
  unfold partRun4
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x5 inb_S1x40x200_S1x40x200_0_0_0]
  all_goals try rfl

/-- Value 4 of 5 that part 4 hands on. -/
theorem ret_part4_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.1 = (wd x3 (k0_off5 i) (k0_off5_inb i)) := by
  unfold partRun4
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x5 inb_S1x40x200_S1x40x200_0_0_0]
  all_goals try rfl

/-- Value 5 of 5 that part 4 hands on. -/
theorem ret_part4_5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v88 : IVec S40x50 32) (v91 : Elt Ideal .i32) (v93 : Elt Ideal .i32) (v101 : BitVec 1) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.2.2.2.2.2 = (Scalar.extui (Scalar.andi (Scalar.cmpi .sge (wd x3 (k0_off5 i) (k0_off5_inb i)) 512#32) (Scalar.cmpi .slt (wd x2 (k0_off5 i) (k0_off5_inb i)) 768#32))) := by
  unfold partRun4
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x5 inb_S1x40x200_S1x40x200_0_0_0]
  all_goals try rfl

end Cert.KernelIdeal.Body

end
-- ==== Proof.AccReadLib2.lean ====
/-
  The guarded update read back when the two ways are joined by a plain conditional (no proof of the condition bound):
  the same conditional addition as in the bound form.
-/
import proofs.«408597_j16320875725026_3_alg».proof.Proof.GuardRead

noncomputable section

namespace Cert.KernelIdeal.Body

open Cert.KernelIdeal Cert.KernelIdeal.Gen

open Idealize.ShloMosaic Idealize.ShloMosaic.ValueIdx

/-- `Cert.KernelIdeal.Guard.fold_guarded` for contents joined by `if … then … else`. -/
theorem fold_guarded_ite {sg : RefSig} {κ : Kind} {sp : Space} (v : View sg κ sp S40x200x160 .f32) (g : BitVec 1)
    (A : v.ty.Contents (Elt Ideal)) (off : Nat) (hoff : off + 50 ≤ 200)
    (inb : ∀ a, (![0, off, 0] : Fin 3 → Nat) a + S40x50x160.size a ≤ S40x200x160.size a)
    (P : FVec Ideal S40x50x160 .f32) (d : Fin 40 → Fin 50 → Fin 160 → EReal)
    (hP : ∀ l mm h, P (ix3 l mm h)
      = View.ld (Val := Elt Ideal) (e' := EltTy.f32) (Cert.KernelIdeal.Guard.acc v A)
          (Rect.unit (s := S40x200x160) ![0, off, 0] S40x50x160.size inb) (ix3 l mm h) + d l mm h)
    (l : Fin 40) (m' : Fin 200) (h : Fin 160) :
    v.read (Elt Ideal) (if g = 1#1 then v.writes (Elt Ideal) A [⟨Rect.unit (s := S40x200x160) ![0, off, 0] S40x50x160.size inb, P⟩] else A)
        (ix3 l m' h)
      = Cert.KernelIdeal.Guard.gstep (g = 1#1 ∧ off ≤ m'.val ∧ m'.val < off + 50)
          (d l (⟨(m'.val - off) % 50, Nat.mod_lt _ (by decide)⟩ : Fin 50) h) (v.read (Elt Ideal) A (ix3 l m' h)) := by
  rw [← dite_eq_ite]
  exact Cert.KernelIdeal.Guard.fold_guarded v g A off hoff inb P d hP l m' h

end Cert.KernelIdeal.Body

end
-- ==== Proof.AccReadB.lean ====
/-
  What each printed part of the kernel body leaves in the accumulator, read at an entry, and the values it hands on
  (parts 5, 6, 7, 8).

  A part makes a few guarded slice updates. Read at entry (l, m', h), each update is one conditional addition applied to
  the entry before it: the condition is "the chunk's guard bit is set and column m' lies in the update's 50 columns", the
  added term the one-hot row of the entry's index word against the loaded 256-row table chunk.
-/
import proofs.«408597_j16320875725026_3_alg».proof.Proof.PartsBKernelIdeal
import proofs.«408597_j16320875725026_3_alg».proof.Proof.AccReadLib
import proofs.«408597_j16320875725026_3_alg».proof.Proof.AccReadLib2

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Part 5 -/

set_option maxHeartbeats 4000000 in
/-- The accumulator entry part 5 leaves: 6 guarded updates, in program order from the inside out. -/
theorem acc_part5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v116 : IVec S40x50 32) (v119 : Elt Ideal .i32) (v121 : Elt Ideal .i32) (v135 : BitVec 32) (hv4 : Cert.KernelIdeal.Pay.LaneNumbers v4)
    (l : Fin 40) (m' : Fin 200) (h : Fin 160) :
    (partRun5 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.1 (ix3 l m' h)
      = Cert.KernelIdeal.Guard.gstep (Scalar.cmpi .ne (Scalar.extui (Scalar.andi (Scalar.cmpi .sge (wd x3 (k0_off6 i) (k0_off6_inb i)) 768#32) (Scalar.cmpi .slt (wd x2 (k0_off6 i) (k0_off6_inb i)) 1024#32))) 0#32 = 1#1 ∧ 50 ≤ m'.val ∧ m'.val < 50 + 50)
      (Cert.KernelIdeal.Pay.chunkSum ((v115) (ix2 l (Cert.KernelIdeal.Pay.col 50 (⟨(m'.val - 50) % 50, Nat.mod_lt _ (by decide)⟩ : Fin 50) (by omega)))) 768#32 (tb x9 768 inb_S1024x160_S256x160_768_0) h)
      (Cert.KernelIdeal.Guard.gstep (Scalar.cmpi .ne (Scalar.extui (Scalar.andi (Scalar.cmpi .sge (wd x3 (k0_off6 i) (k0_off6_inb i)) 512#32) (Scalar.cmpi .slt (wd x2 (k0_off6 i) (k0_off6_inb i)) 768#32))) 0#32 = 1#1 ∧ 50 ≤ m'.val ∧ m'.val < 50 + 50)
      (Cert.KernelIdeal.Pay.chunkSum ((v115) (ix2 l (Cert.KernelIdeal.Pay.col 50 (⟨(m'.val - 50) % 50, Nat.mod_lt _ (by decide)⟩ : Fin 50) (by omega)))) 512#32 (tb x9 512 inb_S1024x160_S256x160_512_0) h)
      (Cert.KernelIdeal.Guard.gstep (Scalar.cmpi .ne (Scalar.extui (Scalar.andi (Scalar.cmpi .sge (wd x3 (k0_off6 i) (k0_off6_inb i)) 256#32) (Scalar.cmpi .slt (wd x2 (k0_off6 i) (k0_off6_inb i)) 512#32))) 0#32 = 1#1 ∧ 50 ≤ m'.val ∧ m'.val < 50 + 50)
      (Cert.KernelIdeal.Pay.chunkSum ((v115) (ix2 l (Cert.KernelIdeal.Pay.col 50 (⟨(m'.val - 50) % 50, Nat.mod_lt _ (by decide)⟩ : Fin 50) (by omega)))) 256#32 (tb x9 256 inb_S1024x160_S256x160_256_0) h)
      (Cert.KernelIdeal.Guard.gstep (Scalar.cmpi .ne (Scalar.extui (Scalar.andi (Scalar.cmpi .sge (wd x3 (k0_off6 i) (k0_off6_inb i)) 0#32) (Scalar.cmpi .slt (wd x2 (k0_off6 i) (k0_off6_inb i)) 256#32))) 0#32 = 1#1 ∧ 50 ≤ m'.val ∧ m'.val < 50 + 50)
      (Cert.KernelIdeal.Pay.chunkSum ((v115) (ix2 l (Cert.KernelIdeal.Pay.col 50 (⟨(m'.val - 50) % 50, Nat.mod_lt _ (by decide)⟩ : Fin 50) (by omega)))) 0#32 (tb x9 0 inb_S1024x160_S256x160_0_0) h)
      (Cert.KernelIdeal.Guard.gstep (Scalar.cmpi .ne (Scalar.extui (Scalar.andi (Scalar.cmpi .sge v121 768#32) (Scalar.cmpi .slt v119 1024#32))) 0#32 = 1#1 ∧ 0 ≤ m'.val ∧ m'.val < 0 + 50)
      (Cert.KernelIdeal.Pay.chunkSum ((v116) (ix2 l (⟨(m'.val - 0) % 50, Nat.mod_lt _ (by decide)⟩ : Fin 50))) 768#32 (tb x9 768 inb_S1024x160_S256x160_768_0) h)
      (Cert.KernelIdeal.Guard.gstep (Scalar.cmpi .ne v135 0#32 = 1#1 ∧ 0 ≤ m'.val ∧ m'.val < 0 + 50)
      (Cert.KernelIdeal.Pay.chunkSum ((v116) (ix2 l (⟨(m'.val - 0) % 50, Nat.mod_lt _ (by decide)⟩ : Fin 50))) 512#32 (tb x9 512 inb_S1024x160_S256x160_512_0) h)
      (a14 (ix3 l m' h))))))) := by
  unfold partRun5
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.fold_guarded M14.view _ _ 50 (by omega) _ _
    (fun l mm h => Cert.KernelIdeal.Pay.chunkSum ((v115) (ix2 l (Cert.KernelIdeal.Pay.col 50 mm (by omega)))) 768#32 (tb x9 768 inb_S1024x160_S256x160_768_0) h)
    (fun l mm h => Cert.KernelIdeal.Pay.pay34_apply (v4) hv4 (v115) _ _ l mm h)]
  rw [Cert.KernelIdeal.Guard.fold_guarded M14.view _ _ 50 (by omega) _ _
    (fun l mm h => Cert.KernelIdeal.Pay.chunkSum ((v115) (ix2 l (Cert.KernelIdeal.Pay.col 50 mm (by omega)))) 512#32 (tb x9 512 inb_S1024x160_S256x160_512_0) h)
    (fun l mm h => Cert.KernelIdeal.Pay.pay33_apply (v4) hv4 (v115) _ _ l mm h)]
  rw [Cert.KernelIdeal.Guard.fold_guarded M14.view _ _ 50 (by omega) _ _
    (fun l mm h => Cert.KernelIdeal.Pay.chunkSum ((v115) (ix2 l (Cert.KernelIdeal.Pay.col 50 mm (by omega)))) 256#32 (tb x9 256 inb_S1024x160_S256x160_256_0) h)
    (fun l mm h => Cert.KernelIdeal.Pay.pay32_apply (v4) hv4 (v115) _ _ l mm h)]
  rw [Cert.KernelIdeal.Guard.fold_guarded M14.view _ _ 50 (by omega) _ _
    (fun l mm h => Cert.KernelIdeal.Pay.chunkSum ((v115) (ix2 l (Cert.KernelIdeal.Pay.col 50 mm (by omega)))) 0#32 (tb x9 0 inb_S1024x160_S256x160_0_0) h)
    (fun l mm h => Cert.KernelIdeal.Pay.pay31_apply (v4) hv4 (v115) _ _ l mm h)]
  rw [Cert.KernelIdeal.Guard.fold_guarded M14.view _ _ 0 (by omega) _ _
    (fun l mm h => Cert.KernelIdeal.Pay.chunkSum ((v116) (ix2 l mm)) 768#32 (tb x9 768 inb_S1024x160_S256x160_768_0) h)
    (fun l mm h => Cert.KernelIdeal.Pay.pay29_apply (v4) hv4 (v116) _ _ l mm h)]
  rw [Cert.KernelIdeal.Guard.fold_guarded M14.view _ _ 0 (by omega) _ _
    (fun l mm h => Cert.KernelIdeal.Pay.chunkSum ((v116) (ix2 l mm)) 512#32 (tb x9 512 inb_S1024x160_S256x160_512_0) h)
    (fun l mm h => Cert.KernelIdeal.Pay.pay28_apply (v4) hv4 (v116) _ _ l mm h)]
  rw [h14.read_unread]

/-- Value 1 of 2 that part 5 hands on. -/
theorem ret_part5_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v116 : IVec S40x50 32) (v119 : Elt Ideal .i32) (v121 : Elt Ideal .i32) (v135 : BitVec 32) :
    (partRun5 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.1 = k0_pay35 v115 := by
  unfold partRun5
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 2 of 2 that part 5 hands on. -/
theorem ret_part5_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v116 : IVec S40x50 32) (v119 : Elt Ideal .i32) (v121 : Elt Ideal .i32) (v135 : BitVec 32) :
    (partRun5 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.2.2 = (Scalar.addi v7 2#32) := by
  unfold partRun5
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-! ## Part 6 -/

set_option maxHeartbeats 4000000 in
/-- The accumulator entry part 6 leaves: 5 guarded updates, in program order from the inside out. -/
theorem acc_part6 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v168 : IVec S40x50 32) (v169 : BitVec 32) (hv4 : Cert.KernelIdeal.Pay.LaneNumbers v4)
    (l : Fin 40) (m' : Fin 200) (h : Fin 160) :
    (partRun6 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.1 (ix3 l m' h)
      = Cert.KernelIdeal.Guard.gstep (Scalar.cmpi .ne (Scalar.extui (Scalar.andi (Scalar.cmpi .sge (wd x3 (k0_off8 i) (k0_off8_inb i)) 0#32) (Scalar.cmpi .slt (wd x2 (k0_off8 i) (k0_off8_inb i)) 256#32))) 0#32 = 1#1 ∧ 150 ≤ m'.val ∧ m'.val < 150 + 50)
      (Cert.KernelIdeal.Pay.chunkSum ((v115) (ix2 l (Cert.KernelIdeal.Pay.col 150 (⟨(m'.val - 150) % 50, Nat.mod_lt _ (by decide)⟩ : Fin 50) (by omega)))) 0#32 (tb x9 0 inb_S1024x160_S256x160_0_0) h)
      (Cert.KernelIdeal.Guard.gstep (Scalar.cmpi .ne (Scalar.extui (Scalar.andi (Scalar.cmpi .sge (wd x3 (k0_off7 i) (k0_off7_inb i)) 768#32) (Scalar.cmpi .slt (wd x2 (k0_off7 i) (k0_off7_inb i)) 1024#32))) 0#32 = 1#1 ∧ 100 ≤ m'.val ∧ m'.val < 100 + 50)
      (Cert.KernelIdeal.Pay.chunkSum ((v168) (ix2 l (⟨(m'.val - 100) % 50, Nat.mod_lt _ (by decide)⟩ : Fin 50))) 768#32 (tb x9 768 inb_S1024x160_S256x160_768_0) h)
      (Cert.KernelIdeal.Guard.gstep (Scalar.cmpi .ne (Scalar.extui (Scalar.andi (Scalar.cmpi .sge (wd x3 (k0_off7 i) (k0_off7_inb i)) 512#32) (Scalar.cmpi .slt (wd x2 (k0_off7 i) (k0_off7_inb i)) 768#32))) 0#32 = 1#1 ∧ 100 ≤ m'.val ∧ m'.val < 100 + 50)
      (Cert.KernelIdeal.Pay.chunkSum ((v168) (ix2 l (⟨(m'.val - 100) % 50, Nat.mod_lt _ (by decide)⟩ : Fin 50))) 512#32 (tb x9 512 inb_S1024x160_S256x160_512_0) h)
      (Cert.KernelIdeal.Guard.gstep (Scalar.cmpi .ne (Scalar.extui (Scalar.andi (Scalar.cmpi .sge (wd x3 (k0_off7 i) (k0_off7_inb i)) 256#32) (Scalar.cmpi .slt (wd x2 (k0_off7 i) (k0_off7_inb i)) 512#32))) 0#32 = 1#1 ∧ 100 ≤ m'.val ∧ m'.val < 100 + 50)
      (Cert.KernelIdeal.Pay.chunkSum ((v168) (ix2 l (⟨(m'.val - 100) % 50, Nat.mod_lt _ (by decide)⟩ : Fin 50))) 256#32 (tb x9 256 inb_S1024x160_S256x160_256_0) h)
      (Cert.KernelIdeal.Guard.gstep (Scalar.cmpi .ne (Scalar.extui (Scalar.andi (Scalar.cmpi .sge (wd x3 (k0_off7 i) (k0_off7_inb i)) 0#32) (Scalar.cmpi .slt (wd x2 (k0_off7 i) (k0_off7_inb i)) 256#32))) 0#32 = 1#1 ∧ 100 ≤ m'.val ∧ m'.val < 100 + 50)
      (Cert.KernelIdeal.Pay.chunkSum ((v168) (ix2 l (⟨(m'.val - 100) % 50, Nat.mod_lt _ (by decide)⟩ : Fin 50))) 0#32 (tb x9 0 inb_S1024x160_S256x160_0_0) h)
      (a14 (ix3 l m' h)))))) := by
  unfold partRun6
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [fold_guarded_ite M14.view _ _ 150 (by omega) _ _
    (fun l mm h => Cert.KernelIdeal.Pay.chunkSum ((v115) (ix2 l (Cert.KernelIdeal.Pay.col 150 mm (by omega)))) 0#32 (tb x9 0 inb_S1024x160_S256x160_0_0) h)
    (fun l mm h => Cert.KernelIdeal.Pay.pay41_apply (v4) hv4 (v115) _ _ l mm h)]
  rw [Cert.KernelIdeal.Guard.fold_guarded M14.view _ _ 100 (by omega) _ _
    (fun l mm h => Cert.KernelIdeal.Pay.chunkSum ((v168) (ix2 l mm)) 768#32 (tb x9 768 inb_S1024x160_S256x160_768_0) h)
    (fun l mm h => Cert.KernelIdeal.Pay.pay39_apply (v4) hv4 (v168) _ _ l mm h)]
  rw [Cert.KernelIdeal.Guard.fold_guarded M14.view _ _ 100 (by omega) _ _
    (fun l mm h => Cert.KernelIdeal.Pay.chunkSum ((v168) (ix2 l mm)) 512#32 (tb x9 512 inb_S1024x160_S256x160_512_0) h)
    (fun l mm h => Cert.KernelIdeal.Pay.pay38_apply (v4) hv4 (v168) _ _ l mm h)]
  rw [Cert.KernelIdeal.Guard.fold_guarded M14.view _ _ 100 (by omega) _ _
    (fun l mm h => Cert.KernelIdeal.Pay.chunkSum ((v168) (ix2 l mm)) 256#32 (tb x9 256 inb_S1024x160_S256x160_256_0) h)
    (fun l mm h => Cert.KernelIdeal.Pay.pay37_apply (v4) hv4 (v168) _ _ l mm h)]
  rw [Cert.KernelIdeal.Guard.fold_guarded M14.view _ _ 100 (by omega) _ _
    (fun l mm h => Cert.KernelIdeal.Pay.chunkSum ((v168) (ix2 l mm)) 0#32 (tb x9 0 inb_S1024x160_S256x160_0_0) h)
    (fun l mm h => Cert.KernelIdeal.Pay.pay36_apply (v4) hv4 (v168) _ _ l mm h)]
  rw [h14.read_unread]

/-- Value 1 of 3 that part 6 hands on. -/
theorem ret_part6_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v168 : IVec S40x50 32) (v169 : BitVec 32) :
    (partRun6 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.1 = k0_pay40 v115 := by
  unfold partRun6
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 2 of 3 that part 6 hands on. -/
theorem ret_part6_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v168 : IVec S40x50 32) (v169 : BitVec 32) :
    (partRun6 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.1 = (wd x2 (k0_off8 i) (k0_off8_inb i)) := by
  unfold partRun6
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 3 of 3 that part 6 hands on. -/
theorem ret_part6_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v115 : IVec S40x200 32) (v168 : IVec S40x50 32) (v169 : BitVec 32) :
    (partRun6 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.2.2.2 = (wd x3 (k0_off8 i) (k0_off8_inb i)) := by
  unfold partRun6
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-! ## Part 7 -/

set_option maxHeartbeats 4000000 in
/-- The accumulator entry part 7 leaves: 5 guarded updates, in program order from the inside out. -/
theorem acc_part7 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) (hv4 : Cert.KernelIdeal.Pay.LaneNumbers v4)
    (l : Fin 40) (m' : Fin 200) (h : Fin 160) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.1 (ix3 l m' h)
      = Cert.KernelIdeal.Guard.gstep (Scalar.cmpi .ne (Scalar.extui (Scalar.andi (Scalar.cmpi .sge (wd x3 (k0_off9 i) (k0_off9_inb i)) 256#32) (Scalar.cmpi .slt (wd x2 (k0_off9 i) (k0_off9_inb i)) 512#32))) 0#32 = 1#1 ∧ 0 ≤ m'.val ∧ m'.val < 0 + 50)
      (Cert.KernelIdeal.Pay.chunkSum ((x6) (ix3 (0 : Fin 1) l (Cert.KernelIdeal.Pay.col 0 (⟨(m'.val - 0) % 50, Nat.mod_lt _ (by decide)⟩ : Fin 50) (by omega)))) 256#32 (tb x10 256 inb_S1024x160_S256x160_256_0) h)
      (Cert.KernelIdeal.Guard.gstep (Scalar.cmpi .ne (Scalar.extui (Scalar.andi (Scalar.cmpi .sge (wd x3 (k0_off9 i) (k0_off9_inb i)) 0#32) (Scalar.cmpi .slt (wd x2 (k0_off9 i) (k0_off9_inb i)) 256#32))) 0#32 = 1#1 ∧ 0 ≤ m'.val ∧ m'.val < 0 + 50)
      (Cert.KernelIdeal.Pay.chunkSum ((x6) (ix3 (0 : Fin 1) l (Cert.KernelIdeal.Pay.col 0 (⟨(m'.val - 0) % 50, Nat.mod_lt _ (by decide)⟩ : Fin 50) (by omega)))) 0#32 (tb x10 0 inb_S1024x160_S256x160_0_0) h)
      (Cert.KernelIdeal.Guard.gstep (Scalar.cmpi .ne (Scalar.extui (Scalar.andi (Scalar.cmpi .sge v199 768#32) (Scalar.cmpi .slt v197 1024#32))) 0#32 = 1#1 ∧ 150 ≤ m'.val ∧ m'.val < 150 + 50)
      (Cert.KernelIdeal.Pay.chunkSum ((v194) (ix2 l (⟨(m'.val - 150) % 50, Nat.mod_lt _ (by decide)⟩ : Fin 50))) 768#32 (tb x9 768 inb_S1024x160_S256x160_768_0) h)
      (Cert.KernelIdeal.Guard.gstep (Scalar.cmpi .ne (Scalar.extui (Scalar.andi (Scalar.cmpi .sge v199 512#32) (Scalar.cmpi .slt v197 768#32))) 0#32 = 1#1 ∧ 150 ≤ m'.val ∧ m'.val < 150 + 50)
      (Cert.KernelIdeal.Pay.chunkSum ((v194) (ix2 l (⟨(m'.val - 150) % 50, Nat.mod_lt _ (by decide)⟩ : Fin 50))) 512#32 (tb x9 512 inb_S1024x160_S256x160_512_0) h)
      (Cert.KernelIdeal.Guard.gstep (Scalar.cmpi .ne (Scalar.extui (Scalar.andi (Scalar.cmpi .sge v199 256#32) (Scalar.cmpi .slt v197 512#32))) 0#32 = 1#1 ∧ 150 ≤ m'.val ∧ m'.val < 150 + 50)
      (Cert.KernelIdeal.Pay.chunkSum ((v194) (ix2 l (⟨(m'.val - 150) % 50, Nat.mod_lt _ (by decide)⟩ : Fin 50))) 256#32 (tb x9 256 inb_S1024x160_S256x160_256_0) h)
      (a14 (ix3 l m' h)))))) := by
  unfold partRun7
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.ld_idx x6 inb_S1x40x200_S1x40x200_0_0_0]
  rw [fold_guarded_ite M14.view _ _ 0 (by omega) _ _
    (fun l mm h => Cert.KernelIdeal.Pay.chunkSum ((x6) (ix3 (0 : Fin 1) l (Cert.KernelIdeal.Pay.col 0 mm (by omega)))) 256#32 (tb x10 256 inb_S1024x160_S256x160_256_0) h)
    (fun l mm h => Cert.KernelIdeal.Pay.pay48_apply (v4) hv4 (x6) _ _ l mm h)]
  rw [Cert.KernelIdeal.Guard.fold_guarded M14.view _ _ 0 (by omega) _ _
    (fun l mm h => Cert.KernelIdeal.Pay.chunkSum ((x6) (ix3 (0 : Fin 1) l (Cert.KernelIdeal.Pay.col 0 mm (by omega)))) 0#32 (tb x10 0 inb_S1024x160_S256x160_0_0) h)
    (fun l mm h => Cert.KernelIdeal.Pay.pay47_apply (v4) hv4 (x6) _ _ l mm h)]
  rw [Cert.KernelIdeal.Guard.fold_guarded M14.view _ _ 150 (by omega) _ _
    (fun l mm h => Cert.KernelIdeal.Pay.chunkSum ((v194) (ix2 l mm)) 768#32 (tb x9 768 inb_S1024x160_S256x160_768_0) h)
    (fun l mm h => Cert.KernelIdeal.Pay.pay44_apply (v4) hv4 (v194) _ _ l mm h)]
  rw [Cert.KernelIdeal.Guard.fold_guarded M14.view _ _ 150 (by omega) _ _
    (fun l mm h => Cert.KernelIdeal.Pay.chunkSum ((v194) (ix2 l mm)) 512#32 (tb x9 512 inb_S1024x160_S256x160_512_0) h)
    (fun l mm h => Cert.KernelIdeal.Pay.pay43_apply (v4) hv4 (v194) _ _ l mm h)]
  rw [Cert.KernelIdeal.Guard.fold_guarded M14.view _ _ 150 (by omega) _ _
    (fun l mm h => Cert.KernelIdeal.Pay.chunkSum ((v194) (ix2 l mm)) 256#32 (tb x9 256 inb_S1024x160_S256x160_256_0) h)
    (fun l mm h => Cert.KernelIdeal.Pay.pay42_apply (v4) hv4 (v194) _ _ l mm h)]
  rw [h14.read_unread]

/-- Value 1 of 5 that part 7 hands on. -/
theorem ret_part7_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.1 = k0_pay45 x6 := by
  unfold partRun7
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x6 inb_S1x40x200_S1x40x200_0_0_0]
  all_goals try rfl

/-- Value 2 of 5 that part 7 hands on. -/
theorem ret_part7_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.1 = k0_pay46 x6 := by
  unfold partRun7
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x6 inb_S1x40x200_S1x40x200_0_0_0]
  all_goals try rfl

/-- Value 3 of 5 that part 7 hands on. -/
theorem ret_part7_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.1 = (wd x2 (k0_off9 i) (k0_off9_inb i)) := by
  unfold partRun7
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x6 inb_S1x40x200_S1x40x200_0_0_0]
  all_goals try rfl

/-- Value 4 of 5 that part 7 hands on. -/
theorem ret_part7_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.1 = (wd x3 (k0_off9 i) (k0_off9_inb i)) := by
  unfold partRun7
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x6 inb_S1x40x200_S1x40x200_0_0_0]
  all_goals try rfl

/-- Value 5 of 5 that part 7 hands on. -/
theorem ret_part7_5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v194 : IVec S40x50 32) (v197 : Elt Ideal .i32) (v199 : Elt Ideal .i32) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.2.2.2.2.2 = 512#32 := by
  unfold partRun7
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rw [Cert.KernelIdeal.Guard.ld_idx x6 inb_S1x40x200_S1x40x200_0_0_0]
  all_goals try rfl

/-! ## Part 8 -/

set_option maxHeartbeats 4000000 in
/-- The accumulator entry part 8 leaves: 5 guarded updates, in program order from the inside out. -/
theorem acc_part8 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v222 : IVec S40x50 32) (v225 : Elt Ideal .i32) (v227 : Elt Ideal .i32) (c512_i32_130 : BitVec 32) (hv4 : Cert.KernelIdeal.Pay.LaneNumbers v4)
    (l : Fin 40) (m' : Fin 200) (h : Fin 160) :
    (partRun8 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.1 (ix3 l m' h)
      = Cert.KernelIdeal.Guard.gstep (Scalar.cmpi .ne (Scalar.extui (Scalar.andi (Scalar.cmpi .sge (wd x3 (k0_off10 i) (k0_off10_inb i)) 512#32) (Scalar.cmpi .slt (wd x2 (k0_off10 i) (k0_off10_inb i)) 768#32))) 0#32 = 1#1 ∧ 50 ≤ m'.val ∧ m'.val < 50 + 50)
      (Cert.KernelIdeal.Pay.chunkSum ((v221) (ix2 l (Cert.KernelIdeal.Pay.col 50 (⟨(m'.val - 50) % 50, Nat.mod_lt _ (by decide)⟩ : Fin 50) (by omega)))) 512#32 (tb x10 512 inb_S1024x160_S256x160_512_0) h)
      (Cert.KernelIdeal.Guard.gstep (Scalar.cmpi .ne (Scalar.extui (Scalar.andi (Scalar.cmpi .sge (wd x3 (k0_off10 i) (k0_off10_inb i)) 256#32) (Scalar.cmpi .slt (wd x2 (k0_off10 i) (k0_off10_inb i)) 512#32))) 0#32 = 1#1 ∧ 50 ≤ m'.val ∧ m'.val < 50 + 50)
      (Cert.KernelIdeal.Pay.chunkSum ((v221) (ix2 l (Cert.KernelIdeal.Pay.col 50 (⟨(m'.val - 50) % 50, Nat.mod_lt _ (by decide)⟩ : Fin 50) (by omega)))) 256#32 (tb x10 256 inb_S1024x160_S256x160_256_0) h)
      (Cert.KernelIdeal.Guard.gstep (Scalar.cmpi .ne (Scalar.extui (Scalar.andi (Scalar.cmpi .sge (wd x3 (k0_off10 i) (k0_off10_inb i)) 0#32) (Scalar.cmpi .slt (wd x2 (k0_off10 i) (k0_off10_inb i)) 256#32))) 0#32 = 1#1 ∧ 50 ≤ m'.val ∧ m'.val < 50 + 50)
      (Cert.KernelIdeal.Pay.chunkSum ((v221) (ix2 l (Cert.KernelIdeal.Pay.col 50 (⟨(m'.val - 50) % 50, Nat.mod_lt _ (by decide)⟩ : Fin 50) (by omega)))) 0#32 (tb x10 0 inb_S1024x160_S256x160_0_0) h)
      (Cert.KernelIdeal.Guard.gstep (Scalar.cmpi .ne (Scalar.extui (Scalar.andi (Scalar.cmpi .sge v227 768#32) (Scalar.cmpi .slt v225 1024#32))) 0#32 = 1#1 ∧ 0 ≤ m'.val ∧ m'.val < 0 + 50)
      (Cert.KernelIdeal.Pay.chunkSum ((v222) (ix2 l (⟨(m'.val - 0) % 50, Nat.mod_lt _ (by decide)⟩ : Fin 50))) 768#32 (tb x10 768 inb_S1024x160_S256x160_768_0) h)
      (Cert.KernelIdeal.Guard.gstep (Scalar.cmpi .ne (Scalar.extui (Scalar.andi (Scalar.cmpi .sge v227 c512_i32_130) (Scalar.cmpi .slt v225 768#32))) 0#32 = 1#1 ∧ 0 ≤ m'.val ∧ m'.val < 0 + 50)
      (Cert.KernelIdeal.Pay.chunkSum ((v222) (ix2 l (⟨(m'.val - 0) % 50, Nat.mod_lt _ (by decide)⟩ : Fin 50))) 512#32 (tb x10 512 inb_S1024x160_S256x160_512_0) h)
      (a14 (ix3 l m' h)))))) := by
  unfold partRun8
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.fold_guarded M14.view _ _ 50 (by omega) _ _
    (fun l mm h => Cert.KernelIdeal.Pay.chunkSum ((v221) (ix2 l (Cert.KernelIdeal.Pay.col 50 mm (by omega)))) 512#32 (tb x10 512 inb_S1024x160_S256x160_512_0) h)
    (fun l mm h => Cert.KernelIdeal.Pay.pay54_apply (v4) hv4 (v221) _ _ l mm h)]
  rw [Cert.KernelIdeal.Guard.fold_guarded M14.view _ _ 50 (by omega) _ _
    (fun l mm h => Cert.KernelIdeal.Pay.chunkSum ((v221) (ix2 l (Cert.KernelIdeal.Pay.col 50 mm (by omega)))) 256#32 (tb x10 256 inb_S1024x160_S256x160_256_0) h)
    (fun l mm h => Cert.KernelIdeal.Pay.pay53_apply (v4) hv4 (v221) _ _ l mm h)]
  rw [Cert.KernelIdeal.Guard.fold_guarded M14.view _ _ 50 (by omega) _ _
    (fun l mm h => Cert.KernelIdeal.Pay.chunkSum ((v221) (ix2 l (Cert.KernelIdeal.Pay.col 50 mm (by omega)))) 0#32 (tb x10 0 inb_S1024x160_S256x160_0_0) h)
    (fun l mm h => Cert.KernelIdeal.Pay.pay52_apply (v4) hv4 (v221) _ _ l mm h)]
  rw [Cert.KernelIdeal.Guard.fold_guarded M14.view _ _ 0 (by omega) _ _
    (fun l mm h => Cert.KernelIdeal.Pay.chunkSum ((v222) (ix2 l mm)) 768#32 (tb x10 768 inb_S1024x160_S256x160_768_0) h)
    (fun l mm h => Cert.KernelIdeal.Pay.pay50_apply (v4) hv4 (v222) _ _ l mm h)]
  rw [Cert.KernelIdeal.Guard.fold_guarded M14.view _ _ 0 (by omega) _ _
    (fun l mm h => Cert.KernelIdeal.Pay.chunkSum ((v222) (ix2 l mm)) 512#32 (tb x10 512 inb_S1024x160_S256x160_512_0) h)
    (fun l mm h => Cert.KernelIdeal.Pay.pay49_apply (v4) hv4 (v222) _ _ l mm h)]
  rw [h14.read_unread]

/-- Value 1 of 3 that part 8 hands on. -/
theorem ret_part8_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v222 : IVec S40x50 32) (v225 : Elt Ideal .i32) (v227 : Elt Ideal .i32) (c512_i32_130 : BitVec 32) :
    (partRun8 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.1 = k0_pay51 v221 := by
  unfold partRun8
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 2 of 3 that part 8 hands on. -/
theorem ret_part8_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v222 : IVec S40x50 32) (v225 : Elt Ideal .i32) (v227 : Elt Ideal .i32) (c512_i32_130 : BitVec 32) :
    (partRun8 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.1 = (Scalar.extui (Scalar.andi (Scalar.cmpi .sge (wd x3 (k0_off10 i) (k0_off10_inb i)) 768#32) (Scalar.cmpi .slt (wd x2 (k0_off10 i) (k0_off10_inb i)) 1024#32))) := by
  unfold partRun8
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

/-- Value 3 of 3 that part 8 hands on. -/
theorem ret_part8_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v222 : IVec S40x50 32) (v225 : Elt Ideal .i32) (v227 : Elt Ideal .i32) (c512_i32_130 : BitVec 32) :
    (partRun8 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.2.2.2 = 0#32 := by
  unfold partRun8
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread]
  all_goals try rfl

end Cert.KernelIdeal.Body

end
-- ==== Proof.AccReadG.lean ====
/-
  The accumulator after each of the kernel body's parts 9 to 12, read at an entry, and the values the parts hand on.

  A part holds five or six guarded updates of the 40 × 200 × 160 accumulator: under a guard bit, columns
  [off, off + 50) take their previous contents plus the product of a one-hot array of index words with a 256-row chunk of
  a pre-multiplied table. Read at entry (l, m', h) after the part, the accumulator is the entry on the part's entry with
  one conditional addition applied per update, in program order: update j adds the one-hot row of its index word at
  (l, (m' − off_j) mod 50) against column h of its chunk when its guard bit is set and off_j ≤ m' < off_j + 50, and
  changes nothing otherwise. The guard bits are spelt as the body computes them from the words of the two bound tables
  (or from the bits and words an earlier part handed on).
-/
import proofs.«408597_j16320875725026_3_alg».proof.Proof.PartsCKernelIdeal
import proofs.«408597_j16320875725026_3_alg».proof.Proof.GuardRead
import proofs.«408597_j16320875725026_3_alg».proof.Proof.AccAbbrevs

set_option maxRecDepth 65536

noncomputable section

open scoped BigOperators

namespace Cert.KernelIdeal.Body

open Cert.KernelIdeal Cert.KernelIdeal.Gen Cert.KernelIdeal.Guard Cert.KernelIdeal.Pay

open Idealize.ShloMosaic Idealize.ShloMosaic.ValueIdx
open Idealize.ShloMosaic.TcCoe Idealize.ShloMosaic.Tactic

/-! ## One guarded update of the accumulator, read at an entry, as a conditional addition -/

section Generic
variable {sg : RefSig} {κ : Kind} {sp : Space}

/-- ONE GUARDED UPDATE AT AN ENTRY, AS ONE CONDITIONAL ADDITION. The update stores, under the guard bit `g`, into
    columns `[off, off + 50)` the payload `pay T S` of a table chunk `T` and the slice `S` of the previous contents it
    has just loaded; if the payload at `(l, mm, h)` is the slice's entry plus the one-hot row of the word `W l mm`
    against column `h` of `T`, the contents after it read, at `(l, m', h)`, the previous entry plus that product when the
    guard bit is set and `m'` lies in the columns, and the previous entry otherwise. The word is indexed by the column
    within the slice taken modulo 50, so that the product is written for every `m'`. -/
theorem gupd_read (v : View sg κ sp S40x200x160 .f32)
    (pay : FVec Ideal S256x160 .f32 → FVec Ideal S40x50x160 .f32 → FVec Ideal S40x50x160 .f32)
    (W : Fin 40 → Fin 50 → BitVec 32) (lo : BitVec 32)
    (hpay : ∀ (T : FVec Ideal S256x160 .f32) (S : FVec Ideal S40x50x160 .f32) (l : Fin 40) (mm : Fin 50) (h : Fin 160),
      pay T S (ix3 l mm h) = S (ix3 l mm h) + chunkSum (W l mm) lo T h)
    (g : BitVec 1) (A : v.ty.Contents (Elt Ideal)) (off : Nat) (hoff : off + 50 ≤ 200)
    (inb : ∀ a, (![0, off, 0] : Fin 3 → Nat) a + S40x50x160.size a ≤ S40x200x160.size a)
    (T : FVec Ideal S256x160 .f32) (l : Fin 40) (m' : Fin 200) (h : Fin 160) :
    v.read (Elt Ideal)
        (if hc : g = 1#1 then
          v.writes (Elt Ideal) A [⟨Rect.unit (s := S40x200x160) ![0, off, 0] S40x50x160.size inb,
            pay T (v.readAt (Elt Ideal) (Rect.unit (s := S40x200x160) ![0, off, 0] S40x50x160.size inb).toLoadRect A)⟩]
        else A) (ix3 l m' h)
      = gstep (g = 1#1 ∧ off ≤ m'.val ∧ m'.val < off + 50)
          (chunkSum (W l (⟨(m'.val - off) % 50, Nat.mod_lt _ (by decide)⟩ : Fin 50)) lo T h)
          (v.read (Elt Ideal) A (ix3 l m' h)) := by
  refine (step_guarded v g A off hoff inb
    (pay T (v.readAt (Elt Ideal) (Rect.unit (s := S40x200x160) ![0, off, 0] S40x50x160.size inb).toLoadRect A))
    (fun l mm h => chunkSum (W l mm) lo T h) (fun l mm h => hpay T _ l mm h) l m' h).trans ?_
  unfold gstep
  by_cases hm : g = 1#1 ∧ off ≤ m'.val ∧ m'.val < off + 50
  · rw [dif_pos hm, if_pos hm]
    have e : (⟨m'.val - off, by omega⟩ : Fin 50) = (⟨(m'.val - off) % 50, Nat.mod_lt _ (by decide)⟩ : Fin 50) :=
      Fin.ext (Nat.mod_eq_of_lt (by omega)).symm
    rw [e]
  · rw [dif_neg hm, if_neg hm]

end Generic

/-- Part 12's accumulator at an entry: its 5 guarded updates in program order, the first innermost, each one
    conditional addition; the entry on entry occurs once. -/
theorem acc_part12 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v354 : IVec S40x50 32) (v357 : Elt Ideal .i32) (v375 : BitVec 1)
    (hv4 : LaneNumbers v4) (l : Fin 40) (m' : Fin 200) (h : Fin 160) :
    (partRun12 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.1 (ix3 l m' h)
      = gstep (Scalar.cmpi .ne (Scalar.extui (Scalar.andi (Scalar.cmpi .sge (wd x3 (k0_off15 i) (k0_off15_inb i)) 768#32) (Scalar.cmpi .slt (wd x2 (k0_off15 i) (k0_off15_inb i)) 1024#32))) 0#32 = 1#1 ∧ 100 ≤ m'.val ∧ m'.val < 100 + 50)
        (chunkSum (v327 (ix2 l (col 100 (⟨(m'.val - 100) % 50, Nat.mod_lt _ (by decide)⟩ : Fin 50) (by omega)))) 768#32 (tb x11 768 inb_S1024x160_S256x160_768_0) h)
        (gstep (Scalar.cmpi .ne (Scalar.extui (Scalar.andi (Scalar.cmpi .sge (wd x3 (k0_off15 i) (k0_off15_inb i)) 512#32) (Scalar.cmpi .slt (wd x2 (k0_off15 i) (k0_off15_inb i)) 768#32))) 0#32 = 1#1 ∧ 100 ≤ m'.val ∧ m'.val < 100 + 50)
        (chunkSum (v327 (ix2 l (col 100 (⟨(m'.val - 100) % 50, Nat.mod_lt _ (by decide)⟩ : Fin 50) (by omega)))) 512#32 (tb x11 512 inb_S1024x160_S256x160_512_0) h)
        (gstep (Scalar.cmpi .ne (Scalar.extui (Scalar.andi (Scalar.cmpi .sge (wd x3 (k0_off15 i) (k0_off15_inb i)) 256#32) (Scalar.cmpi .slt (wd x2 (k0_off15 i) (k0_off15_inb i)) 512#32))) 0#32 = 1#1 ∧ 100 ≤ m'.val ∧ m'.val < 100 + 50)
        (chunkSum (v327 (ix2 l (col 100 (⟨(m'.val - 100) % 50, Nat.mod_lt _ (by decide)⟩ : Fin 50) (by omega)))) 256#32 (tb x11 256 inb_S1024x160_S256x160_256_0) h)
        (gstep (Scalar.cmpi .ne (Scalar.extui (Scalar.andi (Scalar.cmpi .sge (wd x3 (k0_off15 i) (k0_off15_inb i)) 0#32) (Scalar.cmpi .slt (wd x2 (k0_off15 i) (k0_off15_inb i)) 256#32))) 0#32 = 1#1 ∧ 100 ≤ m'.val ∧ m'.val < 100 + 50)
        (chunkSum (v327 (ix2 l (col 100 (⟨(m'.val - 100) % 50, Nat.mod_lt _ (by decide)⟩ : Fin 50) (by omega)))) 0#32 (tb x11 0 inb_S1024x160_S256x160_0_0) h)
        (gstep (Scalar.cmpi .ne (Scalar.extui (Scalar.andi v375 (Scalar.cmpi .slt v357 1024#32))) 0#32 = 1#1 ∧ 50 ≤ m'.val ∧ m'.val < 50 + 50)
        (chunkSum (v354 (ix2 l (⟨(m'.val - 50) % 50, Nat.mod_lt _ (by decide)⟩ : Fin 50))) 768#32 (tb x11 768 inb_S1024x160_S256x160_768_0) h)
        (a14 (ix3 l m' h)))))) := by
  unfold partRun12
  dsimp only
  sl_unfold_run_names
  rw [gupd_read M14.view (k0_pay81 (F := Ideal) v4 v327) (fun l mm => v327 (ix2 l (col 100 mm (by omega)))) 768#32
    (fun T S l mm h => pay81_apply v4 hv4 v327 T S l mm h) _ _ 100 (by omega)]
  rw [gupd_read M14.view (k0_pay80 (F := Ideal) v4 v327) (fun l mm => v327 (ix2 l (col 100 mm (by omega)))) 512#32
    (fun T S l mm h => pay80_apply v4 hv4 v327 T S l mm h) _ _ 100 (by omega)]
  rw [gupd_read M14.view (k0_pay79 (F := Ideal) v4 v327) (fun l mm => v327 (ix2 l (col 100 mm (by omega)))) 256#32
    (fun T S l mm h => pay79_apply v4 hv4 v327 T S l mm h) _ _ 100 (by omega)]
  rw [gupd_read M14.view (k0_pay78 (F := Ideal) v4 v327) (fun l mm => v327 (ix2 l (col 100 mm (by omega)))) 0#32
    (fun T S l mm h => pay78_apply v4 hv4 v327 T S l mm h) _ _ 100 (by omega)]
  rw [gupd_read M14.view (k0_pay76 (F := Ideal) v4 v354) (fun l mm => v354 (ix2 l mm)) 768#32
    (fun T S l mm h => pay76_apply v4 hv4 v354 T S l mm h) _ _ 50 (by omega)]
  rw [h14.read_unread]
  simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- Part 11's accumulator at an entry: its 6 guarded updates in program order, the first innermost, each one
    conditional addition; the entry on entry occurs once. -/
theorem acc_part11 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v328 : IVec S40x50 32) (v331 : Elt Ideal .i32) (v333 : Elt Ideal .i32) (v341 : BitVec 1)
    (hv4 : LaneNumbers v4) (l : Fin 40) (m' : Fin 200) (h : Fin 160) :
    (partRun11 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.1 (ix3 l m' h)
      = gstep (Scalar.cmpi .ne (Scalar.extui (Scalar.andi (Scalar.cmpi .sge (wd x3 (k0_off14 i) (k0_off14_inb i)) 512#32) (Scalar.cmpi .slt (wd x2 (k0_off14 i) (k0_off14_inb i)) 768#32))) 0#32 = 1#1 ∧ 50 ≤ m'.val ∧ m'.val < 50 + 50)
        (chunkSum (v327 (ix2 l (col 50 (⟨(m'.val - 50) % 50, Nat.mod_lt _ (by decide)⟩ : Fin 50) (by omega)))) 512#32 (tb x11 512 inb_S1024x160_S256x160_512_0) h)
        (gstep (Scalar.cmpi .ne (Scalar.extui (Scalar.andi (Scalar.cmpi .sge (wd x3 (k0_off14 i) (k0_off14_inb i)) 256#32) (Scalar.cmpi .slt (wd x2 (k0_off14 i) (k0_off14_inb i)) 512#32))) 0#32 = 1#1 ∧ 50 ≤ m'.val ∧ m'.val < 50 + 50)
        (chunkSum (v327 (ix2 l (col 50 (⟨(m'.val - 50) % 50, Nat.mod_lt _ (by decide)⟩ : Fin 50) (by omega)))) 256#32 (tb x11 256 inb_S1024x160_S256x160_256_0) h)
        (gstep (Scalar.cmpi .ne (Scalar.extui (Scalar.andi (Scalar.cmpi .sge (wd x3 (k0_off14 i) (k0_off14_inb i)) 0#32) (Scalar.cmpi .slt (wd x2 (k0_off14 i) (k0_off14_inb i)) 256#32))) 0#32 = 1#1 ∧ 50 ≤ m'.val ∧ m'.val < 50 + 50)
        (chunkSum (v327 (ix2 l (col 50 (⟨(m'.val - 50) % 50, Nat.mod_lt _ (by decide)⟩ : Fin 50) (by omega)))) 0#32 (tb x11 0 inb_S1024x160_S256x160_0_0) h)
        (gstep (Scalar.cmpi .ne (Scalar.extui (Scalar.andi (Scalar.cmpi .sge v333 768#32) (Scalar.cmpi .slt v331 1024#32))) 0#32 = 1#1 ∧ 0 ≤ m'.val ∧ m'.val < 0 + 50)
        (chunkSum (v328 (ix2 l (⟨(m'.val - 0) % 50, Nat.mod_lt _ (by decide)⟩ : Fin 50))) 768#32 (tb x11 768 inb_S1024x160_S256x160_768_0) h)
        (gstep (Scalar.cmpi .ne (Scalar.extui (Scalar.andi (Scalar.cmpi .sge v333 512#32) (Scalar.cmpi .slt v331 768#32))) 0#32 = 1#1 ∧ 0 ≤ m'.val ∧ m'.val < 0 + 50)
        (chunkSum (v328 (ix2 l (⟨(m'.val - 0) % 50, Nat.mod_lt _ (by decide)⟩ : Fin 50))) 512#32 (tb x11 512 inb_S1024x160_S256x160_512_0) h)
        (gstep (Scalar.cmpi .ne (Scalar.extui v341) 0#32 = 1#1 ∧ 0 ≤ m'.val ∧ m'.val < 0 + 50)
        (chunkSum (v328 (ix2 l (⟨(m'.val - 0) % 50, Nat.mod_lt _ (by decide)⟩ : Fin 50))) 256#32 (tb x11 256 inb_S1024x160_S256x160_256_0) h)
        (a14 (ix3 l m' h))))))) := by
  unfold partRun11
  dsimp only
  sl_unfold_run_names
  rw [gupd_read M14.view (k0_pay75 (F := Ideal) v4 v327) (fun l mm => v327 (ix2 l (col 50 mm (by omega)))) 512#32
    (fun T S l mm h => pay75_apply v4 hv4 v327 T S l mm h) _ _ 50 (by omega)]
  rw [gupd_read M14.view (k0_pay74 (F := Ideal) v4 v327) (fun l mm => v327 (ix2 l (col 50 mm (by omega)))) 256#32
    (fun T S l mm h => pay74_apply v4 hv4 v327 T S l mm h) _ _ 50 (by omega)]
  rw [gupd_read M14.view (k0_pay73 (F := Ideal) v4 v327) (fun l mm => v327 (ix2 l (col 50 mm (by omega)))) 0#32
    (fun T S l mm h => pay73_apply v4 hv4 v327 T S l mm h) _ _ 50 (by omega)]
  rw [gupd_read M14.view (k0_pay71 (F := Ideal) v4 v328) (fun l mm => v328 (ix2 l mm)) 768#32
    (fun T S l mm h => pay71_apply v4 hv4 v328 T S l mm h) _ _ 0 (by omega)]
  rw [gupd_read M14.view (k0_pay70 (F := Ideal) v4 v328) (fun l mm => v328 (ix2 l mm)) 512#32
    (fun T S l mm h => pay70_apply v4 hv4 v328 T S l mm h) _ _ 0 (by omega)]
  rw [gupd_read M14.view (k0_pay69 (F := Ideal) v4 v328) (fun l mm => v328 (ix2 l mm)) 256#32
    (fun T S l mm h => pay69_apply v4 hv4 v328 T S l mm h) _ _ 0 (by omega)]
  rw [h14.read_unread]
  simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- Part 10's accumulator at an entry: its 5 guarded updates in program order, the first innermost, each one
    conditional addition; the entry on entry occurs once. -/
theorem acc_part10 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1)
    (hv4 : LaneNumbers v4) (l : Fin 40) (m' : Fin 200) (h : Fin 160) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.1 (ix3 l m' h)
      = gstep (Scalar.cmpi .ne (Scalar.extui (Scalar.andi (Scalar.cmpi .sge (wd x3 (k0_off13 i) (k0_off13_inb i)) 0#32) (Scalar.cmpi .slt (wd x2 (k0_off13 i) (k0_off13_inb i)) 256#32))) 0#32 = 1#1 ∧ 0 ≤ m'.val ∧ m'.val < 0 + 50)
        (chunkSum (x7 (ix3 (0 : Fin 1) l (col 0 (⟨(m'.val - 0) % 50, Nat.mod_lt _ (by decide)⟩ : Fin 50) (by omega)))) 0#32 (tb x11 0 inb_S1024x160_S256x160_0_0) h)
        (gstep (Scalar.cmpi .ne (Scalar.extui (Scalar.andi (Scalar.cmpi .sge v305 768#32) (Scalar.cmpi .slt v303 1024#32))) 0#32 = 1#1 ∧ 150 ≤ m'.val ∧ m'.val < 150 + 50)
        (chunkSum (v300 (ix2 l (⟨(m'.val - 150) % 50, Nat.mod_lt _ (by decide)⟩ : Fin 50))) 768#32 (tb x10 768 inb_S1024x160_S256x160_768_0) h)
        (gstep (Scalar.cmpi .ne (Scalar.extui (Scalar.andi (Scalar.cmpi .sge v305 512#32) (Scalar.cmpi .slt v303 768#32))) 0#32 = 1#1 ∧ 150 ≤ m'.val ∧ m'.val < 150 + 50)
        (chunkSum (v300 (ix2 l (⟨(m'.val - 150) % 50, Nat.mod_lt _ (by decide)⟩ : Fin 50))) 512#32 (tb x10 512 inb_S1024x160_S256x160_512_0) h)
        (gstep (Scalar.cmpi .ne (Scalar.extui (Scalar.andi (Scalar.cmpi .sge v305 256#32) (Scalar.cmpi .slt v303 512#32))) 0#32 = 1#1 ∧ 150 ≤ m'.val ∧ m'.val < 150 + 50)
        (chunkSum (v300 (ix2 l (⟨(m'.val - 150) % 50, Nat.mod_lt _ (by decide)⟩ : Fin 50))) 256#32 (tb x10 256 inb_S1024x160_S256x160_256_0) h)
        (gstep (Scalar.cmpi .ne (Scalar.extui (Scalar.andi v306 v307)) 0#32 = 1#1 ∧ 150 ≤ m'.val ∧ m'.val < 150 + 50)
        (chunkSum (v300 (ix2 l (⟨(m'.val - 150) % 50, Nat.mod_lt _ (by decide)⟩ : Fin 50))) 0#32 (tb x10 0 inb_S1024x160_S256x160_0_0) h)
        (a14 (ix3 l m' h)))))) := by
  unfold partRun10
  dsimp only
  sl_unfold_run_names
  rw [gupd_read M14.view (k0_pay68 (F := Ideal) v4 (View.readAt (Elt Ideal) M7.view (Rect.unit (s := S1x40x200) ![0, 0, 0] S1x40x200.size inb_S1x40x200_S1x40x200_0_0_0).toLoadRect (h7.unread x7))) (fun l mm => (View.readAt (Elt Ideal) M7.view (Rect.unit (s := S1x40x200) ![0, 0, 0] S1x40x200.size inb_S1x40x200_S1x40x200_0_0_0).toLoadRect (h7.unread x7)) (ix3 (0 : Fin 1) l (col 0 mm (by omega)))) 0#32
    (fun T S l mm h => pay68_apply v4 hv4 (View.readAt (Elt Ideal) M7.view (Rect.unit (s := S1x40x200) ![0, 0, 0] S1x40x200.size inb_S1x40x200_S1x40x200_0_0_0).toLoadRect (h7.unread x7)) T S l mm h) _ _ 0 (by omega)]
  rw [gupd_read M14.view (k0_pay65 (F := Ideal) v4 v300) (fun l mm => v300 (ix2 l mm)) 768#32
    (fun T S l mm h => pay65_apply v4 hv4 v300 T S l mm h) _ _ 150 (by omega)]
  rw [gupd_read M14.view (k0_pay64 (F := Ideal) v4 v300) (fun l mm => v300 (ix2 l mm)) 512#32
    (fun T S l mm h => pay64_apply v4 hv4 v300 T S l mm h) _ _ 150 (by omega)]
  rw [gupd_read M14.view (k0_pay63 (F := Ideal) v4 v300) (fun l mm => v300 (ix2 l mm)) 256#32
    (fun T S l mm h => pay63_apply v4 hv4 v300 T S l mm h) _ _ 150 (by omega)]
  rw [gupd_read M14.view (k0_pay62 (F := Ideal) v4 v300) (fun l mm => v300 (ix2 l mm)) 0#32
    (fun T S l mm h => pay62_apply v4 hv4 v300 T S l mm h) _ _ 150 (by omega)]
  rw [h14.read_unread]
  simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]
  all_goals try rw [Cert.KernelIdeal.Guard.ld_idx (Val := Elt Ideal) x7 inb_S1x40x200_S1x40x200_0_0_0]

/-- Part 9's accumulator at an entry: its 5 guarded updates in program order, the first innermost, each one
    conditional addition; the entry on entry occurs once. -/
theorem acc_part9 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32)
    (hv4 : LaneNumbers v4) (l : Fin 40) (m' : Fin 200) (h : Fin 160) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.1 (ix3 l m' h)
      = gstep (Scalar.cmpi .ne (Scalar.extui (Scalar.andi (Scalar.cmpi .sge (wd x3 (k0_off11 i) (k0_off11_inb i)) 768#32) (Scalar.cmpi .slt (wd x2 (k0_off11 i) (k0_off11_inb i)) 1024#32))) 0#32 = 1#1 ∧ 100 ≤ m'.val ∧ m'.val < 100 + 50)
        (chunkSum (v221 (ix2 l (col 100 (⟨(m'.val - 100) % 50, Nat.mod_lt _ (by decide)⟩ : Fin 50) (by omega)))) 768#32 (tb x10 768 inb_S1024x160_S256x160_768_0) h)
        (gstep (Scalar.cmpi .ne (Scalar.extui (Scalar.andi (Scalar.cmpi .sge (wd x3 (k0_off11 i) (k0_off11_inb i)) 512#32) (Scalar.cmpi .slt (wd x2 (k0_off11 i) (k0_off11_inb i)) 768#32))) 0#32 = 1#1 ∧ 100 ≤ m'.val ∧ m'.val < 100 + 50)
        (chunkSum (v221 (ix2 l (col 100 (⟨(m'.val - 100) % 50, Nat.mod_lt _ (by decide)⟩ : Fin 50) (by omega)))) 512#32 (tb x10 512 inb_S1024x160_S256x160_512_0) h)
        (gstep (Scalar.cmpi .ne (Scalar.extui (Scalar.andi (Scalar.cmpi .sge (wd x3 (k0_off11 i) (k0_off11_inb i)) 256#32) (Scalar.cmpi .slt (wd x2 (k0_off11 i) (k0_off11_inb i)) 512#32))) 0#32 = 1#1 ∧ 100 ≤ m'.val ∧ m'.val < 100 + 50)
        (chunkSum (v221 (ix2 l (col 100 (⟨(m'.val - 100) % 50, Nat.mod_lt _ (by decide)⟩ : Fin 50) (by omega)))) 256#32 (tb x10 256 inb_S1024x160_S256x160_256_0) h)
        (gstep (Scalar.cmpi .ne (Scalar.extui (Scalar.andi (Scalar.cmpi .sge (wd x3 (k0_off11 i) (k0_off11_inb i)) 0#32) (Scalar.cmpi .slt (wd x2 (k0_off11 i) (k0_off11_inb i)) 256#32))) 0#32 = 1#1 ∧ 100 ≤ m'.val ∧ m'.val < 100 + 50)
        (chunkSum (v221 (ix2 l (col 100 (⟨(m'.val - 100) % 50, Nat.mod_lt _ (by decide)⟩ : Fin 50) (by omega)))) 0#32 (tb x10 0 inb_S1024x160_S256x160_0_0) h)
        (gstep (Scalar.cmpi .ne v272 c0_i32_150 = 1#1 ∧ 50 ≤ m'.val ∧ m'.val < 50 + 50)
        (chunkSum (v248 (ix2 l (⟨(m'.val - 50) % 50, Nat.mod_lt _ (by decide)⟩ : Fin 50))) 768#32 (tb x10 768 inb_S1024x160_S256x160_768_0) h)
        (a14 (ix3 l m' h)))))) := by
  unfold partRun9
  dsimp only
  sl_unfold_run_names
  rw [gupd_read M14.view (k0_pay60 (F := Ideal) v4 v221) (fun l mm => v221 (ix2 l (col 100 mm (by omega)))) 768#32
    (fun T S l mm h => pay60_apply v4 hv4 v221 T S l mm h) _ _ 100 (by omega)]
  rw [gupd_read M14.view (k0_pay59 (F := Ideal) v4 v221) (fun l mm => v221 (ix2 l (col 100 mm (by omega)))) 512#32
    (fun T S l mm h => pay59_apply v4 hv4 v221 T S l mm h) _ _ 100 (by omega)]
  rw [gupd_read M14.view (k0_pay58 (F := Ideal) v4 v221) (fun l mm => v221 (ix2 l (col 100 mm (by omega)))) 256#32
    (fun T S l mm h => pay58_apply v4 hv4 v221 T S l mm h) _ _ 100 (by omega)]
  rw [gupd_read M14.view (k0_pay57 (F := Ideal) v4 v221) (fun l mm => v221 (ix2 l (col 100 mm (by omega)))) 0#32
    (fun T S l mm h => pay57_apply v4 hv4 v221 T S l mm h) _ _ 100 (by omega)]
  rw [gupd_read M14.view (k0_pay55 (F := Ideal) v4 v248) (fun l mm => v248 (ix2 l mm)) 768#32
    (fun T S l mm h => pay55_apply v4 hv4 v248 T S l mm h) _ _ 50 (by omega)]
  rw [h14.read_unread]
  simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-! ## The values handed on -/

/-- Part 9 hands on the last 50 columns of index tensor 2's block, -/
theorem ret_part9_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.1 = k0_pay61 v221 := by
  unfold partRun9
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- the word of the table of minima for its last chunk of columns, -/
theorem ret_part9_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.1 = wd x2 (k0_off12 i) (k0_off12_inb i) := by
  unfold partRun9
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- the word of the table of maxima there, -/
theorem ret_part9_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.1 = wd x3 (k0_off12 i) (k0_off12_inb i) := by
  unfold partRun9
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- and the two halves of the next guard: the maximum is at least 0, -/
theorem ret_part9_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.1 = Scalar.cmpi .sge (wd x3 (k0_off12 i) (k0_off12_inb i)) 0#32 := by
  unfold partRun9
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- and the minimum is below 256. -/
theorem ret_part9_5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v221 : IVec S40x200 32) (v248 : IVec S40x50 32) (v272 : BitVec 32) (c0_i32_150 : BitVec 32) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.2.2.2.2.2 = Scalar.cmpi .slt (wd x2 (k0_off12 i) (k0_off12_inb i)) 256#32 := by
  unfold partRun9
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- Part 10 hands on index tensor 3's block with its unit axis dropped, -/
theorem ret_part10_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.1 = k0_pay66 (F := Ideal) x7 := by
  unfold partRun10
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]
  all_goals try rw [Cert.KernelIdeal.Guard.ld_idx (Val := Elt Ideal) x7 inb_S1x40x200_S1x40x200_0_0_0]

/-- its first 50 columns, -/
theorem ret_part10_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.1 = k0_pay67 (F := Ideal) x7 := by
  unfold partRun10
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]
  all_goals try rw [Cert.KernelIdeal.Guard.ld_idx (Val := Elt Ideal) x7 inb_S1x40x200_S1x40x200_0_0_0]

/-- the word of the table of minima for the first chunk of columns, -/
theorem ret_part10_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.1 = wd x2 (k0_off13 i) (k0_off13_inb i) := by
  unfold partRun10
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- the word of the table of maxima there, -/
theorem ret_part10_4 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.1 = wd x3 (k0_off13 i) (k0_off13_inb i) := by
  unfold partRun10
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- and the next guard before it is widened. -/
theorem ret_part10_5 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v300 : IVec S40x50 32) (v303 : Elt Ideal .i32) (v305 : Elt Ideal .i32) (v306 : BitVec 1) (v307 : BitVec 1) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.2.2.2.2.2 = Scalar.andi (Scalar.cmpi .sge (wd x3 (k0_off13 i) (k0_off13_inb i)) 256#32) (Scalar.cmpi .slt (wd x2 (k0_off13 i) (k0_off13_inb i)) 512#32) := by
  unfold partRun10
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- Part 11 hands on columns 50 to 99 of index tensor 3's block, -/
theorem ret_part11_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v328 : IVec S40x50 32) (v331 : Elt Ideal .i32) (v333 : Elt Ideal .i32) (v341 : BitVec 1) :
    (partRun11 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.1 = k0_pay72 v327 := by
  unfold partRun11
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- the word of the table of minima for that chunk of columns, -/
theorem ret_part11_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v328 : IVec S40x50 32) (v331 : Elt Ideal .i32) (v333 : Elt Ideal .i32) (v341 : BitVec 1) :
    (partRun11 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.1 = wd x2 (k0_off14 i) (k0_off14_inb i) := by
  unfold partRun11
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- and the first half of the next guard: the maximum is at least 768. -/
theorem ret_part11_3 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v328 : IVec S40x50 32) (v331 : Elt Ideal .i32) (v333 : Elt Ideal .i32) (v341 : BitVec 1) :
    (partRun11 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.2.2.2 = Scalar.cmpi .sge (wd x3 (k0_off14 i) (k0_off14_inb i)) 768#32 := by
  unfold partRun11
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- Part 12 hands on the last 50 columns of index tensor 3's block, -/
theorem ret_part12_1 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v354 : IVec S40x50 32) (v357 : Elt Ideal .i32) (v375 : BitVec 1) :
    (partRun12 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.1 = k0_pay82 v327 := by
  unfold partRun12
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

/-- and the word of the table of minima for the last chunk of columns. -/
theorem ret_part12_2 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v7 : BitVec 32) (v327 : IVec S40x200 32) (v354 : IVec S40x50 32) (v357 : Elt Ideal .i32) (v375 : BitVec 1) :
    (partRun12 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.2.2 = wd x2 (k0_off16 i) (k0_off16_inb i) := by
  unfold partRun12
  dsimp only
  all_goals sl_unfold_run_names
  all_goals try simp only [View.readAt_eq_ld, h2.read_unread, h3.read_unread, h4.read_unread, h5.read_unread, h6.read_unread, h7.read_unread, h8.read_unread, h9.read_unread, h10.read_unread, h11.read_unread, h12.read_unread, Cert.KernelIdeal.Guard.ld_idx]

end Cert.KernelIdeal.Body

end
-- ==== Proof.ChainVals.lean ====
/-
  The values each printed part of the kernel body hands on, over the body's inputs alone, and each part's accumulator
  entry as its guarded updates, in program order, over the entry the part before left.

  Update u (0 … 59 here; the last four are the body's tail) is table u / 16, the 50-column slice at offset 50 ((u % 16) / 4),
  the chunk of 256 rows u % 4: its guard bit compares the two bound-table words at the printed offset 4 (u / 16) + (u % 16) / 4 + 1
  with the chunk's first row and one past its last, and its addend is the one-hot row of the table's index word against the
  chunk. 60 updates in all.
-/
import proofs.«408597_j16320875725026_3_alg».proof.Proof.ChainKernelIdeal
import proofs.«408597_j16320875725026_3_alg».proof.Proof.AccReadP
import proofs.«408597_j16320875725026_3_alg».proof.Proof.AccReadB
import proofs.«408597_j16320875725026_3_alg».proof.Proof.AccReadG
import proofs.«408597_j16320875725026_3_alg».proof.Proof.PayloadVals
import proofs.«408597_j16320875725026_3_alg».proof.Proof.GuardRead
import proofs.«408597_j16320875725026_3_alg».proof.Proof.AccAbbrevs

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Cert.KernelIdeal.Guard

variable (c : Dev nD) (i : grid0.Coords)
  (M2 : Memref sig .tc .smem S80x4 .i32) (h2 : M2.IsWhole) (M3 : Memref sig .tc .smem S80x4 .i32) (h3 : M3.IsWhole)
  (M4 : Memref sig .tc .vmem S1x40x200 .i32) (h4 : M4.IsWhole) (M5 : Memref sig .tc .vmem S1x40x200 .i32) (h5 : M5.IsWhole)
  (M6 : Memref sig .tc .vmem S1x40x200 .i32) (h6 : M6.IsWhole) (M7 : Memref sig .tc .vmem S1x40x200 .i32) (h7 : M7.IsWhole)
  (M8 : Memref sig .tc .vmem S1024x160 .f32) (h8 : M8.IsWhole) (M9 : Memref sig .tc .vmem S1024x160 .f32) (h9 : M9.IsWhole)
  (M10 : Memref sig .tc .vmem S1024x160 .f32) (h10 : M10.IsWhole) (M11 : Memref sig .tc .vmem S1024x160 .f32) (h11 : M11.IsWhole)
  (M12 : Memref sig .tc .vmem S160 .f32) (h12 : M12.IsWhole) (M13 : Memref sig .tc .vmem S1x40x200x160 .f32) (h13 : M13.IsWhole)
  (M14 : Memref sig .tc .vmem S40x200x160 .f32) (h14 : M14.IsWhole)
  (x2 : Vec Ideal S80x4 .i32) (x3 : Vec Ideal S80x4 .i32) (x4 : Vec Ideal S1x40x200 .i32) (x5 : Vec Ideal S1x40x200 .i32)
  (x6 : Vec Ideal S1x40x200 .i32) (x7 : Vec Ideal S1x40x200 .i32) (x8 : Vec Ideal S1024x160 .f32) (x9 : Vec Ideal S1024x160 .f32)
  (x10 : Vec Ideal S1024x160 .f32) (x11 : Vec Ideal S1024x160 .f32) (x12 : Vec Ideal S160 .f32)

/-! ## The values handed on -/

/-- Part 1's handed-on value 1, over the body's inputs. -/
theorem val_1_1 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = (iota .tc S40x50x256 32 [2] iota_S40x50x256_d2_w32) :=
  ret_part1_1 c i M2 h2 M3 h3 M4 h4 M5 h5 M6 h6 M7 h7 M8 h8 M9 h9 M10 h10 M11 h11 M12 h12 M13 h13 M14 h14 x2 x3 x4 x5 x6 x7 x8 x9 x10 x11 x12

/-- Part 1's handed-on value 2, over the body's inputs. -/
theorem val_1_2 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = (Scalar.addi (Scalar.muli (BitVec.ofNat 32 (i 0).val) 20#32) (Scalar.muli (BitVec.ofNat 32 (i 1).val) 4#32)) :=
  ret_part1_2 c i M2 h2 M3 h3 M4 h4 M5 h5 M6 h6 M7 h7 M8 h8 M9 h9 M10 h10 M11 h11 M12 h12 M13 h13 M14 h14 x2 x3 x4 x5 x6 x7 x8 x9 x10 x11 x12

/-- Part 1's handed-on value 3, over the body's inputs. -/
theorem val_1_3 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = k0_pay3 x4 :=
  ret_part1_3 c i M2 h2 M3 h3 M4 h4 M5 h5 M6 h6 M7 h7 M8 h8 M9 h9 M10 h10 M11 h11 M12 h12 M13 h13 M14 h14 x2 x3 x4 x5 x6 x7 x8 x9 x10 x11 x12

/-- Part 1's handed-on value 4, over the body's inputs. -/
theorem val_1_4 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = k0_pay4 x4 :=
  ret_part1_4 c i M2 h2 M3 h3 M4 h4 M5 h5 M6 h6 M7 h7 M8 h8 M9 h9 M10 h10 M11 h11 M12 h12 M13 h13 M14 h14 x2 x3 x4 x5 x6 x7 x8 x9 x10 x11 x12

/-- Part 1's handed-on value 5, over the body's inputs. -/
theorem val_1_5 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 = (wd x2 (k0_off1 i) (k0_off1_inb i)) :=
  ret_part1_5 c i M2 h2 M3 h3 M4 h4 M5 h5 M6 h6 M7 h7 M8 h8 M9 h9 M10 h10 M11 h11 M12 h12 M13 h13 M14 h14 x2 x3 x4 x5 x6 x7 x8 x9 x10 x11 x12

/-- Part 1's handed-on value 6, over the body's inputs. -/
theorem val_1_6 :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2 = (Scalar.cmpi .sge (wd x3 (k0_off1 i) (k0_off1_inb i)) 768#32) :=
  ret_part1_6 c i M2 h2 M3 h3 M4 h4 M5 h5 M6 h6 M7 h7 M8 h8 M9 h9 M10 h10 M11 h11 M12 h12 M13 h13 M14 h14 x2 x3 x4 x5 x6 x7 x8 x9 x10 x11 x12

/-- The same value with the earlier parts' values put in, over variables. -/
theorem res_2_1 (v9 : IVec S40x200 32) (hv9 : v9 = k0_pay3 x4) :
    k0_pay14 v9 = k0_pay14 (k0_pay3 x4) := by
  subst hv9
  rfl

/-- Part 2's handed-on value 1, over the body's inputs. -/
theorem val_2_1 :
    (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay14 (k0_pay3 x4) :=
  (ret_part2_1 c i M2 h2 M3 h3 M4 h4 M5 h5 M6 h6 M7 h7 M8 h8 M9 h9 M10 h10 M11 h11 M12 h12 M13 h13 M14 h14 x2 x3 x4 x5 x6 x7 x8 x9 x10 x11 x12 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2).trans
    (res_2_1 (hv9 := val_1_3 c i M2 h2 M3 h3 M4 h4 M5 h5 M6 h6 M7 h7 M8 h8 M9 h9 M10 h10 M11 h11 M12 h12 M13 h13 M14 h14 x2 x3 x4 x5 x6 x7 x8 x9 x10 x11 x12) ..)

/-- Part 2's handed-on value 2, over the body's inputs. -/
theorem val_2_2 :
    (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2 = (wd x2 (k0_off3 i) (k0_off3_inb i)) :=
  ret_part2_2 c i M2 h2 M3 h3 M4 h4 M5 h5 M6 h6 M7 h7 M8 h8 M9 h9 M10 h10 M11 h11 M12 h12 M13 h13 M14 h14 x2 x3 x4 x5 x6 x7 x8 x9 x10 x11 x12 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2

/-- The same value with the earlier parts' values put in, over variables. -/
theorem res_3_1 (v9 : IVec S40x200 32) (hv9 : v9 = k0_pay3 x4) :
    k0_pay19 v9 = k0_pay19 (k0_pay3 x4) := by
  subst hv9
  rfl

/-- Part 3's handed-on value 1, over the body's inputs. -/
theorem val_3_1 :
    (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay19 (k0_pay3 x4) :=
  (ret_part3_1 c i M2 h2 M3 h3 M4 h4 M5 h5 M6 h6 M7 h7 M8 h8 M9 h9 M10 h10 M11 h11 M12 h12 M13 h13 M14 h14 x2 x3 x4 x5 x6 x7 x8 x9 x10 x11 x12 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2).trans
    (res_3_1 (hv9 := val_1_3 c i M2 h2 M3 h3 M4 h4 M5 h5 M6 h6 M7 h7 M8 h8 M9 h9 M10 h10 M11 h11 M12 h12 M13 h13 M14 h14 x2 x3 x4 x5 x6 x7 x8 x9 x10 x11 x12) ..)

/-- Part 3's handed-on value 2, over the body's inputs. -/
theorem val_3_2 :
    (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = (wd x2 (k0_off4 i) (k0_off4_inb i)) :=
  ret_part3_2 c i M2 h2 M3 h3 M4 h4 M5 h5 M6 h6 M7 h7 M8 h8 M9 h9 M10 h10 M11 h11 M12 h12 M13 h13 M14 h14 x2 x3 x4 x5 x6 x7 x8 x9 x10 x11 x12 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 3's handed-on value 3, over the body's inputs. -/
theorem val_3_3 :
    (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = (wd x3 (k0_off4 i) (k0_off4_inb i)) :=
  ret_part3_3 c i M2 h2 M3 h3 M4 h4 M5 h5 M6 h6 M7 h7 M8 h8 M9 h9 M10 h10 M11 h11 M12 h12 M13 h13 M14 h14 x2 x3 x4 x5 x6 x7 x8 x9 x10 x11 x12 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 3's handed-on value 4, over the body's inputs. -/
theorem val_3_4 :
    (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2 = (Scalar.andi (Scalar.cmpi .sge (wd x3 (k0_off4 i) (k0_off4_inb i)) 256#32) (Scalar.cmpi .slt (wd x2 (k0_off4 i) (k0_off4_inb i)) 512#32)) :=
  ret_part3_4 c i M2 h2 M3 h3 M4 h4 M5 h5 M6 h6 M7 h7 M8 h8 M9 h9 M10 h10 M11 h11 M12 h12 M13 h13 M14 h14 x2 x3 x4 x5 x6 x7 x8 x9 x10 x11 x12 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 4's handed-on value 1, over the body's inputs. -/
theorem val_4_1 :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay24 x5 :=
  ret_part4_1 c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 4's handed-on value 2, over the body's inputs. -/
theorem val_4_2 :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = k0_pay25 x5 :=
  ret_part4_2 c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 4's handed-on value 3, over the body's inputs. -/
theorem val_4_3 :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = (wd x2 (k0_off5 i) (k0_off5_inb i)) :=
  ret_part4_3 c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 4's handed-on value 4, over the body's inputs. -/
theorem val_4_4 :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = (wd x3 (k0_off5 i) (k0_off5_inb i)) :=
  ret_part4_4 c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- Part 4's handed-on value 5, over the body's inputs. -/
theorem val_4_5 :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 = (Scalar.extui (Scalar.andi (Scalar.cmpi .sge (wd x3 (k0_off5 i) (k0_off5_inb i)) 512#32) (Scalar.cmpi .slt (wd x2 (k0_off5 i) (k0_off5_inb i)) 768#32))) :=
  ret_part4_5 c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2

/-- The same value with the earlier parts' values put in, over variables. -/
theorem res_5_1 (v115 : IVec S40x200 32) (hv115 : v115 = k0_pay24 x5) :
    k0_pay35 v115 = k0_pay35 (k0_pay24 x5) := by
  subst hv115
  rfl

/-- Part 5's handed-on value 1, over the body's inputs. -/
theorem val_5_1 :
    (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay35 (k0_pay24 x5) :=
  (ret_part5_1 c i M2 h2 M3 h3 M4 h4 M5 h5 M6 h6 M7 h7 M8 h8 M9 h9 M10 h10 M11 h11 M12 h12 M13 h13 M14 h14 x2 x3 x4 x5 x6 x7 x8 x9 x10 x11 x12 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2).trans
    (res_5_1 (hv115 := val_4_1 c i M2 h2 M3 h3 M4 h4 M5 h5 M6 h6 M7 h7 M8 h8 M9 h9 M10 h10 M11 h11 M12 h12 M13 h13 M14 h14 x2 x3 x4 x5 x6 x7 x8 x9 x10 x11 x12) ..)

/-- The same value with the earlier parts' values put in, over variables. -/
theorem res_5_2 (v7 : BitVec 32) (hv7 : v7 = (Scalar.addi (Scalar.muli (BitVec.ofNat 32 (i 0).val) 20#32) (Scalar.muli (BitVec.ofNat 32 (i 1).val) 4#32))) :
    (Scalar.addi v7 2#32) = (Scalar.addi ((Scalar.addi (Scalar.muli (BitVec.ofNat 32 (i 0).val) 20#32) (Scalar.muli (BitVec.ofNat 32 (i 1).val) 4#32))) 2#32) := by
  subst hv7
  rfl

/-- Part 5's handed-on value 2, over the body's inputs. -/
theorem val_5_2 :
    (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2 = (Scalar.addi ((Scalar.addi (Scalar.muli (BitVec.ofNat 32 (i 0).val) 20#32) (Scalar.muli (BitVec.ofNat 32 (i 1).val) 4#32))) 2#32) :=
  (ret_part5_2 c i M2 h2 M3 h3 M4 h4 M5 h5 M6 h6 M7 h7 M8 h8 M9 h9 M10 h10 M11 h11 M12 h12 M13 h13 M14 h14 x2 x3 x4 x5 x6 x7 x8 x9 x10 x11 x12 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2).trans
    (res_5_2 (hv7 := val_1_2 c i M2 h2 M3 h3 M4 h4 M5 h5 M6 h6 M7 h7 M8 h8 M9 h9 M10 h10 M11 h11 M12 h12 M13 h13 M14 h14 x2 x3 x4 x5 x6 x7 x8 x9 x10 x11 x12) ..)

/-- The same value with the earlier parts' values put in, over variables. -/
theorem res_6_1 (v115 : IVec S40x200 32) (hv115 : v115 = k0_pay24 x5) :
    k0_pay40 v115 = k0_pay40 (k0_pay24 x5) := by
  subst hv115
  rfl

/-- Part 6's handed-on value 1, over the body's inputs. -/
theorem val_6_1 :
    (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay40 (k0_pay24 x5) :=
  (ret_part6_1 c i M2 h2 M3 h3 M4 h4 M5 h5 M6 h6 M7 h7 M8 h8 M9 h9 M10 h10 M11 h11 M12 h12 M13 h13 M14 h14 x2 x3 x4 x5 x6 x7 x8 x9 x10 x11 x12 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2).trans
    (res_6_1 (hv115 := val_4_1 c i M2 h2 M3 h3 M4 h4 M5 h5 M6 h6 M7 h7 M8 h8 M9 h9 M10 h10 M11 h11 M12 h12 M13 h13 M14 h14 x2 x3 x4 x5 x6 x7 x8 x9 x10 x11 x12) ..)

/-- Part 6's handed-on value 2, over the body's inputs. -/
theorem val_6_2 :
    (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = (wd x2 (k0_off8 i) (k0_off8_inb i)) :=
  ret_part6_2 c i M2 h2 M3 h3 M4 h4 M5 h5 M6 h6 M7 h7 M8 h8 M9 h9 M10 h10 M11 h11 M12 h12 M13 h13 M14 h14 x2 x3 x4 x5 x6 x7 x8 x9 x10 x11 x12 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 6's handed-on value 3, over the body's inputs. -/
theorem val_6_3 :
    (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 = (wd x3 (k0_off8 i) (k0_off8_inb i)) :=
  ret_part6_3 c i M2 h2 M3 h3 M4 h4 M5 h5 M6 h6 M7 h7 M8 h8 M9 h9 M10 h10 M11 h11 M12 h12 M13 h13 M14 h14 x2 x3 x4 x5 x6 x7 x8 x9 x10 x11 x12 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2

/-- Part 7's handed-on value 1, over the body's inputs. -/
theorem val_7_1 :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay45 x6 :=
  ret_part7_1 c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 7's handed-on value 2, over the body's inputs. -/
theorem val_7_2 :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = k0_pay46 x6 :=
  ret_part7_2 c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 7's handed-on value 3, over the body's inputs. -/
theorem val_7_3 :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = (wd x2 (k0_off9 i) (k0_off9_inb i)) :=
  ret_part7_3 c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 7's handed-on value 4, over the body's inputs. -/
theorem val_7_4 :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = (wd x3 (k0_off9 i) (k0_off9_inb i)) :=
  ret_part7_4 c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 7's handed-on value 5, over the body's inputs. -/
theorem val_7_5 :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 = 512#32 :=
  ret_part7_5 c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- The same value with the earlier parts' values put in, over variables. -/
theorem res_8_1 (v221 : IVec S40x200 32) (hv221 : v221 = k0_pay45 x6) :
    k0_pay51 v221 = k0_pay51 (k0_pay45 x6) := by
  subst hv221
  rfl

/-- Part 8's handed-on value 1, over the body's inputs. -/
theorem val_8_1 :
    (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay51 (k0_pay45 x6) :=
  (ret_part8_1 c i M2 h2 M3 h3 M4 h4 M5 h5 M6 h6 M7 h7 M8 h8 M9 h9 M10 h10 M11 h11 M12 h12 M13 h13 M14 h14 x2 x3 x4 x5 x6 x7 x8 x9 x10 x11 x12 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2).trans
    (res_8_1 (hv221 := val_7_1 c i M2 h2 M3 h3 M4 h4 M5 h5 M6 h6 M7 h7 M8 h8 M9 h9 M10 h10 M11 h11 M12 h12 M13 h13 M14 h14 x2 x3 x4 x5 x6 x7 x8 x9 x10 x11 x12) ..)

/-- Part 8's handed-on value 2, over the body's inputs. -/
theorem val_8_2 :
    (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = (Scalar.extui (Scalar.andi (Scalar.cmpi .sge (wd x3 (k0_off10 i) (k0_off10_inb i)) 768#32) (Scalar.cmpi .slt (wd x2 (k0_off10 i) (k0_off10_inb i)) 1024#32))) :=
  ret_part8_2 c i M2 h2 M3 h3 M4 h4 M5 h5 M6 h6 M7 h7 M8 h8 M9 h9 M10 h10 M11 h11 M12 h12 M13 h13 M14 h14 x2 x3 x4 x5 x6 x7 x8 x9 x10 x11 x12 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 8's handed-on value 3, over the body's inputs. -/
theorem val_8_3 :
    (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 = 0#32 :=
  ret_part8_3 c i M2 h2 M3 h3 M4 h4 M5 h5 M6 h6 M7 h7 M8 h8 M9 h9 M10 h10 M11 h11 M12 h12 M13 h13 M14 h14 x2 x3 x4 x5 x6 x7 x8 x9 x10 x11 x12 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- The same value with the earlier parts' values put in, over variables. -/
theorem res_9_1 (v221 : IVec S40x200 32) (hv221 : v221 = k0_pay45 x6) :
    k0_pay61 v221 = k0_pay61 (k0_pay45 x6) := by
  subst hv221
  rfl

/-- Part 9's handed-on value 1, over the body's inputs. -/
theorem val_9_1 :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay61 (k0_pay45 x6) :=
  (ret_part9_1 c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2).trans
    (res_9_1 (hv221 := val_7_1 c i M2 h2 M3 h3 M4 h4 M5 h5 M6 h6 M7 h7 M8 h8 M9 h9 M10 h10 M11 h11 M12 h12 M13 h13 M14 h14 x2 x3 x4 x5 x6 x7 x8 x9 x10 x11 x12) ..)

/-- Part 9's handed-on value 2, over the body's inputs. -/
theorem val_9_2 :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = wd x2 (k0_off12 i) (k0_off12_inb i) :=
  ret_part9_2 c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 9's handed-on value 3, over the body's inputs. -/
theorem val_9_3 :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = wd x3 (k0_off12 i) (k0_off12_inb i) :=
  ret_part9_3 c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 9's handed-on value 4, over the body's inputs. -/
theorem val_9_4 :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = Scalar.cmpi .sge (wd x3 (k0_off12 i) (k0_off12_inb i)) 0#32 :=
  ret_part9_4 c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 9's handed-on value 5, over the body's inputs. -/
theorem val_9_5 :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 = Scalar.cmpi .slt (wd x2 (k0_off12 i) (k0_off12_inb i)) 256#32 :=
  ret_part9_5 c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- Part 10's handed-on value 1, over the body's inputs. -/
theorem val_10_1 :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay66 (F := Ideal) x7 :=
  ret_part10_1 c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 10's handed-on value 2, over the body's inputs. -/
theorem val_10_2 :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = k0_pay67 (F := Ideal) x7 :=
  ret_part10_2 c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 10's handed-on value 3, over the body's inputs. -/
theorem val_10_3 :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 = wd x2 (k0_off13 i) (k0_off13_inb i) :=
  ret_part10_3 c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 10's handed-on value 4, over the body's inputs. -/
theorem val_10_4 :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 = wd x3 (k0_off13 i) (k0_off13_inb i) :=
  ret_part10_4 c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 10's handed-on value 5, over the body's inputs. -/
theorem val_10_5 :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 = Scalar.andi (Scalar.cmpi .sge (wd x3 (k0_off13 i) (k0_off13_inb i)) 256#32) (Scalar.cmpi .slt (wd x2 (k0_off13 i) (k0_off13_inb i)) 512#32) :=
  ret_part10_5 c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- The same value with the earlier parts' values put in, over variables. -/
theorem res_11_1 (v327 : IVec S40x200 32) (hv327 : v327 = k0_pay66 (F := Ideal) x7) :
    k0_pay72 v327 = k0_pay72 (k0_pay66 (F := Ideal) x7) := by
  subst hv327
  rfl

/-- Part 11's handed-on value 1, over the body's inputs. -/
theorem val_11_1 :
    (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay72 (k0_pay66 (F := Ideal) x7) :=
  (ret_part11_1 c i M2 h2 M3 h3 M4 h4 M5 h5 M6 h6 M7 h7 M8 h8 M9 h9 M10 h10 M11 h11 M12 h12 M13 h13 M14 h14 x2 x3 x4 x5 x6 x7 x8 x9 x10 x11 x12 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2).trans
    (res_11_1 (hv327 := val_10_1 c i M2 h2 M3 h3 M4 h4 M5 h5 M6 h6 M7 h7 M8 h8 M9 h9 M10 h10 M11 h11 M12 h12 M13 h13 M14 h14 x2 x3 x4 x5 x6 x7 x8 x9 x10 x11 x12) ..)

/-- Part 11's handed-on value 2, over the body's inputs. -/
theorem val_11_2 :
    (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 = wd x2 (k0_off14 i) (k0_off14_inb i) :=
  ret_part11_2 c i M2 h2 M3 h3 M4 h4 M5 h5 M6 h6 M7 h7 M8 h8 M9 h9 M10 h10 M11 h11 M12 h12 M13 h13 M14 h14 x2 x3 x4 x5 x6 x7 x8 x9 x10 x11 x12 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- Part 11's handed-on value 3, over the body's inputs. -/
theorem val_11_3 :
    (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 = Scalar.cmpi .sge (wd x3 (k0_off14 i) (k0_off14_inb i)) 768#32 :=
  ret_part11_3 c i M2 h2 M3 h3 M4 h4 M5 h5 M6 h6 M7 h7 M8 h8 M9 h9 M10 h10 M11 h11 M12 h12 M13 h13 M14 h14 x2 x3 x4 x5 x6 x7 x8 x9 x10 x11 x12 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2

/-- The same value with the earlier parts' values put in, over variables. -/
theorem res_12_1 (v327 : IVec S40x200 32) (hv327 : v327 = k0_pay66 (F := Ideal) x7) :
    k0_pay82 v327 = k0_pay82 (k0_pay66 (F := Ideal) x7) := by
  subst hv327
  rfl

/-- Part 12's handed-on value 1, over the body's inputs. -/
theorem val_12_1 :
    (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 = k0_pay82 (k0_pay66 (F := Ideal) x7) :=
  (ret_part12_1 c i M2 h2 M3 h3 M4 h4 M5 h5 M6 h6 M7 h7 M8 h8 M9 h9 M10 h10 M11 h11 M12 h12 M13 h13 M14 h14 x2 x3 x4 x5 x6 x7 x8 x9 x10 x11 x12 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2).trans
    (res_12_1 (hv327 := val_10_1 c i M2 h2 M3 h3 M4 h4 M5 h5 M6 h6 M7 h7 M8 h8 M9 h9 M10 h10 M11 h11 M12 h12 M13 h13 M14 h14 x2 x3 x4 x5 x6 x7 x8 x9 x10 x11 x12) ..)

/-- Part 12's handed-on value 2, over the body's inputs. -/
theorem val_12_2 :
    (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2 = wd x2 (k0_off16 i) (k0_off16_inb i) :=
  ret_part12_2 c i M2 h2 M3 h3 M4 h4 M5 h5 M6 h6 M7 h7 M8 h8 M9 h9 M10 h10 M11 h11 M12 h12 M13 h13 M14 h14 x2 x3 x4 x5 x6 x7 x8 x9 x10 x11 x12 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2

/-- The lane-number array part 1 hands on is one. -/
theorem lanes1 : Cert.KernelIdeal.Pay.LaneNumbers (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 :=
  (val_1_1 c i M2 h2 M3 h3 M4 h4 M5 h5 M6 h6 M7 h7 M8 h8 M9 h9 M10 h10 M11 h11 M12 h12 M13 h13 M14 h14 x2 x3 x4 x5 x6 x7 x8 x9 x10 x11 x12) ▸ Cert.KernelIdeal.Pay.iota_lanes

/-! ## The parts' steps -/

/-- Part 1 at an entry, over the body's inputs: updates 0 to 2 in program order. -/
theorem acc_step1 (l : Fin 40) (q : Fin 200) (h : Fin 160) :
    (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off1 i) (k0_off1_inb i)) 512#32) (Scalar.cmpi .slt (wd x2 (k0_off1 i) (k0_off1_inb i)) 768#32))) 0#32 = 1#1 ∧ 0 ≤ q.val ∧ q.val < 0 + 50)
      (Cert.KernelIdeal.Pay.chunkSum (x4 (ix3 (0 : Fin 1) l (Cert.KernelIdeal.Pay.col 0 (⟨(q.val - 0) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off1 i) (k0_off1_inb i)) 256#32) (Scalar.cmpi .slt (wd x2 (k0_off1 i) (k0_off1_inb i)) 512#32))) 0#32 = 1#1 ∧ 0 ≤ q.val ∧ q.val < 0 + 50)
      (Cert.KernelIdeal.Pay.chunkSum (x4 (ix3 (0 : Fin 1) l (Cert.KernelIdeal.Pay.col 0 (⟨(q.val - 0) % 50, Nat.mod_lt _ (by decide)⟩ : Fin 50) (by omega)))) 256#32 (tb x8 256 inb_S1024x160_S256x160_256_0) h)
      (gstep (Scalar.cmpi .ne (Scalar.extui (Scalar.andi (Scalar.cmpi .sge (wd x3 (k0_off1 i) (k0_off1_inb i)) 0#32) (Scalar.cmpi .slt (wd x2 (k0_off1 i) (k0_off1_inb i)) 256#32))) 0#32 = 1#1 ∧ 0 ≤ q.val ∧ q.val < 0 + 50)
      (Cert.KernelIdeal.Pay.chunkSum (x4 (ix3 (0 : Fin 1) l (Cert.KernelIdeal.Pay.col 0 (⟨(q.val - 0) % 50, Nat.mod_lt _ (by decide)⟩ : Fin 50) (by omega)))) 0#32 (tb x8 0 inb_S1024x160_S256x160_0_0) h)
      ((0 : EReal)))) :=
  acc_part1 c i M2 h2 M3 h3 M4 h4 M5 h5 M6 h6 M7 h7 M8 h8 M9 h9 M10 h10 M11 h11 M12 h12 M13 h13 M14 h14 x2 x3 x4 x5 x6 x7 x8 x9 x10 x11 x12 l q h

set_option maxHeartbeats 4000000 in
/-- Part 2 at an entry with the earlier parts' values put in, over variables. -/
theorem acc_step2_gen (a14 : Vec Ideal S40x200x160 .f32) (v4 : IVec S40x50x256 32) (v7 : BitVec 32) (v9 : IVec S40x200 32) (v10 : IVec S40x50 32) (v13 : Elt Ideal .i32) (v31 : BitVec 1) (hv4 : Cert.KernelIdeal.Pay.LaneNumbers v4) (hv9 : v9 = k0_pay3 x4) (hv10 : v10 = k0_pay4 x4) (hv13 : v13 = (wd x2 (k0_off1 i) (k0_off1_inb i))) (hv31 : v31 = (Scalar.cmpi .sge (wd x3 (k0_off1 i) (k0_off1_inb i)) 768#32))
    (l : Fin 40) (q : Fin 200) (h : Fin 160) :
    (partRun2 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v10 v13 v31).1.1 (ix3 l q h)
      = gstep (Scalar.cmpi .ne (Scalar.extui (Scalar.andi (Scalar.cmpi .sge (wd x3 (k0_off2 i) (k0_off2_inb i)) 768#32) (Scalar.cmpi .slt (wd x2 (k0_off2 i) (k0_off2_inb i)) 1024#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off2 i) (k0_off2_inb i)) 512#32) (Scalar.cmpi .slt (wd x2 (k0_off2 i) (k0_off2_inb i)) 768#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off2 i) (k0_off2_inb i)) 256#32) (Scalar.cmpi .slt (wd x2 (k0_off2 i) (k0_off2_inb i)) 512#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 256#32 (tb x8 256 inb_S1024x160_S256x160_256_0) h)
      (gstep (Scalar.cmpi .ne (Scalar.extui (Scalar.andi (Scalar.cmpi .sge (wd x3 (k0_off2 i) (k0_off2_inb i)) 0#32) (Scalar.cmpi .slt (wd x2 (k0_off2 i) (k0_off2_inb i)) 256#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 0#32 (tb x8 0 inb_S1024x160_S256x160_0_0) h)
      (gstep (Scalar.cmpi .ne (Scalar.extui (Scalar.andi (Scalar.cmpi .sge (wd x3 (k0_off1 i) (k0_off1_inb i)) 768#32) (Scalar.cmpi .slt (wd x2 (k0_off1 i) (k0_off1_inb i)) 1024#32))) 0#32 = 1#1 ∧ 0 ≤ q.val ∧ q.val < 0 + 50)
      (Cert.KernelIdeal.Pay.chunkSum (x4 (ix3 (0 : Fin 1) l (Cert.KernelIdeal.Pay.col 0 (⟨(q.val - 0) % 50, Nat.mod_lt _ (by decide)⟩ : Fin 50) (by omega)))) 768#32 (tb x8 768 inb_S1024x160_S256x160_768_0) h)
      (a14 (ix3 l q h)))))) := by
  subst hv9 hv10 hv13 hv31
  rw [acc_part2 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 2 at an entry, over the body's inputs: updates 3 to 7 in program order. -/
theorem acc_step2 (l : Fin 40) (q : Fin 200) (h : Fin 160) :
    (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off2 i) (k0_off2_inb i)) 768#32) (Scalar.cmpi .slt (wd x2 (k0_off2 i) (k0_off2_inb i)) 1024#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off2 i) (k0_off2_inb i)) 512#32) (Scalar.cmpi .slt (wd x2 (k0_off2 i) (k0_off2_inb i)) 768#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off2 i) (k0_off2_inb i)) 256#32) (Scalar.cmpi .slt (wd x2 (k0_off2 i) (k0_off2_inb i)) 512#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 256#32 (tb x8 256 inb_S1024x160_S256x160_256_0) h)
      (gstep (Scalar.cmpi .ne (Scalar.extui (Scalar.andi (Scalar.cmpi .sge (wd x3 (k0_off2 i) (k0_off2_inb i)) 0#32) (Scalar.cmpi .slt (wd x2 (k0_off2 i) (k0_off2_inb i)) 256#32))) 0#32 = 1#1 ∧ 50 ≤ q.val ∧ q.val < 50 + 50)
      (Cert.KernelIdeal.Pay.chunkSum (x4 (ix3 (0 : Fin 1) l (Cert.KernelIdeal.Pay.col 50 (⟨(q.val - 50) % 50, Nat.mod_lt _ (by decide)⟩ : Fin 50) (by omega)))) 0#32 (tb x8 0 inb_S1024x160_S256x160_0_0) h)
      (gstep (Scalar.cmpi .ne (Scalar.extui (Scalar.andi (Scalar.cmpi .sge (wd x3 (k0_off1 i) (k0_off1_inb i)) 768#32) (Scalar.cmpi .slt (wd x2 (k0_off1 i) (k0_off1_inb i)) 1024#32))) 0#32 = 1#1 ∧ 0 ≤ q.val ∧ q.val < 0 + 50)
      (Cert.KernelIdeal.Pay.chunkSum (x4 (ix3 (0 : Fin 1) l (Cert.KernelIdeal.Pay.col 0 (⟨(q.val - 0) % 50, Nat.mod_lt _ (by decide)⟩ : Fin 50) (by omega)))) 768#32 (tb x8 768 inb_S1024x160_S256x160_768_0) h)
      ((pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step2_gen c i M2 h2 M3 h3 M4 h4 M5 h5 M6 h6 M7 h7 M8 h8 M9 h9 M10 h10 M11 h11 M12 h12 M13 h13 M14 h14 x2 x3 x4 x5 x6 x7 x8 x9 x10 x11 x12 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_1_3 c i M2 h2 M3 h3 M4 h4 M5 h5 M6 h6 M7 h7 M8 h8 M9 h9 M10 h10 M11 h11 M12 h12 M13 h13 M14 h14 x2 x3 x4 x5 x6 x7 x8 x9 x10 x11 x12) (val_1_4 c i M2 h2 M3 h3 M4 h4 M5 h5 M6 h6 M7 h7 M8 h8 M9 h9 M10 h10 M11 h11 M12 h12 M13 h13 M14 h14 x2 x3 x4 x5 x6 x7 x8 x9 x10 x11 x12) (val_1_5 c i M2 h2 M3 h3 M4 h4 M5 h5 M6 h6 M7 h7 M8 h8 M9 h9 M10 h10 M11 h11 M12 h12 M13 h13 M14 h14 x2 x3 x4 x5 x6 x7 x8 x9 x10 x11 x12) (val_1_6 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 3 at an entry with the earlier parts' values put in, over variables. -/
theorem acc_step3_gen (a14 : Vec Ideal S40x200x160 .f32) (v4 : IVec S40x50x256 32) (v7 : BitVec 32) (v9 : IVec S40x200 32) (v62 : IVec S40x50 32) (v65 : Elt Ideal .i32) (hv4 : Cert.KernelIdeal.Pay.LaneNumbers v4) (hv9 : v9 = k0_pay3 x4) (hv62 : v62 = k0_pay14 (k0_pay3 x4)) (hv65 : v65 = (wd x2 (k0_off3 i) (k0_off3_inb i)))
    (l : Fin 40) (q : Fin 200) (h : Fin 160) :
    (partRun3 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v9 v62 v65).1.1 (ix3 l q h)
      = gstep (Scalar.cmpi .ne (Scalar.extui (Scalar.andi (Scalar.cmpi .sge (wd x3 (k0_off4 i) (k0_off4_inb i)) 0#32) (Scalar.cmpi .slt (wd x2 (k0_off4 i) (k0_off4_inb i)) 256#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 0#32 (tb x8 0 inb_S1024x160_S256x160_0_0) h)
      (gstep (Scalar.cmpi .ne (Scalar.extui (Scalar.andi (Scalar.cmpi .sge (wd x3 (k0_off3 i) (k0_off3_inb i)) 768#32) (Scalar.cmpi .slt (wd x2 (k0_off3 i) (k0_off3_inb i)) 1024#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off3 i) (k0_off3_inb i)) 512#32) (Scalar.cmpi .slt (wd x2 (k0_off3 i) (k0_off3_inb i)) 768#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off3 i) (k0_off3_inb i)) 256#32) (Scalar.cmpi .slt (wd x2 (k0_off3 i) (k0_off3_inb i)) 512#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 256#32 (tb x8 256 inb_S1024x160_S256x160_256_0) h)
      (gstep (Scalar.cmpi .ne (Scalar.extui (Scalar.andi (Scalar.cmpi .sge (wd x3 (k0_off3 i) (k0_off3_inb i)) 0#32) (Scalar.cmpi .slt (wd x2 (k0_off3 i) (k0_off3_inb i)) 256#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 0#32 (tb x8 0 inb_S1024x160_S256x160_0_0) h)
      (a14 (ix3 l q h)))))) := by
  subst hv9 hv62 hv65
  rw [acc_part3 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 3 at an entry, over the body's inputs: updates 8 to 12 in program order. -/
theorem acc_step3 (l : Fin 40) (q : Fin 200) (h : Fin 160) :
    (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off4 i) (k0_off4_inb i)) 0#32) (Scalar.cmpi .slt (wd x2 (k0_off4 i) (k0_off4_inb i)) 256#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 0#32 (tb x8 0 inb_S1024x160_S256x160_0_0) h)
      (gstep (Scalar.cmpi .ne (Scalar.extui (Scalar.andi (Scalar.cmpi .sge (wd x3 (k0_off3 i) (k0_off3_inb i)) 768#32) (Scalar.cmpi .slt (wd x2 (k0_off3 i) (k0_off3_inb i)) 1024#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off3 i) (k0_off3_inb i)) 512#32) (Scalar.cmpi .slt (wd x2 (k0_off3 i) (k0_off3_inb i)) 768#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off3 i) (k0_off3_inb i)) 256#32) (Scalar.cmpi .slt (wd x2 (k0_off3 i) (k0_off3_inb i)) 512#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 256#32 (tb x8 256 inb_S1024x160_S256x160_256_0) h)
      (gstep (Scalar.cmpi .ne (Scalar.extui (Scalar.andi (Scalar.cmpi .sge (wd x3 (k0_off3 i) (k0_off3_inb i)) 0#32) (Scalar.cmpi .slt (wd x2 (k0_off3 i) (k0_off3_inb i)) 256#32))) 0#32 = 1#1 ∧ 100 ≤ q.val ∧ q.val < 100 + 50)
      (Cert.KernelIdeal.Pay.chunkSum (x4 (ix3 (0 : Fin 1) l (Cert.KernelIdeal.Pay.col 100 (⟨(q.val - 100) % 50, Nat.mod_lt _ (by decide)⟩ : Fin 50) (by omega)))) 0#32 (tb x8 0 inb_S1024x160_S256x160_0_0) h)
      ((pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step3_gen c i M2 h2 M3 h3 M4 h4 M5 h5 M6 h6 M7 h7 M8 h8 M9 h9 M10 h10 M11 h11 M12 h12 M13 h13 M14 h14 x2 x3 x4 x5 x6 x7 x8 x9 x10 x11 x12 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr2 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_1_3 c i M2 h2 M3 h3 M4 h4 M5 h5 M6 h6 M7 h7 M8 h8 M9 h9 M10 h10 M11 h11 M12 h12 M13 h13 M14 h14 x2 x3 x4 x5 x6 x7 x8 x9 x10 x11 x12) (val_2_1 c i M2 h2 M3 h3 M4 h4 M5 h5 M6 h6 M7 h7 M8 h8 M9 h9 M10 h10 M11 h11 M12 h12 M13 h13 M14 h14 x2 x3 x4 x5 x6 x7 x8 x9 x10 x11 x12) (val_2_2 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 4 at an entry with the earlier parts' values put in, over variables. -/
theorem acc_step4_gen (a14 : Vec Ideal S40x200x160 .f32) (v4 : IVec S40x50x256 32) (v7 : BitVec 32) (v88 : IVec S40x50 32) (v91 : Elt Ideal .i32) (v93 : Elt Ideal .i32) (v101 : BitVec 1) (hv4 : Cert.KernelIdeal.Pay.LaneNumbers v4) (hv88 : v88 = k0_pay19 (k0_pay3 x4)) (hv91 : v91 = (wd x2 (k0_off4 i) (k0_off4_inb i))) (hv93 : v93 = (wd x3 (k0_off4 i) (k0_off4_inb i))) (hv101 : v101 = (Scalar.andi (Scalar.cmpi .sge (wd x3 (k0_off4 i) (k0_off4_inb i)) 256#32) (Scalar.cmpi .slt (wd x2 (k0_off4 i) (k0_off4_inb i)) 512#32)))
    (l : Fin 40) (q : Fin 200) (h : Fin 160) :
    (partRun4 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v88 v91 v93 v101).1.1 (ix3 l q h)
      = gstep (Scalar.cmpi .ne (Scalar.extui (Scalar.andi (Scalar.cmpi .sge (wd x3 (k0_off5 i) (k0_off5_inb i)) 256#32) (Scalar.cmpi .slt (wd x2 (k0_off5 i) (k0_off5_inb i)) 512#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off5 i) (k0_off5_inb i)) 0#32) (Scalar.cmpi .slt (wd x2 (k0_off5 i) (k0_off5_inb i)) 256#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off4 i) (k0_off4_inb i)) 768#32) (Scalar.cmpi .slt (wd x2 (k0_off4 i) (k0_off4_inb i)) 1024#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off4 i) (k0_off4_inb i)) 512#32) (Scalar.cmpi .slt (wd x2 (k0_off4 i) (k0_off4_inb i)) 768#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off4 i) (k0_off4_inb i)) 256#32) (Scalar.cmpi .slt (wd x2 (k0_off4 i) (k0_off4_inb i)) 512#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 256#32 (tb x8 256 inb_S1024x160_S256x160_256_0) h)
      (a14 (ix3 l q h)))))) := by
  subst hv88 hv91 hv93 hv101
  rw [acc_part4 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 4 at an entry, over the body's inputs: updates 13 to 17 in program order. -/
theorem acc_step4 (l : Fin 40) (q : Fin 200) (h : Fin 160) :
    (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off5 i) (k0_off5_inb i)) 256#32) (Scalar.cmpi .slt (wd x2 (k0_off5 i) (k0_off5_inb i)) 512#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off5 i) (k0_off5_inb i)) 0#32) (Scalar.cmpi .slt (wd x2 (k0_off5 i) (k0_off5_inb i)) 256#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off4 i) (k0_off4_inb i)) 768#32) (Scalar.cmpi .slt (wd x2 (k0_off4 i) (k0_off4_inb i)) 1024#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 768#32 (tb x8 768 inb_S1024x160_S256x160_768_0) h)
      (gstep (Scalar.cmpi .ne (Scalar.extui (Scalar.andi (Scalar.cmpi .sge (wd x3 (k0_off4 i) (k0_off4_inb i)) 512#32) (Scalar.cmpi .slt (wd x2 (k0_off4 i) (k0_off4_inb i)) 768#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 512#32 (tb x8 512 inb_S1024x160_S256x160_512_0) h)
      (gstep (Scalar.cmpi .ne (Scalar.extui (Scalar.andi (Scalar.cmpi .sge (wd x3 (k0_off4 i) (k0_off4_inb i)) 256#32) (Scalar.cmpi .slt (wd x2 (k0_off4 i) (k0_off4_inb i)) 512#32))) 0#32 = 1#1 ∧ 150 ≤ q.val ∧ q.val < 150 + 50)
      (Cert.KernelIdeal.Pay.chunkSum (x4 (ix3 (0 : Fin 1) l (Cert.KernelIdeal.Pay.col 150 (⟨(q.val - 150) % 50, Nat.mod_lt _ (by decide)⟩ : Fin 50) (by omega)))) 256#32 (tb x8 256 inb_S1024x160_S256x160_256_0) h)
      ((pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step4_gen c i M2 h2 M3 h3 M4 h4 M5 h5 M6 h6 M7 h7 M8 h8 M9 h9 M10 h10 M11 h11 M12 h12 M13 h13 M14 h14 x2 x3 x4 x5 x6 x7 x8 x9 x10 x11 x12 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr3 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_3_1 c i M2 h2 M3 h3 M4 h4 M5 h5 M6 h6 M7 h7 M8 h8 M9 h9 M10 h10 M11 h11 M12 h12 M13 h13 M14 h14 x2 x3 x4 x5 x6 x7 x8 x9 x10 x11 x12) (val_3_2 c i M2 h2 M3 h3 M4 h4 M5 h5 M6 h6 M7 h7 M8 h8 M9 h9 M10 h10 M11 h11 M12 h12 M13 h13 M14 h14 x2 x3 x4 x5 x6 x7 x8 x9 x10 x11 x12) (val_3_3 c i M2 h2 M3 h3 M4 h4 M5 h5 M6 h6 M7 h7 M8 h8 M9 h9 M10 h10 M11 h11 M12 h12 M13 h13 M14 h14 x2 x3 x4 x5 x6 x7 x8 x9 x10 x11 x12) (val_3_4 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 5 at an entry with the earlier parts' values put in, over variables. -/
theorem acc_step5_gen (a14 : Vec Ideal S40x200x160 .f32) (v4 : IVec S40x50x256 32) (v7 : BitVec 32) (v115 : IVec S40x200 32) (v116 : IVec S40x50 32) (v119 : Elt Ideal .i32) (v121 : Elt Ideal .i32) (v135 : BitVec 32) (hv4 : Cert.KernelIdeal.Pay.LaneNumbers v4) (hv115 : v115 = k0_pay24 x5) (hv116 : v116 = k0_pay25 x5) (hv119 : v119 = (wd x2 (k0_off5 i) (k0_off5_inb i))) (hv121 : v121 = (wd x3 (k0_off5 i) (k0_off5_inb i))) (hv135 : v135 = (Scalar.extui (Scalar.andi (Scalar.cmpi .sge (wd x3 (k0_off5 i) (k0_off5_inb i)) 512#32) (Scalar.cmpi .slt (wd x2 (k0_off5 i) (k0_off5_inb i)) 768#32))))
    (l : Fin 40) (q : Fin 200) (h : Fin 160) :
    (partRun5 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v116 v119 v121 v135).1.1 (ix3 l q h)
      = gstep (Scalar.cmpi .ne (Scalar.extui (Scalar.andi (Scalar.cmpi .sge (wd x3 (k0_off6 i) (k0_off6_inb i)) 768#32) (Scalar.cmpi .slt (wd x2 (k0_off6 i) (k0_off6_inb i)) 1024#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off6 i) (k0_off6_inb i)) 512#32) (Scalar.cmpi .slt (wd x2 (k0_off6 i) (k0_off6_inb i)) 768#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off6 i) (k0_off6_inb i)) 256#32) (Scalar.cmpi .slt (wd x2 (k0_off6 i) (k0_off6_inb i)) 512#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off6 i) (k0_off6_inb i)) 0#32) (Scalar.cmpi .slt (wd x2 (k0_off6 i) (k0_off6_inb i)) 256#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off5 i) (k0_off5_inb i)) 768#32) (Scalar.cmpi .slt (wd x2 (k0_off5 i) (k0_off5_inb i)) 1024#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off5 i) (k0_off5_inb i)) 512#32) (Scalar.cmpi .slt (wd x2 (k0_off5 i) (k0_off5_inb i)) 768#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 512#32 (tb x9 512 inb_S1024x160_S256x160_512_0) h)
      (a14 (ix3 l q h))))))) := by
  subst hv115 hv116 hv119 hv121 hv135
  rw [acc_part5 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 5 at an entry, over the body's inputs: updates 18 to 23 in program order. -/
theorem acc_step5 (l : Fin 40) (q : Fin 200) (h : Fin 160) :
    (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off6 i) (k0_off6_inb i)) 768#32) (Scalar.cmpi .slt (wd x2 (k0_off6 i) (k0_off6_inb i)) 1024#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off6 i) (k0_off6_inb i)) 512#32) (Scalar.cmpi .slt (wd x2 (k0_off6 i) (k0_off6_inb i)) 768#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off6 i) (k0_off6_inb i)) 256#32) (Scalar.cmpi .slt (wd x2 (k0_off6 i) (k0_off6_inb i)) 512#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off6 i) (k0_off6_inb i)) 0#32) (Scalar.cmpi .slt (wd x2 (k0_off6 i) (k0_off6_inb i)) 256#32))) 0#32 = 1#1 ∧ 50 ≤ q.val ∧ q.val < 50 + 50)
      (Cert.KernelIdeal.Pay.chunkSum (x5 (ix3 (0 : Fin 1) l (Cert.KernelIdeal.Pay.col 50 (⟨(q.val - 50) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off5 i) (k0_off5_inb i)) 768#32) (Scalar.cmpi .slt (wd x2 (k0_off5 i) (k0_off5_inb i)) 1024#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off5 i) (k0_off5_inb i)) 512#32) (Scalar.cmpi .slt (wd x2 (k0_off5 i) (k0_off5_inb i)) 768#32))) 0#32 = 1#1 ∧ 0 ≤ q.val ∧ q.val < 0 + 50)
      (Cert.KernelIdeal.Pay.chunkSum (x5 (ix3 (0 : Fin 1) l (Cert.KernelIdeal.Pay.col 0 (⟨(q.val - 0) % 50, Nat.mod_lt _ (by decide)⟩ : Fin 50) (by omega)))) 512#32 (tb x9 512 inb_S1024x160_S256x160_512_0) h)
      ((pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h))))))) :=
  acc_step5_gen c i M2 h2 M3 h3 M4 h4 M5 h5 M6 h6 M7 h7 M8 h8 M9 h9 M10 h10 M11 h11 M12 h12 M13 h13 M14 h14 x2 x3 x4 x5 x6 x7 x8 x9 x10 x11 x12 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_4_1 c i M2 h2 M3 h3 M4 h4 M5 h5 M6 h6 M7 h7 M8 h8 M9 h9 M10 h10 M11 h11 M12 h12 M13 h13 M14 h14 x2 x3 x4 x5 x6 x7 x8 x9 x10 x11 x12) (val_4_2 c i M2 h2 M3 h3 M4 h4 M5 h5 M6 h6 M7 h7 M8 h8 M9 h9 M10 h10 M11 h11 M12 h12 M13 h13 M14 h14 x2 x3 x4 x5 x6 x7 x8 x9 x10 x11 x12) (val_4_3 c i M2 h2 M3 h3 M4 h4 M5 h5 M6 h6 M7 h7 M8 h8 M9 h9 M10 h10 M11 h11 M12 h12 M13 h13 M14 h14 x2 x3 x4 x5 x6 x7 x8 x9 x10 x11 x12) (val_4_4 c i M2 h2 M3 h3 M4 h4 M5 h5 M6 h6 M7 h7 M8 h8 M9 h9 M10 h10 M11 h11 M12 h12 M13 h13 M14 h14 x2 x3 x4 x5 x6 x7 x8 x9 x10 x11 x12) (val_4_5 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 6 at an entry with the earlier parts' values put in, over variables. -/
theorem acc_step6_gen (a14 : Vec Ideal S40x200x160 .f32) (v4 : IVec S40x50x256 32) (v7 : BitVec 32) (v115 : IVec S40x200 32) (v168 : IVec S40x50 32) (v169 : BitVec 32) (hv4 : Cert.KernelIdeal.Pay.LaneNumbers v4) (hv115 : v115 = k0_pay24 x5) (hv168 : v168 = k0_pay35 (k0_pay24 x5))
    (l : Fin 40) (q : Fin 200) (h : Fin 160) :
    (partRun6 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v115 v168 v169).1.1 (ix3 l q h)
      = gstep (Scalar.cmpi .ne (Scalar.extui (Scalar.andi (Scalar.cmpi .sge (wd x3 (k0_off8 i) (k0_off8_inb i)) 0#32) (Scalar.cmpi .slt (wd x2 (k0_off8 i) (k0_off8_inb i)) 256#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off7 i) (k0_off7_inb i)) 768#32) (Scalar.cmpi .slt (wd x2 (k0_off7 i) (k0_off7_inb i)) 1024#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off7 i) (k0_off7_inb i)) 512#32) (Scalar.cmpi .slt (wd x2 (k0_off7 i) (k0_off7_inb i)) 768#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off7 i) (k0_off7_inb i)) 256#32) (Scalar.cmpi .slt (wd x2 (k0_off7 i) (k0_off7_inb i)) 512#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off7 i) (k0_off7_inb i)) 0#32) (Scalar.cmpi .slt (wd x2 (k0_off7 i) (k0_off7_inb i)) 256#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 0#32 (tb x9 0 inb_S1024x160_S256x160_0_0) h)
      (a14 (ix3 l q h)))))) := by
  subst hv115 hv168
  rw [acc_part6 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 6 at an entry, over the body's inputs: updates 24 to 28 in program order. -/
theorem acc_step6 (l : Fin 40) (q : Fin 200) (h : Fin 160) :
    (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off8 i) (k0_off8_inb i)) 0#32) (Scalar.cmpi .slt (wd x2 (k0_off8 i) (k0_off8_inb i)) 256#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 0#32 (tb x9 0 inb_S1024x160_S256x160_0_0) h)
      (gstep (Scalar.cmpi .ne (Scalar.extui (Scalar.andi (Scalar.cmpi .sge (wd x3 (k0_off7 i) (k0_off7_inb i)) 768#32) (Scalar.cmpi .slt (wd x2 (k0_off7 i) (k0_off7_inb i)) 1024#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off7 i) (k0_off7_inb i)) 512#32) (Scalar.cmpi .slt (wd x2 (k0_off7 i) (k0_off7_inb i)) 768#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off7 i) (k0_off7_inb i)) 256#32) (Scalar.cmpi .slt (wd x2 (k0_off7 i) (k0_off7_inb i)) 512#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 256#32 (tb x9 256 inb_S1024x160_S256x160_256_0) h)
      (gstep (Scalar.cmpi .ne (Scalar.extui (Scalar.andi (Scalar.cmpi .sge (wd x3 (k0_off7 i) (k0_off7_inb i)) 0#32) (Scalar.cmpi .slt (wd x2 (k0_off7 i) (k0_off7_inb i)) 256#32))) 0#32 = 1#1 ∧ 100 ≤ q.val ∧ q.val < 100 + 50)
      (Cert.KernelIdeal.Pay.chunkSum (x5 (ix3 (0 : Fin 1) l (Cert.KernelIdeal.Pay.col 100 (⟨(q.val - 100) % 50, Nat.mod_lt _ (by decide)⟩ : Fin 50) (by omega)))) 0#32 (tb x9 0 inb_S1024x160_S256x160_0_0) h)
      ((pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step6_gen c i M2 h2 M3 h3 M4 h4 M5 h5 M6 h6 M7 h7 M8 h8 M9 h9 M10 h10 M11 h11 M12 h12 M13 h13 M14 h14 x2 x3 x4 x5 x6 x7 x8 x9 x10 x11 x12 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr4 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr5 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_4_1 c i M2 h2 M3 h3 M4 h4 M5 h5 M6 h6 M7 h7 M8 h8 M9 h9 M10 h10 M11 h11 M12 h12 M13 h13 M14 h14 x2 x3 x4 x5 x6 x7 x8 x9 x10 x11 x12) (val_5_1 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 7 at an entry with the earlier parts' values put in, over variables. -/
theorem acc_step7_gen (a14 : Vec Ideal S40x200x160 .f32) (v4 : IVec S40x50x256 32) (v7 : BitVec 32) (v194 : IVec S40x50 32) (v197 : Elt Ideal .i32) (v199 : Elt Ideal .i32) (hv4 : Cert.KernelIdeal.Pay.LaneNumbers v4) (hv194 : v194 = k0_pay40 (k0_pay24 x5)) (hv197 : v197 = (wd x2 (k0_off8 i) (k0_off8_inb i))) (hv199 : v199 = (wd x3 (k0_off8 i) (k0_off8_inb i)))
    (l : Fin 40) (q : Fin 200) (h : Fin 160) :
    (partRun7 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v194 v197 v199).1.1 (ix3 l q h)
      = gstep (Scalar.cmpi .ne (Scalar.extui (Scalar.andi (Scalar.cmpi .sge (wd x3 (k0_off9 i) (k0_off9_inb i)) 256#32) (Scalar.cmpi .slt (wd x2 (k0_off9 i) (k0_off9_inb i)) 512#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off9 i) (k0_off9_inb i)) 0#32) (Scalar.cmpi .slt (wd x2 (k0_off9 i) (k0_off9_inb i)) 256#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off8 i) (k0_off8_inb i)) 768#32) (Scalar.cmpi .slt (wd x2 (k0_off8 i) (k0_off8_inb i)) 1024#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off8 i) (k0_off8_inb i)) 512#32) (Scalar.cmpi .slt (wd x2 (k0_off8 i) (k0_off8_inb i)) 768#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off8 i) (k0_off8_inb i)) 256#32) (Scalar.cmpi .slt (wd x2 (k0_off8 i) (k0_off8_inb i)) 512#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 256#32 (tb x9 256 inb_S1024x160_S256x160_256_0) h)
      (a14 (ix3 l q h)))))) := by
  subst hv194 hv197 hv199
  rw [acc_part7 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 7 at an entry, over the body's inputs: updates 29 to 33 in program order. -/
theorem acc_step7 (l : Fin 40) (q : Fin 200) (h : Fin 160) :
    (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off9 i) (k0_off9_inb i)) 256#32) (Scalar.cmpi .slt (wd x2 (k0_off9 i) (k0_off9_inb i)) 512#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off9 i) (k0_off9_inb i)) 0#32) (Scalar.cmpi .slt (wd x2 (k0_off9 i) (k0_off9_inb i)) 256#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off8 i) (k0_off8_inb i)) 768#32) (Scalar.cmpi .slt (wd x2 (k0_off8 i) (k0_off8_inb i)) 1024#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 768#32 (tb x9 768 inb_S1024x160_S256x160_768_0) h)
      (gstep (Scalar.cmpi .ne (Scalar.extui (Scalar.andi (Scalar.cmpi .sge (wd x3 (k0_off8 i) (k0_off8_inb i)) 512#32) (Scalar.cmpi .slt (wd x2 (k0_off8 i) (k0_off8_inb i)) 768#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 512#32 (tb x9 512 inb_S1024x160_S256x160_512_0) h)
      (gstep (Scalar.cmpi .ne (Scalar.extui (Scalar.andi (Scalar.cmpi .sge (wd x3 (k0_off8 i) (k0_off8_inb i)) 256#32) (Scalar.cmpi .slt (wd x2 (k0_off8 i) (k0_off8_inb i)) 512#32))) 0#32 = 1#1 ∧ 150 ≤ q.val ∧ q.val < 150 + 50)
      (Cert.KernelIdeal.Pay.chunkSum (x5 (ix3 (0 : Fin 1) l (Cert.KernelIdeal.Pay.col 150 (⟨(q.val - 150) % 50, Nat.mod_lt _ (by decide)⟩ : Fin 50) (by omega)))) 256#32 (tb x9 256 inb_S1024x160_S256x160_256_0) h)
      ((pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step7_gen c i M2 h2 M3 h3 M4 h4 M5 h5 M6 h6 M7 h7 M8 h8 M9 h9 M10 h10 M11 h11 M12 h12 M13 h13 M14 h14 x2 x3 x4 x5 x6 x7 x8 x9 x10 x11 x12 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr6 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_6_1 c i M2 h2 M3 h3 M4 h4 M5 h5 M6 h6 M7 h7 M8 h8 M9 h9 M10 h10 M11 h11 M12 h12 M13 h13 M14 h14 x2 x3 x4 x5 x6 x7 x8 x9 x10 x11 x12) (val_6_2 c i M2 h2 M3 h3 M4 h4 M5 h5 M6 h6 M7 h7 M8 h8 M9 h9 M10 h10 M11 h11 M12 h12 M13 h13 M14 h14 x2 x3 x4 x5 x6 x7 x8 x9 x10 x11 x12) (val_6_3 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 8 at an entry with the earlier parts' values put in, over variables. -/
theorem acc_step8_gen (a14 : Vec Ideal S40x200x160 .f32) (v4 : IVec S40x50x256 32) (v7 : BitVec 32) (v221 : IVec S40x200 32) (v222 : IVec S40x50 32) (v225 : Elt Ideal .i32) (v227 : Elt Ideal .i32) (c512_i32_130 : BitVec 32) (hv4 : Cert.KernelIdeal.Pay.LaneNumbers v4) (hv221 : v221 = k0_pay45 x6) (hv222 : v222 = k0_pay46 x6) (hv225 : v225 = (wd x2 (k0_off9 i) (k0_off9_inb i))) (hv227 : v227 = (wd x3 (k0_off9 i) (k0_off9_inb i))) (hc512_i32_130 : c512_i32_130 = 512#32)
    (l : Fin 40) (q : Fin 200) (h : Fin 160) :
    (partRun8 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v222 v225 v227 c512_i32_130).1.1 (ix3 l q h)
      = gstep (Scalar.cmpi .ne (Scalar.extui (Scalar.andi (Scalar.cmpi .sge (wd x3 (k0_off10 i) (k0_off10_inb i)) 512#32) (Scalar.cmpi .slt (wd x2 (k0_off10 i) (k0_off10_inb i)) 768#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off10 i) (k0_off10_inb i)) 256#32) (Scalar.cmpi .slt (wd x2 (k0_off10 i) (k0_off10_inb i)) 512#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off10 i) (k0_off10_inb i)) 0#32) (Scalar.cmpi .slt (wd x2 (k0_off10 i) (k0_off10_inb i)) 256#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off9 i) (k0_off9_inb i)) 768#32) (Scalar.cmpi .slt (wd x2 (k0_off9 i) (k0_off9_inb i)) 1024#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off9 i) (k0_off9_inb i)) 512#32) (Scalar.cmpi .slt (wd x2 (k0_off9 i) (k0_off9_inb i)) 768#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 512#32 (tb x10 512 inb_S1024x160_S256x160_512_0) h)
      (a14 (ix3 l q h)))))) := by
  subst hv221 hv222 hv225 hv227 hc512_i32_130
  rw [acc_part8 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 8 at an entry, over the body's inputs: updates 34 to 38 in program order. -/
theorem acc_step8 (l : Fin 40) (q : Fin 200) (h : Fin 160) :
    (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off10 i) (k0_off10_inb i)) 512#32) (Scalar.cmpi .slt (wd x2 (k0_off10 i) (k0_off10_inb i)) 768#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off10 i) (k0_off10_inb i)) 256#32) (Scalar.cmpi .slt (wd x2 (k0_off10 i) (k0_off10_inb i)) 512#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off10 i) (k0_off10_inb i)) 0#32) (Scalar.cmpi .slt (wd x2 (k0_off10 i) (k0_off10_inb i)) 256#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off9 i) (k0_off9_inb i)) 768#32) (Scalar.cmpi .slt (wd x2 (k0_off9 i) (k0_off9_inb i)) 1024#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off9 i) (k0_off9_inb i)) 512#32) (Scalar.cmpi .slt (wd x2 (k0_off9 i) (k0_off9_inb i)) 768#32))) 0#32 = 1#1 ∧ 0 ≤ q.val ∧ q.val < 0 + 50)
      (Cert.KernelIdeal.Pay.chunkSum (x6 (ix3 (0 : Fin 1) l (Cert.KernelIdeal.Pay.col 0 (⟨(q.val - 0) % 50, Nat.mod_lt _ (by decide)⟩ : Fin 50) (by omega)))) 512#32 (tb x10 512 inb_S1024x160_S256x160_512_0) h)
      ((pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step8_gen c i M2 h2 M3 h3 M4 h4 M5 h5 M6 h6 M7 h7 M8 h8 M9 h9 M10 h10 M11 h11 M12 h12 M13 h13 M14 h14 x2 x3 x4 x5 x6 x7 x8 x9 x10 x11 x12 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_7_1 c i M2 h2 M3 h3 M4 h4 M5 h5 M6 h6 M7 h7 M8 h8 M9 h9 M10 h10 M11 h11 M12 h12 M13 h13 M14 h14 x2 x3 x4 x5 x6 x7 x8 x9 x10 x11 x12) (val_7_2 c i M2 h2 M3 h3 M4 h4 M5 h5 M6 h6 M7 h7 M8 h8 M9 h9 M10 h10 M11 h11 M12 h12 M13 h13 M14 h14 x2 x3 x4 x5 x6 x7 x8 x9 x10 x11 x12) (val_7_3 c i M2 h2 M3 h3 M4 h4 M5 h5 M6 h6 M7 h7 M8 h8 M9 h9 M10 h10 M11 h11 M12 h12 M13 h13 M14 h14 x2 x3 x4 x5 x6 x7 x8 x9 x10 x11 x12) (val_7_4 c i M2 h2 M3 h3 M4 h4 M5 h5 M6 h6 M7 h7 M8 h8 M9 h9 M10 h10 M11 h11 M12 h12 M13 h13 M14 h14 x2 x3 x4 x5 x6 x7 x8 x9 x10 x11 x12) (val_7_5 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 9 at an entry with the earlier parts' values put in, over variables. -/
theorem acc_step9_gen (a14 : Vec Ideal S40x200x160 .f32) (v4 : IVec S40x50x256 32) (v7 : BitVec 32) (v221 : IVec S40x200 32) (v248 : IVec S40x50 32) (v272 : BitVec 32) (c0_i32_150 : BitVec 32) (hv4 : Cert.KernelIdeal.Pay.LaneNumbers v4) (hv221 : v221 = k0_pay45 x6) (hv248 : v248 = k0_pay51 (k0_pay45 x6)) (hv272 : v272 = (Scalar.extui (Scalar.andi (Scalar.cmpi .sge (wd x3 (k0_off10 i) (k0_off10_inb i)) 768#32) (Scalar.cmpi .slt (wd x2 (k0_off10 i) (k0_off10_inb i)) 1024#32)))) (hc0_i32_150 : c0_i32_150 = 0#32)
    (l : Fin 40) (q : Fin 200) (h : Fin 160) :
    (partRun9 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v221 v248 v272 c0_i32_150).1.1 (ix3 l q h)
      = gstep (Scalar.cmpi .ne (Scalar.extui (Scalar.andi (Scalar.cmpi .sge (wd x3 (k0_off11 i) (k0_off11_inb i)) 768#32) (Scalar.cmpi .slt (wd x2 (k0_off11 i) (k0_off11_inb i)) 1024#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off11 i) (k0_off11_inb i)) 512#32) (Scalar.cmpi .slt (wd x2 (k0_off11 i) (k0_off11_inb i)) 768#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off11 i) (k0_off11_inb i)) 256#32) (Scalar.cmpi .slt (wd x2 (k0_off11 i) (k0_off11_inb i)) 512#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off11 i) (k0_off11_inb i)) 0#32) (Scalar.cmpi .slt (wd x2 (k0_off11 i) (k0_off11_inb i)) 256#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off10 i) (k0_off10_inb i)) 768#32) (Scalar.cmpi .slt (wd x2 (k0_off10 i) (k0_off10_inb i)) 1024#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 768#32 (tb x10 768 inb_S1024x160_S256x160_768_0) h)
      (a14 (ix3 l q h)))))) := by
  subst hv221 hv248 hv272 hc0_i32_150
  rw [acc_part9 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 9 at an entry, over the body's inputs: updates 39 to 43 in program order. -/
theorem acc_step9 (l : Fin 40) (q : Fin 200) (h : Fin 160) :
    (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off11 i) (k0_off11_inb i)) 768#32) (Scalar.cmpi .slt (wd x2 (k0_off11 i) (k0_off11_inb i)) 1024#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off11 i) (k0_off11_inb i)) 512#32) (Scalar.cmpi .slt (wd x2 (k0_off11 i) (k0_off11_inb i)) 768#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off11 i) (k0_off11_inb i)) 256#32) (Scalar.cmpi .slt (wd x2 (k0_off11 i) (k0_off11_inb i)) 512#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off11 i) (k0_off11_inb i)) 0#32) (Scalar.cmpi .slt (wd x2 (k0_off11 i) (k0_off11_inb i)) 256#32))) 0#32 = 1#1 ∧ 100 ≤ q.val ∧ q.val < 100 + 50)
      (Cert.KernelIdeal.Pay.chunkSum (x6 (ix3 (0 : Fin 1) l (Cert.KernelIdeal.Pay.col 100 (⟨(q.val - 100) % 50, Nat.mod_lt _ (by decide)⟩ : Fin 50) (by omega)))) 0#32 (tb x10 0 inb_S1024x160_S256x160_0_0) h)
      (gstep (Scalar.cmpi .ne (Scalar.extui (Scalar.andi (Scalar.cmpi .sge (wd x3 (k0_off10 i) (k0_off10_inb i)) 768#32) (Scalar.cmpi .slt (wd x2 (k0_off10 i) (k0_off10_inb i)) 1024#32))) 0#32 = 1#1 ∧ 50 ≤ q.val ∧ q.val < 50 + 50)
      (Cert.KernelIdeal.Pay.chunkSum (x6 (ix3 (0 : Fin 1) l (Cert.KernelIdeal.Pay.col 50 (⟨(q.val - 50) % 50, Nat.mod_lt _ (by decide)⟩ : Fin 50) (by omega)))) 768#32 (tb x10 768 inb_S1024x160_S256x160_768_0) h)
      ((pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step9_gen c i M2 h2 M3 h3 M4 h4 M5 h5 M6 h6 M7 h7 M8 h8 M9 h9 M10 h10 M11 h11 M12 h12 M13 h13 M14 h14 x2 x3 x4 x5 x6 x7 x8 x9 x10 x11 x12 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr7 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr8 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_7_1 c i M2 h2 M3 h3 M4 h4 M5 h5 M6 h6 M7 h7 M8 h8 M9 h9 M10 h10 M11 h11 M12 h12 M13 h13 M14 h14 x2 x3 x4 x5 x6 x7 x8 x9 x10 x11 x12) (val_8_1 c i M2 h2 M3 h3 M4 h4 M5 h5 M6 h6 M7 h7 M8 h8 M9 h9 M10 h10 M11 h11 M12 h12 M13 h13 M14 h14 x2 x3 x4 x5 x6 x7 x8 x9 x10 x11 x12) (val_8_2 c i M2 h2 M3 h3 M4 h4 M5 h5 M6 h6 M7 h7 M8 h8 M9 h9 M10 h10 M11 h11 M12 h12 M13 h13 M14 h14 x2 x3 x4 x5 x6 x7 x8 x9 x10 x11 x12) (val_8_3 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 10 at an entry with the earlier parts' values put in, over variables. -/
theorem acc_step10_gen (a14 : Vec Ideal S40x200x160 .f32) (v4 : IVec S40x50x256 32) (v7 : BitVec 32) (v300 : IVec S40x50 32) (v303 : Elt Ideal .i32) (v305 : Elt Ideal .i32) (v306 : BitVec 1) (v307 : BitVec 1) (hv4 : Cert.KernelIdeal.Pay.LaneNumbers v4) (hv300 : v300 = k0_pay61 (k0_pay45 x6)) (hv303 : v303 = wd x2 (k0_off12 i) (k0_off12_inb i)) (hv305 : v305 = wd x3 (k0_off12 i) (k0_off12_inb i)) (hv306 : v306 = Scalar.cmpi .sge (wd x3 (k0_off12 i) (k0_off12_inb i)) 0#32) (hv307 : v307 = Scalar.cmpi .slt (wd x2 (k0_off12 i) (k0_off12_inb i)) 256#32)
    (l : Fin 40) (q : Fin 200) (h : Fin 160) :
    (partRun10 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v300 v303 v305 v306 v307).1.1 (ix3 l q h)
      = gstep (Scalar.cmpi .ne (Scalar.extui (Scalar.andi (Scalar.cmpi .sge (wd x3 (k0_off13 i) (k0_off13_inb i)) 0#32) (Scalar.cmpi .slt (wd x2 (k0_off13 i) (k0_off13_inb i)) 256#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off12 i) (k0_off12_inb i)) 768#32) (Scalar.cmpi .slt (wd x2 (k0_off12 i) (k0_off12_inb i)) 1024#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off12 i) (k0_off12_inb i)) 512#32) (Scalar.cmpi .slt (wd x2 (k0_off12 i) (k0_off12_inb i)) 768#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off12 i) (k0_off12_inb i)) 256#32) (Scalar.cmpi .slt (wd x2 (k0_off12 i) (k0_off12_inb i)) 512#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off12 i) (k0_off12_inb i)) 0#32) (Scalar.cmpi .slt (wd x2 (k0_off12 i) (k0_off12_inb i)) 256#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 0#32 (tb x10 0 inb_S1024x160_S256x160_0_0) h)
      (a14 (ix3 l q h)))))) := by
  subst hv300 hv303 hv305 hv306 hv307
  rw [acc_part10 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 10 at an entry, over the body's inputs: updates 44 to 48 in program order. -/
theorem acc_step10 (l : Fin 40) (q : Fin 200) (h : Fin 160) :
    (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off13 i) (k0_off13_inb i)) 0#32) (Scalar.cmpi .slt (wd x2 (k0_off13 i) (k0_off13_inb i)) 256#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off12 i) (k0_off12_inb i)) 768#32) (Scalar.cmpi .slt (wd x2 (k0_off12 i) (k0_off12_inb i)) 1024#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 768#32 (tb x10 768 inb_S1024x160_S256x160_768_0) h)
      (gstep (Scalar.cmpi .ne (Scalar.extui (Scalar.andi (Scalar.cmpi .sge (wd x3 (k0_off12 i) (k0_off12_inb i)) 512#32) (Scalar.cmpi .slt (wd x2 (k0_off12 i) (k0_off12_inb i)) 768#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 512#32 (tb x10 512 inb_S1024x160_S256x160_512_0) h)
      (gstep (Scalar.cmpi .ne (Scalar.extui (Scalar.andi (Scalar.cmpi .sge (wd x3 (k0_off12 i) (k0_off12_inb i)) 256#32) (Scalar.cmpi .slt (wd x2 (k0_off12 i) (k0_off12_inb i)) 512#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 256#32 (tb x10 256 inb_S1024x160_S256x160_256_0) h)
      (gstep (Scalar.cmpi .ne (Scalar.extui (Scalar.andi (Scalar.cmpi .sge (wd x3 (k0_off12 i) (k0_off12_inb i)) 0#32) (Scalar.cmpi .slt (wd x2 (k0_off12 i) (k0_off12_inb i)) 256#32))) 0#32 = 1#1 ∧ 150 ≤ q.val ∧ q.val < 150 + 50)
      (Cert.KernelIdeal.Pay.chunkSum (x6 (ix3 (0 : Fin 1) l (Cert.KernelIdeal.Pay.col 150 (⟨(q.val - 150) % 50, Nat.mod_lt _ (by decide)⟩ : Fin 50) (by omega)))) 0#32 (tb x10 0 inb_S1024x160_S256x160_0_0) h)
      ((pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step10_gen c i M2 h2 M3 h3 M4 h4 M5 h5 M6 h6 M7 h7 M8 h8 M9 h9 M10 h10 M11 h11 M12 h12 M13 h13 M14 h14 x2 x3 x4 x5 x6 x7 x8 x9 x10 x11 x12 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr9 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_9_1 c i M2 h2 M3 h3 M4 h4 M5 h5 M6 h6 M7 h7 M8 h8 M9 h9 M10 h10 M11 h11 M12 h12 M13 h13 M14 h14 x2 x3 x4 x5 x6 x7 x8 x9 x10 x11 x12) (val_9_2 c i M2 h2 M3 h3 M4 h4 M5 h5 M6 h6 M7 h7 M8 h8 M9 h9 M10 h10 M11 h11 M12 h12 M13 h13 M14 h14 x2 x3 x4 x5 x6 x7 x8 x9 x10 x11 x12) (val_9_3 c i M2 h2 M3 h3 M4 h4 M5 h5 M6 h6 M7 h7 M8 h8 M9 h9 M10 h10 M11 h11 M12 h12 M13 h13 M14 h14 x2 x3 x4 x5 x6 x7 x8 x9 x10 x11 x12) (val_9_4 c i M2 h2 M3 h3 M4 h4 M5 h5 M6 h6 M7 h7 M8 h8 M9 h9 M10 h10 M11 h11 M12 h12 M13 h13 M14 h14 x2 x3 x4 x5 x6 x7 x8 x9 x10 x11 x12) (val_9_5 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 11 at an entry with the earlier parts' values put in, over variables. -/
theorem acc_step11_gen (a14 : Vec Ideal S40x200x160 .f32) (v4 : IVec S40x50x256 32) (v7 : BitVec 32) (v327 : IVec S40x200 32) (v328 : IVec S40x50 32) (v331 : Elt Ideal .i32) (v333 : Elt Ideal .i32) (v341 : BitVec 1) (hv4 : Cert.KernelIdeal.Pay.LaneNumbers v4) (hv327 : v327 = k0_pay66 (F := Ideal) x7) (hv328 : v328 = k0_pay67 (F := Ideal) x7) (hv331 : v331 = wd x2 (k0_off13 i) (k0_off13_inb i)) (hv333 : v333 = wd x3 (k0_off13 i) (k0_off13_inb i)) (hv341 : v341 = Scalar.andi (Scalar.cmpi .sge (wd x3 (k0_off13 i) (k0_off13_inb i)) 256#32) (Scalar.cmpi .slt (wd x2 (k0_off13 i) (k0_off13_inb i)) 512#32))
    (l : Fin 40) (q : Fin 200) (h : Fin 160) :
    (partRun11 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v328 v331 v333 v341).1.1 (ix3 l q h)
      = gstep (Scalar.cmpi .ne (Scalar.extui (Scalar.andi (Scalar.cmpi .sge (wd x3 (k0_off14 i) (k0_off14_inb i)) 512#32) (Scalar.cmpi .slt (wd x2 (k0_off14 i) (k0_off14_inb i)) 768#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off14 i) (k0_off14_inb i)) 256#32) (Scalar.cmpi .slt (wd x2 (k0_off14 i) (k0_off14_inb i)) 512#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 256#32 (tb x11 256 inb_S1024x160_S256x160_256_0) h)
      (gstep (Scalar.cmpi .ne (Scalar.extui (Scalar.andi (Scalar.cmpi .sge (wd x3 (k0_off14 i) (k0_off14_inb i)) 0#32) (Scalar.cmpi .slt (wd x2 (k0_off14 i) (k0_off14_inb i)) 256#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off13 i) (k0_off13_inb i)) 768#32) (Scalar.cmpi .slt (wd x2 (k0_off13 i) (k0_off13_inb i)) 1024#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 768#32 (tb x11 768 inb_S1024x160_S256x160_768_0) h)
      (gstep (Scalar.cmpi .ne (Scalar.extui (Scalar.andi (Scalar.cmpi .sge (wd x3 (k0_off13 i) (k0_off13_inb i)) 512#32) (Scalar.cmpi .slt (wd x2 (k0_off13 i) (k0_off13_inb i)) 768#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off13 i) (k0_off13_inb i)) 256#32) (Scalar.cmpi .slt (wd x2 (k0_off13 i) (k0_off13_inb i)) 512#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 256#32 (tb x11 256 inb_S1024x160_S256x160_256_0) h)
      (a14 (ix3 l q h))))))) := by
  subst hv327 hv328 hv331 hv333 hv341
  rw [acc_part11 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 11 at an entry, over the body's inputs: updates 49 to 54 in program order. -/
theorem acc_step11 (l : Fin 40) (q : Fin 200) (h : Fin 160) :
    (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off14 i) (k0_off14_inb i)) 512#32) (Scalar.cmpi .slt (wd x2 (k0_off14 i) (k0_off14_inb i)) 768#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off14 i) (k0_off14_inb i)) 256#32) (Scalar.cmpi .slt (wd x2 (k0_off14 i) (k0_off14_inb i)) 512#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 256#32 (tb x11 256 inb_S1024x160_S256x160_256_0) h)
      (gstep (Scalar.cmpi .ne (Scalar.extui (Scalar.andi (Scalar.cmpi .sge (wd x3 (k0_off14 i) (k0_off14_inb i)) 0#32) (Scalar.cmpi .slt (wd x2 (k0_off14 i) (k0_off14_inb i)) 256#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off13 i) (k0_off13_inb i)) 768#32) (Scalar.cmpi .slt (wd x2 (k0_off13 i) (k0_off13_inb i)) 1024#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 768#32 (tb x11 768 inb_S1024x160_S256x160_768_0) h)
      (gstep (Scalar.cmpi .ne (Scalar.extui (Scalar.andi (Scalar.cmpi .sge (wd x3 (k0_off13 i) (k0_off13_inb i)) 512#32) (Scalar.cmpi .slt (wd x2 (k0_off13 i) (k0_off13_inb i)) 768#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off13 i) (k0_off13_inb i)) 256#32) (Scalar.cmpi .slt (wd x2 (k0_off13 i) (k0_off13_inb i)) 512#32))) 0#32 = 1#1 ∧ 0 ≤ q.val ∧ q.val < 0 + 50)
      (Cert.KernelIdeal.Pay.chunkSum (x7 (ix3 (0 : Fin 1) l (Cert.KernelIdeal.Pay.col 0 (⟨(q.val - 0) % 50, Nat.mod_lt _ (by decide)⟩ : Fin 50) (by omega)))) 256#32 (tb x11 256 inb_S1024x160_S256x160_256_0) h)
      ((pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h))))))) :=
  acc_step11_gen c i M2 h2 M3 h3 M4 h4 M5 h5 M6 h6 M7 h7 M8 h8 M9 h9 M10 h10 M11 h11 M12 h12 M13 h13 M14 h14 x2 x3 x4 x5 x6 x7 x8 x9 x10 x11 x12 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_10_1 c i M2 h2 M3 h3 M4 h4 M5 h5 M6 h6 M7 h7 M8 h8 M9 h9 M10 h10 M11 h11 M12 h12 M13 h13 M14 h14 x2 x3 x4 x5 x6 x7 x8 x9 x10 x11 x12) (val_10_2 c i M2 h2 M3 h3 M4 h4 M5 h5 M6 h6 M7 h7 M8 h8 M9 h9 M10 h10 M11 h11 M12 h12 M13 h13 M14 h14 x2 x3 x4 x5 x6 x7 x8 x9 x10 x11 x12) (val_10_3 c i M2 h2 M3 h3 M4 h4 M5 h5 M6 h6 M7 h7 M8 h8 M9 h9 M10 h10 M11 h11 M12 h12 M13 h13 M14 h14 x2 x3 x4 x5 x6 x7 x8 x9 x10 x11 x12) (val_10_4 c i M2 h2 M3 h3 M4 h4 M5 h5 M6 h6 M7 h7 M8 h8 M9 h9 M10 h10 M11 h11 M12 h12 M13 h13 M14 h14 x2 x3 x4 x5 x6 x7 x8 x9 x10 x11 x12) (val_10_5 c i M2 h2 M3 h3 M4 h4 M5 h5 M6 h6 M7 h7 M8 h8 M9 h9 M10 h10 M11 h11 M12 h12 M13 h13 M14 h14 x2 x3 x4 x5 x6 x7 x8 x9 x10 x11 x12) l q h

set_option maxHeartbeats 4000000 in
/-- Part 12 at an entry with the earlier parts' values put in, over variables. -/
theorem acc_step12_gen (a14 : Vec Ideal S40x200x160 .f32) (v4 : IVec S40x50x256 32) (v7 : BitVec 32) (v327 : IVec S40x200 32) (v354 : IVec S40x50 32) (v357 : Elt Ideal .i32) (v375 : BitVec 1) (hv4 : Cert.KernelIdeal.Pay.LaneNumbers v4) (hv327 : v327 = k0_pay66 (F := Ideal) x7) (hv354 : v354 = k0_pay72 (k0_pay66 (F := Ideal) x7)) (hv357 : v357 = wd x2 (k0_off14 i) (k0_off14_inb i)) (hv375 : v375 = Scalar.cmpi .sge (wd x3 (k0_off14 i) (k0_off14_inb i)) 768#32)
    (l : Fin 40) (q : Fin 200) (h : Fin 160) :
    (partRun12 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v7 v327 v354 v357 v375).1.1 (ix3 l q h)
      = gstep (Scalar.cmpi .ne (Scalar.extui (Scalar.andi (Scalar.cmpi .sge (wd x3 (k0_off15 i) (k0_off15_inb i)) 768#32) (Scalar.cmpi .slt (wd x2 (k0_off15 i) (k0_off15_inb i)) 1024#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 768#32 (tb x11 768 inb_S1024x160_S256x160_768_0) h)
      (gstep (Scalar.cmpi .ne (Scalar.extui (Scalar.andi (Scalar.cmpi .sge (wd x3 (k0_off15 i) (k0_off15_inb i)) 512#32) (Scalar.cmpi .slt (wd x2 (k0_off15 i) (k0_off15_inb i)) 768#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off15 i) (k0_off15_inb i)) 256#32) (Scalar.cmpi .slt (wd x2 (k0_off15 i) (k0_off15_inb i)) 512#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 256#32 (tb x11 256 inb_S1024x160_S256x160_256_0) h)
      (gstep (Scalar.cmpi .ne (Scalar.extui (Scalar.andi (Scalar.cmpi .sge (wd x3 (k0_off15 i) (k0_off15_inb i)) 0#32) (Scalar.cmpi .slt (wd x2 (k0_off15 i) (k0_off15_inb i)) 256#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off14 i) (k0_off14_inb i)) 768#32) (Scalar.cmpi .slt (wd x2 (k0_off14 i) (k0_off14_inb i)) 1024#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 768#32 (tb x11 768 inb_S1024x160_S256x160_768_0) h)
      (a14 (ix3 l q h)))))) := by
  subst hv327 hv354 hv357 hv375
  rw [acc_part12 (hv4 := hv4)]
  all_goals try simp only [Cert.KernelIdeal.Pay.pay3_apply, Cert.KernelIdeal.Pay.pay4_apply, Cert.KernelIdeal.Pay.pay9_apply, Cert.KernelIdeal.Pay.pay14_apply, Cert.KernelIdeal.Pay.pay19_apply, Cert.KernelIdeal.Pay.pay24_apply, Cert.KernelIdeal.Pay.pay25_apply, Cert.KernelIdeal.Pay.pay30_apply, Cert.KernelIdeal.Pay.pay35_apply, Cert.KernelIdeal.Pay.pay40_apply, Cert.KernelIdeal.Pay.pay45_apply, Cert.KernelIdeal.Pay.pay46_apply, Cert.KernelIdeal.Pay.pay51_apply, Cert.KernelIdeal.Pay.pay56_apply, Cert.KernelIdeal.Pay.pay61_apply, Cert.KernelIdeal.Pay.pay66_apply, Cert.KernelIdeal.Pay.pay67_apply, Cert.KernelIdeal.Pay.pay72_apply, Cert.KernelIdeal.Pay.pay77_apply, Cert.KernelIdeal.Pay.pay82_apply]

/-- Part 12 at an entry, over the body's inputs: updates 55 to 59 in program order. -/
theorem acc_step12 (l : Fin 40) (q : Fin 200) (h : Fin 160) :
    (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)
      = gstep (Scalar.cmpi .ne (Scalar.extui (Scalar.andi (Scalar.cmpi .sge (wd x3 (k0_off15 i) (k0_off15_inb i)) 768#32) (Scalar.cmpi .slt (wd x2 (k0_off15 i) (k0_off15_inb i)) 1024#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 768#32 (tb x11 768 inb_S1024x160_S256x160_768_0) h)
      (gstep (Scalar.cmpi .ne (Scalar.extui (Scalar.andi (Scalar.cmpi .sge (wd x3 (k0_off15 i) (k0_off15_inb i)) 512#32) (Scalar.cmpi .slt (wd x2 (k0_off15 i) (k0_off15_inb i)) 768#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 512#32 (tb x11 512 inb_S1024x160_S256x160_512_0) h)
      (gstep (Scalar.cmpi .ne (Scalar.extui (Scalar.andi (Scalar.cmpi .sge (wd x3 (k0_off15 i) (k0_off15_inb i)) 256#32) (Scalar.cmpi .slt (wd x2 (k0_off15 i) (k0_off15_inb i)) 512#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 256#32 (tb x11 256 inb_S1024x160_S256x160_256_0) h)
      (gstep (Scalar.cmpi .ne (Scalar.extui (Scalar.andi (Scalar.cmpi .sge (wd x3 (k0_off15 i) (k0_off15_inb i)) 0#32) (Scalar.cmpi .slt (wd x2 (k0_off15 i) (k0_off15_inb i)) 256#32))) 0#32 = 1#1 ∧ 100 ≤ q.val ∧ q.val < 100 + 50)
      (Cert.KernelIdeal.Pay.chunkSum (x7 (ix3 (0 : Fin 1) l (Cert.KernelIdeal.Pay.col 100 (⟨(q.val - 100) % 50, Nat.mod_lt _ (by decide)⟩ : Fin 50) (by omega)))) 0#32 (tb x11 0 inb_S1024x160_S256x160_0_0) h)
      (gstep (Scalar.cmpi .ne (Scalar.extui (Scalar.andi (Scalar.cmpi .sge (wd x3 (k0_off14 i) (k0_off14_inb i)) 768#32) (Scalar.cmpi .slt (wd x2 (k0_off14 i) (k0_off14_inb i)) 1024#32))) 0#32 = 1#1 ∧ 50 ≤ q.val ∧ q.val < 50 + 50)
      (Cert.KernelIdeal.Pay.chunkSum (x7 (ix3 (0 : Fin 1) l (Cert.KernelIdeal.Pay.col 50 (⟨(q.val - 50) % 50, Nat.mod_lt _ (by decide)⟩ : Fin 50) (by omega)))) 768#32 (tb x11 768 inb_S1024x160_S256x160_768_0) h)
      ((pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (ix3 l q h)))))) :=
  acc_step12_gen c i M2 h2 M3 h3 M4 h4 M5 h5 M6 h6 M7 h7 M8 h8 M9 h9 M10 h10 M11 h11 M12 h12 M13 h13 M14 h14 x2 x3 x4 x5 x6 x7 x8 x9 x10 x11 x12 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr10 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.1 (pr11 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2.2 (lanes1 c i M2 h2 M3 h3 M4 h4 M5 h5 M6 h6 M7 h7 M8 h8 M9 h9 M10 h10 M11 h11 M12 h12 M13 h13 M14 h14 x2 x3 x4 x5 x6 x7 x8 x9 x10 x11 x12) (val_10_1 c i M2 h2 M3 h3 M4 h4 M5 h5 M6 h6 M7 h7 M8 h8 M9 h9 M10 h10 M11 h11 M12 h12 M13 h13 M14 h14 x2 x3 x4 x5 x6 x7 x8 x9 x10 x11 x12) (val_11_1 c i M2 h2 M3 h3 M4 h4 M5 h5 M6 h6 M7 h7 M8 h8 M9 h9 M10 h10 M11 h11 M12 h12 M13 h13 M14 h14 x2 x3 x4 x5 x6 x7 x8 x9 x10 x11 x12) (val_11_2 c i M2 h2 M3 h3 M4 h4 M5 h5 M6 h6 M7 h7 M8 h8 M9 h9 M10 h10 M11 h11 M12 h12 M13 h13 M14 h14 x2 x3 x4 x5 x6 x7 x8 x9 x10 x11 x12) (val_11_3 c i M2 h2 M3 h3 M4 h4 M5 h5 M6 h6 M7 h7 M8 h8 M9 h9 M10 h10 M11 h11 M12 h12 M13 h13 M14 h14 x2 x3 x4 x5 x6 x7 x8 x9 x10 x11 x12) l q h

end Cert.KernelIdeal.Body

end
-- ==== Proof.AccRead13.lean ====
/-
  What the statements after the twelfth part call leave in the accumulator, read at an entry, and the pair they return.

  They load one bound word, make the last four guarded slice updates (each one conditional addition at an entry), and
  return the accumulator plus the bias (laid along the last axis) and the zero the maximum is taken with.
-/
import proofs.«408597_j16320875725026_3_alg».proof.Proof.StepsKernelIdeal
import proofs.«408597_j16320875725026_3_alg».proof.Proof.AccReadLib

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 4000000 in
/-- The accumulator entry the statements after the twelfth part leave: the last four guarded updates, in program order
    from the inside out. -/
theorem acc_part13 (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v406 : IVec S40x50 32) (v409 : Elt Ideal .i32) (hv4 : Cert.KernelIdeal.Pay.LaneNumbers v4)
    (l : Fin 40) (m' : Fin 200) (h : Fin 160) :
    (partRun13 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1.1 (ix3 l m' h)
      = Cert.KernelIdeal.Guard.gstep (Scalar.cmpi .ne (Scalar.extui (Scalar.andi (Scalar.cmpi .sge (wd x3 (k0_off16 i) (k0_off16_inb i)) 768#32) (Scalar.cmpi .slt v409 1024#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 768#32 (tb x11 768 inb_S1024x160_S256x160_768_0) h)
        (Cert.KernelIdeal.Guard.gstep (Scalar.cmpi .ne (Scalar.extui (Scalar.andi (Scalar.cmpi .sge (wd x3 (k0_off16 i) (k0_off16_inb i)) 512#32) (Scalar.cmpi .slt v409 768#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 512#32 (tb x11 512 inb_S1024x160_S256x160_512_0) h)
        (Cert.KernelIdeal.Guard.gstep (Scalar.cmpi .ne (Scalar.extui (Scalar.andi (Scalar.cmpi .sge (wd x3 (k0_off16 i) (k0_off16_inb i)) 256#32) (Scalar.cmpi .slt v409 512#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 256#32 (tb x11 256 inb_S1024x160_S256x160_256_0) h)
        (Cert.KernelIdeal.Guard.gstep (Scalar.cmpi .ne (Scalar.extui (Scalar.andi (Scalar.cmpi .sge (wd x3 (k0_off16 i) (k0_off16_inb i)) 0#32) (Scalar.cmpi .slt v409 256#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 0#32 (tb x11 0 inb_S1024x160_S256x160_0_0) h)
        (a14 (ix3 l m' h))))) := by
  unfold partRun13
  dsimp only
  show View.read (Elt Ideal) M14.view _ (ix3 l m' h) = _
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Guard.fold_guarded M14.view _ _ 150 (by omega) _ _
    (fun l mm h => Cert.KernelIdeal.Pay.chunkSum (v406 (ix2 l mm)) 768#32 (tb x11 768 inb_S1024x160_S256x160_768_0) h)
    (fun l mm h => Cert.KernelIdeal.Pay.pay86_apply v4 hv4 v406 _ _ l mm h)]
  rw [Cert.KernelIdeal.Guard.fold_guarded M14.view _ _ 150 (by omega) _ _
    (fun l mm h => Cert.KernelIdeal.Pay.chunkSum (v406 (ix2 l mm)) 512#32 (tb x11 512 inb_S1024x160_S256x160_512_0) h)
    (fun l mm h => Cert.KernelIdeal.Pay.pay85_apply v4 hv4 v406 _ _ l mm h)]
  rw [Cert.KernelIdeal.Guard.fold_guarded M14.view _ _ 150 (by omega) _ _
    (fun l mm h => Cert.KernelIdeal.Pay.chunkSum (v406 (ix2 l mm)) 256#32 (tb x11 256 inb_S1024x160_S256x160_256_0) h)
    (fun l mm h => Cert.KernelIdeal.Pay.pay84_apply v4 hv4 v406 _ _ l mm h)]
  rw [Cert.KernelIdeal.Guard.fold_guarded M14.view _ _ 150 (by omega) _ _
    (fun l mm h => Cert.KernelIdeal.Pay.chunkSum (v406 (ix2 l mm)) 0#32 (tb x11 0 inb_S1024x160_S256x160_0_0) h)
    (fun l mm h => Cert.KernelIdeal.Pay.pay83_apply v4 hv4 v406 _ _ l mm h)]
  rw [h14.read_unread]

set_option maxHeartbeats 4000000 in
/-- The first value they return, at an entry: that accumulator entry plus the bias. -/
theorem ret_part13_1_entry (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v406 : IVec S40x50 32) (v409 : Elt Ideal .i32) (hv4 : Cert.KernelIdeal.Pay.LaneNumbers v4)
    (l : Fin 40) (m' : Fin 200) (h : Fin 160) :
    (partRun13 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1.2.1 (ix3 l m' h)
      = Cert.KernelIdeal.Guard.gstep (Scalar.cmpi .ne (Scalar.extui (Scalar.andi (Scalar.cmpi .sge (wd x3 (k0_off16 i) (k0_off16_inb i)) 768#32) (Scalar.cmpi .slt v409 1024#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 768#32 (tb x11 768 inb_S1024x160_S256x160_768_0) h)
        (Cert.KernelIdeal.Guard.gstep (Scalar.cmpi .ne (Scalar.extui (Scalar.andi (Scalar.cmpi .sge (wd x3 (k0_off16 i) (k0_off16_inb i)) 512#32) (Scalar.cmpi .slt v409 768#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 512#32 (tb x11 512 inb_S1024x160_S256x160_512_0) h)
        (Cert.KernelIdeal.Guard.gstep (Scalar.cmpi .ne (Scalar.extui (Scalar.andi (Scalar.cmpi .sge (wd x3 (k0_off16 i) (k0_off16_inb i)) 256#32) (Scalar.cmpi .slt v409 512#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 256#32 (tb x11 256 inb_S1024x160_S256x160_256_0) h)
        (Cert.KernelIdeal.Guard.gstep (Scalar.cmpi .ne (Scalar.extui (Scalar.andi (Scalar.cmpi .sge (wd x3 (k0_off16 i) (k0_off16_inb i)) 0#32) (Scalar.cmpi .slt v409 256#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 0#32 (tb x11 0 inb_S1024x160_S256x160_0_0) h)
        (a14 (ix3 l m' h)))))
        + x12 (ix1 h) := by
  unfold partRun13
  dsimp only
  sl_unfold_run_names
  simp only [View.readAt_eq_ld, h2.read_unread, h3.read_unread, h4.read_unread, h5.read_unread, h6.read_unread, h7.read_unread, h8.read_unread, h9.read_unread, h10.read_unread, h11.read_unread, h12.read_unread]
  rw [Cert.KernelIdeal.Pay.pay87_apply]
  rw [View.ld_unit_zero (S := S40x200x160) (off := (![0, 0, 0] : Fin 3 → Nat))
    (funext fun a => match a with | ⟨0, _⟩ => rfl | ⟨1, _⟩ => rfl | ⟨2, _⟩ => rfl)]
  rw [View.ld_unit_zero (S := S160) (off := (![0] : Fin 1 → Nat)) (funext fun a => match a with | ⟨0, _⟩ => rfl)]
  rw [Cert.KernelIdeal.Guard.fold_guarded M14.view _ _ 150 (by omega) _ _
    (fun l mm h => Cert.KernelIdeal.Pay.chunkSum (v406 (ix2 l mm)) 768#32 (tb x11 768 inb_S1024x160_S256x160_768_0) h)
    (fun l mm h => Cert.KernelIdeal.Pay.pay86_apply v4 hv4 v406 _ _ l mm h)]
  rw [Cert.KernelIdeal.Guard.fold_guarded M14.view _ _ 150 (by omega) _ _
    (fun l mm h => Cert.KernelIdeal.Pay.chunkSum (v406 (ix2 l mm)) 512#32 (tb x11 512 inb_S1024x160_S256x160_512_0) h)
    (fun l mm h => Cert.KernelIdeal.Pay.pay85_apply v4 hv4 v406 _ _ l mm h)]
  rw [Cert.KernelIdeal.Guard.fold_guarded M14.view _ _ 150 (by omega) _ _
    (fun l mm h => Cert.KernelIdeal.Pay.chunkSum (v406 (ix2 l mm)) 256#32 (tb x11 256 inb_S1024x160_S256x160_256_0) h)
    (fun l mm h => Cert.KernelIdeal.Pay.pay84_apply v4 hv4 v406 _ _ l mm h)]
  rw [Cert.KernelIdeal.Guard.fold_guarded M14.view _ _ 150 (by omega) _ _
    (fun l mm h => Cert.KernelIdeal.Pay.chunkSum (v406 (ix2 l mm)) 0#32 (tb x11 0 inb_S1024x160_S256x160_0_0) h)
    (fun l mm h => Cert.KernelIdeal.Pay.pay83_apply v4 hv4 v406 _ _ l mm h)]
  rw [h14.read_unread]

/-- The second value they return is zero at every entry. -/
theorem ret_part13_2_entry (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v406 : IVec S40x50 32) (v409 : Elt Ideal .i32) (j : S40x200x160.Idx) :
    (partRun13 (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1.2.2 j = 0 := by
  unfold partRun13
  dsimp only
  all_goals try sl_unfold_run_names
  exact Cert.KernelIdeal.Pay.pay88_apply j

end Cert.KernelIdeal.Body

end
-- ==== Proof.FinishRead.lean ====
/-
  The kernel body's result piece at an entry.

  The body ends by storing, over the whole result block, the maximum of the two values the statements after the twelfth
  part return: the accumulator plus the bias, and zero. Read at entry (0, l, m', h), the one whole piece is that maximum
  at (l, m', h); stated over any accumulator on entry and any handed-on values.
-/
import proofs.«408597_j16320875725026_3_alg».proof.Proof.FinishKernelIdeal
import proofs.«408597_j16320875725026_3_alg».proof.Proof.AccRead13

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 4000000 in
/-- THE RESULT PIECE AT AN ENTRY, over variables: the maximum with zero of the accumulator entry after the last four
    guarded updates plus the bias. -/
theorem canon_finish (c : Dev nD) (i : grid0.Coords)
    (M2 : Memref sig .tc .smem S80x4 .i32) (h2 : M2.IsWhole) (M3 : Memref sig .tc .smem S80x4 .i32) (h3 : M3.IsWhole) (M4 : Memref sig .tc .vmem S1x40x200 .i32) (h4 : M4.IsWhole) (M5 : Memref sig .tc .vmem S1x40x200 .i32) (h5 : M5.IsWhole) (M6 : Memref sig .tc .vmem S1x40x200 .i32) (h6 : M6.IsWhole) (M7 : Memref sig .tc .vmem S1x40x200 .i32) (h7 : M7.IsWhole) (M8 : Memref sig .tc .vmem S1024x160 .f32) (h8 : M8.IsWhole) (M9 : Memref sig .tc .vmem S1024x160 .f32) (h9 : M9.IsWhole) (M10 : Memref sig .tc .vmem S1024x160 .f32) (h10 : M10.IsWhole) (M11 : Memref sig .tc .vmem S1024x160 .f32) (h11 : M11.IsWhole) (M12 : Memref sig .tc .vmem S160 .f32) (h12 : M12.IsWhole) (M13 : Memref sig .tc .vmem S1x40x200x160 .f32) (h13 : M13.IsWhole) (M14 : Memref sig .tc .vmem S40x200x160 .f32) (h14 : M14.IsWhole)
    (x2 : Vec Ideal S80x4 .i32) (x3 : Vec Ideal S80x4 .i32) (x4 : Vec Ideal S1x40x200 .i32) (x5 : Vec Ideal S1x40x200 .i32) (x6 : Vec Ideal S1x40x200 .i32) (x7 : Vec Ideal S1x40x200 .i32) (x8 : Vec Ideal S1024x160 .f32) (x9 : Vec Ideal S1024x160 .f32) (x10 : Vec Ideal S1024x160 .f32) (x11 : Vec Ideal S1024x160 .f32) (x12 : Vec Ideal S160 .f32) (a14 : Vec Ideal S40x200x160 .f32)
    (v4 : IVec S40x50x256 32) (v406 : IVec S40x50 32) (v409 : Elt Ideal .i32) (hv4 : Cert.KernelIdeal.Pay.LaneNumbers v4)
    (l : Fin 40) (m' : Fin 200) (h : Fin 160) :
    View.canon (finishRun (F := Ideal) c i M2 h2 M3 h3 M4 h4 M5 h5 M6 h6 M7 h7 M8 h8 M9 h9 M10 h10 M11 h11 M12 h12 M13 h13 M14 h14 x2 x3 x4 x5 x6 x7 x8 x9 x10 x11 x12 a14 v4 v406 v409).1 (ix4 (0 : Fin 1) l m' h)
      = max (Cert.KernelIdeal.Guard.gstep (Scalar.cmpi .ne (Scalar.extui (Scalar.andi (Scalar.cmpi .sge (wd x3 (k0_off16 i) (k0_off16_inb i)) 768#32) (Scalar.cmpi .slt v409 1024#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 768#32 (tb x11 768 inb_S1024x160_S256x160_768_0) h)
        (Cert.KernelIdeal.Guard.gstep (Scalar.cmpi .ne (Scalar.extui (Scalar.andi (Scalar.cmpi .sge (wd x3 (k0_off16 i) (k0_off16_inb i)) 512#32) (Scalar.cmpi .slt v409 768#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 512#32 (tb x11 512 inb_S1024x160_S256x160_512_0) h)
        (Cert.KernelIdeal.Guard.gstep (Scalar.cmpi .ne (Scalar.extui (Scalar.andi (Scalar.cmpi .sge (wd x3 (k0_off16 i) (k0_off16_inb i)) 256#32) (Scalar.cmpi .slt v409 512#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 256#32 (tb x11 256 inb_S1024x160_S256x160_256_0) h)
        (Cert.KernelIdeal.Guard.gstep (Scalar.cmpi .ne (Scalar.extui (Scalar.andi (Scalar.cmpi .sge (wd x3 (k0_off16 i) (k0_off16_inb i)) 0#32) (Scalar.cmpi .slt v409 256#32))) 0#32 = 1#1 ∧ 150 ≤ m'.val ∧ m'.val < 150 + 50)
        (Cert.KernelIdeal.Pay.chunkSum (v406 (ix2 l (⟨(m'.val - 150) % 50, Nat.mod_lt _ (by decide)⟩ : Fin 50))) 0#32 (tb x11 0 inb_S1024x160_S256x160_0_0) h)
        (a14 (ix3 l m' h)))))
          + x12 (ix1 h)) 0 := by
  unfold finishRun
  dsimp only
  rw [View.canon_unit_zero (S := S1x40x200x160) (off := (![0, 0, 0, 0] : Fin 4 → Nat))
    (funext fun a => match a with | ⟨0, _⟩ => rfl | ⟨1, _⟩ => rfl | ⟨2, _⟩ => rfl | ⟨3, _⟩ => rfl)]
  rw [Cert.KernelIdeal.Pay.pay1_apply]
  rw [ret_part13_1_entry c i M2 h2 M3 h3 M4 h4 M5 h5 M6 h6 M7 h7 M8 h8 M9 h9 M10 h10 M11 h11 M12 h12 M13 h13 M14 h14 x2 x3 x4 x5 x6 x7 x8 x9 x10 x11 x12 a14 v4 v406 v409 hv4 l m' h,
    ret_part13_2_entry c i M2 h2 M3 h3 M4 h4 M5 h5 M6 h6 M7 h7 M8 h8 M9 h9 M10 h10 M11 h11 M12 h12 M13 h13 M14 h14 x2 x3 x4 x5 x6 x7 x8 x9 x10 x11 x12 a14 v4 v406 v409 (ix3 l m' h)]

end Cert.KernelIdeal.Body

end
-- ==== Proof.ValueChain.lean ====
/-
  The kernel body's result at an entry is the specification's value.

  The twelve printed parts, each read at an entry as its guarded updates over the entry the part before left, chain into
  fifteen groups of four over a zero accumulator; the body's last statements add the sixteenth group, the bias and the
  maximum with zero. At the pipeline's operands (the bound tables as the region finds them, the windows' blocks) that is
  the hypothesis of the passage from the sixteen groups to the specification's value.
-/
import proofs.«408597_j16320875725026_3_alg».proof.Proof.ValueInner
import proofs.«408597_j16320875725026_3_alg».proof.Proof.ChainVals
import proofs.«408597_j16320875725026_3_alg».proof.Proof.FinishRead

set_option maxRecDepth 4096

noncomputable section

namespace Cert.KernelIdeal.Body

open Cert.KernelIdeal Cert.KernelIdeal.Gen

open Idealize.ShloMosaic Idealize.ShloMosaic.ValueIdx
open Idealize.ShloMosaic.TcCoe Idealize.ShloMosaic.Tactic
open Cert.KernelIdeal.Guard

variable (c : Dev nD) (i : grid0.Coords)
  (M2 : Memref sig .tc .smem S80x4 .i32) (h2 : M2.IsWhole) (M3 : Memref sig .tc .smem S80x4 .i32) (h3 : M3.IsWhole)
  (M4 : Memref sig .tc .vmem S1x40x200 .i32) (h4 : M4.IsWhole) (M5 : Memref sig .tc .vmem S1x40x200 .i32) (h5 : M5.IsWhole)
  (M6 : Memref sig .tc .vmem S1x40x200 .i32) (h6 : M6.IsWhole) (M7 : Memref sig .tc .vmem S1x40x200 .i32) (h7 : M7.IsWhole)
  (M8 : Memref sig .tc .vmem S1024x160 .f32) (h8 : M8.IsWhole) (M9 : Memref sig .tc .vmem S1024x160 .f32) (h9 : M9.IsWhole)
  (M10 : Memref sig .tc .vmem S1024x160 .f32) (h10 : M10.IsWhole) (M11 : Memref sig .tc .vmem S1024x160 .f32) (h11 : M11.IsWhole)
  (M12 : Memref sig .tc .vmem S160 .f32) (h12 : M12.IsWhole) (M13 : Memref sig .tc .vmem S1x40x200x160 .f32) (h13 : M13.IsWhole)
  (M14 : Memref sig .tc .vmem S40x200x160 .f32) (h14 : M14.IsWhole)
  (x2 : Vec Ideal S80x4 .i32) (x3 : Vec Ideal S80x4 .i32) (x4 : Vec Ideal S1x40x200 .i32) (x5 : Vec Ideal S1x40x200 .i32)
  (x6 : Vec Ideal S1x40x200 .i32) (x7 : Vec Ideal S1x40x200 .i32) (x8 : Vec Ideal S1024x160 .f32) (x9 : Vec Ideal S1024x160 .f32)
  (x10 : Vec Ideal S1024x160 .f32) (x11 : Vec Ideal S1024x160 .f32) (x12 : Vec Ideal S160 .f32)

set_option maxHeartbeats 4000000 in
/-- THE TWELVE PRINTED PARTS AT AN ENTRY: fifteen groups in program order over a zero accumulator. -/
theorem acc12_entry (l : Fin 40) (q : Fin 200) (h : Fin 160) :
    (pr12 (F := Ideal) c i M2 h2 M3 h3 M4 h4 M5 h5 M6 h6 M7 h7 M8 h8 M9 h9 M10 h10 M11 h11 M12 h12 M13 h13 M14 h14
        x2 x3 x4 x5 x6 x7 x8 x9 x10 x11 x12).1.1 (ix3 l q h)
      = tblUpd (wd x3 (k0_off15 i) (k0_off15_inb i)) (wd x2 (k0_off15 i) (k0_off15_inb i)) 100 (by omega) x7 x11 l q h
          (tblUpd (wd x3 (k0_off14 i) (k0_off14_inb i)) (wd x2 (k0_off14 i) (k0_off14_inb i)) 50 (by omega) x7 x11 l q h
          (tblUpd (wd x3 (k0_off13 i) (k0_off13_inb i)) (wd x2 (k0_off13 i) (k0_off13_inb i)) 0 (by omega) x7 x11 l q h
          (tblUpd (wd x3 (k0_off12 i) (k0_off12_inb i)) (wd x2 (k0_off12 i) (k0_off12_inb i)) 150 (by omega) x6 x10 l q h
          (tblUpd (wd x3 (k0_off11 i) (k0_off11_inb i)) (wd x2 (k0_off11 i) (k0_off11_inb i)) 100 (by omega) x6 x10 l q h
          (tblUpd (wd x3 (k0_off10 i) (k0_off10_inb i)) (wd x2 (k0_off10 i) (k0_off10_inb i)) 50 (by omega) x6 x10 l q h
          (tblUpd (wd x3 (k0_off9 i) (k0_off9_inb i)) (wd x2 (k0_off9 i) (k0_off9_inb i)) 0 (by omega) x6 x10 l q h
          (tblUpd (wd x3 (k0_off8 i) (k0_off8_inb i)) (wd x2 (k0_off8 i) (k0_off8_inb i)) 150 (by omega) x5 x9 l q h
          (tblUpd (wd x3 (k0_off7 i) (k0_off7_inb i)) (wd x2 (k0_off7 i) (k0_off7_inb i)) 100 (by omega) x5 x9 l q h
          (tblUpd (wd x3 (k0_off6 i) (k0_off6_inb i)) (wd x2 (k0_off6 i) (k0_off6_inb i)) 50 (by omega) x5 x9 l q h
          (tblUpd (wd x3 (k0_off5 i) (k0_off5_inb i)) (wd x2 (k0_off5 i) (k0_off5_inb i)) 0 (by omega) x5 x9 l q h
          (tblUpd (wd x3 (k0_off4 i) (k0_off4_inb i)) (wd x2 (k0_off4 i) (k0_off4_inb i)) 150 (by omega) x4 x8 l q h
          (tblUpd (wd x3 (k0_off3 i) (k0_off3_inb i)) (wd x2 (k0_off3 i) (k0_off3_inb i)) 100 (by omega) x4 x8 l q h
          (tblUpd (wd x3 (k0_off2 i) (k0_off2_inb i)) (wd x2 (k0_off2 i) (k0_off2_inb i)) 50 (by omega) x4 x8 l q h
          (tblUpd (wd x3 (k0_off1 i) (k0_off1_inb i)) (wd x2 (k0_off1 i) (k0_off1_inb i)) 0 (by omega) x4 x8 l q h
            0)))))))))))))) := by
  rw [acc_step12 c i M2 h2 M3 h3 M4 h4 M5 h5 M6 h6 M7 h7 M8 h8 M9 h9 M10 h10 M11 h11 M12 h12 M13 h13 M14 h14 x2 x3 x4 x5 x6 x7 x8 x9 x10 x11 x12 l q h,
    acc_step11 c i M2 h2 M3 h3 M4 h4 M5 h5 M6 h6 M7 h7 M8 h8 M9 h9 M10 h10 M11 h11 M12 h12 M13 h13 M14 h14 x2 x3 x4 x5 x6 x7 x8 x9 x10 x11 x12 l q h,
    acc_step10 c i M2 h2 M3 h3 M4 h4 M5 h5 M6 h6 M7 h7 M8 h8 M9 h9 M10 h10 M11 h11 M12 h12 M13 h13 M14 h14 x2 x3 x4 x5 x6 x7 x8 x9 x10 x11 x12 l q h,
    acc_step9 c i M2 h2 M3 h3 M4 h4 M5 h5 M6 h6 M7 h7 M8 h8 M9 h9 M10 h10 M11 h11 M12 h12 M13 h13 M14 h14 x2 x3 x4 x5 x6 x7 x8 x9 x10 x11 x12 l q h,
    acc_step8 c i M2 h2 M3 h3 M4 h4 M5 h5 M6 h6 M7 h7 M8 h8 M9 h9 M10 h10 M11 h11 M12 h12 M13 h13 M14 h14 x2 x3 x4 x5 x6 x7 x8 x9 x10 x11 x12 l q h,
    acc_step7 c i M2 h2 M3 h3 M4 h4 M5 h5 M6 h6 M7 h7 M8 h8 M9 h9 M10 h10 M11 h11 M12 h12 M13 h13 M14 h14 x2 x3 x4 x5 x6 x7 x8 x9 x10 x11 x12 l q h,
    acc_step6 c i M2 h2 M3 h3 M4 h4 M5 h5 M6 h6 M7 h7 M8 h8 M9 h9 M10 h10 M11 h11 M12 h12 M13 h13 M14 h14 x2 x3 x4 x5 x6 x7 x8 x9 x10 x11 x12 l q h,
    acc_step5 c i M2 h2 M3 h3 M4 h4 M5 h5 M6 h6 M7 h7 M8 h8 M9 h9 M10 h10 M11 h11 M12 h12 M13 h13 M14 h14 x2 x3 x4 x5 x6 x7 x8 x9 x10 x11 x12 l q h,
    acc_step4 c i M2 h2 M3 h3 M4 h4 M5 h5 M6 h6 M7 h7 M8 h8 M9 h9 M10 h10 M11 h11 M12 h12 M13 h13 M14 h14 x2 x3 x4 x5 x6 x7 x8 x9 x10 x11 x12 l q h,
    acc_step3 c i M2 h2 M3 h3 M4 h4 M5 h5 M6 h6 M7 h7 M8 h8 M9 h9 M10 h10 M11 h11 M12 h12 M13 h13 M14 h14 x2 x3 x4 x5 x6 x7 x8 x9 x10 x11 x12 l q h,
    acc_step2 c i M2 h2 M3 h3 M4 h4 M5 h5 M6 h6 M7 h7 M8 h8 M9 h9 M10 h10 M11 h11 M12 h12 M13 h13 M14 h14 x2 x3 x4 x5 x6 x7 x8 x9 x10 x11 x12 l q h,
    acc_step1 c i M2 h2 M3 h3 M4 h4 M5 h5 M6 h6 M7 h7 M8 h8 M9 h9 M10 h10 M11 h11 M12 h12 M13 h13 M14 h14 x2 x3 x4 x5 x6 x7 x8 x9 x10 x11 x12 l q h]

set_option maxHeartbeats 4000000 in
/-- The body's last statements at an entry, over any accumulator on entry: the sixteenth group over it, the bias added,
    the maximum with zero taken. -/
theorem finish_entry (a14 : Vec Ideal S40x200x160 .f32) (v4 : IVec S40x50x256 32) (hv4 : Cert.KernelIdeal.Pay.LaneNumbers v4)
    (v406 : IVec S40x50 32) (v409 : Elt Ideal .i32) (h406 : v406 = k0_pay82 (k0_pay66 (F := Ideal) x7))
    (h409 : v409 = wd x2 (k0_off16 i) (k0_off16_inb i)) (l : Fin 40) (q : Fin 200) (h : Fin 160) :
    View.canon (finishRun (F := Ideal) c i M2 h2 M3 h3 M4 h4 M5 h5 M6 h6 M7 h7 M8 h8 M9 h9 M10 h10 M11 h11 M12 h12 M13 h13 M14 h14
        x2 x3 x4 x5 x6 x7 x8 x9 x10 x11 x12 a14 v4 v406 v409).1 (ix4 (0 : Fin 1) l q h)
      = max (tblUpd (wd x3 (k0_off16 i) (k0_off16_inb i)) (wd x2 (k0_off16 i) (k0_off16_inb i)) 150 (by omega) x7 x11 l q h
          (a14 (ix3 l q h)) + x12 (ix1 h)) 0 := by
  subst h406 h409
  rw [canon_finish (hv4 := hv4)]
  simp only [Cert.KernelIdeal.Pay.pay82_apply, Cert.KernelIdeal.Pay.pay66_apply]

set_option maxHeartbeats 4000000 in
/-- The body's last statements run from what the twelve parts leave and hand on: the sixteen groups in program order
    over a zero accumulator, the bias added, the maximum with zero taken. -/
theorem finish_chain (l : Fin 40) (q : Fin 200) (h : Fin 160) :
    View.canon (finishRun (F := Ideal) c i M2 h2 M3 h3 M4 h4 M5 h5 M6 h6 M7 h7 M8 h8 M9 h9 M10 h10 M11 h11 M12 h12 M13 h13 M14 h14 x2 x3 x4 x5 x6 x7 x8 x9 x10 x11 x12
        (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1
        (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1
        (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1
        (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2).1 (ix4 (0 : Fin 1) l q h)
      = max (tblUpd (wd x3 (k0_off16 i) (k0_off16_inb i)) (wd x2 (k0_off16 i) (k0_off16_inb i)) 150 (by omega) x7 x11 l q h
          (tblUpd (wd x3 (k0_off15 i) (k0_off15_inb i)) (wd x2 (k0_off15 i) (k0_off15_inb i)) 100 (by omega) x7 x11 l q h
          (tblUpd (wd x3 (k0_off14 i) (k0_off14_inb i)) (wd x2 (k0_off14 i) (k0_off14_inb i)) 50 (by omega) x7 x11 l q h
          (tblUpd (wd x3 (k0_off13 i) (k0_off13_inb i)) (wd x2 (k0_off13 i) (k0_off13_inb i)) 0 (by omega) x7 x11 l q h
          (tblUpd (wd x3 (k0_off12 i) (k0_off12_inb i)) (wd x2 (k0_off12 i) (k0_off12_inb i)) 150 (by omega) x6 x10 l q h
          (tblUpd (wd x3 (k0_off11 i) (k0_off11_inb i)) (wd x2 (k0_off11 i) (k0_off11_inb i)) 100 (by omega) x6 x10 l q h
          (tblUpd (wd x3 (k0_off10 i) (k0_off10_inb i)) (wd x2 (k0_off10 i) (k0_off10_inb i)) 50 (by omega) x6 x10 l q h
          (tblUpd (wd x3 (k0_off9 i) (k0_off9_inb i)) (wd x2 (k0_off9 i) (k0_off9_inb i)) 0 (by omega) x6 x10 l q h
          (tblUpd (wd x3 (k0_off8 i) (k0_off8_inb i)) (wd x2 (k0_off8 i) (k0_off8_inb i)) 150 (by omega) x5 x9 l q h
          (tblUpd (wd x3 (k0_off7 i) (k0_off7_inb i)) (wd x2 (k0_off7 i) (k0_off7_inb i)) 100 (by omega) x5 x9 l q h
          (tblUpd (wd x3 (k0_off6 i) (k0_off6_inb i)) (wd x2 (k0_off6 i) (k0_off6_inb i)) 50 (by omega) x5 x9 l q h
          (tblUpd (wd x3 (k0_off5 i) (k0_off5_inb i)) (wd x2 (k0_off5 i) (k0_off5_inb i)) 0 (by omega) x5 x9 l q h
          (tblUpd (wd x3 (k0_off4 i) (k0_off4_inb i)) (wd x2 (k0_off4 i) (k0_off4_inb i)) 150 (by omega) x4 x8 l q h
          (tblUpd (wd x3 (k0_off3 i) (k0_off3_inb i)) (wd x2 (k0_off3 i) (k0_off3_inb i)) 100 (by omega) x4 x8 l q h
          (tblUpd (wd x3 (k0_off2 i) (k0_off2_inb i)) (wd x2 (k0_off2 i) (k0_off2_inb i)) 50 (by omega) x4 x8 l q h
          (tblUpd (wd x3 (k0_off1 i) (k0_off1_inb i)) (wd x2 (k0_off1 i) (k0_off1_inb i)) 0 (by omega) x4 x8 l q h
            0)))))))))))))))
          + x12 (ix1 h)) 0 :=
  (finish_entry c i M2 h2 M3 h3 M4 h4 M5 h5 M6 h6 M7 h7 M8 h8 M9 h9 M10 h10 M11 h11 M12 h12 M13 h13 M14 h14 x2 x3 x4 x5 x6 x7 x8 x9 x10 x11 x12
      (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.1
      (pr1 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1
      (lanes1 c i M2 h2 M3 h3 M4 h4 M5 h5 M6 h6 M7 h7 M8 h8 M9 h9 M10 h10 M11 h11 M12 h12 M13 h13 M14 h14 x2 x3 x4 x5 x6 x7 x8 x9 x10 x11 x12)
      (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.1
      (pr12 (F := Ideal) c i M2 h2 M3 h3 M4 h4 M5 h5 M6 h6 M7 h7 M8 h8 M9 h9 M10 h10 M11 h11 M12 h12 M13 h13 M14 h14 x2 x3 x4 x5 x6 x7 x8 x9 x10 x11 x12).1.2.2
      (val_12_1 c i M2 h2 M3 h3 M4 h4 M5 h5 M6 h6 M7 h7 M8 h8 M9 h9 M10 h10 M11 h11 M12 h12 M13 h13 M14 h14 x2 x3 x4 x5 x6 x7 x8 x9 x10 x11 x12)
      (val_12_2 c i M2 h2 M3 h3 M4 h4 M5 h5 M6 h6 M7 h7 M8 h8 M9 h9 M10 h10 M11 h11 M12 h12 M13 h13 M14 h14 x2 x3 x4 x5 x6 x7 x8 x9 x10 x11 x12) l q h).trans
    (congrArg (fun a : EReal => max (tblUpd (wd x3 (k0_off16 i) (k0_off16_inb i)) (wd x2 (k0_off16 i) (k0_off16_inb i)) 150 (by omega)
        x7 x11 l q h a + x12 (ix1 h)) 0)
      (acc12_entry c i M2 h2 M3 h3 M4 h4 M5 h5 M6 h6 M7 h7 M8 h8 M9 h9 M10 h10 M11 h11 M12 h12 M13 h13 M14 h14 x2 x3 x4 x5 x6 x7 x8 x9 x10 x11 x12 l q h))

set_option maxHeartbeats 4000000 in
/-- THE BODY'S PIECE AT AN ENTRY: the sixteen groups in program order over a zero accumulator, the bias added, the maximum
    with zero taken. -/
theorem kernel_entry (l : Fin 40) (q : Fin 200) (h : Fin 160) :
    View.canon (kernelRun (F := Ideal) c i M2 h2 M3 h3 M4 h4 M5 h5 M6 h6 M7 h7 M8 h8 M9 h9 M10 h10 M11 h11 M12 h12 M13 h13 M14 h14
        x2 x3 x4 x5 x6 x7 x8 x9 x10 x11 x12).1 (ix4 (0 : Fin 1) l q h)
      = max (tblUpd (wd x3 (k0_off16 i) (k0_off16_inb i)) (wd x2 (k0_off16 i) (k0_off16_inb i)) 150 (by omega) x7 x11 l q h
          (tblUpd (wd x3 (k0_off15 i) (k0_off15_inb i)) (wd x2 (k0_off15 i) (k0_off15_inb i)) 100 (by omega) x7 x11 l q h
          (tblUpd (wd x3 (k0_off14 i) (k0_off14_inb i)) (wd x2 (k0_off14 i) (k0_off14_inb i)) 50 (by omega) x7 x11 l q h
          (tblUpd (wd x3 (k0_off13 i) (k0_off13_inb i)) (wd x2 (k0_off13 i) (k0_off13_inb i)) 0 (by omega) x7 x11 l q h
          (tblUpd (wd x3 (k0_off12 i) (k0_off12_inb i)) (wd x2 (k0_off12 i) (k0_off12_inb i)) 150 (by omega) x6 x10 l q h
          (tblUpd (wd x3 (k0_off11 i) (k0_off11_inb i)) (wd x2 (k0_off11 i) (k0_off11_inb i)) 100 (by omega) x6 x10 l q h
          (tblUpd (wd x3 (k0_off10 i) (k0_off10_inb i)) (wd x2 (k0_off10 i) (k0_off10_inb i)) 50 (by omega) x6 x10 l q h
          (tblUpd (wd x3 (k0_off9 i) (k0_off9_inb i)) (wd x2 (k0_off9 i) (k0_off9_inb i)) 0 (by omega) x6 x10 l q h
          (tblUpd (wd x3 (k0_off8 i) (k0_off8_inb i)) (wd x2 (k0_off8 i) (k0_off8_inb i)) 150 (by omega) x5 x9 l q h
          (tblUpd (wd x3 (k0_off7 i) (k0_off7_inb i)) (wd x2 (k0_off7 i) (k0_off7_inb i)) 100 (by omega) x5 x9 l q h
          (tblUpd (wd x3 (k0_off6 i) (k0_off6_inb i)) (wd x2 (k0_off6 i) (k0_off6_inb i)) 50 (by omega) x5 x9 l q h
          (tblUpd (wd x3 (k0_off5 i) (k0_off5_inb i)) (wd x2 (k0_off5 i) (k0_off5_inb i)) 0 (by omega) x5 x9 l q h
          (tblUpd (wd x3 (k0_off4 i) (k0_off4_inb i)) (wd x2 (k0_off4 i) (k0_off4_inb i)) 150 (by omega) x4 x8 l q h
          (tblUpd (wd x3 (k0_off3 i) (k0_off3_inb i)) (wd x2 (k0_off3 i) (k0_off3_inb i)) 100 (by omega) x4 x8 l q h
          (tblUpd (wd x3 (k0_off2 i) (k0_off2_inb i)) (wd x2 (k0_off2 i) (k0_off2_inb i)) 50 (by omega) x4 x8 l q h
          (tblUpd (wd x3 (k0_off1 i) (k0_off1_inb i)) (wd x2 (k0_off1 i) (k0_off1_inb i)) 0 (by omega) x4 x8 l q h
            0)))))))))))))))
          + x12 (ix1 h)) 0 :=
  finish_chain c i M2 h2 M3 h3 M4 h4 M5 h5 M6 h6 M7 h7 M8 h8 M9 h9 M10 h10 M11 h11 M12 h12 M13 h13 M14 h14 x2 x3 x4 x5 x6 x7 x8 x9 x10 x11 x12 l q h

end Cert.KernelIdeal.Body

namespace Cert.KernelIdeal.Frm

open Cert.KernelIdeal Cert.KernelIdeal.Gen Cert.KernelIdeal.GenP Cert.KernelIdeal.Body

open Idealize.ShloMosaic Idealize.ShloMosaic.TcCoe Idealize.ShloMosaic.ValueIdx
open Idealize.SL.Sem

variable (mI : (ℓ : Loc nD τ sig) → Buf (Elt Ideal) ℓ)

set_option maxHeartbeats 8000000 in
/-- The passage from the sixteen groups to the specification's value, with the two bound tables as variables equal to the
    tables the region finds. -/
theorem hent_aux (t : Fin (cfgA mI).N) (l : Fin 40) (q : Fin 200) (h : Fin 160) (x2 x3 : Vec Ideal S80x4 .i32)
    (e2 : x2 = V mI 0 main_v62) (e3 : x3 = V mI 0 main_v63)
    (hK : View.canon (K mI 0 t).1 (ix4 (0 : Fin 1) l q h)
      = max (tblUpd (wd x3 (k0_off16 ((cfgA mI).grid.coords t)) (k0_off16_inb ((cfgA mI).grid.coords t))) (wd x2 (k0_off16 ((cfgA mI).grid.coords t)) (k0_off16_inb ((cfgA mI).grid.coords t))) 150 (by omega) (iblk mI 0 (3 : Fin 10) t) (iblk mI 0 (7 : Fin 10) t) l q h
          (tblUpd (wd x3 (k0_off15 ((cfgA mI).grid.coords t)) (k0_off15_inb ((cfgA mI).grid.coords t))) (wd x2 (k0_off15 ((cfgA mI).grid.coords t)) (k0_off15_inb ((cfgA mI).grid.coords t))) 100 (by omega) (iblk mI 0 (3 : Fin 10) t) (iblk mI 0 (7 : Fin 10) t) l q h
          (tblUpd (wd x3 (k0_off14 ((cfgA mI).grid.coords t)) (k0_off14_inb ((cfgA mI).grid.coords t))) (wd x2 (k0_off14 ((cfgA mI).grid.coords t)) (k0_off14_inb ((cfgA mI).grid.coords t))) 50 (by omega) (iblk mI 0 (3 : Fin 10) t) (iblk mI 0 (7 : Fin 10) t) l q h
          (tblUpd (wd x3 (k0_off13 ((cfgA mI).grid.coords t)) (k0_off13_inb ((cfgA mI).grid.coords t))) (wd x2 (k0_off13 ((cfgA mI).grid.coords t)) (k0_off13_inb ((cfgA mI).grid.coords t))) 0 (by omega) (iblk mI 0 (3 : Fin 10) t) (iblk mI 0 (7 : Fin 10) t) l q h
          (tblUpd (wd x3 (k0_off12 ((cfgA mI).grid.coords t)) (k0_off12_inb ((cfgA mI).grid.coords t))) (wd x2 (k0_off12 ((cfgA mI).grid.coords t)) (k0_off12_inb ((cfgA mI).grid.coords t))) 150 (by omega) (iblk mI 0 (2 : Fin 10) t) (iblk mI 0 (6 : Fin 10) t) l q h
          (tblUpd (wd x3 (k0_off11 ((cfgA mI).grid.coords t)) (k0_off11_inb ((cfgA mI).grid.coords t))) (wd x2 (k0_off11 ((cfgA mI).grid.coords t)) (k0_off11_inb ((cfgA mI).grid.coords t))) 100 (by omega) (iblk mI 0 (2 : Fin 10) t) (iblk mI 0 (6 : Fin 10) t) l q h
          (tblUpd (wd x3 (k0_off10 ((cfgA mI).grid.coords t)) (k0_off10_inb ((cfgA mI).grid.coords t))) (wd x2 (k0_off10 ((cfgA mI).grid.coords t)) (k0_off10_inb ((cfgA mI).grid.coords t))) 50 (by omega) (iblk mI 0 (2 : Fin 10) t) (iblk mI 0 (6 : Fin 10) t) l q h
          (tblUpd (wd x3 (k0_off9 ((cfgA mI).grid.coords t)) (k0_off9_inb ((cfgA mI).grid.coords t))) (wd x2 (k0_off9 ((cfgA mI).grid.coords t)) (k0_off9_inb ((cfgA mI).grid.coords t))) 0 (by omega) (iblk mI 0 (2 : Fin 10) t) (iblk mI 0 (6 : Fin 10) t) l q h
          (tblUpd (wd x3 (k0_off8 ((cfgA mI).grid.coords t)) (k0_off8_inb ((cfgA mI).grid.coords t))) (wd x2 (k0_off8 ((cfgA mI).grid.coords t)) (k0_off8_inb ((cfgA mI).grid.coords t))) 150 (by omega) (iblk mI 0 (1 : Fin 10) t) (iblk mI 0 (5 : Fin 10) t) l q h
          (tblUpd (wd x3 (k0_off7 ((cfgA mI).grid.coords t)) (k0_off7_inb ((cfgA mI).grid.coords t))) (wd x2 (k0_off7 ((cfgA mI).grid.coords t)) (k0_off7_inb ((cfgA mI).grid.coords t))) 100 (by omega) (iblk mI 0 (1 : Fin 10) t) (iblk mI 0 (5 : Fin 10) t) l q h
          (tblUpd (wd x3 (k0_off6 ((cfgA mI).grid.coords t)) (k0_off6_inb ((cfgA mI).grid.coords t))) (wd x2 (k0_off6 ((cfgA mI).grid.coords t)) (k0_off6_inb ((cfgA mI).grid.coords t))) 50 (by omega) (iblk mI 0 (1 : Fin 10) t) (iblk mI 0 (5 : Fin 10) t) l q h
          (tblUpd (wd x3 (k0_off5 ((cfgA mI).grid.coords t)) (k0_off5_inb ((cfgA mI).grid.coords t))) (wd x2 (k0_off5 ((cfgA mI).grid.coords t)) (k0_off5_inb ((cfgA mI).grid.coords t))) 0 (by omega) (iblk mI 0 (1 : Fin 10) t) (iblk mI 0 (5 : Fin 10) t) l q h
          (tblUpd (wd x3 (k0_off4 ((cfgA mI).grid.coords t)) (k0_off4_inb ((cfgA mI).grid.coords t))) (wd x2 (k0_off4 ((cfgA mI).grid.coords t)) (k0_off4_inb ((cfgA mI).grid.coords t))) 150 (by omega) (iblk mI 0 (0 : Fin 10) t) (iblk mI 0 (4 : Fin 10) t) l q h
          (tblUpd (wd x3 (k0_off3 ((cfgA mI).grid.coords t)) (k0_off3_inb ((cfgA mI).grid.coords t))) (wd x2 (k0_off3 ((cfgA mI).grid.coords t)) (k0_off3_inb ((cfgA mI).grid.coords t))) 100 (by omega) (iblk mI 0 (0 : Fin 10) t) (iblk mI 0 (4 : Fin 10) t) l q h
          (tblUpd (wd x3 (k0_off2 ((cfgA mI).grid.coords t)) (k0_off2_inb ((cfgA mI).grid.coords t))) (wd x2 (k0_off2 ((cfgA mI).grid.coords t)) (k0_off2_inb ((cfgA mI).grid.coords t))) 50 (by omega) (iblk mI 0 (0 : Fin 10) t) (iblk mI 0 (4 : Fin 10) t) l q h
          (tblUpd (wd x3 (k0_off1 ((cfgA mI).grid.coords t)) (k0_off1_inb ((cfgA mI).grid.coords t))) (wd x2 (k0_off1 ((cfgA mI).grid.coords t)) (k0_off1_inb ((cfgA mI).grid.coords t))) 0 (by omega) (iblk mI 0 (0 : Fin 10) t) (iblk mI 0 (4 : Fin 10) t) l q h
            0)))))))))))))))
          + (iblk mI 0 (8 : Fin 10) t (ix1 h) : EReal)) 0) :
    View.canon (K mI 0 t).1 (ix4 (0 : Fin 1) l q h)
      = Cert.Spec.G (mI (((0 : Dev nD) : Thread nD τ).loc main_arg0)) (mI (((0 : Dev nD) : Thread nD τ).loc main_arg1))
          (mI (((0 : Dev nD) : Thread nD τ).loc main_arg2)) (mI (((0 : Dev nD) : Thread nD τ).loc main_arg3)) (mI (((0 : Dev nD) : Thread nD τ).loc main_arg4))
          (mI (((0 : Dev nD) : Thread nD τ).loc main_arg5)) (mI (((0 : Dev nD) : Thread nD τ).loc main_arg6)) (mI (((0 : Dev nD) : Thread nD τ).loc main_arg7))
          (ix4 (batchOf t) (rowOf t l) q h) := by
  subst e2 e3
  exact hent_of mI 0 t l q h hK

set_option maxHeartbeats 8000000 in
/-- THE BODY'S PIECE AT AN ENTRY IS THE SPECIFICATION'S VALUE there: at grid point t, row l of the tile, column q, feature
    h, what the body leaves in the result's staging buffer is G at batch t / 5, row 40 (t % 5) + l, column q, feature h. -/
theorem hent (c : Dev nD) (t : Fin (cfgA mI).N) (l : Fin 40) (q : Fin 200) (h : Fin 160) :
    View.canon (K mI c t).1 (ix4 (0 : Fin 1) l q h)
      = Cert.Spec.G (mI ((c : Thread nD τ).loc main_arg0)) (mI ((c : Thread nD τ).loc main_arg1))
          (mI ((c : Thread nD τ).loc main_arg2)) (mI ((c : Thread nD τ).loc main_arg3)) (mI ((c : Thread nD τ).loc main_arg4))
          (mI ((c : Thread nD τ).loc main_arg5)) (mI ((c : Thread nD τ).loc main_arg6)) (mI ((c : Thread nD τ).loc main_arg7))
          (ix4 (batchOf t) (rowOf t l) q h) := by
  obtain rfl : c = 0 := Subsingleton.elim _ _
  exact hent_aux mI t l q h ((adm mI 0).1 0) ((adm mI 0).1 1) (adm_min mI 0) (adm_max mI 0)
    (Cert.KernelIdeal.Body.kernel_entry _ _ _ _ _ _ _ _ _ _ _ _ _ _ _ _ _ _ _ _ _ _ _ _ _ _ _ _ _ _ _ _ _ _ _ _ _ _ _ l q h)

end Cert.KernelIdeal.Frm

end
-- ==== Proof.KernelValue.lean ====
/-
  The kernel's result array as one function of the argument arrays.

  At a grid point the body leaves in the result's staging buffer, at entry (l, q, h), the maximum with zero of the
  bias plus the accumulator's entry; the accumulator's entry is zero updated by the sixty-four guarded one-hot
  products in program order, of which the sixteen for q's own 50-column chunk survive and the guards of the four
  256-row chunks that hold the entry's four table rows are on (the per-tile bounds): four table rows summed
  (ValueInner.lean, ValueChain.lean). The twenty blocks tile the result array (ValueOuter.lean).
-/
import proofs.«408597_j16320875725026_3_alg».proof.Proof.ValueOuter
import proofs.«408597_j16320875725026_3_alg».proof.Proof.ValueChain

noncomputable section

namespace Cert.KernelIdeal.Frm

open Cert.KernelIdeal Cert.KernelIdeal.Gen Cert.KernelIdeal.GenP

open Idealize.ShloMosaic Idealize.ShloMosaic.TcCoe
open Idealize.SL.Sem

variable (mI : (ℓ : Loc nD τ sig) → Buf (Elt Ideal) ℓ)

/-- The result array after the run is `G` of the argument arrays. -/
theorem final (c : Dev nD) :
    (dats mI 0 c).arrAt (9 : Fin 10) (cfgA mI).N = Cert.Spec.G (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (mI ((c : Thread nD τ).loc main_arg7)) :=
  final_of_entry mI c _ (fun t l q h => hent mI c t l q h)

end Cert.KernelIdeal.Frm

end
-- ==== Proof.lean ====
/-
  The five claims of the certificate.

  Both programs compute, for a batch b, positions l and m and a feature h,
      out[b, l, m, h] = max ( Σ_t Σ_k pe_t[row_t, k] · W[160·t + k, h] + bias[h], 0 ),
  row_t the table row the shifted position difference selects (Spec.lean's `G`). The reference reaches it as one
  contraction over the 640 concatenated features (RefValue.lean); the kernel as four rows of the pre-multiplied
  tables, gathered by one-hot products over 256-row chunks that a pair of per-tile bounds may skip (KernelValue.lean).
  The precondition's added conjuncts — every shifted difference non-negative — are what makes the reference's
  index normalisation the identity (PreFacts.lean); finiteness of the float inputs is not used: the two sides are
  re-associations of one sum.
  The frames of the kernel's two printings are one argument at two instances (FrameRun*.lean): the region is launched
  at the bound tables' entry contents, the body run once by the symbolic executor with its sixty-four data-guarded
  updates taken both ways; the reference's frame is its run with the result dropped.
-/
import proofs.«408597_j16320875725026_3_alg».proof.Defs
import proofs.«408597_j16320875725026_3_alg».proof.Proof.Gen.Kernel
import proofs.«408597_j16320875725026_3_alg».proof.Proof.Gen.KernelIdeal
import proofs.«408597_j16320875725026_3_alg».proof.Proof.Gen.ReferenceIdeal
import proofs.«408597_j16320875725026_3_alg».proof.Proof.Gen.Pre_finite_inputs
import proofs.«408597_j16320875725026_3_alg».proof.Proof.PreFacts
import proofs.«408597_j16320875725026_3_alg».proof.Proof.RefValue
import proofs.«408597_j16320875725026_3_alg».proof.Proof.FrameRunKernel
import proofs.«408597_j16320875725026_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel's frame: the hand launch read back at the arguments. -/
theorem frame_k : Cert.frame_Kernel := fun m ρ _ =>
  (θ_run (Cert.Kernel.defs (F := Bits)) _ _).mono (fun _ h c => (h c).2)
    (Cert.Kernel.Frm.frame_of m ρ (Cert.Kernel.Frm.dats m) (Cert.Kernel.Frm.A_eq m) (Cert.Kernel.Frm.run_main m ρ))

/-- The idealized kernel's frame: the same argument at the ideal instance. -/
theorem frame_ki : Cert.frame_KernelIdeal := fun m ρ _ =>
  (θ_run (Cert.KernelIdeal.defs (F := Ideal)) _ _).mono (fun _ h c => (h c).2)
    (Cert.KernelIdeal.Frm.frame_of m ρ (Cert.KernelIdeal.Frm.dats m) (Cert.KernelIdeal.Frm.A_eq m) (Cert.KernelIdeal.Frm.run_main m ρ))

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote nothing. -/
theorem preserves : Cert.preserves_Kernel_KernelIdeal := trivial

/-- Under the precondition every shifted position difference is non-negative, on every core. -/
theorem nonneg_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Nonneg (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  Cert.PreFacts.nonneg_of_pre _ _ _ _ _ _ _ _ (h c)

/-- Both idealized programs end with the one function `G` of the argument arrays. -/
theorem algebraic : Cert.algebraic_KernelIdeal_ReferenceIdeal := by
  intro m ρ m' ρ' hpre hagree
  have hnn := nonneg_of_pre m hpre
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono
      (fun _ h c => ⟨(h c).1.trans (Cert.KernelIdeal.Frm.final m c), (h c).2⟩)
      (Cert.KernelIdeal.Frm.frame_of m ρ (Cert.KernelIdeal.Frm.dats m) (Cert.KernelIdeal.Frm.A_eq m) (Cert.KernelIdeal.Frm.run_main m ρ))
  · refine (θ_run (Cert.ReferenceIdeal.defs (F := Ideal)) _ _).mono (fun _ h c => ⟨(h c).1.trans ?_, (h c).2⟩)
      (Cert.ReferenceIdeal.RefValue.run_G m' ρ' (fun c => by rw [(hagree c).2.2.2.2.2.2.1, (hagree c).2.2.2.2.2.2.2]; exact hnn c))
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
